-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S32768x512 : Shape := ⟨2, ![32768, 512]⟩
abbrev S8192x1024 : Shape := ⟨2, ![8192, 1024]⟩
abbrev S2048x2048 : Shape := ⟨2, ![2048, 2048]⟩
abbrev S131072 : Shape := ⟨1, ![131072]⟩
abbrev S32768 : Shape := ⟨1, ![32768]⟩
abbrev S8192 : Shape := ⟨1, ![8192]⟩
abbrev S2048 : Shape := ⟨1, ![2048]⟩
abbrev S1024x3072 : Shape := ⟨2, ![1024, 3072]⟩
abbrev S1024 : Shape := ⟨1, ![1024]⟩
abbrev S512x1536 : Shape := ⟨2, ![512, 1536]⟩
abbrev S512 : Shape := ⟨1, ![512]⟩
abbrev S256x768 : Shape := ⟨2, ![256, 768]⟩
abbrev S256 : Shape := ⟨1, ![256]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S32768x512 : S_.BroadcastsInDim S32768x512 (![] : Fin 0 → Fin S32768x512.rank)
  reducesTo_S32768x512_S_d0_1 : S32768x512.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S1024x3072 : S_.BroadcastsInDim S1024x3072 (![] : Fin 0 → Fin S1024x3072.rank)
  reducesTo_S1024x3072_S_d0_1 : S1024x3072.ReducesTo [0, 1] S_
  bcast_S_S1024 : S_.BroadcastsInDim S1024 (![] : Fin 0 → Fin S1024.rank)
  reducesTo_S1024_S_d0 : S1024.ReducesTo [0] S_
  bcast_S_S512x1536 : S_.BroadcastsInDim S512x1536 (![] : Fin 0 → Fin S512x1536.rank)
  reducesTo_S512x1536_S_d0_1 : S512x1536.ReducesTo [0, 1] S_
  bcast_S_S512 : S_.BroadcastsInDim S512 (![] : Fin 0 → Fin S512.rank)
  reducesTo_S512_S_d0 : S512.ReducesTo [0] S_
  bcast_S_S256x768 : S_.BroadcastsInDim S256x768 (![] : Fin 0 → Fin S256x768.rank)
  reducesTo_S256x768_S_d0_1 : S256x768.ReducesTo [0, 1] S_
  bcast_S_S256 : S_.BroadcastsInDim S256 (![] : Fin 0 → Fin S256.rank)
  reducesTo_S256_S_d0 : S256.ReducesTo [0] S_

variable [Facts]

def fn_part4 {F : FTy → Type} [FloatOps F] (main_arg17 : FVec F S256x768 .f32) (main_arg18 : FVec F S256 .f32) (main_v63 : IVec S_ 1) (main_v67 : IVec S_ 1) : IVec S_ 1 :=
  let main_v68 : IVec S_ 1 := andi main_v63 main_v67
  let main_v69 : FVec F S256x768 .f32 := Host.absf main_arg17
  let main_cst_26 : FVec F S_ .f32 := constant S_ .f32 0x7F800000#32
  let main_v70 : FVec F S256x768 .f32 := broadcastInDim S256x768 ![] bcast_S_S256x768 main_cst_26
  let main_v71 : IVec S256x768 1 := cmpf .olt main_v69 main_v70
  let main_c_27 : IVec S_ 1 := constantI S_ 1 1#1
  let main_v72 : IVec S_ 1 := (fun x v => Host.reduce IntOp.andi x v reducesTo_S256x768_S_d0_1 h_S_) main_v71 main_c_27
  let main_v73 : IVec S_ 1 := andi main_v68 main_v72
  let main_v74 : FVec F S256 .f32 := Host.absf main_arg18
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  main_v78

def fn_part3 {F : FTy → Type} [FloatOps F] (main_arg14 : FVec F S512 .f32) (main_arg15 : FVec F S512 .f32) (main_arg16 : FVec F S512 .f32) (main_arg17 : FVec F S256x768 .f32) (main_arg18 : FVec F S256 .f32) (main_v48 : IVec S_ 1) (main_v49 : FVec F S512x1536 .f32) (main_v50 : FVec F S512x1536 .f32) : IVec S_ 1 :=
  let main_v51 : IVec S512x1536 1 := cmpf .olt main_v49 main_v50
  let main_c_19 : IVec S_ 1 := constantI S_ 1 1#1
  let main_v52 : IVec S_ 1 := (fun x v => Host.reduce IntOp.andi x v reducesTo_S512x1536_S_d0_1 h_S_) main_v51 main_c_19
  let main_v53 : IVec S_ 1 := andi main_v48 main_v52
  let main_v54 : FVec F S512 .f32 := Host.absf main_arg14
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512 .f32 := Host.absf main_arg15
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512 .f32 := Host.absf main_arg16
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg17 main_arg18 main_v63 main_v67

def fn_part2 {F : FTy → Type} [FloatOps F] (main_arg10 : FVec F S1024 .f32) (main_arg11 : FVec F S1024 .f32) (main_arg12 : FVec F S1024 .f32) (main_arg13 : FVec F S512x1536 .f32) (main_arg14 : FVec F S512 .f32) (main_arg15 : FVec F S512 .f32) (main_arg16 : FVec F S512 .f32) (main_arg17 : FVec F S256x768 .f32) (main_arg18 : FVec F S256 .f32) (main_v33 : IVec S_ 1) : IVec S_ 1 :=
  let main_v34 : FVec F S1024 .f32 := Host.absf main_arg10
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg11
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg12
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S512x1536 .f32 := Host.absf main_arg13
  let main_cst_18 : FVec F S_ .f32 := constant S_ .f32 0x7F800000#32
  let main_v50 : FVec F S512x1536 .f32 := broadcastInDim S512x1536 ![] bcast_S_S512x1536 main_cst_18
  fn_part3 (F := F) main_arg14 main_arg15 main_arg16 main_arg17 main_arg18 main_v48 main_v49 main_v50

def fn_part1 {F : FTy → Type} [FloatOps F] (main_arg7 : FVec F S2048x2048 .f32) (main_arg8 : FVec F S2048 .f32) (main_arg9 : FVec F S1024x3072 .f32) (main_arg10 : FVec F S1024 .f32) (main_arg11 : FVec F S1024 .f32) (main_arg12 : FVec F S1024 .f32) (main_arg13 : FVec F S512x1536 .f32) (main_arg14 : FVec F S512 .f32) (main_arg15 : FVec F S512 .f32) (main_arg16 : FVec F S512 .f32) (main_arg17 : FVec F S256x768 .f32) (main_arg18 : FVec F S256 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x2048 .f32 := Host.absf main_arg7
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048 .f32 := Host.absf main_arg8
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S1024x3072 .f32 := Host.absf main_arg9
  let main_cst_10 : FVec F S_ .f32 := constant S_ .f32 0x7F800000#32
  let main_v30 : FVec F S1024x3072 .f32 := broadcastInDim S1024x3072 ![] bcast_S_S1024x3072 main_cst_10
  let main_v31 : IVec S1024x3072 1 := cmpf .olt main_v29 main_v30
  let main_c_11 : IVec S_ 1 := constantI S_ 1 1#1
  let main_v32 : IVec S_ 1 := (fun x v => Host.reduce IntOp.andi x v reducesTo_S1024x3072_S_d0_1 h_S_) main_v31 main_c_11
  let main_v33 : IVec S_ 1 := andi main_v28 main_v32
  fn_part2 (F := F) main_arg10 main_arg11 main_arg12 main_arg13 main_arg14 main_arg15 main_arg16 main_arg17 main_arg18 main_v33

def fn {F : FTy → Type} [FloatOps F] (main_arg0 : FVec F S131072x256 .f32) (main_arg1 : FVec F S32768x512 .f32) (main_arg2 : FVec F S8192x1024 .f32) (main_arg3 : FVec F S2048x2048 .f32) (main_arg4 : IVec S131072 32) (main_arg5 : IVec S32768 32) (main_arg6 : IVec S8192 32) (main_arg7 : FVec F S2048x2048 .f32) (main_arg8 : FVec F S2048 .f32) (main_arg9 : FVec F S1024x3072 .f32) (main_arg10 : FVec F S1024 .f32) (main_arg11 : FVec F S1024 .f32) (main_arg12 : FVec F S1024 .f32) (main_arg13 : FVec F S512x1536 .f32) (main_arg14 : FVec F S512 .f32) (main_arg15 : FVec F S512 .f32) (main_arg16 : FVec F S512 .f32) (main_arg17 : FVec F S256x768 .f32) (main_arg18 : FVec F S256 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S32768x512 .f32 := Host.absf main_arg1
  let main_cst_0 : FVec F S_ .f32 := constant S_ .f32 0x7F800000#32
  let main_v5 : FVec F S32768x512 .f32 := broadcastInDim S32768x512 ![] bcast_S_S32768x512 main_cst_0
  let main_v6 : IVec S32768x512 1 := cmpf .olt main_v4 main_v5
  let main_c_1 : IVec S_ 1 := constantI S_ 1 1#1
  let main_v7 : IVec S_ 1 := (fun x v => Host.reduce IntOp.andi x v reducesTo_S32768x512_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg7 main_arg8 main_arg9 main_arg10 main_arg11 main_arg12 main_arg13 main_arg14 main_arg15 main_arg16 main_arg17 main_arg18 main_v13 main_v16
-- ==== Kernel.lean ====
abbrev S131072x256 : Shape := ⟨2, ![131072, 256]⟩
abbrev S32768x512 : Shape := ⟨2, ![32768, 512]⟩
abbrev S8192x1024 : Shape := ⟨2, ![8192, 1024]⟩
abbrev S2048x2048 : Shape := ⟨2, ![2048, 2048]⟩
abbrev S131072 : Shape := ⟨1, ![131072]⟩
abbrev S32768 : Shape := ⟨1, ![32768]⟩
abbrev S8192 : Shape := ⟨1, ![8192]⟩
abbrev S2048 : Shape := ⟨1, ![2048]⟩
abbrev S1024x3072 : Shape := ⟨2, ![1024, 3072]⟩
abbrev S1024 : Shape := ⟨1, ![1024]⟩
abbrev S512x1536 : Shape := ⟨2, ![512, 1536]⟩
abbrev S512 : Shape := ⟨1, ![512]⟩
abbrev S256x768 : Shape := ⟨2, ![256, 768]⟩
abbrev S256 : Shape := ⟨1, ![256]⟩
abbrev S1x2048 : Shape := ⟨2, ![1, 2048]⟩
abbrev S256x2048 : Shape := ⟨2, ![256, 2048]⟩
abbrev S_ : Shape := ⟨0, ![]⟩
abbrev S8192x1 : Shape := ⟨2, ![8192, 1]⟩
abbrev S8192x2048 : Shape := ⟨2, ![8192, 2048]⟩
abbrev S8192x3072 : Shape := ⟨2, ![8192, 3072]⟩
abbrev S1x1024 : Shape := ⟨2, ![1, 1024]⟩
abbrev S256x3072 : Shape := ⟨2, ![256, 3072]⟩
abbrev S256x1024 : Shape := ⟨2, ![256, 1024]⟩
abbrev S32x32 : Shape := ⟨2, ![32, 32]⟩
abbrev S32 : Shape := ⟨1, ![32]⟩
abbrev S1024x1024 : Shape := ⟨2, ![1024, 1024]⟩
abbrev S32768x1 : Shape := ⟨2, ![32768, 1]⟩
abbrev S32768x1024 : Shape := ⟨2, ![32768, 1024]⟩
abbrev S32768x1536 : Shape := ⟨2, ![32768, 1536]⟩
abbrev S1x512 : Shape := ⟨2, ![1, 512]⟩
abbrev S1024x1536 : Shape := ⟨2, ![1024, 1536]⟩
abbrev S1024x512 : Shape := ⟨2, ![1024, 512]⟩
abbrev S32x16 : Shape := ⟨2, ![32, 16]⟩
abbrev S2048x512 : Shape := ⟨2, ![2048, 512]⟩
abbrev S131072x1 : Shape := ⟨2, ![131072, 1]⟩
abbrev S131072x512 : Shape := ⟨2, ![131072, 512]⟩
abbrev S131072x768 : Shape := ⟨2, ![131072, 768]⟩
abbrev S1x256 : Shape := ⟨2, ![1, 256]⟩
abbrev S2048x768 : Shape := ⟨2, ![2048, 768]⟩
abbrev S2048x256 : Shape := ⟨2, ![2048, 256]⟩

abbrev nBuf : Space → Nat
  | .hbm => 127
  | .vmem => 40
  | .smem => 0
  | _ => 0

abbrev bufTy : (tb : Table) → Fin (tcTables nBuf tb) → BufTy
  | .hbm, ⟨0, _⟩ => ⟨S131072x256, .f32⟩
  | .hbm, ⟨1, _⟩ => ⟨S32768x512, .f32⟩
  | .hbm, ⟨2, _⟩ => ⟨S8192x1024, .f32⟩
  | .hbm, ⟨3, _⟩ => ⟨S2048x2048, .f32⟩
  | .hbm, ⟨4, _⟩ => ⟨S131072, .i32⟩
  | .hbm, ⟨5, _⟩ => ⟨S32768, .i32⟩
  | .hbm, ⟨6, _⟩ => ⟨S8192, .i32⟩
  | .hbm, ⟨7, _⟩ => ⟨S2048x2048, .f32⟩
  | .hbm, ⟨8, _⟩ => ⟨S2048, .f32⟩
  | .hbm, ⟨9, _⟩ => ⟨S1024x3072, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S512x1536, .f32⟩
  | .hbm, ⟨14, _⟩ => ⟨S512, .f32⟩
  | .hbm, ⟨15, _⟩ => ⟨S512, .f32⟩
  | .hbm, ⟨16, _⟩ => ⟨S512, .f32⟩
  | .hbm, ⟨17, _⟩ => ⟨S256x768, .f32⟩
  | .hbm, ⟨18, _⟩ => ⟨S256, .f32⟩
  | .hbm, ⟨19, _⟩ => ⟨S1x2048, .f32⟩
  | .hbm, ⟨20, _⟩ => ⟨S2048x2048, .f32⟩
  | .hbm, ⟨21, _⟩ => ⟨S_, .i32⟩
  | .hbm, ⟨22, _⟩ => ⟨S8192, .i32⟩
  | .hbm, ⟨23, _⟩ => ⟨S8192, .i1⟩
  | .hbm, ⟨24, _⟩ => ⟨S_, .i32⟩
  | .hbm, ⟨25, _⟩ => ⟨S8192, .i32⟩
  | .hbm, ⟨26, _⟩ => ⟨S8192, .i32⟩
  | .hbm, ⟨27, _⟩ => ⟨S8192, .i32⟩
  | .hbm, ⟨28, _⟩ => ⟨S8192x1, .i32⟩
  | .hbm, ⟨29, _⟩ => ⟨S8192x2048, .f32⟩
  | .hbm, ⟨30, _⟩ => ⟨S8192x3072, .f32⟩
  | .hbm, ⟨31, _⟩ => ⟨S1x1024, .f32⟩
  | .hbm, ⟨32, _⟩ => ⟨S8192x1024, .f32⟩
  | .hbm, ⟨33, _⟩ => ⟨S1x1024, .f32⟩
  | .hbm, ⟨34, _⟩ => ⟨S1x1024, .f32⟩
  | .hbm, ⟨35, _⟩ => ⟨S1024, .f32⟩
  | .hbm, ⟨36, _⟩ => ⟨S1024, .f32⟩
  | .hbm, ⟨37, _⟩ => ⟨S32x32, .f32⟩
  | .hbm, ⟨38, _⟩ => ⟨S_, .f32⟩
  | .hbm, ⟨39, _⟩ => ⟨S32, .f32⟩
  | .hbm, ⟨40, _⟩ => ⟨S32x32, .f32⟩
  | .hbm, ⟨41, _⟩ => ⟨S_, .f32⟩
  | .hbm, ⟨42, _⟩ => ⟨S32, .f32⟩
  | .hbm, ⟨43, _⟩ => ⟨S_, .f32⟩
  | .hbm, ⟨44, _⟩ => ⟨S32, .f32⟩
  | .hbm, ⟨45, _⟩ => ⟨S32, .f32⟩
  | .hbm, ⟨46, _⟩ => ⟨S_, .f32⟩
  | .hbm, ⟨47, _⟩ => ⟨S32, .f32⟩
  | .hbm, ⟨48, _⟩ => ⟨S32, .f32⟩
  | .hbm, ⟨49, _⟩ => ⟨S32, .f32⟩
  | .hbm, ⟨50, _⟩ => ⟨S32, .f32⟩
  | .hbm, ⟨51, _⟩ => ⟨S_, .f32⟩
  | .hbm, ⟨52, _⟩ => ⟨S32, .f32⟩
  | .hbm, ⟨53, _⟩ => ⟨S32, .f32⟩
  | .hbm, ⟨54, _⟩ => ⟨S32, .f32⟩
  | .hbm, ⟨55, _⟩ => ⟨S_, .f32⟩
  | .hbm, ⟨56, _⟩ => ⟨S32, .f32⟩
  | .hbm, ⟨57, _⟩ => ⟨S32, .f32⟩
  | .hbm, ⟨58, _⟩ => ⟨S32x32, .f32⟩
  | .hbm, ⟨59, _⟩ => ⟨S1024, .f32⟩
  | .hbm, ⟨60, _⟩ => ⟨S32x32, .f32⟩
  | .hbm, ⟨61, _⟩ => ⟨S1024, .f32⟩
  | .hbm, ⟨62, _⟩ => ⟨S1024, .f32⟩
  | .hbm, ⟨63, _⟩ => ⟨S1024, .f32⟩
  | .hbm, ⟨64, _⟩ => ⟨S1024, .f32⟩
  | .hbm, ⟨65, _⟩ => ⟨S1x1024, .f32⟩
  | .hbm, ⟨66, _⟩ => ⟨S1x1024, .f32⟩
  | .hbm, ⟨67, _⟩ => ⟨S8192x1024, .f32⟩
  | .hbm, ⟨68, _⟩ => ⟨S_, .i32⟩
  | .hbm, ⟨69, _⟩ => ⟨S32768, .i32⟩
  | .hbm, ⟨70, _⟩ => ⟨S32768, .i1⟩
  | .hbm, ⟨71, _⟩ => ⟨S_, .i32⟩
  | .hbm, ⟨72, _⟩ => ⟨S32768, .i32⟩
  | .hbm, ⟨73, _⟩ => ⟨S32768, .i32⟩
  | .hbm, ⟨74, _⟩ => ⟨S32768, .i32⟩
  | .hbm, ⟨75, _⟩ => ⟨S32768x1, .i32⟩
  | .hbm, ⟨76, _⟩ => ⟨S32768x1024, .f32⟩
  | .hbm, ⟨77, _⟩ => ⟨S32768x1536, .f32⟩
  | .hbm, ⟨78, _⟩ => ⟨S1x512, .f32⟩
  | .hbm, ⟨79, _⟩ => ⟨S32768x512, .f32⟩
  | .hbm, ⟨80, _⟩ => ⟨S1x512, .f32⟩
  | .hbm, ⟨81, _⟩ => ⟨S1x512, .f32⟩
  | .hbm, ⟨82, _⟩ => ⟨S512, .f32⟩
  | .hbm, ⟨83, _⟩ => ⟨S512, .f32⟩
  | .hbm, ⟨84, _⟩ => ⟨S32x16, .f32⟩
  | .hbm, ⟨85, _⟩ => ⟨S_, .f32⟩
  | .hbm, ⟨86, _⟩ => ⟨S32, .f32⟩
  | .hbm, ⟨87, _⟩ => ⟨S32x16, .f32⟩
  | .hbm, ⟨88, _⟩ => ⟨S_, .f32⟩
  | .hbm, ⟨89, _⟩ => ⟨S32, .f32⟩
  | .hbm, ⟨90, _⟩ => ⟨S_, .f32⟩
  | .hbm, ⟨91, _⟩ => ⟨S32, .f32⟩
  | .hbm, ⟨92, _⟩ => ⟨S32, .f32⟩
  | .hbm, ⟨93, _⟩ => ⟨S_, .f32⟩
  | .hbm, ⟨94, _⟩ => ⟨S32, .f32⟩
  | .hbm, ⟨95, _⟩ => ⟨S32, .f32⟩
  | .hbm, ⟨96, _⟩ => ⟨S32, .f32⟩
  | .hbm, ⟨97, _⟩ => ⟨S32, .f32⟩
  | .hbm, ⟨98, _⟩ => ⟨S_, .f32⟩
  | .hbm, ⟨99, _⟩ => ⟨S32, .f32⟩
  | .hbm, ⟨100, _⟩ => ⟨S32, .f32⟩
  | .hbm, ⟨101, _⟩ => ⟨S32, .f32⟩
  | .hbm, ⟨102, _⟩ => ⟨S_, .f32⟩
  | .hbm, ⟨103, _⟩ => ⟨S32, .f32⟩
  | .hbm, ⟨104, _⟩ => ⟨S32, .f32⟩
  | .hbm, ⟨105, _⟩ => ⟨S32x16, .f32⟩
  | .hbm, ⟨106, _⟩ => ⟨S512, .f32⟩
  | .hbm, ⟨107, _⟩ => ⟨S32x16, .f32⟩
  | .hbm, ⟨108, _⟩ => ⟨S512, .f32⟩
  | .hbm, ⟨109, _⟩ => ⟨S512, .f32⟩
  | .hbm, ⟨110, _⟩ => ⟨S512, .f32⟩
  | .hbm, ⟨111, _⟩ => ⟨S512, .f32⟩
  | .hbm, ⟨112, _⟩ => ⟨S1x512, .f32⟩
  | .hbm, ⟨113, _⟩ => ⟨S1x512, .f32⟩
  | .hbm, ⟨114, _⟩ => ⟨S32768x512, .f32⟩
  | .hbm, ⟨115, _⟩ => ⟨S_, .i32⟩
  | .hbm, ⟨116, _⟩ => ⟨S131072, .i32⟩
  | .hbm, ⟨117, _⟩ => ⟨S131072, .i1⟩
  | .hbm, ⟨118, _⟩ => ⟨S_, .i32⟩
  | .hbm, ⟨119, _⟩ => ⟨S131072, .i32⟩
  | .hbm, ⟨120, _⟩ => ⟨S131072, .i32⟩
  | .hbm, ⟨121, _⟩ => ⟨S131072, .i32⟩
  | .hbm, ⟨122, _⟩ => ⟨S131072x1, .i32⟩
  | .hbm, ⟨123, _⟩ => ⟨S131072x512, .f32⟩
  | .hbm, ⟨124, _⟩ => ⟨S131072x768, .f32⟩
  | .hbm, ⟨125, _⟩ => ⟨S1x256, .f32⟩
  | .hbm, ⟨126, _⟩ => ⟨S131072x256, .f32⟩
  | .local _ .vmem, ⟨0, _⟩ => ⟨S256x2048, .f32⟩
  | .local _ .vmem, ⟨1, _⟩ => ⟨S256x2048, .f32⟩
  | .local _ .vmem, ⟨2, _⟩ => ⟨S2048x2048, .f32⟩
  | .local _ .vmem, ⟨3, _⟩ => ⟨S1x2048, .f32⟩
  | .local _ .vmem, ⟨4, _⟩ => ⟨S256x2048, .f32⟩
  | .local _ .vmem, ⟨5, _⟩ => ⟨S256x2048, .f32⟩
  | .local _ .vmem, ⟨6, _⟩ => ⟨S256x3072, .f32⟩
  | .local _ .vmem, ⟨7, _⟩ => ⟨S256x3072, .f32⟩
  | .local _ .vmem, ⟨8, _⟩ => ⟨S1024x3072, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | .local _ .vmem, ⟨16, _⟩ => ⟨S1x1024, .f32⟩
  | .local _ .vmem, ⟨17, _⟩ => ⟨S1x1024, .f32⟩
  | .local _ .vmem, ⟨18, _⟩ => ⟨S1024x1024, .f32⟩
  | .local _ .vmem, ⟨19, _⟩ => ⟨S1024x1024, .f32⟩
  | .local _ .vmem, ⟨20, _⟩ => ⟨S1024x1536, .f32⟩
  | .local _ .vmem, ⟨21, _⟩ => ⟨S1024x1536, .f32⟩
  | .local _ .vmem, ⟨22, _⟩ => ⟨S512x1536, .f32⟩
  | .local _ .vmem, ⟨23, _⟩ => ⟨S1x512, .f32⟩
  | .local _ .vmem, ⟨24, _⟩ => ⟨S1024x512, .f32⟩
  | .local _ .vmem, ⟨25, _⟩ => ⟨S1024x512, .f32⟩
  | .local _ .vmem, ⟨26, _⟩ => ⟨S1x512, .f32⟩
  | .local _ .vmem, ⟨27, _⟩ => ⟨S1x512, .f32⟩
  | .local _ .vmem, ⟨28, _⟩ => ⟨S2048x512, .f32⟩
  | .local _ .vmem, ⟨29, _⟩ => ⟨S2048x512, .f32⟩
  | .local _ .vmem, ⟨30, _⟩ => ⟨S1x512, .f32⟩
  | .local _ .vmem, ⟨31, _⟩ => ⟨S1x512, .f32⟩
  | .local _ .vmem, ⟨32, _⟩ => ⟨S2048x512, .f32⟩
  | .local _ .vmem, ⟨33, _⟩ => ⟨S2048x512, .f32⟩
  | .local _ .vmem, ⟨34, _⟩ => ⟨S2048x768, .f32⟩
  | .local _ .vmem, ⟨35, _⟩ => ⟨S2048x768, .f32⟩
  | .local _ .vmem, ⟨36, _⟩ => ⟨S256x768, .f32⟩
  | .local _ .vmem, ⟨37, _⟩ => ⟨S1x256, .f32⟩
  | .local _ .vmem, ⟨38, _⟩ => ⟨S2048x256, .f32⟩
  | .local _ .vmem, ⟨39, _⟩ => ⟨S2048x256, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_c : Ref sig .tc := ⟨.hbm, 21, rfl⟩
abbrev main_v2 : Ref sig .tc := ⟨.hbm, 22, rfl⟩
abbrev main_v3 : Ref sig .tc := ⟨.hbm, 23, rfl⟩
abbrev main_c_0 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11_0 : Ref sig .tc := ⟨.hbm, 32, rfl⟩
abbrev main_v11_1 : Ref sig .tc := ⟨.hbm, 33, rfl⟩
abbrev main_v11_2 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_cst : Ref sig .tc := ⟨.hbm, 38, rfl⟩
abbrev main_v15 : Ref sig .tc := ⟨.hbm, 39, rfl⟩
abbrev main_v16 : Ref sig .tc := ⟨.hbm, 40, rfl⟩
abbrev main_cst_1 : Ref sig .tc := ⟨.hbm, 41, rfl⟩
abbrev main_v17 : Ref sig .tc := ⟨.hbm, 42, rfl⟩
abbrev main_cst_2 : Ref sig .tc := ⟨.hbm, 43, rfl⟩
abbrev main_v18 : Ref sig .tc := ⟨.hbm, 44, rfl⟩
abbrev main_v19 : Ref sig .tc := ⟨.hbm, 45, rfl⟩
abbrev main_cst_3 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_4 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_cst_5 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_c_6 : Ref sig .tc := ⟨.hbm, 68, rfl⟩
abbrev main_v39 : Ref sig .tc := ⟨.hbm, 69, rfl⟩
abbrev main_v40 : Ref sig .tc := ⟨.hbm, 70, rfl⟩
abbrev main_c_7 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48_0 : Ref sig .tc := ⟨.hbm, 79, rfl⟩
abbrev main_v48_1 : Ref sig .tc := ⟨.hbm, 80, rfl⟩
abbrev main_v48_2 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_8 : Ref sig .tc := ⟨.hbm, 85, rfl⟩
abbrev main_v52 : Ref sig .tc := ⟨.hbm, 86, rfl⟩
abbrev main_v53 : Ref sig .tc := ⟨.hbm, 87, rfl⟩
abbrev main_cst_9 : Ref sig .tc := ⟨.hbm, 88, rfl⟩
abbrev main_v54 : Ref sig .tc := ⟨.hbm, 89, rfl⟩
abbrev main_cst_10 : Ref sig .tc := ⟨.hbm, 90, rfl⟩
abbrev main_v55 : Ref sig .tc := ⟨.hbm, 91, rfl⟩
abbrev main_v56 : Ref sig .tc := ⟨.hbm, 92, rfl⟩
abbrev main_cst_11 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_cst_12 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_cst_13 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_c_14 : Ref sig .tc := ⟨.hbm, 115, rfl⟩
abbrev main_v76 : Ref sig .tc := ⟨.hbm, 116, rfl⟩
abbrev main_v77 : Ref sig .tc := ⟨.hbm, 117, rfl⟩
abbrev main_c_15 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg5_0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg5_0 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg3_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem5_0 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem3_1 : DmaSem sig := 25
abbrev cc3_sem4_0 : DmaSem sig := 26
abbrev cc3_sem5_0 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33
abbrev cc5_sem0_0 : DmaSem sig := 34
abbrev cc5_sem0_1 : DmaSem sig := 35
abbrev cc5_sem1_0 : DmaSem sig := 36
abbrev cc5_sem2_0 : DmaSem sig := 37
abbrev cc5_sem3_0 : DmaSem sig := 38
abbrev cc5_sem3_1 : DmaSem sig := 39

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x3072 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x3072 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S1024x1536 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S512x1536 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1024x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x512 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x512 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2048x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2048x512 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![64], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2048x768 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S256x768 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2048x256 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  shapeCasts_S2048_S1x2048 : S2048.ShapeCasts S1x2048
  inb_S256x2048_S256x2048_0_0 : ∀ a, (![0, 0] : Fin 2 → Nat) a + S256x2048.size a ≤ S256x2048.size a
  h_S256x2048 : 0 < S256x2048.numel
  bitsLt_bf16_f32 : FTy.bits .bf16 < FTy.bits .f32
  inb_S2048x2048_S2048x2048_0_0 : ∀ a, (![0, 0] : Fin 2 → Nat) a + S2048x2048.size a ≤ S2048x2048.size a
  h_S2048x2048 : 0 < S2048x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  bcast_S_S8192 : S_.BroadcastsInDim S8192 (![] : Fin 0 → Fin S8192.rank)
  bcast_S8192_S8192x1_0 : S8192.BroadcastsInDim S8192x1 (![0] : Fin 1 → Fin S8192x1.rank)
  concatenates_S8192x2048_S8192x1024_S8192x3072_d1 : Shape.Concatenates [S8192x2048, S8192x1024] S8192x3072 1
  shapeCasts_S1024_S1x1024 : S1024.ShapeCasts S1x1024
  inb_S1x1024_S1x1024_0_0 : ∀ a, (![0, 0] : Fin 2 → Nat) a + S1x1024.size a ≤ S1x1024.size a
  h_S1x1024 : 0 < S1x1024.numel
  inb_S256x3072_S256x3072_0_0 : ∀ a, (![0, 0] : Fin 2 → Nat) a + S256x3072.size a ≤ S256x3072.size a
  h_S256x3072 : 0 < S256x3072.numel
  shapeCasts_S256x3072_S256x3072 : S256x3072.ShapeCasts S256x3072
  inb_S1024x3072_S1024x3072_0_0 : ∀ a, (![0, 0] : Fin 2 → Nat) a + S1024x3072.size a ≤ S1024x3072.size a
  h_S1024x3072 : 0 < S1024x3072.numel
  shapeCasts_S1x1024_S1x1024 : S1x1024.ShapeCasts S1x1024
  broadcasts_S1x1024_S256x1024 : S1x1024.Broadcasts S256x1024
  inb_S256x1024_S256x1024_0_0 : ∀ a, (![0, 0] : Fin 2 → Nat) a + S256x1024.size a ≤ S256x1024.size a
  h_S256x1024 : 0 < S256x1024.numel
  reduces_S256x1024_S1024 : S256x1024.Reduces [0] S1024
  shapeCasts_S1x1024_S1024 : S1x1024.ShapeCasts S1024
  shapeCasts_S1024_S32x32 : S1024.ShapeCasts S32x32
  reducesTo_S32x32_S32_d1 : S32x32.ReducesTo [1] S32
  h_S_ : 0 < S_.numel
  bcast_S_S32 : S_.BroadcastsInDim S32 (![] : Fin 0 → Fin S32.rank)
  bcast_S32_S32x32_0 : S32.BroadcastsInDim S32x32 (![0] : Fin 1 → Fin S32x32.rank)
  shapeCasts_S32x32_S1024 : S32x32.ShapeCasts S1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  broadcasts_S1x1024_S1024x1024 : S1x1024.Broadcasts S1024x1024
  bcast_S_S32768 : S_.BroadcastsInDim S32768 (![] : Fin 0 → Fin S32768.rank)
  bcast_S32768_S32768x1_0 : S32768.BroadcastsInDim S32768x1 (![0] : Fin 1 → Fin S32768x1.rank)
  concatenates_S32768x1024_S32768x512_S32768x1536_d1 : Shape.Concatenates [S32768x1024, S32768x512] S32768x1536 1
  shapeCasts_S512_S1x512 : S512.ShapeCasts S1x512
  inb_S1x512_S1x512_0_0 : ∀ a, (![0, 0] : Fin 2 → Nat) a + S1x512.size a ≤ S1x512.size a
  h_S1x512 : 0 < S1x512.numel
  inb_S1024x1536_S1024x1536_0_0 : ∀ a, (![0, 0] : Fin 2 → Nat) a + S1024x1536.size a ≤ S1024x1536.size a
  h_S1024x1536 : 0 < S1024x1536.numel
  shapeCasts_S1024x1536_S1024x1536 : S1024x1536.ShapeCasts S1024x1536
  inb_S512x1536_S512x1536_0_0 : ∀ a, (![0, 0] : Fin 2 → Nat) a + S512x1536.size a ≤ S512x1536.size a
  h_S512x1536 : 0 < S512x1536.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  reduces_S1024x512_S512 : S1024x512.Reduces [0] S512
  shapeCasts_S1x512_S512 : S1x512.ShapeCasts S512
  shapeCasts_S512_S32x16 : S512.ShapeCasts S32x16
  reducesTo_S32x16_S32_d1 : S32x16.ReducesTo [1] S32
  bcast_S32_S32x16_0 : S32.BroadcastsInDim S32x16 (![0] : Fin 1 → Fin S32x16.rank)
  shapeCasts_S32x16_S512 : S32x16.ShapeCasts S512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  broadcasts_S1x512_S2048x512 : S1x512.Broadcasts S2048x512
  bcast_S_S131072 : S_.BroadcastsInDim S131072 (![] : Fin 0 → Fin S131072.rank)
  bcast_S131072_S131072x1_0 : S131072.BroadcastsInDim S131072x1 (![0] : Fin 1 → Fin S131072x1.rank)
  concatenates_S131072x512_S131072x256_S131072x768_d1 : Shape.Concatenates [S131072x512, S131072x256] S131072x768 1
  shapeCasts_S256_S1x256 : S256.ShapeCasts S1x256
  inb_S2048x768_S2048x768_0_0 : ∀ a, (![0, 0] : Fin 2 → Nat) a + S2048x768.size a ≤ S2048x768.size a
  h_S2048x768 : 0 < S2048x768.numel
  shapeCasts_S2048x768_S2048x768 : S2048x768.ShapeCasts S2048x768
  inb_S256x768_S256x768_0_0 : ∀ a, (![0, 0] : Fin 2 → Nat) a + S256x768.size a ≤ S256x768.size a
  h_S256x768 : 0 < S256x768.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  dot_S256x2048_S2048x2048_S256x2048_1_1_0_0_n_n_wf : DotDims.WF S256x2048 S2048x2048 S256x2048 [1] [1] [0] [0] [] []
  gather_S2048x2048_S8192x1_S8192x2048_1_0_n_n_0_1_12048_wf : GatherDims.WF S2048x2048 S8192x1 S8192x2048 [1] [0] [] [0] [] 1 ![1, 2048]
  dot_S256x3072_S1024x3072_S256x1024_1_1_0_0_n_n_wf : DotDims.WF S256x3072 S1024x3072 S256x1024 [1] [1] [0] [0] [] []
  gather_S8192x1024_S32768x1_S32768x1024_1_0_n_n_0_1_11024_wf : GatherDims.WF S8192x1024 S32768x1 S32768x1024 [1] [0] [] [0] [] 1 ![1, 1024]
  dot_S1024x1536_S512x1536_S1024x512_1_1_0_0_n_n_wf : DotDims.WF S1024x1536 S512x1536 S1024x512 [1] [1] [0] [0] [] []
  gather_S32768x512_S131072x1_S131072x512_1_0_n_n_0_1_1512_wf : GatherDims.WF S32768x512 S131072x1 S131072x512 [1] [0] [] [0] [] 1 ![1, 512]
  dot_S2048x768_S256x768_S2048x256_1_1_0_0_n_n_wf : DotDims.WF S2048x768 S256x768 S2048x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S2048x2048.size a
  hwx0_0 : ∀ i : grid0.Coords, EltTy.bits .f32 = 32 ∨ (Rect.block (s := S2048x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .f32 = 32 ∨ (Rect.block (s := S2048x2048) S2048x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S2048x2048.size a
  hwx0_3 : ∀ i : grid0.Coords, EltTy.bits .f32 = 32 ∨ (Rect.block (s := S2048x2048) S256x2048.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x3072.size a ≤ S8192x3072.size a
  hwx1_0 : ∀ i : grid1.Coords, EltTy.bits .f32 = 32 ∨ (Rect.block (s := S8192x3072) S256x3072.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x3072.size a ≤ S1024x3072.size a
  hwx1_1 : ∀ i : grid1.Coords, EltTy.bits .f32 = 32 ∨ (Rect.block (s := S1024x3072) S1024x3072.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x1024.size a ≤ S8192x1024.size a
  hwx1_3 : ∀ i : grid1.Coords, EltTy.bits .f32 = 32 ∨ (Rect.block (s := S8192x1024) S256x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x1024.size a
  hwx1_5 : ∀ i : grid1.Coords, EltTy.bits .f32 = 32 ∨ (Rect.block (s := S1x1024) S1x1024.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .f32 = 32 ∨ (Rect.block (s := S8192x1024) S1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x1024.size a ≤ S1x1024.size a
  hwx2_1 : ∀ i : grid2.Coords, EltTy.bits .f32 = 32 ∨ (Rect.block (s := S1x1024) S1x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S8192x1024.size a
  hwx2_3 : ∀ i : grid2.Coords, EltTy.bits .f32 = 32 ∨ (Rect.block (s := S8192x1024) S1024x1024.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1536.size a ≤ S32768x1536.size a
  hwx3_0 : ∀ i : grid3.Coords, EltTy.bits .f32 = 32 ∨ (Rect.block (s := S32768x1536) S1024x1536.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512x1536.size a ≤ S512x1536.size a
  hwx3_1 : ∀ i : grid3.Coords, EltTy.bits .f32 = 32 ∨ (Rect.block (s := S512x1536) S512x1536.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x512.size a
  hwx3_2 : ∀ i : grid3.Coords, EltTy.bits .f32 = 32 ∨ (Rect.block (s := S1x512) S1x512.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x512.size a ≤ S32768x512.size a
  hwx3_3 : ∀ i : grid3.Coords, EltTy.bits .f32 = 32 ∨ (Rect.block (s := S32768x512) S1024x512.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x512.size a ≤ S1x512.size a
  hwx3_4 : ∀ i : grid3.Coords, EltTy.bits .f32 = 32 ∨ (Rect.block (s := S1x512) S1x512.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x512.size a ≤ S1x512.size a
  hwx3_5 : ∀ i : grid3.Coords, EltTy.bits .f32 = 32 ∨ (Rect.block (s := S1x512) S1x512.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x512.size a ≤ S32768x512.size a
  hwx4_0 : ∀ i : grid4.Coords, EltTy.bits .f32 = 32 ∨ (Rect.block (s := S32768x512) S2048x512.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x512.size a ≤ S1x512.size a
  hwx4_1 : ∀ i : grid4.Coords, EltTy.bits .f32 = 32 ∨ (Rect.block (s := S1x512) S1x512.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x512.size a ≤ S1x512.size a
  hwx4_2 : ∀ i : grid4.Coords, EltTy.bits .f32 = 32 ∨ (Rect.block (s := S1x512) S1x512.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2048x512.size a ≤ S32768x512.size a
  hwx4_3 : ∀ i : grid4.Coords, EltTy.bits .f32 = 32 ∨ (Rect.block (s := S32768x512) S2048x512.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x768.size a ≤ S131072x768.size a
  hwx5_0 : ∀ i : grid5.Coords, EltTy.bits .f32 = 32 ∨ (Rect.block (s := S131072x768) S2048x768.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x768.size a ≤ S256x768.size a
  hwx5_1 : ∀ i : grid5.Coords, EltTy.bits .f32 = 32 ∨ (Rect.block (s := S256x768) S256x768.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2048x256.size a ≤ S131072x256.size a
  hwx5_3 : ∀ i : grid5.Coords, EltTy.bits .f32 = 32 ∨ (Rect.block (s := S131072x256) S2048x256.size (cc5_transform_3 i) (hinb5_3 i)).WholeWords (EltTy.packing .f32)

variable [Facts₀]

def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf
def gather_S2048x2048_S8192x1_S8192x2048_1_0_n_n_0_1_12048 : GatherDims S2048x2048 S8192x1 S8192x2048 where
  offsetDims := [1]
  collapsedSliceDims := [0]
  operandBatchingDims := []
  startIndicesBatchingDims := []
  startIndexMap := [0]
  indexVectorDim := 1
  sliceSizes := ![1, 2048]
  wf := gather_S2048x2048_S8192x1_S8192x2048_1_0_n_n_0_1_12048_wf
def dot_S256x3072_S1024x3072_S256x1024_1_1_0_0_n_n : DotDims S256x3072 S1024x3072 S256x1024 where
  lhsContracting := [1]
  rhsContracting := [1]
  lhsNonContracting := [0]
  rhsNonContracting := [0]
  lhsBatch := []
  rhsBatch := []
  wf := dot_S256x3072_S1024x3072_S256x1024_1_1_0_0_n_n_wf
def gather_S8192x1024_S32768x1_S32768x1024_1_0_n_n_0_1_11024 : GatherDims S8192x1024 S32768x1 S32768x1024 where
  offsetDims := [1]
  collapsedSliceDims := [0]
  operandBatchingDims := []
  startIndicesBatchingDims := []
  startIndexMap := [0]
  indexVectorDim := 1
  sliceSizes := ![1, 1024]
  wf := gather_S8192x1024_S32768x1_S32768x1024_1_0_n_n_0_1_11024_wf
def dot_S1024x1536_S512x1536_S1024x512_1_1_0_0_n_n : DotDims S1024x1536 S512x1536 S1024x512 where
  lhsContracting := [1]
  rhsContracting := [1]
  lhsNonContracting := [0]
  rhsNonContracting := [0]
  lhsBatch := []
  rhsBatch := []
  wf := dot_S1024x1536_S512x1536_S1024x512_1_1_0_0_n_n_wf
def gather_S32768x512_S131072x1_S131072x512_1_0_n_n_0_1_1512 : GatherDims S32768x512 S131072x1 S131072x512 where
  offsetDims := [1]
  collapsedSliceDims := [0]
  operandBatchingDims := []
  startIndicesBatchingDims := []
  startIndexMap := [0]
  indexVectorDim := 1
  sliceSizes := ![1, 512]
  wf := gather_S32768x512_S131072x1_S131072x512_1_0_n_n_0_1_1512_wf
def dot_S2048x768_S256x768_S2048x256_1_1_0_0_n_n : DotDims S2048x768 S256x768 S2048x256 where
  lhsContracting := [1]
  rhsContracting := [1]
  lhsNonContracting := [0]
  rhsNonContracting := [0]
  lhsBatch := []
  rhsBatch := []
  wf := dot_S2048x768_S256x768_S2048x256_1_1_0_0_n_n_wf

abbrev win0_0 : Pipeline.Window sig grid0 :=
  Pipeline.Window.ofSpec (Memref.whole main_arg3) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v9) S256x3072.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg9) S1024x3072.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11_0) S256x1024.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v11_1) S1x1024.size cc1_transform_4 reads1_4 true true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11_2) S1x1024.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v11_0) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S1x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v37) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v38) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v46) S1024x1536.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg13) S512x1536.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v47) S1x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v48_0) S1024x512.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v48_1) S1x512.size cc3_transform_4 reads3_4 true true 1 stage3_4 sem3_4
    hrank3 hreads3_4 hinb3_4 nbuf3_4 (Memref.isWhole_whole _) hwx3_4 hstage3_4

abbrev win3_5 : Pipeline.Window sig grid3 :=
  Pipeline.Window.ofSpec (Memref.whole main_v48_2) S1x512.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v48_0) S2048x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v73) S1x512.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v74) S1x512.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v75) S2048x512.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v83) S2048x768.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg17) S256x768.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v84) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v85) S2048x256.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S131072x256 : Shape := ⟨2, ![131072, 256]⟩
abbrev S32768x512 : Shape := ⟨2, ![32768, 512]⟩
abbrev S8192x1024 : Shape := ⟨2, ![8192, 1024]⟩
abbrev S2048x2048 : Shape := ⟨2, ![2048, 2048]⟩
abbrev S131072 : Shape := ⟨1, ![131072]⟩
abbrev S32768 : Shape := ⟨1, ![32768]⟩
abbrev S8192 : Shape := ⟨1, ![8192]⟩
abbrev S2048 : Shape := ⟨1, ![2048]⟩
abbrev S1024x3072 : Shape := ⟨2, ![1024, 3072]⟩
abbrev S1024 : Shape := ⟨1, ![1024]⟩
abbrev S512x1536 : Shape := ⟨2, ![512, 1536]⟩
abbrev S512 : Shape := ⟨1, ![512]⟩
abbrev S256x768 : Shape := ⟨2, ![256, 768]⟩
abbrev S256 : Shape := ⟨1, ![256]⟩
abbrev S1x2048 : Shape := ⟨2, ![1, 2048]⟩
abbrev S_ : Shape := ⟨0, ![]⟩
abbrev S8192x1 : Shape := ⟨2, ![8192, 1]⟩
abbrev S8192x2048 : Shape := ⟨2, ![8192, 2048]⟩
abbrev S8192x3072 : Shape := ⟨2, ![8192, 3072]⟩
abbrev S3072x1024 : Shape := ⟨2, ![3072, 1024]⟩
abbrev S1x1024 : Shape := ⟨2, ![1, 1024]⟩
abbrev S1024x8192 : Shape := ⟨2, ![1024, 8192]⟩
abbrev S32x262144 : Shape := ⟨2, ![32, 262144]⟩
abbrev S32 : Shape := ⟨1, ![32]⟩
abbrev S32x1 : Shape := ⟨2, ![32, 1]⟩
abbrev S32768x1 : Shape := ⟨2, ![32768, 1]⟩
abbrev S32768x1024 : Shape := ⟨2, ![32768, 1024]⟩
abbrev S32768x1536 : Shape := ⟨2, ![32768, 1536]⟩
abbrev S1536x512 : Shape := ⟨2, ![1536, 512]⟩
abbrev S1x512 : Shape := ⟨2, ![1, 512]⟩
abbrev S512x32768 : Shape := ⟨2, ![512, 32768]⟩
abbrev S32x524288 : Shape := ⟨2, ![32, 524288]⟩
abbrev S131072x1 : Shape := ⟨2, ![131072, 1]⟩
abbrev S131072x512 : Shape := ⟨2, ![131072, 512]⟩
abbrev S131072x768 : Shape := ⟨2, ![131072, 768]⟩
abbrev S768x256 : Shape := ⟨2, ![768, 256]⟩
abbrev S1x256 : Shape := ⟨2, ![1, 256]⟩

abbrev nBuf : Space → Nat
  | .hbm => 181
  | .vmem => 0
  | .smem => 0
  | _ => 0

abbrev hbmTy0_0 (i : Nat) : BufTy := match i % 128 with
  | 0 => ⟨S131072x256, .f32⟩
  | 1 => ⟨S32768x512, .f32⟩
  | 2 => ⟨S8192x1024, .f32⟩
  | 3 => ⟨S2048x2048, .f32⟩
  | 4 => ⟨S131072, .i32⟩
  | 5 => ⟨S32768, .i32⟩
  | 6 => ⟨S8192, .i32⟩
  | 7 => ⟨S2048x2048, .f32⟩
  | 8 => ⟨S2048, .f32⟩
  | 9 => ⟨S1024x3072, .f32⟩
  | 10 => ⟨S1024, .f32⟩
  | 11 => ⟨S1024, .f32⟩
  | 12 => ⟨S1024, .f32⟩
  | 13 => ⟨S512x1536, .f32⟩
  | 14 => ⟨S512, .f32⟩
  | 15 => ⟨S512, .f32⟩
  | 16 => ⟨S512, .f32⟩
  | 17 => ⟨S256x768, .f32⟩
  | 18 => ⟨S256, .f32⟩
  | 19 => ⟨S2048x2048, .f32⟩
  | 20 => ⟨S2048x2048, .f32⟩
  | 21 => ⟨S1x2048, .f32⟩
  | 22 => ⟨S2048x2048, .f32⟩
  | 23 => ⟨S2048x2048, .f32⟩
  | 24 => ⟨S_, .i32⟩
  | 25 => ⟨S8192, .i32⟩
  | 26 => ⟨S8192, .i1⟩
  | 27 => ⟨S_, .i32⟩
  | 28 => ⟨S8192, .i32⟩
  | 29 => ⟨S8192, .i32⟩
  | 30 => ⟨S8192, .i32⟩
  | 31 => ⟨S8192x1, .i32⟩
  | 32 => ⟨S8192x2048, .f32⟩
  | 33 => ⟨S8192x3072, .f32⟩
  | 34 => ⟨S3072x1024, .f32⟩
  | 35 => ⟨S8192x1024, .f32⟩
  | 36 => ⟨S1x1024, .f32⟩
  | 37 => ⟨S8192x1024, .f32⟩
  | 38 => ⟨S8192x1024, .f32⟩
  | 39 => ⟨S1024x8192, .f32⟩
  | 40 => ⟨S32x262144, .f32⟩
  | 41 => ⟨S_, .f32⟩
  | 42 => ⟨S32, .f32⟩
  | 43 => ⟨S32x1, .f32⟩
  | 44 => ⟨S_, .f32⟩
  | 45 => ⟨S32x1, .f32⟩
  | 46 => ⟨S32x1, .f32⟩
  | 47 => ⟨S_, .i32⟩
  | 48 => ⟨S_, .f32⟩
  | 49 => ⟨S32, .f32⟩
  | 50 => ⟨S32x1, .f32⟩
  | 51 => ⟨S_, .f32⟩
  | 52 => ⟨S32x1, .f32⟩
  | 53 => ⟨S32x1, .f32⟩
  | 54 => ⟨S32x262144, .f32⟩
  | 55 => ⟨S32x262144, .f32⟩
  | 56 => ⟨S32x262144, .f32⟩
  | 57 => ⟨S_, .f32⟩
  | 58 => ⟨S_, .f32⟩
  | 59 => ⟨S_, .f32⟩
  | 60 => ⟨S_, .f32⟩
  | 61 => ⟨S32, .f32⟩
  | 62 => ⟨S32x1, .f32⟩
  | 63 => ⟨S32x1, .f32⟩
  | 64 => ⟨S32x1, .f32⟩
  | 65 => ⟨S_, .f32⟩
  | 66 => ⟨S_, .i1⟩
  | 67 => ⟨S_, .f32⟩
  | 68 => ⟨S_, .f32⟩
  | 69 => ⟨S32x1, .f32⟩
  | 70 => ⟨S32x1, .f32⟩
  | 71 => ⟨S32x262144, .f32⟩
  | 72 => ⟨S32x262144, .f32⟩
  | 73 => ⟨S_, .f32⟩
  | 74 => ⟨S32x1, .f32⟩
  | 75 => ⟨S32x1, .f32⟩
  | 76 => ⟨S32x1, .f32⟩
  | 77 => ⟨S32x262144, .f32⟩
  | 78 => ⟨S32x262144, .f32⟩
  | 79 => ⟨S1024x8192, .f32⟩
  | 80 => ⟨S8192x1024, .f32⟩
  | 81 => ⟨S1x1024, .f32⟩
  | 82 => ⟨S8192x1024, .f32⟩
  | 83 => ⟨S8192x1024, .f32⟩
  | 84 => ⟨S1x1024, .f32⟩
  | 85 => ⟨S8192x1024, .f32⟩
  | 86 => ⟨S8192x1024, .f32⟩
  | 87 => ⟨S_, .f32⟩
  | 88 => ⟨S_, .f32⟩
  | 89 => ⟨S8192x1024, .f32⟩
  | 90 => ⟨S8192x1024, .i1⟩
  | 91 => ⟨S_, .f32⟩
  | 92 => ⟨S8192x1024, .f32⟩
  | 93 => ⟨S8192x1024, .f32⟩
  | 94 => ⟨S8192x1024, .f32⟩
  | 95 => ⟨S_, .i32⟩
  | 96 => ⟨S32768, .i32⟩
  | 97 => ⟨S32768, .i1⟩
  | 98 => ⟨S_, .i32⟩
  | 99 => ⟨S32768, .i32⟩
  | 100 => ⟨S32768, .i32⟩
  | 101 => ⟨S32768, .i32⟩
  | 102 => ⟨S32768x1, .i32⟩
  | 103 => ⟨S32768x1024, .f32⟩
  | 104 => ⟨S32768x1536, .f32⟩
  | 105 => ⟨S1536x512, .f32⟩
  | 106 => ⟨S32768x512, .f32⟩
  | 107 => ⟨S1x512, .f32⟩
  | 108 => ⟨S32768x512, .f32⟩
  | 109 => ⟨S32768x512, .f32⟩
  | 110 => ⟨S512x32768, .f32⟩
  | 111 => ⟨S32x524288, .f32⟩
  | 112 => ⟨S_, .f32⟩
  | 113 => ⟨S32, .f32⟩
  | 114 => ⟨S32x1, .f32⟩
  | 115 => ⟨S_, .f32⟩
  | 116 => ⟨S32x1, .f32⟩
  | 117 => ⟨S32x1, .f32⟩
  | 118 => ⟨S_, .i32⟩
  | 119 => ⟨S_, .f32⟩
  | 120 => ⟨S32, .f32⟩
  | 121 => ⟨S32x1, .f32⟩
  | 122 => ⟨S_, .f32⟩
  | 123 => ⟨S32x1, .f32⟩
  | 124 => ⟨S32x1, .f32⟩
  | 125 => ⟨S32x524288, .f32⟩
  | 126 => ⟨S32x524288, .f32⟩
  | 127 => ⟨S32x524288, .f32⟩
  | _ => ⟨S131072x256, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S32, .f32⟩
  | 5 => ⟨S32x1, .f32⟩
  | 6 => ⟨S32x1, .f32⟩
  | 7 => ⟨S32x1, .f32⟩
  | 8 => ⟨S_, .f32⟩
  | 9 => ⟨S_, .i1⟩
  | 10 => ⟨S_, .f32⟩
  | 11 => ⟨S_, .f32⟩
  | 12 => ⟨S32x1, .f32⟩
  | 13 => ⟨S32x1, .f32⟩
  | 14 => ⟨S32x524288, .f32⟩
  | 15 => ⟨S32x524288, .f32⟩
  | 16 => ⟨S_, .f32⟩
  | 17 => ⟨S32x1, .f32⟩
  | 18 => ⟨S32x1, .f32⟩
  | 19 => ⟨S32x1, .f32⟩
  | 20 => ⟨S32x524288, .f32⟩
  | 21 => ⟨S32x524288, .f32⟩
  | 22 => ⟨S512x32768, .f32⟩
  | 23 => ⟨S32768x512, .f32⟩
  | 24 => ⟨S1x512, .f32⟩
  | 25 => ⟨S32768x512, .f32⟩
  | 26 => ⟨S32768x512, .f32⟩
  | 27 => ⟨S1x512, .f32⟩
  | 28 => ⟨S32768x512, .f32⟩
  | 29 => ⟨S32768x512, .f32⟩
  | 30 => ⟨S_, .f32⟩
  | 31 => ⟨S_, .f32⟩
  | 32 => ⟨S32768x512, .f32⟩
  | 33 => ⟨S32768x512, .i1⟩
  | 34 => ⟨S_, .f32⟩
  | 35 => ⟨S32768x512, .f32⟩
  | 36 => ⟨S32768x512, .f32⟩
  | 37 => ⟨S32768x512, .f32⟩
  | 38 => ⟨S_, .i32⟩
  | 39 => ⟨S131072, .i32⟩
  | 40 => ⟨S131072, .i1⟩
  | 41 => ⟨S_, .i32⟩
  | 42 => ⟨S131072, .i32⟩
  | 43 => ⟨S131072, .i32⟩
  | 44 => ⟨S131072, .i32⟩
  | 45 => ⟨S131072x1, .i32⟩
  | 46 => ⟨S131072x512, .f32⟩
  | 47 => ⟨S131072x768, .f32⟩
  | 48 => ⟨S768x256, .f32⟩
  | 49 => ⟨S131072x256, .f32⟩
  | 50 => ⟨S1x256, .f32⟩
  | 51 => ⟨S131072x256, .f32⟩
  | 52 => ⟨S131072x256, .f32⟩
  | _ => ⟨S131072x256, .f32⟩

abbrev hbmTy (i : Nat) : BufTy := match i / 128 with
  | 0 => hbmTy0_0 i
  | 1 => hbmTy0_1 i
  | _ => ⟨S131072x256, .f32⟩

abbrev bufTy : (tb : Table) → Fin (tcTables nBuf tb) → BufTy
  | .hbm, ⟨i, _⟩ => hbmTy i
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_c : Ref sig .tc := ⟨.hbm, 24, rfl⟩
abbrev main_v5 : Ref sig .tc := ⟨.hbm, 25, rfl⟩
abbrev main_v6 : Ref sig .tc := ⟨.hbm, 26, rfl⟩
abbrev main_c_0 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst : Ref sig .tc := ⟨.hbm, 41, rfl⟩
abbrev main_v20 : Ref sig .tc := ⟨.hbm, 42, rfl⟩
abbrev main_v21 : Ref sig .tc := ⟨.hbm, 43, rfl⟩
abbrev main_cst_1 : Ref sig .tc := ⟨.hbm, 44, rfl⟩
abbrev main_v22 : Ref sig .tc := ⟨.hbm, 45, rfl⟩
abbrev main_v23 : Ref sig .tc := ⟨.hbm, 46, rfl⟩
abbrev main_c_2 : Ref sig .tc := ⟨.hbm, 47, rfl⟩
abbrev main_call0_cst : Ref sig .tc := ⟨.hbm, 48, rfl⟩
abbrev main_call0_v0 : Ref sig .tc := ⟨.hbm, 49, rfl⟩
abbrev main_call0_v1 : Ref sig .tc := ⟨.hbm, 50, rfl⟩
abbrev main_call0_cst_0 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_v5 : Ref sig .tc := ⟨.hbm, 55, rfl⟩
abbrev main_call0_v6 : Ref sig .tc := ⟨.hbm, 56, rfl⟩
abbrev main_call0_v7 : Ref sig .tc := ⟨.hbm, 57, rfl⟩
abbrev main_call0_cst_1 : Ref sig .tc := ⟨.hbm, 58, rfl⟩
abbrev main_call0_v8 : Ref sig .tc := ⟨.hbm, 59, rfl⟩
abbrev main_call0_cst_2 : Ref sig .tc := ⟨.hbm, 60, rfl⟩
abbrev main_call0_v9 : Ref sig .tc := ⟨.hbm, 61, rfl⟩
abbrev main_call0_v10 : Ref sig .tc := ⟨.hbm, 62, rfl⟩
abbrev main_call0_v11 : Ref sig .tc := ⟨.hbm, 63, rfl⟩
abbrev main_call0_v12 : Ref sig .tc := ⟨.hbm, 64, rfl⟩
abbrev main_call0_cst_3 : Ref sig .tc := ⟨.hbm, 65, rfl⟩
abbrev main_call0_v13 : Ref sig .tc := ⟨.hbm, 66, rfl⟩
abbrev main_call0_cst_4 : Ref sig .tc := ⟨.hbm, 67, rfl⟩
abbrev main_call0_call0_v0 : Ref sig .tc := ⟨.hbm, 68, rfl⟩
abbrev main_call0_call0_v1 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_cst_3 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_cst_4 : Ref sig .tc := ⟨.hbm, 87, rfl⟩
abbrev main_call1_cst : Ref sig .tc := ⟨.hbm, 88, rfl⟩
abbrev main_call1_v0 : Ref sig .tc := ⟨.hbm, 89, rfl⟩
abbrev main_call1_v1 : Ref sig .tc := ⟨.hbm, 90, rfl⟩
abbrev main_call1_v2 : Ref sig .tc := ⟨.hbm, 91, rfl⟩
abbrev main_call1_v3 : Ref sig .tc := ⟨.hbm, 92, rfl⟩
abbrev main_call1_v4 : Ref sig .tc := ⟨.hbm, 93, rfl⟩
abbrev main_v40 : Ref sig .tc := ⟨.hbm, 94, rfl⟩
abbrev main_c_5 : Ref sig .tc := ⟨.hbm, 95, rfl⟩
abbrev main_v41 : Ref sig .tc := ⟨.hbm, 96, rfl⟩
abbrev main_v42 : Ref sig .tc := ⟨.hbm, 97, rfl⟩
abbrev main_c_6 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_cst_7 : Ref sig .tc := ⟨.hbm, 112, rfl⟩
abbrev main_v56 : Ref sig .tc := ⟨.hbm, 113, rfl⟩
abbrev main_v57 : Ref sig .tc := ⟨.hbm, 114, rfl⟩
abbrev main_cst_8 : Ref sig .tc := ⟨.hbm, 115, rfl⟩
abbrev main_v58 : Ref sig .tc := ⟨.hbm, 116, rfl⟩
abbrev main_v59 : Ref sig .tc := ⟨.hbm, 117, rfl⟩
abbrev main_c_9 : Ref sig .tc := ⟨.hbm, 118, rfl⟩
abbrev main_call2_cst : Ref sig .tc := ⟨.hbm, 119, rfl⟩
abbrev main_call2_v0 : Ref sig .tc := ⟨.hbm, 120, rfl⟩
abbrev main_call2_v1 : Ref sig .tc := ⟨.hbm, 121, rfl⟩
abbrev main_call2_cst_0 : Ref sig .tc := ⟨.hbm, 122, rfl⟩
abbrev main_call2_v2 : Ref sig .tc := ⟨.hbm, 123, rfl⟩
abbrev main_call2_v3 : Ref sig .tc := ⟨.hbm, 124, rfl⟩
abbrev main_call2_v4 : Ref sig .tc := ⟨.hbm, 125, rfl⟩
abbrev main_call2_v5 : Ref sig .tc := ⟨.hbm, 126, rfl⟩
abbrev main_call2_v6 : Ref sig .tc := ⟨.hbm, 127, rfl⟩
abbrev main_call2_v7 : Ref sig .tc := ⟨.hbm, 128, rfl⟩
abbrev main_call2_cst_1 : Ref sig .tc := ⟨.hbm, 129, rfl⟩
abbrev main_call2_v8 : Ref sig .tc := ⟨.hbm, 130, rfl⟩
abbrev main_call2_cst_2 : Ref sig .tc := ⟨.hbm, 131, rfl⟩
abbrev main_call2_v9 : Ref sig .tc := ⟨.hbm, 132, rfl⟩
abbrev main_call2_v10 : Ref sig .tc := ⟨.hbm, 133, rfl⟩
abbrev main_call2_v11 : Ref sig .tc := ⟨.hbm, 134, rfl⟩
abbrev main_call2_v12 : Ref sig .tc := ⟨.hbm, 135, rfl⟩
abbrev main_call2_cst_3 : Ref sig .tc := ⟨.hbm, 136, rfl⟩
abbrev main_call2_v13 : Ref sig .tc := ⟨.hbm, 137, rfl⟩
abbrev main_call2_cst_4 : Ref sig .tc := ⟨.hbm, 138, rfl⟩
abbrev main_call2_call0_v0 : Ref sig .tc := ⟨.hbm, 139, rfl⟩
abbrev main_call2_call0_v1 : Ref sig .tc := ⟨.hbm, 140, rfl⟩
abbrev main_v60 : Ref sig .tc := ⟨.hbm, 141, rfl⟩
abbrev main_v61 : Ref sig .tc := ⟨.hbm, 142, rfl⟩
abbrev main_v62 : Ref sig .tc := ⟨.hbm, 143, rfl⟩
abbrev main_cst_10 : Ref sig .tc := ⟨.hbm, 144, rfl⟩
abbrev main_v63 : Ref sig .tc := ⟨.hbm, 145, rfl⟩
abbrev main_v64 : Ref sig .tc := ⟨.hbm, 146, rfl⟩
abbrev main_v65 : Ref sig .tc := ⟨.hbm, 147, rfl⟩
abbrev main_v66 : Ref sig .tc := ⟨.hbm, 148, rfl⟩
abbrev main_v67 : Ref sig .tc := ⟨.hbm, 149, rfl⟩
abbrev main_v68 : Ref sig .tc := ⟨.hbm, 150, rfl⟩
abbrev main_v69 : Ref sig .tc := ⟨.hbm, 151, rfl⟩
abbrev main_v70 : Ref sig .tc := ⟨.hbm, 152, rfl⟩
abbrev main_v71 : Ref sig .tc := ⟨.hbm, 153, rfl⟩
abbrev main_v72 : Ref sig .tc := ⟨.hbm, 154, rfl⟩
abbrev main_v73 : Ref sig .tc := ⟨.hbm, 155, rfl⟩
abbrev main_v74 : Ref sig .tc := ⟨.hbm, 156, rfl⟩
abbrev main_v75 : Ref sig .tc := ⟨.hbm, 157, rfl⟩
abbrev main_cst_11 : Ref sig .tc := ⟨.hbm, 158, rfl⟩
abbrev main_call3_cst : Ref sig .tc := ⟨.hbm, 159, rfl⟩
abbrev main_call3_v0 : Ref sig .tc := ⟨.hbm, 160, rfl⟩
abbrev main_call3_v1 : Ref sig .tc := ⟨.hbm, 161, rfl⟩
abbrev main_call3_v2 : Ref sig .tc := ⟨.hbm, 162, rfl⟩
abbrev main_call3_v3 : Ref sig .tc := ⟨.hbm, 163, rfl⟩
abbrev main_call3_v4 : Ref sig .tc := ⟨.hbm, 164, rfl⟩
abbrev main_v76 : Ref sig .tc := ⟨.hbm, 165, rfl⟩
abbrev main_c_12 : Ref sig .tc := ⟨.hbm, 166, rfl⟩
abbrev main_v77 : Ref sig .tc := ⟨.hbm, 167, rfl⟩
abbrev main_v78 : Ref sig .tc := ⟨.hbm, 168, rfl⟩
abbrev main_c_13 : Ref sig .tc := ⟨.hbm, 169, rfl⟩
abbrev main_v79 : Ref sig .tc := ⟨.hbm, 170, rfl⟩
abbrev main_v80 : Ref sig .tc := ⟨.hbm, 171, rfl⟩
abbrev main_v81 : Ref sig .tc := ⟨.hbm, 172, rfl⟩
abbrev main_v82 : Ref sig .tc := ⟨.hbm, 173, rfl⟩
abbrev main_v83 : Ref sig .tc := ⟨.hbm, 174, rfl⟩
abbrev main_v84 : Ref sig .tc := ⟨.hbm, 175, rfl⟩
abbrev main_v85 : Ref sig .tc := ⟨.hbm, 176, rfl⟩
abbrev main_v86 : Ref sig .tc := ⟨.hbm, 177, rfl⟩
abbrev main_v87 : Ref sig .tc := ⟨.hbm, 178, rfl⟩
abbrev main_v88 : Ref sig .tc := ⟨.hbm, 179, rfl⟩
abbrev main_v89 : Ref sig .tc := ⟨.hbm, 180, rfl⟩

abbrev nD : Nat := 1
abbrev τ : Topo := Topo.v7x

variable {F : FTy → Type} [FloatOps F]

class Facts₀ : Prop where
  transposes_S2048x2048_S2048x2048_1_0 : S2048x2048.Transposes [1, 0] S2048x2048
  bcast_S2048_S1x2048_1 : S2048.BroadcastsInDim S1x2048 (![1] : Fin 1 → Fin S1x2048.rank)
  bcast_S1x2048_S2048x2048_0_1 : S1x2048.BroadcastsInDim S2048x2048 (![0, 1] : Fin 2 → Fin S2048x2048.rank)
  bcast_S_S8192 : S_.BroadcastsInDim S8192 (![] : Fin 0 → Fin S8192.rank)
  bcast_S8192_S8192x1_0 : S8192.BroadcastsInDim S8192x1 (![0] : Fin 1 → Fin S8192x1.rank)
  concatenates_S8192x2048_S8192x1024_S8192x3072_d1 : Shape.Concatenates [S8192x2048, S8192x1024] S8192x3072 1
  transposes_S1024x3072_S3072x1024_1_0 : S1024x3072.Transposes [1, 0] S3072x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  transposes_S8192x1024_S1024x8192_1_0 : S8192x1024.Transposes [1, 0] S1024x8192
  shapeCasts_S1024x8192_S32x262144 : S1024x8192.ShapeCasts S32x262144
  reducesTo_S32x262144_S32_d1 : S32x262144.ReducesTo [1] S32
  h_S_ : 0 < S_.numel
  bcast_S32_S32x1_0 : S32.BroadcastsInDim S32x1 (![0] : Fin 1 → Fin S32x1.rank)
  bcast_S_S32x1 : S_.BroadcastsInDim S32x1 (![] : Fin 0 → Fin S32x1.rank)
  bcast_S32x1_S32x262144_0_1 : S32x1.BroadcastsInDim S32x262144 (![0, 1] : Fin 2 → Fin S32x262144.rank)
  shapeCasts_S32x262144_S1024x8192 : S32x262144.ShapeCasts S1024x8192
  transposes_S1024x8192_S8192x1024_1_0 : S1024x8192.Transposes [1, 0] S8192x1024
  bcast_S_S8192x1024 : S_.BroadcastsInDim S8192x1024 (![] : Fin 0 → Fin S8192x1024.rank)
  bcast_S_S32768 : S_.BroadcastsInDim S32768 (![] : Fin 0 → Fin S32768.rank)
  bcast_S32768_S32768x1_0 : S32768.BroadcastsInDim S32768x1 (![0] : Fin 1 → Fin S32768x1.rank)
  concatenates_S32768x1024_S32768x512_S32768x1536_d1 : Shape.Concatenates [S32768x1024, S32768x512] S32768x1536 1
  transposes_S512x1536_S1536x512_1_0 : S512x1536.Transposes [1, 0] S1536x512
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  transposes_S32768x512_S512x32768_1_0 : S32768x512.Transposes [1, 0] S512x32768
  shapeCasts_S512x32768_S32x524288 : S512x32768.ShapeCasts S32x524288
  reducesTo_S32x524288_S32_d1 : S32x524288.ReducesTo [1] S32
  bcast_S32x1_S32x524288_0_1 : S32x1.BroadcastsInDim S32x524288 (![0, 1] : Fin 2 → Fin S32x524288.rank)
  shapeCasts_S32x524288_S512x32768 : S32x524288.ShapeCasts S512x32768
  transposes_S512x32768_S32768x512_1_0 : S512x32768.Transposes [1, 0] S32768x512
  bcast_S_S32768x512 : S_.BroadcastsInDim S32768x512 (![] : Fin 0 → Fin S32768x512.rank)
  bcast_S_S131072 : S_.BroadcastsInDim S131072 (![] : Fin 0 → Fin S131072.rank)
  bcast_S131072_S131072x1_0 : S131072.BroadcastsInDim S131072x1 (![0] : Fin 1 → Fin S131072x1.rank)
  concatenates_S131072x512_S131072x256_S131072x768_d1 : Shape.Concatenates [S131072x512, S131072x256] S131072x768 1
  transposes_S256x768_S768x256_1_0 : S256x768.Transposes [1, 0] S768x256
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  dot_S2048x2048_S2048x2048_S2048x2048_1_0_0_1_n_n_wf : DotDims.WF S2048x2048 S2048x2048 S2048x2048 [1] [0] [0] [1] [] []
  gather_S2048x2048_S8192x1_S8192x2048_1_0_n_n_0_1_12048_wf : GatherDims.WF S2048x2048 S8192x1 S8192x2048 [1] [0] [] [0] [] 1 ![1, 2048]
  dot_S8192x3072_S3072x1024_S8192x1024_1_0_0_1_n_n_wf : DotDims.WF S8192x3072 S3072x1024 S8192x1024 [1] [0] [0] [1] [] []
  gather_S8192x1024_S32768x1_S32768x1024_1_0_n_n_0_1_11024_wf : GatherDims.WF S8192x1024 S32768x1 S32768x1024 [1] [0] [] [0] [] 1 ![1, 1024]
  dot_S32768x1536_S1536x512_S32768x512_1_0_0_1_n_n_wf : DotDims.WF S32768x1536 S1536x512 S32768x512 [1] [0] [0] [1] [] []
  gather_S32768x512_S131072x1_S131072x512_1_0_n_n_0_1_1512_wf : GatherDims.WF S32768x512 S131072x1 S131072x512 [1] [0] [] [0] [] 1 ![1, 512]
  dot_S131072x768_S768x256_S131072x256_1_0_0_1_n_n_wf : DotDims.WF S131072x768 S768x256 S131072x256 [1] [0] [0] [1] [] []

variable [Facts₀]

def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf
def gather_S2048x2048_S8192x1_S8192x2048_1_0_n_n_0_1_12048 : GatherDims S2048x2048 S8192x1 S8192x2048 where
  offsetDims := [1]
  collapsedSliceDims := [0]
  operandBatchingDims := []
  startIndicesBatchingDims := []
  startIndexMap := [0]
  indexVectorDim := 1
  sliceSizes := ![1, 2048]
  wf := gather_S2048x2048_S8192x1_S8192x2048_1_0_n_n_0_1_12048_wf
def dot_S8192x3072_S3072x1024_S8192x1024_1_0_0_1_n_n : DotDims S8192x3072 S3072x1024 S8192x1024 where
  lhsContracting := [1]
  rhsContracting := [0]
  lhsNonContracting := [0]
  rhsNonContracting := [1]
  lhsBatch := []
  rhsBatch := []
  wf := dot_S8192x3072_S3072x1024_S8192x1024_1_0_0_1_n_n_wf
def gather_S8192x1024_S32768x1_S32768x1024_1_0_n_n_0_1_11024 : GatherDims S8192x1024 S32768x1 S32768x1024 where
  offsetDims := [1]
  collapsedSliceDims := [0]
  operandBatchingDims := []
  startIndicesBatchingDims := []
  startIndexMap := [0]
  indexVectorDim := 1
  sliceSizes := ![1, 1024]
  wf := gather_S8192x1024_S32768x1_S32768x1024_1_0_n_n_0_1_11024_wf
def dot_S32768x1536_S1536x512_S32768x512_1_0_0_1_n_n : DotDims S32768x1536 S1536x512 S32768x512 where
  lhsContracting := [1]
  rhsContracting := [0]
  lhsNonContracting := [0]
  rhsNonContracting := [1]
  lhsBatch := []
  rhsBatch := []
  wf := dot_S32768x1536_S1536x512_S32768x512_1_0_0_1_n_n_wf
def gather_S32768x512_S131072x1_S131072x512_1_0_n_n_0_1_1512 : GatherDims S32768x512 S131072x1 S131072x512 where
  offsetDims := [1]
  collapsedSliceDims := [0]
  operandBatchingDims := []
  startIndicesBatchingDims := []
  startIndexMap := [0]
  indexVectorDim := 1
  sliceSizes := ![1, 512]
  wf := gather_S32768x512_S131072x1_S131072x512_1_0_n_n_0_1_1512_wf
def dot_S131072x768_S768x256_S131072x256_1_0_0_1_n_n : DotDims S131072x768 S768x256 S131072x256 where
  lhsContracting := [1]
  rhsContracting := [0]
  lhsNonContracting := [0]
  rhsNonContracting := [1]
  lhsBatch := []
  rhsBatch := []
  wf := dot_S131072x768_S768x256_S131072x256_1_0_0_1_n_n_wf

class Facts : Prop extends Facts₀ where

variable [Facts]
-- ==== Proof.Spec.lean ====
/-
  The mathematics of the decoder, independent of either program: arrays are functions from literal index
  types to the extended reals; a matrix is read through its two coordinates.

  * `lin X W b`: the affine layer, entry (r, c) is  Σ_k X[r,k]·W[c,k] + b[c]  (weights stored output-major).
  * group normalisation over channel groups followed by a leaky rectifier, in two arrangements:
      - `normRef`: centre by the group mean, divide by √(variance + ε) with the variance the mean of squared
        deviations, scale by γ and shift by β, rectify with the test  0 ≤ y;
      - `normKer`: the variance as  mean of squares − square of mean, the affine map folded to
        y·a + b'  with  a = γ/√(var + ε),  b' = β − mean·a, rectify with the test  0 < y.
    A group g consists of the channels `ch g p`, p < P, over all M rows; `gOf c` is the group a channel is read in.
  * `pre`: rows of a table gathered by an integer index array, with a second block of columns appended.
  * `netK` / `netR`: the whole decoder in the two arrangements, the three gather-and-append maps abstract.
-/
import Idealize.ShloMosaic.PureOps.Ideal
import Idealize.ShloMosaic.Lib.ValueIdx

noncomputable section

open scoped BigOperators

namespace Cert.Spec

open Idealize.ShloMosaic Idealize.ShloMosaic.ValueIdx

/-- An extended real that is a real number. -/
def IsReal (x : EReal) : Prop := ∃ r : ℝ, x = (r : EReal)

/-- A rank-2 array of extended reals over literal extents. -/
abbrev Arr2 (a b : ℕ) : Type := (⟨2, ![a, b]⟩ : Shape).Idx → EReal
/-- A rank-1 array of extended reals over a literal extent. -/
abbrev Arr1 (a : ℕ) : Type := (⟨1, ![a]⟩ : Shape).Idx → EReal

/-- A matrix read through its two coordinates. -/
def cur2 {a b : ℕ} (A : Arr2 a b) : Fin a → Fin b → EReal := fun r c => A (ix2 r c)
/-- A vector read through its coordinate. -/
def cur1 {a : ℕ} (A : Arr1 a) : Fin a → EReal := fun r => A (ix1 r)
/-- The matrix with given entries. -/
def unc2 {a b : ℕ} (f : Fin a → Fin b → EReal) : Arr2 a b := fun j => f (j 0) (j 1)
/-- The single row of a one-row matrix, as a vector. -/
def rowOf {n : ℕ} (A : Arr2 1 n) : Arr1 n := fun j => A (ix2 0 (j 0))

theorem unc2_ix2 {a b : ℕ} (f : Fin a → Fin b → EReal) (r : Fin a) (c : Fin b) : unc2 f (ix2 r c) = f r c := rfl
theorem cur2_unc2 {a b : ℕ} (f : Fin a → Fin b → EReal) : cur2 (unc2 f) = f := rfl
theorem unc2_cur2 {a b : ℕ} (A : Arr2 a b) : unc2 (cur2 A) = A := by
  funext j; exact congrArg A (eq_ix2 j).symm

/-! ## The literal constants the two programs spell -/

/-- 0.1, the rectifier's slope, as the f32 word both programs carry. -/
def cSlope : EReal := Ideal.ofBits .f32 0x3DCCCCCD#32
/-- 1e-5, the variance offset, as the f32 word both programs carry. -/
def cEps : EReal := Ideal.ofBits .f32 0x3727C5AC#32
/-- 262144 = 8192 · 32, the number of entries of a group in the first normalised layer. -/
def cCnt4 : EReal := Ideal.ofBits .f32 0x48800000#32
/-- 524288 = 32768 · 16, the number of entries of a group in the second normalised layer. -/
def cCnt3 : EReal := Ideal.ofBits .f32 0x49000000#32

/-! ## The affine layer -/

/-- Entry (r, c) of  X·Wᵀ + b. -/
def lin {M K N : ℕ} (X : Fin M → Fin K → EReal) (W : Fin N → Fin K → EReal) (b : Fin N → EReal) : Fin M → Fin N → EReal :=
  fun r c => (∑ k : Fin K, X r k * W c k) + b c

/-- The affine layer on arrays. -/
def linA {M K N : ℕ} (X : Arr2 M K) (W : Arr2 N K) (b : Arr1 N) : Arr2 M N := unc2 (lin (cur2 X) (cur2 W) (cur1 b))

/-! ## Group normalisation and the rectifier, two arrangements -/

section Norm

variable {M C G P : ℕ} (cnt eps slope : EReal) (ch : Fin G → Fin P → Fin C) (gOf : Fin C → Fin G)
  (Y : Fin M → Fin C → EReal) (γ β : Fin C → EReal)

/-- Column sums. -/
def colSum (c : Fin C) : EReal := ∑ r : Fin M, Y r c
/-- Column sums of squares. -/
def colSumSq (c : Fin C) : EReal := ∑ r : Fin M, Y r c * Y r c
/-- The sum of a group's entries. -/
def gsum (g : Fin G) : EReal := ∑ p : Fin P, colSum Y (ch g p)
/-- The sum of a group's squared entries. -/
def gsumsq (g : Fin G) : EReal := ∑ p : Fin P, colSumSq Y (ch g p)
/-- The group mean. -/
def gmean (g : Fin G) : EReal := Ideal.div (gsum ch Y g) cnt
/-- The group variance as the mean of squared deviations. -/
def gvarRef (g : Fin G) : EReal :=
  Ideal.div (∑ p : Fin P, ∑ r : Fin M, (Y r (ch g p) - gmean cnt ch Y g) * (Y r (ch g p) - gmean cnt ch Y g)) cnt
/-- The group variance as the mean of squares less the squared mean. -/
def gvarKer (g : Fin G) : EReal := Ideal.div (gsumsq ch Y g) cnt - gmean cnt ch Y g * gmean cnt ch Y g
/-- The folded scale  γ / √(var + ε). -/
def scaleKer (c : Fin C) : EReal := γ c * Ideal.div 1 (Ideal.sqrt (gvarKer cnt ch Y (gOf c) + eps))
/-- The folded shift  β − mean · scale. -/
def shiftKer (c : Fin C) : EReal := β c - gmean cnt ch Y (gOf c) * scaleKer cnt eps ch gOf Y γ c
/-- The rectifier with the strict test. -/
def leakyKer (y : EReal) : EReal := if 0 < y then y else slope * y
/-- The rectifier with the weak test. -/
def leakyRef (y : EReal) : EReal := if 0 ≤ y then y else slope * y
/-- Affine map by given per-channel scale and shift, then the strict rectifier. -/
def affLeaky (X : Fin M → Fin C → EReal) (a b : Fin C → EReal) : Fin M → Fin C → EReal :=
  fun r c => leakyKer slope (X r c * a c + b c)
/-- Normalisation and rectifier, folded arrangement. -/
def normKer : Fin M → Fin C → EReal :=
  affLeaky slope Y (scaleKer cnt eps ch gOf Y γ) (shiftKer cnt eps ch gOf Y γ β)
/-- Normalisation and rectifier, textbook arrangement. -/
def normRef : Fin M → Fin C → EReal :=
  fun r c => leakyRef slope
    (Ideal.div (Y r c - gmean cnt ch Y (gOf c)) (Ideal.sqrt (gvarRef cnt ch Y (gOf c) + eps)) * γ c + β c)

end Norm

/-- Channel p of group g when a group has 32 channels out of 1024. -/
def ch4 (g : Fin 32) (p : Fin 32) : Fin 1024 := ⟨g.val * 32 + p.val, by have := g.isLt; have := p.isLt; omega⟩
/-- The group of a channel, 32 channels a group out of 1024. -/
def gOf4 (c : Fin 1024) : Fin 32 := ⟨c.val / 32, by have := c.isLt; omega⟩
/-- Channel p of group g when a group has 16 channels out of 512. -/
def ch3 (g : Fin 32) (p : Fin 16) : Fin 512 := ⟨g.val * 16 + p.val, by have := g.isLt; have := p.isLt; omega⟩
/-- The group of a channel, 16 channels a group out of 512. -/
def gOf3 (c : Fin 512) : Fin 32 := ⟨c.val / 16, by have := c.isLt; omega⟩

/-- A normalised layer on arrays, folded arrangement: affine layer, then `normKer`. -/
def stageK {M K C P : ℕ} (cnt : EReal) (ch : Fin 32 → Fin P → Fin C) (gOf : Fin C → Fin 32)
    (L : Arr2 M K) (W : Arr2 C K) (b γ β : Arr1 C) : Arr2 M C :=
  unc2 (normKer cnt cEps cSlope ch gOf (lin (cur2 L) (cur2 W) (cur1 b)) (cur1 γ) (cur1 β))
/-- A normalised layer on arrays, textbook arrangement. -/
def stageR {M K C P : ℕ} (cnt : EReal) (ch : Fin 32 → Fin P → Fin C) (gOf : Fin C → Fin 32)
    (L : Arr2 M K) (W : Arr2 C K) (b γ β : Arr1 C) : Arr2 M C :=
  unc2 (normRef cnt cEps cSlope ch gOf (lin (cur2 L) (cur2 W) (cur1 b)) (cur1 γ) (cur1 β))

/-! ## Gathered rows with appended columns -/

/-- Rows of the table `T` gathered at the start indices `idx` (clamped into the table), with the block `B`
    appended along the columns. -/
def pre {sT sI sG sB sO : Shape} (d : GatherDims sT sI sG) (ax : Fin sO.rank) (hc : Shape.Concatenates [sG, sB] sO ax)
    (T : sT.Idx → EReal) (idx : IVec sI 32) (B : sB.Idx → EReal) : sO.Idx → EReal :=
  concatenate sO ax [⟨sG, Host.gather d T idx⟩, ⟨sB, B⟩] hc

/-! ## The decoder -/

section Net

variable (pre4 : Arr2 2048 2048 → Arr2 8192 3072) (pre3 : Arr2 8192 1024 → Arr2 32768 1536)
  (pre2 : Arr2 32768 512 → Arr2 131072 768)
  (a3 a7 : Arr2 2048 2048) (a8 : Arr1 2048) (a9 : Arr2 1024 3072) (a10 a11 a12 : Arr1 1024)
  (a13 : Arr2 512 1536) (a14 a15 a16 : Arr1 512) (a17 : Arr2 256 768) (a18 : Arr1 256)

/-- The decoder, folded arrangement of both normalised layers. -/
def netK : Arr2 131072 256 :=
  linA (pre2 (stageK cCnt3 ch3 gOf3 (pre3 (stageK cCnt4 ch4 gOf4 (pre4 (linA a3 a7 a8)) a9 a10 a11 a12)) a13 a14 a15 a16)) a17 a18
/-- The decoder, textbook arrangement of both normalised layers. -/
def netR : Arr2 131072 256 :=
  linA (pre2 (stageR cCnt3 ch3 gOf3 (pre3 (stageR cCnt4 ch4 gOf4 (pre4 (linA a3 a7 a8)) a9 a10 a11 a12)) a13 a14 a15 a16)) a17 a18

end Net

end Cert.Spec

end
-- ==== Proof.RefTerm.lean ====
/-
  The reference's @main as pure terms of its argument arrays, operation for operation (the outlined functions'
  bodies written at their call sites): four affine layers  L·Wᵀ + b  (a transpose, a contraction, the bias broadcast
  over the rows), two group normalisations with rectifier between them, and before each of the last three layers the
  rows of the previous result gathered at an index array (negative indices wrapped once by the table's height) with
  the matching feature block appended along the columns.
-/
import proofs.«119478_j39633958207498_1_alg».proof.Proof.Spec
import proofs.«119478_j39633958207498_1_alg».proof.ReferenceIdeal
import proofs.«119478_j39633958207498_1_alg».proof.Proof.Gen.ReferenceIdeal

noncomputable section

namespace Cert.ReferenceIdeal.Term

open Idealize.ShloMosaic Idealize.SL.Sem
open Cert.ReferenceIdeal Cert.ReferenceIdeal.Facts₀ Cert.ReferenceIdeal.Facts

/-- The input projection: feats_s5 · W_inᵀ + b_in. -/
def x5 (L : FVec Ideal S2048x2048 .f32) (W : FVec Ideal S2048x2048 .f32) (b : FVec Ideal S2048 .f32) : FVec Ideal S2048x2048 .f32 :=
  addf (Host.dotGeneral dot_S2048x2048_S2048x2048_S2048x2048_1_0_0_1_n_n none L (transpose S2048x2048 [1, 0] W transposes_S2048x2048_S2048x2048_1_0))
    (broadcastInDim S2048x2048 ![0, 1] bcast_S1x2048_S2048x2048_0_1 (broadcastInDim S1x2048 ![1] bcast_S2048_S1x2048_1 b))

/-- The row indices into the 2048-row table: a negative index wrapped once, laid out as a column. -/
def idx4 (a : IVec S8192 32) : IVec S8192x1 32 :=
  broadcastInDim S8192x1 ![0] bcast_S8192_S8192x1_0
    (select (cmpi .slt a (broadcastInDim S8192 ![] bcast_S_S8192 (constantI S_ 32 0#32)))
      (addi a (broadcastInDim S8192 ![] bcast_S_S8192 (constantI S_ 32 2048#32))) a)

/-- The first decoder layer's affine part. -/
def y4 (L : FVec Ideal S8192x3072 .f32) (W : FVec Ideal S1024x3072 .f32) (b : FVec Ideal S1024 .f32) : FVec Ideal S8192x1024 .f32 :=
  addf (Host.dotGeneral dot_S8192x3072_S3072x1024_S8192x1024_1_0_0_1_n_n none L (transpose S3072x1024 [1, 0] W transposes_S1024x3072_S3072x1024_1_0))
    (broadcastInDim S8192x1024 ![0, 1] bcast_S1x1024_S8192x1024_0_1 (broadcastInDim S1x1024 ![1] bcast_S1024_S1x1024_1 b))

/-- Layer 4: an [rows, channels] array regrouped as 32 groups of (channels-major) entries. -/
def grp4 (Y : FVec Ideal S8192x1024 .f32) : FVec Ideal S32x262144 .f32 :=
  shapeCast S32x262144 (transpose S1024x8192 [1, 0] Y transposes_S8192x1024_S1024x8192_1_0) shapeCasts_S1024x8192_S32x262144

/-- Layer 4: the group means, as a column. -/
def mean4 (X : FVec Ideal S32x262144 .f32) : FVec Ideal S32x1 .f32 :=
  Host.divf (broadcastInDim S32x1 ![0] bcast_S32_S32x1_0 (Host.reduceAdd X (constant (F := Ideal) S_ .f32 0x00000000#32) reducesTo_S32x262144_S32_d1 h_S_))
    (broadcastInDim S32x1 ![] bcast_S_S32x1 (constant (F := Ideal) S_ .f32 0x48800000#32))

/-- Layer 4: the squared deviations from the group means. -/
def sqdev4 (X : FVec Ideal S32x262144 .f32) : FVec Ideal S32x262144 .f32 :=
  mulf (subf X (broadcastInDim S32x262144 ![0, 1] bcast_S32x1_S32x262144_0_1 (mean4 X))) (subf X (broadcastInDim S32x262144 ![0, 1] bcast_S32x1_S32x262144_0_1 (mean4 X)))

/-- Layer 4: the count less the (zero) degrees of freedom removed, as the outlined variance computes it. -/
def dof4 : FVec Ideal S_ .f32 :=
  subf (constant (F := Ideal) S_ .f32 0x48800000#32) (sitofp .f32 (constantI S_ 32 0#32))

/-- Layer 4: the group variances as the outlined variance function computes them (the mean of squared deviations,
    selected over a not-a-number word when the count is positive), as a column. -/
def var4 (X : FVec Ideal S32x262144 .f32) : FVec Ideal S32x1 .f32 :=
  select (broadcastInDim S32x1 ![] bcast_S_S32x1 (cmpf .ogt dof4 (constant (F := Ideal) S_ .f32 0x00000000#32)))
    (Host.divf (broadcastInDim S32x1 ![0] bcast_S32_S32x1_0 (Host.reduceAdd (sqdev4 X) (constant (F := Ideal) S_ .f32 0x00000000#32) reducesTo_S32x262144_S32_d1 h_S_))
      (broadcastInDim S32x1 ![] bcast_S_S32x1 dof4))
    (broadcastInDim S32x1 ![] bcast_S_S32x1 (id (constant (F := Ideal) S_ .f32 0x7FC00000#32)))

/-- Layer 4: centred entries over the root of variance plus ε. -/
def cen4 (X : FVec Ideal S32x262144 .f32) : FVec Ideal S32x262144 .f32 :=
  Host.divf (subf X (broadcastInDim S32x262144 ![0, 1] bcast_S32x1_S32x262144_0_1 (mean4 X)))
    (broadcastInDim S32x262144 ![0, 1] bcast_S32x1_S32x262144_0_1
      (Host.sqrt (addf (var4 X) (broadcastInDim S32x1 ![] bcast_S_S32x1 (constant (F := Ideal) S_ .f32 0x3727C5AC#32)))))

/-- Layer 4: the grouped array laid back out as [rows, channels]. -/
def ung4 (Z : FVec Ideal S32x262144 .f32) : FVec Ideal S8192x1024 .f32 :=
  transpose S8192x1024 [1, 0] (shapeCast S1024x8192 Z shapeCasts_S32x262144_S1024x8192) transposes_S1024x8192_S8192x1024_1_0

/-- Layer 4: per-channel scale and shift, broadcast over the rows. -/
def aff4 (Z : FVec Ideal S8192x1024 .f32) (γ β : FVec Ideal S1024 .f32) : FVec Ideal S8192x1024 .f32 :=
  addf (mulf Z (broadcastInDim S8192x1024 ![0, 1] bcast_S1x1024_S8192x1024_0_1 (broadcastInDim S1x1024 ![1] bcast_S1024_S1x1024_1 γ)))
    (broadcastInDim S8192x1024 ![0, 1] bcast_S1x1024_S8192x1024_0_1 (broadcastInDim S1x1024 ![1] bcast_S1024_S1x1024_1 β))

/-- Layer 4: the rectifier with slope word 0.1 as the outlined function computes it (compare with zero, select). -/
def lrelu4 (Z : FVec Ideal S8192x1024 .f32) : FVec Ideal S8192x1024 .f32 :=
  select (cmpf .oge Z (broadcastInDim S8192x1024 ![] bcast_S_S8192x1024 (constant (F := Ideal) S_ .f32 0x00000000#32))) Z
    (mulf (broadcastInDim S8192x1024 ![] bcast_S_S8192x1024 (id (constant (F := Ideal) S_ .f32 0x3DCCCCCD#32))) Z)

/-- Layer 4's normalisation and rectifier as the reference's @main spells them. -/
def z4 (Y : FVec Ideal S8192x1024 .f32) (γ β : FVec Ideal S1024 .f32) : FVec Ideal S8192x1024 .f32 :=
  lrelu4 (aff4 (ung4 (cen4 (grp4 Y))) γ β)

/-- The row indices into the 8192-row table. -/
def idx3 (a : IVec S32768 32) : IVec S32768x1 32 :=
  broadcastInDim S32768x1 ![0] bcast_S32768_S32768x1_0
    (select (cmpi .slt a (broadcastInDim S32768 ![] bcast_S_S32768 (constantI S_ 32 0#32)))
      (addi a (broadcastInDim S32768 ![] bcast_S_S32768 (constantI S_ 32 8192#32))) a)

/-- The second decoder layer's affine part. -/
def y3 (L : FVec Ideal S32768x1536 .f32) (W : FVec Ideal S512x1536 .f32) (b : FVec Ideal S512 .f32) : FVec Ideal S32768x512 .f32 :=
  addf (Host.dotGeneral dot_S32768x1536_S1536x512_S32768x512_1_0_0_1_n_n none L (transpose S1536x512 [1, 0] W transposes_S512x1536_S1536x512_1_0))
    (broadcastInDim S32768x512 ![0, 1] bcast_S1x512_S32768x512_0_1 (broadcastInDim S1x512 ![1] bcast_S512_S1x512_1 b))

/-- Layer 3: an [rows, channels] array regrouped as 32 groups of (channels-major) entries. -/
def grp3 (Y : FVec Ideal S32768x512 .f32) : FVec Ideal S32x524288 .f32 :=
  shapeCast S32x524288 (transpose S512x32768 [1, 0] Y transposes_S32768x512_S512x32768_1_0) shapeCasts_S512x32768_S32x524288

/-- Layer 3: the group means, as a column. -/
def mean3 (X : FVec Ideal S32x524288 .f32) : FVec Ideal S32x1 .f32 :=
  Host.divf (broadcastInDim S32x1 ![0] bcast_S32_S32x1_0 (Host.reduceAdd X (constant (F := Ideal) S_ .f32 0x00000000#32) reducesTo_S32x524288_S32_d1 h_S_))
    (broadcastInDim S32x1 ![] bcast_S_S32x1 (constant (F := Ideal) S_ .f32 0x49000000#32))

/-- Layer 3: the squared deviations from the group means. -/
def sqdev3 (X : FVec Ideal S32x524288 .f32) : FVec Ideal S32x524288 .f32 :=
  mulf (subf X (broadcastInDim S32x524288 ![0, 1] bcast_S32x1_S32x524288_0_1 (mean3 X))) (subf X (broadcastInDim S32x524288 ![0, 1] bcast_S32x1_S32x524288_0_1 (mean3 X)))

/-- Layer 3: the count less the (zero) degrees of freedom removed, as the outlined variance computes it. -/
def dof3 : FVec Ideal S_ .f32 :=
  subf (constant (F := Ideal) S_ .f32 0x49000000#32) (sitofp .f32 (constantI S_ 32 0#32))

/-- Layer 3: the group variances as the outlined variance function computes them (the mean of squared deviations,
    selected over a not-a-number word when the count is positive), as a column. -/
def var3 (X : FVec Ideal S32x524288 .f32) : FVec Ideal S32x1 .f32 :=
  select (broadcastInDim S32x1 ![] bcast_S_S32x1 (cmpf .ogt dof3 (constant (F := Ideal) S_ .f32 0x00000000#32)))
    (Host.divf (broadcastInDim S32x1 ![0] bcast_S32_S32x1_0 (Host.reduceAdd (sqdev3 X) (constant (F := Ideal) S_ .f32 0x00000000#32) reducesTo_S32x524288_S32_d1 h_S_))
      (broadcastInDim S32x1 ![] bcast_S_S32x1 dof3))
    (broadcastInDim S32x1 ![] bcast_S_S32x1 (id (constant (F := Ideal) S_ .f32 0x7FC00000#32)))

/-- Layer 3: centred entries over the root of variance plus ε. -/
def cen3 (X : FVec Ideal S32x524288 .f32) : FVec Ideal S32x524288 .f32 :=
  Host.divf (subf X (broadcastInDim S32x524288 ![0, 1] bcast_S32x1_S32x524288_0_1 (mean3 X)))
    (broadcastInDim S32x524288 ![0, 1] bcast_S32x1_S32x524288_0_1
      (Host.sqrt (addf (var3 X) (broadcastInDim S32x1 ![] bcast_S_S32x1 (constant (F := Ideal) S_ .f32 0x3727C5AC#32)))))

/-- Layer 3: the grouped array laid back out as [rows, channels]. -/
def ung3 (Z : FVec Ideal S32x524288 .f32) : FVec Ideal S32768x512 .f32 :=
  transpose S32768x512 [1, 0] (shapeCast S512x32768 Z shapeCasts_S32x524288_S512x32768) transposes_S512x32768_S32768x512_1_0

/-- Layer 3: per-channel scale and shift, broadcast over the rows. -/
def aff3 (Z : FVec Ideal S32768x512 .f32) (γ β : FVec Ideal S512 .f32) : FVec Ideal S32768x512 .f32 :=
  addf (mulf Z (broadcastInDim S32768x512 ![0, 1] bcast_S1x512_S32768x512_0_1 (broadcastInDim S1x512 ![1] bcast_S512_S1x512_1 γ)))
    (broadcastInDim S32768x512 ![0, 1] bcast_S1x512_S32768x512_0_1 (broadcastInDim S1x512 ![1] bcast_S512_S1x512_1 β))

/-- Layer 3: the rectifier with slope word 0.1 as the outlined function computes it (compare with zero, select). -/
def lrelu3 (Z : FVec Ideal S32768x512 .f32) : FVec Ideal S32768x512 .f32 :=
  select (cmpf .oge Z (broadcastInDim S32768x512 ![] bcast_S_S32768x512 (constant (F := Ideal) S_ .f32 0x00000000#32))) Z
    (mulf (broadcastInDim S32768x512 ![] bcast_S_S32768x512 (id (constant (F := Ideal) S_ .f32 0x3DCCCCCD#32))) Z)

/-- Layer 3's normalisation and rectifier as the reference's @main spells them. -/
def z3 (Y : FVec Ideal S32768x512 .f32) (γ β : FVec Ideal S512 .f32) : FVec Ideal S32768x512 .f32 :=
  lrelu3 (aff3 (ung3 (cen3 (grp3 Y))) γ β)

/-- The row indices into the 32768-row table. -/
def idx2 (a : IVec S131072 32) : IVec S131072x1 32 :=
  broadcastInDim S131072x1 ![0] bcast_S131072_S131072x1_0
    (select (cmpi .slt a (broadcastInDim S131072 ![] bcast_S_S131072 (constantI S_ 32 0#32)))
      (addi a (broadcastInDim S131072 ![] bcast_S_S131072 (constantI S_ 32 32768#32))) a)

/-- The last layer: affine only. -/
def out (L : FVec Ideal S131072x768 .f32) (W : FVec Ideal S256x768 .f32) (b : FVec Ideal S256 .f32) : FVec Ideal S131072x256 .f32 :=
  addf (Host.dotGeneral dot_S131072x768_S768x256_S131072x256_1_0_0_1_n_n none L (transpose S768x256 [1, 0] W transposes_S256x768_S768x256_1_0))
    (broadcastInDim S131072x256 ![0, 1] bcast_S1x256_S131072x256_0_1 (broadcastInDim S1x256 ![1] bcast_S256_S1x256_1 b))

/-- Rows of the projected coarsest features gathered at `up3`, the level-4 features appended. -/
def pre4 (a2 : FVec Ideal S8192x1024 .f32) (a6 : IVec S8192 32) : FVec Ideal S2048x2048 .f32 → FVec Ideal S8192x3072 .f32 :=
  fun T => Cert.Spec.pre gather_S2048x2048_S8192x1_S8192x2048_1_0_n_n_0_1_12048 1 concatenates_S8192x2048_S8192x1024_S8192x3072_d1 T (idx4 a6) a2
/-- Rows of the first decoder layer's result gathered at `up2`, the level-3 features appended. -/
def pre3 (a1 : FVec Ideal S32768x512 .f32) (a5 : IVec S32768 32) : FVec Ideal S8192x1024 .f32 → FVec Ideal S32768x1536 .f32 :=
  fun T => Cert.Spec.pre gather_S8192x1024_S32768x1_S32768x1024_1_0_n_n_0_1_11024 1 concatenates_S32768x1024_S32768x512_S32768x1536_d1 T (idx3 a5) a1
/-- Rows of the second decoder layer's result gathered at `up1`, the level-2 features appended. -/
def pre2 (a0 : FVec Ideal S131072x256 .f32) (a4 : IVec S131072 32) : FVec Ideal S32768x512 .f32 → FVec Ideal S131072x768 .f32 :=
  fun T => Cert.Spec.pre gather_S32768x512_S131072x1_S131072x512_1_0_n_n_0_1_1512 1 concatenates_S131072x512_S131072x256_S131072x768_d1 T (idx2 a4) a0

/-- The reference's result as a function of its nineteen arguments. -/
def result (a0 : FVec Ideal S131072x256 .f32) (a1 : FVec Ideal S32768x512 .f32) (a2 : FVec Ideal S8192x1024 .f32) (a3 : FVec Ideal S2048x2048 .f32)
    (a4 : IVec S131072 32) (a5 : IVec S32768 32) (a6 : IVec S8192 32) (a7 : FVec Ideal S2048x2048 .f32) (a8 : FVec Ideal S2048 .f32)
    (a9 : FVec Ideal S1024x3072 .f32) (a10 a11 a12 : FVec Ideal S1024 .f32) (a13 : FVec Ideal S512x1536 .f32) (a14 a15 a16 : FVec Ideal S512 .f32)
    (a17 : FVec Ideal S256x768 .f32) (a18 : FVec Ideal S256 .f32) : FVec Ideal S131072x256 .f32 :=
  out (pre2 a0 a4 (z3 (y3 (pre3 a1 a5 (z4 (y4 (pre4 a2 a6 (x5 a3 a7 a8)) a9 a10) a11 a12)) a13 a14) a15 a16)) a17 a18

end Cert.ReferenceIdeal.Term

end
-- ==== Proof.RefOps.lean ====
/-
  The reference's @main as a straight line: its host operations listed in order, the outlined functions' operations
  written at their call sites over each call's own buffers, cut into consecutive stretches, one per stage of the
  computation (an affine layer; an index array wrapped and laid out as a column; a gather with a block of columns
  appended; the regrouping of a layer's result; a group mean; a group variance; the centred and rescaled entries laid
  back out; the per-channel scale and shift; the rectifier).  For each stretch: the buffers it writes, that every
  buffer it touches is a TensorCore buffer, that it leaves no buffer undetermined, and that a buffer it does not write
  keeps its contents through it.  @main is the concatenation of the stretches run as one line.
-/
import proofs.«119478_j39633958207498_1_alg».proof.Proof.RefTerm
import Idealize.ShloMosaic.Lib.StableHlo.Run
import Idealize.ShloMosaic.Lib.Pipeline.Frame

noncomputable section

namespace Cert.ReferenceIdeal.Val

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

/-! ## The stretches -/

/-- The input projection: %0 … %4. -/
def opsA : List (HloOp τ sig (Elt F)) :=
  [ unary main_arg7 main_v0 ((transpose S2048x2048 [1, 0] · transposes_S2048x2048_S2048x2048_1_0) : (⟨S2048x2048, .f32⟩ : BufTy).Contents (Elt F) → (⟨S2048x2048, .f32⟩ : BufTy).Contents (Elt F)),
    binary main_arg3 main_v0 main_v1 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)),
    unary main_arg8 main_v2 (broadcastInDim S1x2048 ![1] bcast_S2048_S1x2048_1 : (⟨S2048, .f32⟩ : BufTy).Contents (Elt F) → (⟨S1x2048, .f32⟩ : BufTy).Contents (Elt F)),
    unary main_v2 main_v3 (broadcastInDim S2048x2048 ![0, 1] bcast_S1x2048_S2048x2048_0_1 : (⟨S1x2048, .f32⟩ : BufTy).Contents (Elt F) → (⟨S2048x2048, .f32⟩ : BufTy).Contents (Elt F)),
    binary main_v1 main_v3 main_v4 (addf : (⟨S2048x2048, .f32⟩ : BufTy).Contents (Elt F) → (⟨S2048x2048, .f32⟩ : BufTy).Contents (Elt F) → (⟨S2048x2048, .f32⟩ : BufTy).Contents (Elt F)) ]

/-- The row indices into the 2048-row table: %c, %5 … %10. -/
def opsB1 : List (HloOp τ sig (Elt F)) :=
  [ nullary main_c (constantI S_ 32 0#32),
    unary main_c main_v5 (broadcastInDim S8192 ![] bcast_S_S8192 : (⟨S_, .i32⟩ : BufTy).Contents (Elt F) → (⟨S8192, .i32⟩ : BufTy).Contents (Elt F)),
    binary main_arg6 main_v5 main_v6 (cmpi .slt : (⟨S8192, .i32⟩ : BufTy).Contents (Elt F) → (⟨S8192, .i32⟩ : BufTy).Contents (Elt F) → (⟨S8192, .i1⟩ : BufTy).Contents (Elt F)),
    nullary main_c_0 (constantI S_ 32 2048#32),
    unary main_c_0 main_v7 (broadcastInDim S8192 ![] bcast_S_S8192 : (⟨S_, .i32⟩ : BufTy).Contents (Elt F) → (⟨S8192, .i32⟩ : BufTy).Contents (Elt F)),
    binary main_arg6 main_v7 main_v8 (addi : (⟨S8192, .i32⟩ : BufTy).Contents (Elt F) → (⟨S8192, .i32⟩ : BufTy).Contents (Elt F) → (⟨S8192, .i32⟩ : BufTy).Contents (Elt F)),
    ternary main_v6 main_v8 main_arg6 main_v9 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v9 main_v10 (broadcastInDim S8192x1 ![0] bcast_S8192_S8192x1_0 : (⟨S8192, .i32⟩ : BufTy).Contents (Elt F) → (⟨S8192x1, .i32⟩ : BufTy).Contents (Elt F)) ]

/-- The gathered rows with the level-4 features appended: %11, %12. -/
def opsB2 : List (HloOp τ sig (Elt F)) :=
  [ binary main_v4 main_v10 main_v11 ((fun x i => Host.gather gather_S2048x2048_S8192x1_S8192x2048_1_0_n_n_0_1_12048 x i) : (⟨S2048x2048, .f32⟩ : BufTy).Contents (Elt F) → (⟨S8192x1, .i32⟩ : BufTy).Contents (Elt F) → (⟨S8192x2048, .f32⟩ : BufTy).Contents (Elt F)),
    binary main_v11 main_arg2 main_v12 ((fun a b => concatenate S8192x3072 1 [⟨S8192x2048, a⟩, ⟨S8192x1024, b⟩] concatenates_S8192x2048_S8192x1024_S8192x3072_d1) : (⟨S8192x2048, .f32⟩ : BufTy).Contents (Elt F) → (⟨S8192x1024, .f32⟩ : BufTy).Contents (Elt F) → (⟨S8192x3072, .f32⟩ : BufTy).Contents (Elt F)) ]

/-- The first decoder layer's affine part: %13 … %17. -/
def opsB3 : List (HloOp τ sig (Elt F)) :=
  [ unary main_arg9 main_v13 ((transpose S3072x1024 [1, 0] · transposes_S1024x3072_S3072x1024_1_0) : (⟨S1024x3072, .f32⟩ : BufTy).Contents (Elt F) → (⟨S3072x1024, .f32⟩ : BufTy).Contents (Elt F)),
    binary main_v12 main_v13 main_v14 ((fun l r => Host.dotGeneral dot_S8192x3072_S3072x1024_S8192x1024_1_0_0_1_n_n none l r) : (⟨S8192x3072, .f32⟩ : BufTy).Contents (Elt F) → (⟨S3072x1024, .f32⟩ : BufTy).Contents (Elt F) → (⟨S8192x1024, .f32⟩ : BufTy).Contents (Elt F)),
    unary main_arg10 main_v15 (broadcastInDim S1x1024 ![1] bcast_S1024_S1x1024_1 : (⟨S1024, .f32⟩ : BufTy).Contents (Elt F) → (⟨S1x1024, .f32⟩ : BufTy).Contents (Elt F)),
    unary main_v15 main_v16 (broadcastInDim S8192x1024 ![0, 1] bcast_S1x1024_S8192x1024_0_1 : (⟨S1x1024, .f32⟩ : BufTy).Contents (Elt F) → (⟨S8192x1024, .f32⟩ : BufTy).Contents (Elt F)),
    binary main_v14 main_v16 main_v17 (addf : (⟨S8192x1024, .f32⟩ : BufTy).Contents (Elt F) → (⟨S8192x1024, .f32⟩ : BufTy).Contents (Elt F) → (⟨S8192x1024, .f32⟩ : BufTy).Contents (Elt F)) ]

/-- Layer 4 regrouped: %18, %19. -/
def opsC1 : List (HloOp τ sig (Elt F)) :=
  [ unary main_v17 main_v18 ((transpose S1024x8192 [1, 0] · transposes_S8192x1024_S1024x8192_1_0) : (⟨S8192x1024, .f32⟩ : BufTy).Contents (Elt F) → (⟨S1024x8192, .f32⟩ : BufTy).Contents (Elt F)),
    reshape main_v18 main_v19 rfl shapeCasts_S1024x8192_S32x262144 ]

/-- Layer 4's group means: %cst, %20 … %23. -/
def opsC2 : List (HloOp τ sig (Elt F)) :=
  [ nullary main_cst (constant S_ .f32 0x00000000#32),
    binary main_v19 main_cst main_v20 ((fun x v => Host.reduceAdd x v reducesTo_S32x262144_S32_d1 h_S_) : (⟨S32x262144, .f32⟩ : BufTy).Contents (Elt F) → (⟨S_, .f32⟩ : BufTy).Contents (Elt F) → (⟨S32, .f32⟩ : BufTy).Contents (Elt F)),
    unary main_v20 main_v21 (broadcastInDim S32x1 ![0] bcast_S32_S32x1_0 : (⟨S32, .f32⟩ : BufTy).Contents (Elt F) → (⟨S32x1, .f32⟩ : BufTy).Contents (Elt F)),
    nullary main_cst_1 (constant S_ .f32 0x48800000#32),
    unary main_cst_1 main_v22 (broadcastInDim S32x1 ![] bcast_S_S32x1 : (⟨S_, .f32⟩ : BufTy).Contents (Elt F) → (⟨S32x1, .f32⟩ : BufTy).Contents (Elt F)),
    binary main_v21 main_v22 main_v23 (Host.divf : (⟨S32x1, .f32⟩ : BufTy).Contents (Elt F) → (⟨S32x1, .f32⟩ : BufTy).Contents (Elt F) → (⟨S32x1, .f32⟩ : BufTy).Contents (Elt F)) ]

/-- Layer 4's group variances: %c_2 and the outlined variance's operations (the selection's three last) over the
    call's buffers. -/
def opsC3 : List (HloOp τ sig (Elt F)) :=
  [ nullary main_c_2 (constantI S_ 32 0#32),
    TRef.nullary main_call0.cst (constant S_ .f32 0x00000000#32),
    TRef.binary (TRef.of main_v19 : TRef sig ⟨S32x262144, .f32⟩) main_call0.cst main_call0.v0 (fun x v => Host.reduceAdd x v reducesTo_S32x262144_S32_d1 h_S_),
    TRef.unary main_call0.v0 main_call0.v1 (broadcastInDim S32x1 ![0] bcast_S32_S32x1_0),
    TRef.nullary main_call0.cst_0 (constant S_ .f32 0x48800000#32),
    TRef.unary main_call0.cst_0 main_call0.v2 (broadcastInDim S32x1 ![] bcast_S_S32x1),
    TRef.binary main_call0.v1 main_call0.v2 main_call0.v3 Host.divf,
    TRef.unary main_call0.v3 main_call0.v4 (broadcastInDim S32x262144 ![0, 1] bcast_S32x1_S32x262144_0_1),
    TRef.binary (TRef.of main_v19 : TRef sig ⟨S32x262144, .f32⟩) main_call0.v4 main_call0.v5 subf,
    TRef.binary main_call0.v5 main_call0.v5 main_call0.v6 mulf,
    TRef.unary (TRef.of main_c_2 : TRef sig ⟨S_, .i32⟩) main_call0.v7 (sitofp .f32),
    TRef.nullary main_call0.cst_1 (constant S_ .f32 0x48800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S32x262144_S32_d1 h_S_),
    TRef.unary main_call0.v9 main_call0.v10 (broadcastInDim S32x1 ![0] bcast_S32_S32x1_0),
    TRef.unary main_call0.v8 main_call0.v11 (broadcastInDim S32x1 ![] bcast_S_S32x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S32x1 ![] bcast_S_S32x1),
    TRef.ternary main_call0.v13 main_call0.v12 main_call0.call0.v1 main_call0.call0.v2 (fun p a b => select (broadcastInDim S32x1 ![] bcast_S_S32x1 p) a b) ]

/-- Layer 4 centred, rescaled and laid back out: %25 … %33. -/
def opsC4 : List (HloOp τ sig (Elt F)) :=
  [ unary main_v23 main_v25 (broadcastInDim S32x262144 ![0, 1] bcast_S32x1_S32x262144_0_1 : (⟨S32x1, .f32⟩ : BufTy).Contents (Elt F) → (⟨S32x262144, .f32⟩ : BufTy).Contents (Elt F)),
    binary main_v19 main_v25 main_v26 (subf : (⟨S32x262144, .f32⟩ : BufTy).Contents (Elt F) → (⟨S32x262144, .f32⟩ : BufTy).Contents (Elt F) → (⟨S32x262144, .f32⟩ : BufTy).Contents (Elt F)),
    nullary main_cst_3 (constant S_ .f32 0x3727C5AC#32),
    unary main_cst_3 main_v27 (broadcastInDim S32x1 ![] bcast_S_S32x1 : (⟨S_, .f32⟩ : BufTy).Contents (Elt F) → (⟨S32x1, .f32⟩ : BufTy).Contents (Elt F)),
    binary main_v24 main_v27 main_v28 (addf : (⟨S32x1, .f32⟩ : BufTy).Contents (Elt F) → (⟨S32x1, .f32⟩ : BufTy).Contents (Elt F) → (⟨S32x1, .f32⟩ : BufTy).Contents (Elt F)),
    unary main_v28 main_v29 (Host.sqrt : (⟨S32x1, .f32⟩ : BufTy).Contents (Elt F) → (⟨S32x1, .f32⟩ : BufTy).Contents (Elt F)),
    unary main_v29 main_v30 (broadcastInDim S32x262144 ![0, 1] bcast_S32x1_S32x262144_0_1 : (⟨S32x1, .f32⟩ : BufTy).Contents (Elt F) → (⟨S32x262144, .f32⟩ : BufTy).Contents (Elt F)),
    binary main_v26 main_v30 main_v31 (Host.divf : (⟨S32x262144, .f32⟩ : BufTy).Contents (Elt F) → (⟨S32x262144, .f32⟩ : BufTy).Contents (Elt F) → (⟨S32x262144, .f32⟩ : BufTy).Contents (Elt F)),
    reshape main_v31 main_v32 rfl shapeCasts_S32x262144_S1024x8192,
    unary main_v32 main_v33 ((transpose S8192x1024 [1, 0] · transposes_S1024x8192_S8192x1024_1_0) : (⟨S1024x8192, .f32⟩ : BufTy).Contents (Elt F) → (⟨S8192x1024, .f32⟩ : BufTy).Contents (Elt F)) ]

/-- Layer 4's per-channel scale and shift: %34 … %39. -/
def opsC5 : List (HloOp τ sig (Elt F)) :=
  [ unary main_arg11 main_v34 (broadcastInDim S1x1024 ![1] bcast_S1024_S1x1024_1 : (⟨S1024, .f32⟩ : BufTy).Contents (Elt F) → (⟨S1x1024, .f32⟩ : BufTy).Contents (Elt F)),
    unary main_v34 main_v35 (broadcastInDim S8192x1024 ![0, 1] bcast_S1x1024_S8192x1024_0_1 : (⟨S1x1024, .f32⟩ : BufTy).Contents (Elt F) → (⟨S8192x1024, .f32⟩ : BufTy).Contents (Elt F)),
    binary main_v33 main_v35 main_v36 (mulf : (⟨S8192x1024, .f32⟩ : BufTy).Contents (Elt F) → (⟨S8192x1024, .f32⟩ : BufTy).Contents (Elt F) → (⟨S8192x1024, .f32⟩ : BufTy).Contents (Elt F)),
    unary main_arg12 main_v37 (broadcastInDim S1x1024 ![1] bcast_S1024_S1x1024_1 : (⟨S1024, .f32⟩ : BufTy).Contents (Elt F) → (⟨S1x1024, .f32⟩ : BufTy).Contents (Elt F)),
    unary main_v37 main_v38 (broadcastInDim S8192x1024 ![0, 1] bcast_S1x1024_S8192x1024_0_1 : (⟨S1x1024, .f32⟩ : BufTy).Contents (Elt F) → (⟨S8192x1024, .f32⟩ : BufTy).Contents (Elt F)),
    binary main_v36 main_v38 main_v39 (addf : (⟨S8192x1024, .f32⟩ : BufTy).Contents (Elt F) → (⟨S8192x1024, .f32⟩ : BufTy).Contents (Elt F) → (⟨S8192x1024, .f32⟩ : BufTy).Contents (Elt F)) ]

/-- Layer 4's rectifier: %cst_4 and the outlined rectifier's operations (the selection last) over the call's buffers. -/
def opsC6 : List (HloOp τ sig (Elt F)) :=
  [ nullary main_cst_4 (constant S_ .f32 0x3DCCCCCD#32),
    TRef.nullary main_call1.cst (constant S_ .f32 0x00000000#32),
    TRef.unary main_call1.cst main_call1.v0 (broadcastInDim S8192x1024 ![] bcast_S_S8192x1024),
    TRef.binary (TRef.of main_v39 : TRef sig ⟨S8192x1024, .f32⟩) main_call1.v0 main_call1.v1 (cmpf .oge),
    TRef.unary (TRef.of main_cst_4 : TRef sig ⟨S_, .f32⟩) main_call1.v2 id,
    TRef.unary main_call1.v2 main_call1.v3 (broadcastInDim S8192x1024 ![] bcast_S_S8192x1024),
    TRef.binary main_call1.v3 (TRef.of main_v39 : TRef sig ⟨S8192x1024, .f32⟩) main_call1.v4 mulf,
    TRef.ternary main_call1.v1 (TRef.of main_v39 : TRef sig ⟨S8192x1024, .f32⟩) main_call1.v4 main_call1.call0.v0 select ]

/-- The row indices into the 8192-row table: %c_5, %41 … %46. -/
def opsD1 : List (HloOp τ sig (Elt F)) :=
  [ nullary main_c_5 (constantI S_ 32 0#32),
    unary main_c_5 main_v41 (broadcastInDim S32768 ![] bcast_S_S32768 : (⟨S_, .i32⟩ : BufTy).Contents (Elt F) → (⟨S32768, .i32⟩ : BufTy).Contents (Elt F)),
    binary main_arg5 main_v41 main_v42 (cmpi .slt : (⟨S32768, .i32⟩ : BufTy).Contents (Elt F) → (⟨S32768, .i32⟩ : BufTy).Contents (Elt F) → (⟨S32768, .i1⟩ : BufTy).Contents (Elt F)),
    nullary main_c_6 (constantI S_ 32 8192#32),
    unary main_c_6 main_v43 (broadcastInDim S32768 ![] bcast_S_S32768 : (⟨S_, .i32⟩ : BufTy).Contents (Elt F) → (⟨S32768, .i32⟩ : BufTy).Contents (Elt F)),
    binary main_arg5 main_v43 main_v44 (addi : (⟨S32768, .i32⟩ : BufTy).Contents (Elt F) → (⟨S32768, .i32⟩ : BufTy).Contents (Elt F) → (⟨S32768, .i32⟩ : BufTy).Contents (Elt F)),
    ternary main_v42 main_v44 main_arg5 main_v45 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    unary main_v45 main_v46 (broadcastInDim S32768x1 ![0] bcast_S32768_S32768x1_0 : (⟨S32768, .i32⟩ : BufTy).Contents (Elt F) → (⟨S32768x1, .i32⟩ : BufTy).Contents (Elt F)) ]

/-- The gathered rows with the level-3 features appended: %47, %48. -/
def opsD2 : List (HloOp τ sig (Elt F)) :=
  [ binary main_v40 main_v46 main_v47 ((fun x i => Host.gather gather_S8192x1024_S32768x1_S32768x1024_1_0_n_n_0_1_11024 x i) : (⟨S8192x1024, .f32⟩ : BufTy).Contents (Elt F) → (⟨S32768x1, .i32⟩ : BufTy).Contents (Elt F) → (⟨S32768x1024, .f32⟩ : BufTy).Contents (Elt F)),
    binary main_v47 main_arg1 main_v48 ((fun a b => concatenate S32768x1536 1 [⟨S32768x1024, a⟩, ⟨S32768x512, b⟩] concatenates_S32768x1024_S32768x512_S32768x1536_d1) : (⟨S32768x1024, .f32⟩ : BufTy).Contents (Elt F) → (⟨S32768x512, .f32⟩ : BufTy).Contents (Elt F) → (⟨S32768x1536, .f32⟩ : BufTy).Contents (Elt F)) ]

/-- The second decoder layer's contraction: %49, %50. -/
def opsD3 : List (HloOp τ sig (Elt F)) :=
  [ unary main_arg13 main_v49 ((transpose S1536x512 [1, 0] · transposes_S512x1536_S1536x512_1_0) : (⟨S512x1536, .f32⟩ : BufTy).Contents (Elt F) → (⟨S1536x512, .f32⟩ : BufTy).Contents (Elt F)),
    binary main_v48 main_v49 main_v50 ((fun l r => Host.dotGeneral dot_S32768x1536_S1536x512_S32768x512_1_0_0_1_n_n none l r) : (⟨S32768x1536, .f32⟩ : BufTy).Contents (Elt F) → (⟨S1536x512, .f32⟩ : BufTy).Contents (Elt F) → (⟨S32768x512, .f32⟩ : BufTy).Contents (Elt F)) ]

/-- The second decoder layer's bias: %51 … %53. -/
def opsD4 : List (HloOp τ sig (Elt F)) :=
  [ unary main_arg14 main_v51 (broadcastInDim S1x512 ![1] bcast_S512_S1x512_1 : (⟨S512, .f32⟩ : BufTy).Contents (Elt F) → (⟨S1x512, .f32⟩ : BufTy).Contents (Elt F)),
    unary main_v51 main_v52 (broadcastInDim S32768x512 ![0, 1] bcast_S1x512_S32768x512_0_1 : (⟨S1x512, .f32⟩ : BufTy).Contents (Elt F) → (⟨S32768x512, .f32⟩ : BufTy).Contents (Elt F)),
    binary main_v50 main_v52 main_v53 (addf : (⟨S32768x512, .f32⟩ : BufTy).Contents (Elt F) → (⟨S32768x512, .f32⟩ : BufTy).Contents (Elt F) → (⟨S32768x512, .f32⟩ : BufTy).Contents (Elt F)) ]

/-- Layer 3 regrouped: %54, %55. -/
def opsE1 : List (HloOp τ sig (Elt F)) :=
  [ unary main_v53 main_v54 ((transpose S512x32768 [1, 0] · transposes_S32768x512_S512x32768_1_0) : (⟨S32768x512, .f32⟩ : BufTy).Contents (Elt F) → (⟨S512x32768, .f32⟩ : BufTy).Contents (Elt F)),
    reshape main_v54 main_v55 rfl shapeCasts_S512x32768_S32x524288 ]

/-- Layer 3's group means: %cst_7, %56 … %59. -/
def opsE2 : List (HloOp τ sig (Elt F)) :=
  [ nullary main_cst_7 (constant S_ .f32 0x00000000#32),
    binary main_v55 main_cst_7 main_v56 ((fun x v => Host.reduceAdd x v reducesTo_S32x524288_S32_d1 h_S_) : (⟨S32x524288, .f32⟩ : BufTy).Contents (Elt F) → (⟨S_, .f32⟩ : BufTy).Contents (Elt F) → (⟨S32, .f32⟩ : BufTy).Contents (Elt F)),
    unary main_v56 main_v57 (broadcastInDim S32x1 ![0] bcast_S32_S32x1_0 : (⟨S32, .f32⟩ : BufTy).Contents (Elt F) → (⟨S32x1, .f32⟩ : BufTy).Contents (Elt F)),
    nullary main_cst_8 (constant S_ .f32 0x49000000#32),
    unary main_cst_8 main_v58 (broadcastInDim S32x1 ![] bcast_S_S32x1 : (⟨S_, .f32⟩ : BufTy).Contents (Elt F) → (⟨S32x1, .f32⟩ : BufTy).Contents (Elt F)),
    binary main_v57 main_v58 main_v59 (Host.divf : (⟨S32x1, .f32⟩ : BufTy).Contents (Elt F) → (⟨S32x1, .f32⟩ : BufTy).Contents (Elt F) → (⟨S32x1, .f32⟩ : BufTy).Contents (Elt F)) ]

/-- Layer 3's group variances: %c_9 and the outlined variance's operations (the selection's three last) over the
    call's buffers. -/
def opsE3 : List (HloOp τ sig (Elt F)) :=
  [ nullary main_c_9 (constantI S_ 32 0#32),
    TRef.nullary main_call2.cst (constant S_ .f32 0x00000000#32),
    TRef.binary (TRef.of main_v55 : TRef sig ⟨S32x524288, .f32⟩) main_call2.cst main_call2.v0 (fun x v => Host.reduceAdd x v reducesTo_S32x524288_S32_d1 h_S_),
    TRef.unary main_call2.v0 main_call2.v1 (broadcastInDim S32x1 ![0] bcast_S32_S32x1_0),
    TRef.nullary main_call2.cst_0 (constant S_ .f32 0x49000000#32),
    TRef.unary main_call2.cst_0 main_call2.v2 (broadcastInDim S32x1 ![] bcast_S_S32x1),
    TRef.binary main_call2.v1 main_call2.v2 main_call2.v3 Host.divf,
    TRef.unary main_call2.v3 main_call2.v4 (broadcastInDim S32x524288 ![0, 1] bcast_S32x1_S32x524288_0_1),
    TRef.binary (TRef.of main_v55 : TRef sig ⟨S32x524288, .f32⟩) main_call2.v4 main_call2.v5 subf,
    TRef.binary main_call2.v5 main_call2.v5 main_call2.v6 mulf,
    TRef.unary (TRef.of main_c_9 : TRef sig ⟨S_, .i32⟩) main_call2.v7 (sitofp .f32),
    TRef.nullary main_call2.cst_1 (constant S_ .f32 0x49000000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S32x524288_S32_d1 h_S_),
    TRef.unary main_call2.v9 main_call2.v10 (broadcastInDim S32x1 ![0] bcast_S32_S32x1_0),
    TRef.unary main_call2.v8 main_call2.v11 (broadcastInDim S32x1 ![] bcast_S_S32x1),
    TRef.binary main_call2.v10 main_call2.v11 main_call2.v12 Host.divf,
    TRef.nullary main_call2.cst_3 (constant S_ .f32 0x00000000#32),
    TRef.binary main_call2.v8 main_call2.cst_3 main_call2.v13 (cmpf .ogt),
    TRef.nullary main_call2.cst_4 (constant S_ .f32 0x7FC00000#32),
    TRef.unary main_call2.cst_4 main_call2.call0.v0 id,
    TRef.unary main_call2.call0.v0 main_call2.call0.v1 (broadcastInDim S32x1 ![] bcast_S_S32x1),
    TRef.ternary main_call2.v13 main_call2.v12 main_call2.call0.v1 main_call2.call0.v2 (fun p a b => select (broadcastInDim S32x1 ![] bcast_S_S32x1 p) a b) ]

/-- Layer 3 centred, rescaled and laid back out: %61 … %69. -/
def opsE4 : List (HloOp τ sig (Elt F)) :=
  [ unary main_v59 main_v61 (broadcastInDim S32x524288 ![0, 1] bcast_S32x1_S32x524288_0_1 : (⟨S32x1, .f32⟩ : BufTy).Contents (Elt F) → (⟨S32x524288, .f32⟩ : BufTy).Contents (Elt F)),
    binary main_v55 main_v61 main_v62 (subf : (⟨S32x524288, .f32⟩ : BufTy).Contents (Elt F) → (⟨S32x524288, .f32⟩ : BufTy).Contents (Elt F) → (⟨S32x524288, .f32⟩ : BufTy).Contents (Elt F)),
    nullary main_cst_10 (constant S_ .f32 0x3727C5AC#32),
    unary main_cst_10 main_v63 (broadcastInDim S32x1 ![] bcast_S_S32x1 : (⟨S_, .f32⟩ : BufTy).Contents (Elt F) → (⟨S32x1, .f32⟩ : BufTy).Contents (Elt F)),
    binary main_v60 main_v63 main_v64 (addf : (⟨S32x1, .f32⟩ : BufTy).Contents (Elt F) → (⟨S32x1, .f32⟩ : BufTy).Contents (Elt F) → (⟨S32x1, .f32⟩ : BufTy).Contents (Elt F)),
    unary main_v64 main_v65 (Host.sqrt : (⟨S32x1, .f32⟩ : BufTy).Contents (Elt F) → (⟨S32x1, .f32⟩ : BufTy).Contents (Elt F)),
    unary main_v65 main_v66 (broadcastInDim S32x524288 ![0, 1] bcast_S32x1_S32x524288_0_1 : (⟨S32x1, .f32⟩ : BufTy).Contents (Elt F) → (⟨S32x524288, .f32⟩ : BufTy).Contents (Elt F)),
    binary main_v62 main_v66 main_v67 (Host.divf : (⟨S32x524288, .f32⟩ : BufTy).Contents (Elt F) → (⟨S32x524288, .f32⟩ : BufTy).Contents (Elt F) → (⟨S32x524288, .f32⟩ : BufTy).Contents (Elt F)),
    reshape main_v67 main_v68 rfl shapeCasts_S32x524288_S512x32768,
    unary main_v68 main_v69 ((transpose S32768x512 [1, 0] · transposes_S512x32768_S32768x512_1_0) : (⟨S512x32768, .f32⟩ : BufTy).Contents (Elt F) → (⟨S32768x512, .f32⟩ : BufTy).Contents (Elt F)) ]

/-- Layer 3's per-channel scale and shift: %70 … %75. -/
def opsE5 : List (HloOp τ sig (Elt F)) :=
  [ unary main_arg15 main_v70 (broadcastInDim S1x512 ![1] bcast_S512_S1x512_1 : (⟨S512, .f32⟩ : BufTy).Contents (Elt F) → (⟨S1x512, .f32⟩ : BufTy).Contents (Elt F)),
    unary main_v70 main_v71 (broadcastInDim S32768x512 ![0, 1] bcast_S1x512_S32768x512_0_1 : (⟨S1x512, .f32⟩ : BufTy).Contents (Elt F) → (⟨S32768x512, .f32⟩ : BufTy).Contents (Elt F)),
    binary main_v69 main_v71 main_v72 (mulf : (⟨S32768x512, .f32⟩ : BufTy).Contents (Elt F) → (⟨S32768x512, .f32⟩ : BufTy).Contents (Elt F) → (⟨S32768x512, .f32⟩ : BufTy).Contents (Elt F)),
    unary main_arg16 main_v73 (broadcastInDim S1x512 ![1] bcast_S512_S1x512_1 : (⟨S512, .f32⟩ : BufTy).Contents (Elt F) → (⟨S1x512, .f32⟩ : BufTy).Contents (Elt F)),
    unary main_v73 main_v74 (broadcastInDim S32768x512 ![0, 1] bcast_S1x512_S32768x512_0_1 : (⟨S1x512, .f32⟩ : BufTy).Contents (Elt F) → (⟨S32768x512, .f32⟩ : BufTy).Contents (Elt F)),
    binary main_v72 main_v74 main_v75 (addf : (⟨S32768x512, .f32⟩ : BufTy).Contents (Elt F) → (⟨S32768x512, .f32⟩ : BufTy).Contents (Elt F) → (⟨S32768x512, .f32⟩ : BufTy).Contents (Elt F)) ]

/-- Layer 3's rectifier: %cst_11 and the outlined rectifier's operations (the selection last) over the call's buffers. -/
def opsE6 : List (HloOp τ sig (Elt F)) :=
  [ nullary main_cst_11 (constant S_ .f32 0x3DCCCCCD#32),
    TRef.nullary main_call3.cst (constant S_ .f32 0x00000000#32),
    TRef.unary main_call3.cst main_call3.v0 (broadcastInDim S32768x512 ![] bcast_S_S32768x512),
    TRef.binary (TRef.of main_v75 : TRef sig ⟨S32768x512, .f32⟩) main_call3.v0 main_call3.v1 (cmpf .oge),
    TRef.unary (TRef.of main_cst_11 : TRef sig ⟨S_, .f32⟩) main_call3.v2 id,
    TRef.unary main_call3.v2 main_call3.v3 (broadcastInDim S32768x512 ![] bcast_S_S32768x512),
    TRef.binary main_call3.v3 (TRef.of main_v75 : TRef sig ⟨S32768x512, .f32⟩) main_call3.v4 mulf,
    TRef.ternary main_call3.v1 (TRef.of main_v75 : TRef sig ⟨S32768x512, .f32⟩) main_call3.v4 main_call3.call0.v0 select ]

/-- The row indices into the 32768-row table: %c_12, %77 … %82. -/
def opsF1 : List (HloOp τ sig (Elt F)) :=
  [ nullary main_c_12 (constantI S_ 32 0#32),
    unary main_c_12 main_v77 (broadcastInDim S131072 ![] bcast_S_S131072 : (⟨S_, .i32⟩ : BufTy).Contents (Elt F) → (⟨S131072, .i32⟩ : BufTy).Contents (Elt F)),
    binary main_arg4 main_v77 main_v78 (cmpi .slt : (⟨S131072, .i32⟩ : BufTy).Contents (Elt F) → (⟨S131072, .i32⟩ : BufTy).Contents (Elt F) → (⟨S131072, .i1⟩ : BufTy).Contents (Elt F)),
    nullary main_c_13 (constantI S_ 32 32768#32),
    unary main_c_13 main_v79 (broadcastInDim S131072 ![] bcast_S_S131072 : (⟨S_, .i32⟩ : BufTy).Contents (Elt F) → (⟨S131072, .i32⟩ : BufTy).Contents (Elt F)),
    binary main_arg4 main_v79 main_v80 (addi : (⟨S131072, .i32⟩ : BufTy).Contents (Elt F) → (⟨S131072, .i32⟩ : BufTy).Contents (Elt F) → (⟨S131072, .i32⟩ : BufTy).Contents (Elt F)),
    ternary main_v78 main_v80 main_arg4 main_v81 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v81 main_v82 (broadcastInDim S131072x1 ![0] bcast_S131072_S131072x1_0 : (⟨S131072, .i32⟩ : BufTy).Contents (Elt F) → (⟨S131072x1, .i32⟩ : BufTy).Contents (Elt F)) ]

/-- The gathered rows with the level-2 features appended: %83, %84. -/
def opsF2 : List (HloOp τ sig (Elt F)) :=
  [ binary main_v76 main_v82 main_v83 ((fun x i => Host.gather gather_S32768x512_S131072x1_S131072x512_1_0_n_n_0_1_1512 x i) : (⟨S32768x512, .f32⟩ : BufTy).Contents (Elt F) → (⟨S131072x1, .i32⟩ : BufTy).Contents (Elt F) → (⟨S131072x512, .f32⟩ : BufTy).Contents (Elt F)),
    binary main_v83 main_arg0 main_v84 ((fun a b => concatenate S131072x768 1 [⟨S131072x512, a⟩, ⟨S131072x256, b⟩] concatenates_S131072x512_S131072x256_S131072x768_d1) : (⟨S131072x512, .f32⟩ : BufTy).Contents (Elt F) → (⟨S131072x256, .f32⟩ : BufTy).Contents (Elt F) → (⟨S131072x768, .f32⟩ : BufTy).Contents (Elt F)) ]

/-- The last layer: %85 … %89. -/
def opsF3 : List (HloOp τ sig (Elt F)) :=
  [ unary main_arg17 main_v85 ((transpose S768x256 [1, 0] · transposes_S256x768_S768x256_1_0) : (⟨S256x768, .f32⟩ : BufTy).Contents (Elt F) → (⟨S768x256, .f32⟩ : BufTy).Contents (Elt F)),
    binary main_v84 main_v85 main_v86 ((fun l r => Host.dotGeneral dot_S131072x768_S768x256_S131072x256_1_0_0_1_n_n none l r) : (⟨S131072x768, .f32⟩ : BufTy).Contents (Elt F) → (⟨S768x256, .f32⟩ : BufTy).Contents (Elt F) → (⟨S131072x256, .f32⟩ : BufTy).Contents (Elt F)),
    unary main_arg18 main_v87 (broadcastInDim S1x256 ![1] bcast_S256_S1x256_1 : (⟨S256, .f32⟩ : BufTy).Contents (Elt F) → (⟨S1x256, .f32⟩ : BufTy).Contents (Elt F)),
    unary main_v87 main_v88 (broadcastInDim S131072x256 ![0, 1] bcast_S1x256_S131072x256_0_1 : (⟨S1x256, .f32⟩ : BufTy).Contents (Elt F) → (⟨S131072x256, .f32⟩ : BufTy).Contents (Elt F)),
    binary main_v86 main_v88 main_v89 (addf : (⟨S131072x256, .f32⟩ : BufTy).Contents (Elt F) → (⟨S131072x256, .f32⟩ : BufTy).Contents (Elt F) → (⟨S131072x256, .f32⟩ : BufTy).Contents (Elt F)) ]

/-! ## @main as one line -/

/-- The operations of @main's statements 1 … 60. -/
def opsP0 : List (HloOp τ sig (Elt F)) :=
  opsA ++ (opsB1 ++ (opsB2 ++ (opsB3 ++ (opsC1 ++ (opsC2 ++ (opsC3 ++ (opsC4 ++ (opsC5 ++ (opsC6 ++ (opsD1 ++ (opsD2 ++ opsD3)))))))))))

/-- The operations of @main's statements 61 … 107. -/
def opsP1 : List (HloOp τ sig (Elt F)) :=
  opsD4 ++ (opsE1 ++ (opsE2 ++ (opsE3 ++ (opsE4 ++ (opsE5 ++ (opsE6 ++ (opsF1 ++ (opsF2 ++ opsF3))))))))

/-- @main's operations, in order. -/
def ops : List (HloOp τ sig (Elt F)) := opsP0 ++ opsP1

set_option maxRecDepth 8192 in
/-- The first sixty statements are that line: each call unfolds to its callee's statements over the call's record, and
    the sequencing on both sides is one chain of steps. -/
theorem main_part0_eq (c : Dev nD) : main_part0 (F := F) c = seq opsP0 := rfl

set_option maxRecDepth 8192 in
/-- The remaining statements likewise. -/
theorem main_part1_eq (c : Dev nD) : main_part1 (F := F) c = seq opsP1 := rfl

/-- @main is its two windows of statements in a row: the two lines run as one. -/
theorem main_eq (c : Dev nD) : main (F := F) c = seq ops := by
  simp only [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## Each stretch: what it touches, what it writes, what it keeps -/

/-- Everything a nullary operation touches is a TensorCore buffer. -/
local macro "subN" : term => `(nullary_bufs_sub ..)
/-- Everything a unary operation touches is a TensorCore buffer. -/
local macro "subU" : term => `(unary_bufs_sub ..)
/-- Everything a binary operation touches is a TensorCore buffer. -/
local macro "subB" : term => `(binary_bufs_sub ..)
/-- Everything a ternary operation touches is a TensorCore buffer. -/
local macro "subT" : term => `(ternary_bufs_sub ..)
/-- Everything a reshape touches is a TensorCore buffer. -/
local macro "subR" : term => `(reshape_bufs_sub ..)

/-- No operation of a literal line leaves a buffer undetermined, operation by operation. -/
local macro "line_fresh" : tactic =>
  `(tactic| (simp only [List.Forall]; (repeat' apply And.intro) <;> rfl))

/-- Each operation of a literal line writes a buffer of the given list, operation by operation. -/
local macro "line_writes" : tactic =>
  `(tactic| (simp only [List.Forall]; (repeat' apply And.intro) <;>
      (simp only [nullary_writes, unary_writes, binary_writes, ternary_writes, reshape_writes, Finset.singleton_subset_iff, List.mem_toFinset]
       exact List.mem_map_of_mem (by decide))))

/-- The buffers the input projection writes. -/
abbrev W_A : List (Ref sig .tc) := [main_v0, main_v1, main_v2, main_v3, main_v4]
theorem opsA_sub : (opsA (F := F)).Forall fun op => op.bufs ⊆ tcRefs τ sig := by unfold opsA; exact ⟨subU, subB, subU, subU, subB⟩
theorem opsA_fresh : (opsA (F := F)).Forall fun op => op.fresh = ∅ := by unfold opsA; line_fresh
theorem opsA_writes : (opsA (F := F)).Forall fun op => op.writes ⊆ (W_A.map (Proc.devRef (τ := τ) .tc)).toFinset := by unfold opsA; line_writes
theorem A_keep (V : Valuation τ sig (Elt F)) (r : Ref sig .tc) (h : r ∉ W_A) :
    after opsA V (no_index (Proc.devRef .tc r)) = V (Proc.devRef .tc r) := after_of_writes_sub opsA V opsA_writes h

/-- The buffers the first index stretch writes. -/
abbrev W_B1 : List (Ref sig .tc) := [main_c, main_v5, main_v6, main_c_0, main_v7, main_v8, main_v9, main_v10]
theorem opsB1_sub : (opsB1 (F := F)).Forall fun op => op.bufs ⊆ tcRefs τ sig := by unfold opsB1; exact ⟨subN, subU, subB, subN, subU, subB, subT, subU⟩
theorem opsB1_fresh : (opsB1 (F := F)).Forall fun op => op.fresh = ∅ := by unfold opsB1; line_fresh
theorem opsB1_writes : (opsB1 (F := F)).Forall fun op => op.writes ⊆ (W_B1.map (Proc.devRef (τ := τ) .tc)).toFinset := by unfold opsB1; line_writes
theorem B1_keep (V : Valuation τ sig (Elt F)) (r : Ref sig .tc) (h : r ∉ W_B1) :
    after opsB1 V (no_index (Proc.devRef .tc r)) = V (Proc.devRef .tc r) := after_of_writes_sub opsB1 V opsB1_writes h

/-- The buffers the first gather-and-append writes. -/
abbrev W_B2 : List (Ref sig .tc) := [main_v11, main_v12]
theorem opsB2_sub : (opsB2 (F := F)).Forall fun op => op.bufs ⊆ tcRefs τ sig := by unfold opsB2; exact ⟨subB, subB⟩
theorem opsB2_fresh : (opsB2 (F := F)).Forall fun op => op.fresh = ∅ := by unfold opsB2; line_fresh
theorem opsB2_writes : (opsB2 (F := F)).Forall fun op => op.writes ⊆ (W_B2.map (Proc.devRef (τ := τ) .tc)).toFinset := by unfold opsB2; line_writes
theorem B2_keep (V : Valuation τ sig (Elt F)) (r : Ref sig .tc) (h : r ∉ W_B2) :
    after opsB2 V (no_index (Proc.devRef .tc r)) = V (Proc.devRef .tc r) := after_of_writes_sub opsB2 V opsB2_writes h

/-- The buffers the first decoder layer's affine part writes. -/
abbrev W_B3 : List (Ref sig .tc) := [main_v13, main_v14, main_v15, main_v16, main_v17]
theorem opsB3_sub : (opsB3 (F := F)).Forall fun op => op.bufs ⊆ tcRefs τ sig := by unfold opsB3; exact ⟨subU, subB, subU, subU, subB⟩
theorem opsB3_fresh : (opsB3 (F := F)).Forall fun op => op.fresh = ∅ := by unfold opsB3; line_fresh
theorem opsB3_writes : (opsB3 (F := F)).Forall fun op => op.writes ⊆ (W_B3.map (Proc.devRef (τ := τ) .tc)).toFinset := by unfold opsB3; line_writes
theorem B3_keep (V : Valuation τ sig (Elt F)) (r : Ref sig .tc) (h : r ∉ W_B3) :
    after opsB3 V (no_index (Proc.devRef .tc r)) = V (Proc.devRef .tc r) := after_of_writes_sub opsB3 V opsB3_writes h

/-- The buffers layer 4's regrouping writes. -/
abbrev W_C1 : List (Ref sig .tc) := [main_v18, main_v19]
theorem opsC1_sub : (opsC1 (F := F)).Forall fun op => op.bufs ⊆ tcRefs τ sig := by unfold opsC1; exact ⟨subU, subR⟩
theorem opsC1_fresh : (opsC1 (F := F)).Forall fun op => op.fresh = ∅ := by unfold opsC1; line_fresh
theorem opsC1_writes : (opsC1 (F := F)).Forall fun op => op.writes ⊆ (W_C1.map (Proc.devRef (τ := τ) .tc)).toFinset := by unfold opsC1; line_writes
theorem C1_keep (V : Valuation τ sig (Elt F)) (r : Ref sig .tc) (h : r ∉ W_C1) :
    after opsC1 V (no_index (Proc.devRef .tc r)) = V (Proc.devRef .tc r) := after_of_writes_sub opsC1 V opsC1_writes h

/-- The buffers layer 4's group means write. -/
abbrev W_C2 : List (Ref sig .tc) := [main_cst, main_v20, main_v21, main_cst_1, main_v22, main_v23]
theorem opsC2_sub : (opsC2 (F := F)).Forall fun op => op.bufs ⊆ tcRefs τ sig := by unfold opsC2; exact ⟨subN, subB, subU, subN, subU, subB⟩
theorem opsC2_fresh : (opsC2 (F := F)).Forall fun op => op.fresh = ∅ := by unfold opsC2; line_fresh
theorem opsC2_writes : (opsC2 (F := F)).Forall fun op => op.writes ⊆ (W_C2.map (Proc.devRef (τ := τ) .tc)).toFinset := by unfold opsC2; line_writes
theorem C2_keep (V : Valuation τ sig (Elt F)) (r : Ref sig .tc) (h : r ∉ W_C2) :
    after opsC2 V (no_index (Proc.devRef .tc r)) = V (Proc.devRef .tc r) := after_of_writes_sub opsC2 V opsC2_writes h

/-- The buffers layer 4's group variances write: the call's own and its result. -/
abbrev W_C3 : List (Ref sig .tc) := [main_c_2, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_v12, main_call0_cst_3, main_call0_v13, main_call0_cst_4, main_call0_call0_v0, main_call0_call0_v1, main_v24]
theorem opsC3_sub : (opsC3 (F := F)).Forall fun op => op.bufs ⊆ tcRefs τ sig := by
  unfold opsC3
  exact ⟨subN, subN, subB, subU, subN, subU, subB, subU, subB, subB, subU, subN, subB, subN, subB, subU, subU, subB, subN, subB, subN, subU, subU, subT⟩
theorem opsC3_fresh : (opsC3 (F := F)).Forall fun op => op.fresh = ∅ := by unfold opsC3; line_fresh
theorem opsC3_writes : (opsC3 (F := F)).Forall fun op => op.writes ⊆ (W_C3.map (Proc.devRef (τ := τ) .tc)).toFinset := by unfold opsC3; line_writes
theorem C3_keep (V : Valuation τ sig (Elt F)) (r : Ref sig .tc) (h : r ∉ W_C3) :
    after opsC3 V (no_index (Proc.devRef .tc r)) = V (Proc.devRef .tc r) := after_of_writes_sub opsC3 V opsC3_writes h

/-- The buffers layer 4's centring and rescaling write. -/
abbrev W_C4 : List (Ref sig .tc) := [main_v25, main_v26, main_cst_3, main_v27, main_v28, main_v29, main_v30, main_v31, main_v32, main_v33]
theorem opsC4_sub : (opsC4 (F := F)).Forall fun op => op.bufs ⊆ tcRefs τ sig := by unfold opsC4; exact ⟨subU, subB, subN, subU, subB, subU, subU, subB, subR, subU⟩
theorem opsC4_fresh : (opsC4 (F := F)).Forall fun op => op.fresh = ∅ := by unfold opsC4; line_fresh
theorem opsC4_writes : (opsC4 (F := F)).Forall fun op => op.writes ⊆ (W_C4.map (Proc.devRef (τ := τ) .tc)).toFinset := by unfold opsC4; line_writes
theorem C4_keep (V : Valuation τ sig (Elt F)) (r : Ref sig .tc) (h : r ∉ W_C4) :
    after opsC4 V (no_index (Proc.devRef .tc r)) = V (Proc.devRef .tc r) := after_of_writes_sub opsC4 V opsC4_writes h

/-- The buffers layer 4's scale and shift write. -/
abbrev W_C5 : List (Ref sig .tc) := [main_v34, main_v35, main_v36, main_v37, main_v38, main_v39]
theorem opsC5_sub : (opsC5 (F := F)).Forall fun op => op.bufs ⊆ tcRefs τ sig := by unfold opsC5; exact ⟨subU, subU, subB, subU, subU, subB⟩
theorem opsC5_fresh : (opsC5 (F := F)).Forall fun op => op.fresh = ∅ := by unfold opsC5; line_fresh
theorem opsC5_writes : (opsC5 (F := F)).Forall fun op => op.writes ⊆ (W_C5.map (Proc.devRef (τ := τ) .tc)).toFinset := by unfold opsC5; line_writes
theorem C5_keep (V : Valuation τ sig (Elt F)) (r : Ref sig .tc) (h : r ∉ W_C5) :
    after opsC5 V (no_index (Proc.devRef .tc r)) = V (Proc.devRef .tc r) := after_of_writes_sub opsC5 V opsC5_writes h

/-- The buffers layer 4's rectifier writes: the call's own and its result. -/
abbrev W_C6 : List (Ref sig .tc) := [main_cst_4, main_call1_cst, main_call1_v0, main_call1_v1, main_call1_v2, main_call1_v3, main_call1_v4, main_v40]
theorem opsC6_sub : (opsC6 (F := F)).Forall fun op => op.bufs ⊆ tcRefs τ sig := by unfold opsC6; exact ⟨subN, subN, subU, subB, subU, subU, subB, subT⟩
theorem opsC6_fresh : (opsC6 (F := F)).Forall fun op => op.fresh = ∅ := by unfold opsC6; line_fresh
theorem opsC6_writes : (opsC6 (F := F)).Forall fun op => op.writes ⊆ (W_C6.map (Proc.devRef (τ := τ) .tc)).toFinset := by unfold opsC6; line_writes
theorem C6_keep (V : Valuation τ sig (Elt F)) (r : Ref sig .tc) (h : r ∉ W_C6) :
    after opsC6 V (no_index (Proc.devRef .tc r)) = V (Proc.devRef .tc r) := after_of_writes_sub opsC6 V opsC6_writes h

/-- The buffers the second index stretch writes. -/
abbrev W_D1 : List (Ref sig .tc) := [main_c_5, main_v41, main_v42, main_c_6, main_v43, main_v44, main_v45, main_v46]
theorem opsD1_sub : (opsD1 (F := F)).Forall fun op => op.bufs ⊆ tcRefs τ sig := by unfold opsD1; exact ⟨subN, subU, subB, subN, subU, subB, subT, subU⟩
theorem opsD1_fresh : (opsD1 (F := F)).Forall fun op => op.fresh = ∅ := by unfold opsD1; line_fresh
theorem opsD1_writes : (opsD1 (F := F)).Forall fun op => op.writes ⊆ (W_D1.map (Proc.devRef (τ := τ) .tc)).toFinset := by unfold opsD1; line_writes
theorem D1_keep (V : Valuation τ sig (Elt F)) (r : Ref sig .tc) (h : r ∉ W_D1) :
    after opsD1 V (no_index (Proc.devRef .tc r)) = V (Proc.devRef .tc r) := after_of_writes_sub opsD1 V opsD1_writes h

/-- The buffers the second gather-and-append writes. -/
abbrev W_D2 : List (Ref sig .tc) := [main_v47, main_v48]
theorem opsD2_sub : (opsD2 (F := F)).Forall fun op => op.bufs ⊆ tcRefs τ sig := by unfold opsD2; exact ⟨subB, subB⟩
theorem opsD2_fresh : (opsD2 (F := F)).Forall fun op => op.fresh = ∅ := by unfold opsD2; line_fresh
theorem opsD2_writes : (opsD2 (F := F)).Forall fun op => op.writes ⊆ (W_D2.map (Proc.devRef (τ := τ) .tc)).toFinset := by unfold opsD2; line_writes
theorem D2_keep (V : Valuation τ sig (Elt F)) (r : Ref sig .tc) (h : r ∉ W_D2) :
    after opsD2 V (no_index (Proc.devRef .tc r)) = V (Proc.devRef .tc r) := after_of_writes_sub opsD2 V opsD2_writes h

/-- The buffers the second decoder layer's contraction writes. -/
abbrev W_D3 : List (Ref sig .tc) := [main_v49, main_v50]
theorem opsD3_sub : (opsD3 (F := F)).Forall fun op => op.bufs ⊆ tcRefs τ sig := by unfold opsD3; exact ⟨subU, subB⟩
theorem opsD3_fresh : (opsD3 (F := F)).Forall fun op => op.fresh = ∅ := by unfold opsD3; line_fresh
theorem opsD3_writes : (opsD3 (F := F)).Forall fun op => op.writes ⊆ (W_D3.map (Proc.devRef (τ := τ) .tc)).toFinset := by unfold opsD3; line_writes
theorem D3_keep (V : Valuation τ sig (Elt F)) (r : Ref sig .tc) (h : r ∉ W_D3) :
    after opsD3 V (no_index (Proc.devRef .tc r)) = V (Proc.devRef .tc r) := after_of_writes_sub opsD3 V opsD3_writes h

/-- The buffers the second decoder layer's bias writes. -/
abbrev W_D4 : List (Ref sig .tc) := [main_v51, main_v52, main_v53]
theorem opsD4_sub : (opsD4 (F := F)).Forall fun op => op.bufs ⊆ tcRefs τ sig := by unfold opsD4; exact ⟨subU, subU, subB⟩
theorem opsD4_fresh : (opsD4 (F := F)).Forall fun op => op.fresh = ∅ := by unfold opsD4; line_fresh
theorem opsD4_writes : (opsD4 (F := F)).Forall fun op => op.writes ⊆ (W_D4.map (Proc.devRef (τ := τ) .tc)).toFinset := by unfold opsD4; line_writes
theorem D4_keep (V : Valuation τ sig (Elt F)) (r : Ref sig .tc) (h : r ∉ W_D4) :
    after opsD4 V (no_index (Proc.devRef .tc r)) = V (Proc.devRef .tc r) := after_of_writes_sub opsD4 V opsD4_writes h

/-- The buffers layer 3's regrouping writes. -/
abbrev W_E1 : List (Ref sig .tc) := [main_v54, main_v55]
theorem opsE1_sub : (opsE1 (F := F)).Forall fun op => op.bufs ⊆ tcRefs τ sig := by unfold opsE1; exact ⟨subU, subR⟩
theorem opsE1_fresh : (opsE1 (F := F)).Forall fun op => op.fresh = ∅ := by unfold opsE1; line_fresh
theorem opsE1_writes : (opsE1 (F := F)).Forall fun op => op.writes ⊆ (W_E1.map (Proc.devRef (τ := τ) .tc)).toFinset := by unfold opsE1; line_writes
theorem E1_keep (V : Valuation τ sig (Elt F)) (r : Ref sig .tc) (h : r ∉ W_E1) :
    after opsE1 V (no_index (Proc.devRef .tc r)) = V (Proc.devRef .tc r) := after_of_writes_sub opsE1 V opsE1_writes h

/-- The buffers layer 3's group means write. -/
abbrev W_E2 : List (Ref sig .tc) := [main_cst_7, main_v56, main_v57, main_cst_8, main_v58, main_v59]
theorem opsE2_sub : (opsE2 (F := F)).Forall fun op => op.bufs ⊆ tcRefs τ sig := by unfold opsE2; exact ⟨subN, subB, subU, subN, subU, subB⟩
theorem opsE2_fresh : (opsE2 (F := F)).Forall fun op => op.fresh = ∅ := by unfold opsE2; line_fresh
theorem opsE2_writes : (opsE2 (F := F)).Forall fun op => op.writes ⊆ (W_E2.map (Proc.devRef (τ := τ) .tc)).toFinset := by unfold opsE2; line_writes
theorem E2_keep (V : Valuation τ sig (Elt F)) (r : Ref sig .tc) (h : r ∉ W_E2) :
    after opsE2 V (no_index (Proc.devRef .tc r)) = V (Proc.devRef .tc r) := after_of_writes_sub opsE2 V opsE2_writes h

/-- The buffers layer 3's group variances write: the call's own and its result. -/
abbrev W_E3 : List (Ref sig .tc) := [main_c_9, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_v12, main_call2_cst_3, main_call2_v13, main_call2_cst_4, main_call2_call0_v0, main_call2_call0_v1, main_v60]
theorem opsE3_sub : (opsE3 (F := F)).Forall fun op => op.bufs ⊆ tcRefs τ sig := by
  unfold opsE3
  exact ⟨subN, subN, subB, subU, subN, subU, subB, subU, subB, subB, subU, subN, subB, subN, subB, subU, subU, subB, subN, subB, subN, subU, subU, subT⟩
theorem opsE3_fresh : (opsE3 (F := F)).Forall fun op => op.fresh = ∅ := by unfold opsE3; line_fresh
theorem opsE3_writes : (opsE3 (F := F)).Forall fun op => op.writes ⊆ (W_E3.map (Proc.devRef (τ := τ) .tc)).toFinset := by unfold opsE3; line_writes
theorem E3_keep (V : Valuation τ sig (Elt F)) (r : Ref sig .tc) (h : r ∉ W_E3) :
    after opsE3 V (no_index (Proc.devRef .tc r)) = V (Proc.devRef .tc r) := after_of_writes_sub opsE3 V opsE3_writes h

/-- The buffers layer 3's centring and rescaling write. -/
abbrev W_E4 : List (Ref sig .tc) := [main_v61, main_v62, main_cst_10, main_v63, main_v64, main_v65, main_v66, main_v67, main_v68, main_v69]
theorem opsE4_sub : (opsE4 (F := F)).Forall fun op => op.bufs ⊆ tcRefs τ sig := by unfold opsE4; exact ⟨subU, subB, subN, subU, subB, subU, subU, subB, subR, subU⟩
theorem opsE4_fresh : (opsE4 (F := F)).Forall fun op => op.fresh = ∅ := by unfold opsE4; line_fresh
theorem opsE4_writes : (opsE4 (F := F)).Forall fun op => op.writes ⊆ (W_E4.map (Proc.devRef (τ := τ) .tc)).toFinset := by unfold opsE4; line_writes
theorem E4_keep (V : Valuation τ sig (Elt F)) (r : Ref sig .tc) (h : r ∉ W_E4) :
    after opsE4 V (no_index (Proc.devRef .tc r)) = V (Proc.devRef .tc r) := after_of_writes_sub opsE4 V opsE4_writes h

/-- The buffers layer 3's scale and shift write. -/
abbrev W_E5 : List (Ref sig .tc) := [main_v70, main_v71, main_v72, main_v73, main_v74, main_v75]
theorem opsE5_sub : (opsE5 (F := F)).Forall fun op => op.bufs ⊆ tcRefs τ sig := by unfold opsE5; exact ⟨subU, subU, subB, subU, subU, subB⟩
theorem opsE5_fresh : (opsE5 (F := F)).Forall fun op => op.fresh = ∅ := by unfold opsE5; line_fresh
theorem opsE5_writes : (opsE5 (F := F)).Forall fun op => op.writes ⊆ (W_E5.map (Proc.devRef (τ := τ) .tc)).toFinset := by unfold opsE5; line_writes
theorem E5_keep (V : Valuation τ sig (Elt F)) (r : Ref sig .tc) (h : r ∉ W_E5) :
    after opsE5 V (no_index (Proc.devRef .tc r)) = V (Proc.devRef .tc r) := after_of_writes_sub opsE5 V opsE5_writes h

/-- The buffers layer 3's rectifier writes: the call's own and its result. -/
abbrev W_E6 : List (Ref sig .tc) := [main_cst_11, main_call3_cst, main_call3_v0, main_call3_v1, main_call3_v2, main_call3_v3, main_call3_v4, main_v76]
theorem opsE6_sub : (opsE6 (F := F)).Forall fun op => op.bufs ⊆ tcRefs τ sig := by unfold opsE6; exact ⟨subN, subN, subU, subB, subU, subU, subB, subT⟩
theorem opsE6_fresh : (opsE6 (F := F)).Forall fun op => op.fresh = ∅ := by unfold opsE6; line_fresh
theorem opsE6_writes : (opsE6 (F := F)).Forall fun op => op.writes ⊆ (W_E6.map (Proc.devRef (τ := τ) .tc)).toFinset := by unfold opsE6; line_writes
theorem E6_keep (V : Valuation τ sig (Elt F)) (r : Ref sig .tc) (h : r ∉ W_E6) :
    after opsE6 V (no_index (Proc.devRef .tc r)) = V (Proc.devRef .tc r) := after_of_writes_sub opsE6 V opsE6_writes h

/-- The buffers the third index stretch writes. -/
abbrev W_F1 : List (Ref sig .tc) := [main_c_12, main_v77, main_v78, main_c_13, main_v79, main_v80, main_v81, main_v82]
theorem opsF1_sub : (opsF1 (F := F)).Forall fun op => op.bufs ⊆ tcRefs τ sig := by unfold opsF1; exact ⟨subN, subU, subB, subN, subU, subB, subT, subU⟩
theorem opsF1_fresh : (opsF1 (F := F)).Forall fun op => op.fresh = ∅ := by unfold opsF1; line_fresh
theorem opsF1_writes : (opsF1 (F := F)).Forall fun op => op.writes ⊆ (W_F1.map (Proc.devRef (τ := τ) .tc)).toFinset := by unfold opsF1; line_writes
theorem F1_keep (V : Valuation τ sig (Elt F)) (r : Ref sig .tc) (h : r ∉ W_F1) :
    after opsF1 V (no_index (Proc.devRef .tc r)) = V (Proc.devRef .tc r) := after_of_writes_sub opsF1 V opsF1_writes h

/-- The buffers the third gather-and-append writes. -/
abbrev W_F2 : List (Ref sig .tc) := [main_v83, main_v84]
theorem opsF2_sub : (opsF2 (F := F)).Forall fun op => op.bufs ⊆ tcRefs τ sig := by unfold opsF2; exact ⟨subB, subB⟩
theorem opsF2_fresh : (opsF2 (F := F)).Forall fun op => op.fresh = ∅ := by unfold opsF2; line_fresh
theorem opsF2_writes : (opsF2 (F := F)).Forall fun op => op.writes ⊆ (W_F2.map (Proc.devRef (τ := τ) .tc)).toFinset := by unfold opsF2; line_writes
theorem F2_keep (V : Valuation τ sig (Elt F)) (r : Ref sig .tc) (h : r ∉ W_F2) :
    after opsF2 V (no_index (Proc.devRef .tc r)) = V (Proc.devRef .tc r) := after_of_writes_sub opsF2 V opsF2_writes h

/-- The buffers the last layer writes. -/
abbrev W_F3 : List (Ref sig .tc) := [main_v85, main_v86, main_v87, main_v88, main_v89]
theorem opsF3_sub : (opsF3 (F := F)).Forall fun op => op.bufs ⊆ tcRefs τ sig := by unfold opsF3; exact ⟨subU, subB, subU, subU, subB⟩
theorem opsF3_fresh : (opsF3 (F := F)).Forall fun op => op.fresh = ∅ := by unfold opsF3; line_fresh
theorem opsF3_writes : (opsF3 (F := F)).Forall fun op => op.writes ⊆ (W_F3.map (Proc.devRef (τ := τ) .tc)).toFinset := by unfold opsF3; line_writes
theorem F3_keep (V : Valuation τ sig (Elt F)) (r : Ref sig .tc) (h : r ∉ W_F3) :
    after opsF3 V (no_index (Proc.devRef .tc r)) = V (Proc.devRef .tc r) := after_of_writes_sub opsF3 V opsF3_writes h

/-! ## The whole line -/

/-- Every buffer @main's operations touch is a TensorCore buffer: stretch by stretch. -/
theorem ops_sub : (ops (F := F)).Forall fun op => op.bufs ⊆ tcRefs τ sig := by
  simp only [ops, opsP0, opsP1, List.forall_append]
  exact ⟨⟨opsA_sub, opsB1_sub, opsB2_sub, opsB3_sub, opsC1_sub, opsC2_sub, opsC3_sub, opsC4_sub, opsC5_sub, opsC6_sub,
      opsD1_sub, opsD2_sub, opsD3_sub⟩,
    opsD4_sub, opsE1_sub, opsE2_sub, opsE3_sub, opsE4_sub, opsE5_sub, opsE6_sub, opsF1_sub, opsF2_sub, opsF3_sub⟩

/-- No operation of @main leaves a buffer undetermined: stretch by stretch. -/
theorem ops_fresh : ∀ op ∈ (ops (F := F)), op.fresh = ∅ := by
  have h : (ops (F := F)).Forall fun op => op.fresh = ∅ := by
    simp only [ops, opsP0, opsP1, List.forall_append]
    exact ⟨⟨opsA_fresh, opsB1_fresh, opsB2_fresh, opsB3_fresh, opsC1_fresh, opsC2_fresh, opsC3_fresh, opsC4_fresh, opsC5_fresh, opsC6_fresh,
        opsD1_fresh, opsD2_fresh, opsD3_fresh⟩,
      opsD4_fresh, opsE1_fresh, opsE2_fresh, opsE3_fresh, opsE4_fresh, opsE5_fresh, opsE6_fresh, opsF1_fresh, opsF2_fresh, opsF3_fresh⟩
  exact List.forall_iff_forall_mem.mp h

/-- Every buffer @main writes. -/
abbrev W_all : List (Ref sig .tc) :=
  W_A ++ (W_B1 ++ (W_B2 ++ (W_B3 ++ (W_C1 ++ (W_C2 ++ (W_C3 ++ (W_C4 ++ (W_C5 ++ (W_C6 ++ (W_D1 ++ (W_D2 ++ (W_D3 ++
    (W_D4 ++ (W_E1 ++ (W_E2 ++ (W_E3 ++ (W_E4 ++ (W_E5 ++ (W_E6 ++ (W_F1 ++ (W_F2 ++ W_F3)))))))))))))))))))))

/-- @main's operations run from contents `V`, stretch after stretch. -/
theorem after_ops (V : Valuation τ sig (Elt F)) :
    after ops V = after opsF3 (after opsF2 (after opsF1 (after opsE6 (after opsE5 (after opsE4 (after opsE3 (after opsE2 (after opsE1
      (after opsD4 (after opsD3 (after opsD2 (after opsD1 (after opsC6 (after opsC5 (after opsC4 (after opsC3 (after opsC2 (after opsC1
      (after opsB3 (after opsB2 (after opsB1 (after opsA V)))))))))))))))))))))) := by
  simp only [ops, opsP0, opsP1, after_append]

/-- A buffer @main does not write keeps its contents through the whole line: through each stretch in turn. -/
theorem ops_keep (V : Valuation τ sig (Elt F)) (r : Ref sig .tc) (h : r ∉ W_all) :
    after ops V (Proc.devRef .tc r) = V (Proc.devRef .tc r) := by
  simp only [W_all, List.mem_append, not_or] at h
  obtain ⟨hA, hB1, hB2, hB3, hC1, hC2, hC3, hC4, hC5, hC6, hD1, hD2, hD3, hD4, hE1, hE2, hE3, hE4, hE5, hE6, hF1, hF2, hF3⟩ := h
  rw [after_ops, F3_keep _ r hF3, F2_keep _ r hF2, F1_keep _ r hF1, E6_keep _ r hE6, E5_keep _ r hE5, E4_keep _ r hE4, E3_keep _ r hE3,
    E2_keep _ r hE2, E1_keep _ r hE1, D4_keep _ r hD4, D3_keep _ r hD3, D2_keep _ r hD2, D1_keep _ r hD1, C6_keep _ r hC6, C5_keep _ r hC5,
    C4_keep _ r hC4, C3_keep _ r hC3, C2_keep _ r hC2, C1_keep _ r hC1, B3_keep _ r hB3, B2_keep _ r hB2, B1_keep _ r hB1, A_keep _ r hA]

end Cert.ReferenceIdeal.Val

end
-- ==== Proof.RefRun.lean ====
/-
  The reference's @main runs: every weakly fair execution terminates without a fault, with the result buffer at the
  reference's term (the four affine layers, the two normalised and rectified ones, the three gather-and-append maps
  between them) of the arguments' launch contents, and the arguments unchanged.

  The line of operations is read stretch by stretch from ANY contents of the device's buffers: a stretch's result is the
  matching function of the reference's term at the contents of the buffers the stretch reads; a buffer a stretch does
  not write keeps its contents through it.  The stretches in a row then give the whole term: each stage's input is the
  stage before's result, each argument is read unchanged through every stretch before its use.
-/
import proofs.«119478_j39633958207498_1_alg».proof.Proof.RefOps
import Idealize.ShloMosaic.Adequacy
import Idealize.ShloMosaic.Init

noncomputable section

namespace Cert.ReferenceIdeal.Val

open Cert.ReferenceIdeal Cert.ReferenceIdeal.Facts₀ Cert.ReferenceIdeal.Facts
open Idealize.ShloMosaic Idealize.ShloMosaic.TcCoe Idealize.SL.Sem Idealize.ShloMosaic.StableHlo

variable (V : Valuation τ sig (Elt Ideal))

/-! ## Each stretch's result, from any contents -/

/-- The input projection's result. -/
theorem A_v4 : after opsA V (no_index (Proc.devRef .tc main_v4))
    = Term.x5 (V (Proc.devRef .tc main_arg3)) (V (Proc.devRef .tc main_arg7)) (V (Proc.devRef .tc main_arg8)) := by
  unfold opsA
  after_results
  rfl

/-- The first gather-and-append's result: the index stretch's column feeds the gather. -/
theorem B12_v12 : after opsB2 (after opsB1 V) (no_index (Proc.devRef .tc main_v12))
    = Term.pre4 (V (Proc.devRef .tc main_arg2)) (V (Proc.devRef .tc main_arg6)) (V (Proc.devRef .tc main_v4)) := by
  unfold opsB1 opsB2
  after_results
  rfl

/-- The first decoder layer's affine part. -/
theorem B3_v17 : after opsB3 V (no_index (Proc.devRef .tc main_v17))
    = Term.y4 (V (Proc.devRef .tc main_v12)) (V (Proc.devRef .tc main_arg9)) (V (Proc.devRef .tc main_arg10)) := by
  unfold opsB3
  after_results
  rfl

/-- Layer 4 regrouped. -/
theorem C1_v19 : after opsC1 V (no_index (Proc.devRef .tc main_v19)) = Term.grp4 (V (Proc.devRef .tc main_v17)) := by
  unfold opsC1
  after_results
  rfl

/-- Layer 4's group means. -/
theorem C2_v23 : after opsC2 V (no_index (Proc.devRef .tc main_v23)) = Term.mean4 (V (Proc.devRef .tc main_v19)) := by
  unfold opsC2
  after_results
  rfl

/-- Layer 4's group variances: the outlined variance's operations composed (its own mean among them), the count's
    comparison selecting the quotient over the not-a-number word. -/
theorem C3_v24 : after opsC3 V (no_index (Proc.devRef .tc main_v24)) = Term.var4 (V (Proc.devRef .tc main_v19)) := by
  unfold opsC3
  after_results_simp
  rfl

/-- Layer 4 centred by the mean buffer, divided by the root of the variance buffer plus ε, laid back out. -/
theorem C4_v33 : after opsC4 V (no_index (Proc.devRef .tc main_v33))
    = Term.ung4 (Host.divf (subf (V (Proc.devRef .tc main_v19)) (broadcastInDim S32x262144 ![0, 1] bcast_S32x1_S32x262144_0_1 (V (Proc.devRef .tc main_v23))))
        (broadcastInDim S32x262144 ![0, 1] bcast_S32x1_S32x262144_0_1
          (Host.sqrt (addf (V (Proc.devRef .tc main_v24)) (broadcastInDim S32x1 ![] bcast_S_S32x1 (constant (F := Ideal) S_ .f32 0x3727C5AC#32)))))) := by
  unfold opsC4
  after_results
  rfl

/-- Layer 4's per-channel scale and shift. -/
theorem C5_v39 : after opsC5 V (no_index (Proc.devRef .tc main_v39))
    = Term.aff4 (V (Proc.devRef .tc main_v33)) (V (Proc.devRef .tc main_arg11)) (V (Proc.devRef .tc main_arg12)) := by
  unfold opsC5
  after_results
  rfl

/-- Layer 4's rectifier: the outlined function's operations composed. -/
theorem C6_v40 : after opsC6 V (no_index (Proc.devRef .tc main_v40)) = Term.lrelu4 (V (Proc.devRef .tc main_v39)) := by
  unfold opsC6
  after_results
  rfl

/-- Layer 4's normalisation and rectifier: the six stretches in a row, the regrouped array, the means and the variances
    kept through the stretches between their writing and their reading. -/
theorem C_v40 : after opsC6 (after opsC5 (after opsC4 (after opsC3 (after opsC2 (after opsC1 V))))) (no_index (Proc.devRef .tc main_v40))
    = Term.z4 (V (Proc.devRef .tc main_v17)) (V (Proc.devRef .tc main_arg11)) (V (Proc.devRef .tc main_arg12)) := by
  simp (disch := decide) only [C6_v40, C5_v39, C4_v33, C3_v24, C2_v23, C1_v19, C1_keep, C2_keep, C3_keep, C4_keep, C5_keep]
  rfl

/-- The second gather-and-append's result. -/
theorem D12_v48 : after opsD2 (after opsD1 V) (no_index (Proc.devRef .tc main_v48))
    = Term.pre3 (V (Proc.devRef .tc main_arg1)) (V (Proc.devRef .tc main_arg5)) (V (Proc.devRef .tc main_v40)) := by
  unfold opsD1 opsD2
  after_results
  rfl

/-- The second decoder layer's affine part: the contraction, then the bias. -/
theorem D34_v53 : after opsD4 (after opsD3 V) (no_index (Proc.devRef .tc main_v53))
    = Term.y3 (V (Proc.devRef .tc main_v48)) (V (Proc.devRef .tc main_arg13)) (V (Proc.devRef .tc main_arg14)) := by
  unfold opsD3 opsD4
  after_results
  rfl

/-- Layer 3 regrouped. -/
theorem E1_v55 : after opsE1 V (no_index (Proc.devRef .tc main_v55)) = Term.grp3 (V (Proc.devRef .tc main_v53)) := by
  unfold opsE1
  after_results
  rfl

/-- Layer 3's group means. -/
theorem E2_v59 : after opsE2 V (no_index (Proc.devRef .tc main_v59)) = Term.mean3 (V (Proc.devRef .tc main_v55)) := by
  unfold opsE2
  after_results
  rfl

/-- Layer 3's group variances: the outlined variance's operations composed. -/
theorem E3_v60 : after opsE3 V (no_index (Proc.devRef .tc main_v60)) = Term.var3 (V (Proc.devRef .tc main_v55)) := by
  unfold opsE3
  after_results_simp
  rfl

/-- Layer 3 centred by the mean buffer, divided by the root of the variance buffer plus ε, laid back out. -/
theorem E4_v69 : after opsE4 V (no_index (Proc.devRef .tc main_v69))
    = Term.ung3 (Host.divf (subf (V (Proc.devRef .tc main_v55)) (broadcastInDim S32x524288 ![0, 1] bcast_S32x1_S32x524288_0_1 (V (Proc.devRef .tc main_v59))))
        (broadcastInDim S32x524288 ![0, 1] bcast_S32x1_S32x524288_0_1
          (Host.sqrt (addf (V (Proc.devRef .tc main_v60)) (broadcastInDim S32x1 ![] bcast_S_S32x1 (constant (F := Ideal) S_ .f32 0x3727C5AC#32)))))) := by
  unfold opsE4
  after_results
  rfl

/-- Layer 3's per-channel scale and shift. -/
theorem E5_v75 : after opsE5 V (no_index (Proc.devRef .tc main_v75))
    = Term.aff3 (V (Proc.devRef .tc main_v69)) (V (Proc.devRef .tc main_arg15)) (V (Proc.devRef .tc main_arg16)) := by
  unfold opsE5
  after_results
  rfl

/-- Layer 3's rectifier: the outlined function's operations composed. -/
theorem E6_v76 : after opsE6 V (no_index (Proc.devRef .tc main_v76)) = Term.lrelu3 (V (Proc.devRef .tc main_v75)) := by
  unfold opsE6
  after_results
  rfl

/-- Layer 3's normalisation and rectifier: the six stretches in a row. -/
theorem E_v76 : after opsE6 (after opsE5 (after opsE4 (after opsE3 (after opsE2 (after opsE1 V))))) (no_index (Proc.devRef .tc main_v76))
    = Term.z3 (V (Proc.devRef .tc main_v53)) (V (Proc.devRef .tc main_arg15)) (V (Proc.devRef .tc main_arg16)) := by
  simp (disch := decide) only [E6_v76, E5_v75, E4_v69, E3_v60, E2_v59, E1_v55, E1_keep, E2_keep, E3_keep, E4_keep, E5_keep]
  rfl

/-- The third gather-and-append's result. -/
theorem F12_v84 : after opsF2 (after opsF1 V) (no_index (Proc.devRef .tc main_v84))
    = Term.pre2 (V (Proc.devRef .tc main_arg0)) (V (Proc.devRef .tc main_arg4)) (V (Proc.devRef .tc main_v76)) := by
  unfold opsF1 opsF2
  after_results
  rfl

/-- The last layer. -/
theorem F3_v89 : after opsF3 V (no_index (Proc.devRef .tc main_v89))
    = Term.out (V (Proc.devRef .tc main_v84)) (V (Proc.devRef .tc main_arg17)) (V (Proc.devRef .tc main_arg18)) := by
  unfold opsF3
  after_results
  rfl

/-! ## The whole line's result -/

/-- The result buffer after @main's operations from contents `V`: each stage's result read at the stage before it, an
    argument read through every stretch before its use. -/
theorem ops_v89 : after ops V (Proc.devRef .tc main_v89)
    = Term.result (V (Proc.devRef .tc main_arg0)) (V (Proc.devRef .tc main_arg1)) (V (Proc.devRef .tc main_arg2)) (V (Proc.devRef .tc main_arg3))
        (V (Proc.devRef .tc main_arg4)) (V (Proc.devRef .tc main_arg5)) (V (Proc.devRef .tc main_arg6)) (V (Proc.devRef .tc main_arg7))
        (V (Proc.devRef .tc main_arg8)) (V (Proc.devRef .tc main_arg9)) (V (Proc.devRef .tc main_arg10)) (V (Proc.devRef .tc main_arg11))
        (V (Proc.devRef .tc main_arg12)) (V (Proc.devRef .tc main_arg13)) (V (Proc.devRef .tc main_arg14)) (V (Proc.devRef .tc main_arg15))
        (V (Proc.devRef .tc main_arg16)) (V (Proc.devRef .tc main_arg17)) (V (Proc.devRef .tc main_arg18)) := by
  rw [after_ops]
  simp (disch := decide) only [F3_v89, F12_v84, E_v76, D34_v53, D12_v48, C_v40, B3_v17, B12_v12, A_v4,
    A_keep, B1_keep, B2_keep, B3_keep, C1_keep, C2_keep, C3_keep, C4_keep, C5_keep, C6_keep, D1_keep, D2_keep, D3_keep, D4_keep,
    E1_keep, E2_keep, E3_keep, E4_keep, E5_keep, E6_keep, F1_keep, F2_keep, F3_keep]
  rfl

/-- On every device, from any memory with zero counters: every weakly fair execution of the reference's @main
    terminates without a fault, with the result buffer at the reference's term of the arguments' launch contents and the
    nineteen arguments unchanged (no operation writes an argument). -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v89)
        = Term.result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
            (m ((c.tc : Thread nD τ).loc main_arg9)) (m ((c.tc : Thread nD τ).loc main_arg10)) (m ((c.tc : Thread nD τ).loc main_arg11))
            (m ((c.tc : Thread nD τ).loc main_arg12)) (m ((c.tc : Thread nD τ).loc main_arg13)) (m ((c.tc : Thread nD τ).loc main_arg14))
            (m ((c.tc : Thread nD τ).loc main_arg15)) (m ((c.tc : Thread nD τ).loc main_arg16)) (m ((c.tc : Thread nD τ).loc main_arg17))
            (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨(h c main_v89).trans (ops_v89 (launchContents m c)),
      (h c main_arg0).trans (ops_keep (launchContents m c) main_arg0 (by decide)),
      (h c main_arg1).trans (ops_keep (launchContents m c) main_arg1 (by decide)),
      (h c main_arg2).trans (ops_keep (launchContents m c) main_arg2 (by decide)),
      (h c main_arg3).trans (ops_keep (launchContents m c) main_arg3 (by decide)),
      (h c main_arg4).trans (ops_keep (launchContents m c) main_arg4 (by decide)),
      (h c main_arg5).trans (ops_keep (launchContents m c) main_arg5 (by decide)),
      (h c main_arg6).trans (ops_keep (launchContents m c) main_arg6 (by decide)),
      (h c main_arg7).trans (ops_keep (launchContents m c) main_arg7 (by decide)),
      (h c main_arg8).trans (ops_keep (launchContents m c) main_arg8 (by decide)),
      (h c main_arg9).trans (ops_keep (launchContents m c) main_arg9 (by decide)),
      (h c main_arg10).trans (ops_keep (launchContents m c) main_arg10 (by decide)),
      (h c main_arg11).trans (ops_keep (launchContents m c) main_arg11 (by decide)),
      (h c main_arg12).trans (ops_keep (launchContents m c) main_arg12 (by decide)),
      (h c main_arg13).trans (ops_keep (launchContents m c) main_arg13 (by decide)),
      (h c main_arg14).trans (ops_keep (launchContents m c) main_arg14 (by decide)),
      (h c main_arg15).trans (ops_keep (launchContents m c) main_arg15 (by decide)),
      (h c main_arg16).trans (ops_keep (launchContents m c) main_arg16 (by decide)),
      (h c main_arg17).trans (ops_keep (launchContents m c) main_arg17 (by decide)),
      (h c main_arg18).trans (ops_keep (launchContents m c) main_arg18 (by decide))⟩)
    (run_seq scopedRefs_eq scopedSems_eq defs main (fun _ => ops) main_eq (fun _ => ops_sub) m ρ (fun _ => ops_fresh))

end Cert.ReferenceIdeal.Val

end
-- ==== Proof.KPre.lean ====
/-
  The gathered-rows-with-appended-columns maps of the kernel's @main, as the host operations between its launches
  spell them: a negative row index is wrapped once by the table's height, the indices are laid out as a column, the
  table's rows are gathered there and the matching feature block is appended along the columns.
-/
import proofs.«119478_j39633958207498_1_alg».proof.Proof.Spec
import proofs.«119478_j39633958207498_1_alg».proof.KernelIdeal
import proofs.«119478_j39633958207498_1_alg».proof.Proof.Gen.KernelIdeal

noncomputable section

namespace Cert.KernelIdeal.Val

open Idealize.ShloMosaic Idealize.SL.Sem
open Cert.KernelIdeal Cert.KernelIdeal.Facts₀ Cert.KernelIdeal.Facts

/-- The row indices into the 2048-row table: a negative index wrapped once, laid out as a column. -/
def idx4 (a : IVec S8192 32) : IVec S8192x1 32 :=
  broadcastInDim S8192x1 ![0] bcast_S8192_S8192x1_0
    (select (cmpi .slt a (broadcastInDim S8192 ![] bcast_S_S8192 (constantI S_ 32 0#32)))
      (addi a (broadcastInDim S8192 ![] bcast_S_S8192 (constantI S_ 32 2048#32))) a)

/-- The row indices into the 8192-row table. -/
def idx3 (a : IVec S32768 32) : IVec S32768x1 32 :=
  broadcastInDim S32768x1 ![0] bcast_S32768_S32768x1_0
    (select (cmpi .slt a (broadcastInDim S32768 ![] bcast_S_S32768 (constantI S_ 32 0#32)))
      (addi a (broadcastInDim S32768 ![] bcast_S_S32768 (constantI S_ 32 8192#32))) a)

/-- The row indices into the 32768-row table. -/
def idx2 (a : IVec S131072 32) : IVec S131072x1 32 :=
  broadcastInDim S131072x1 ![0] bcast_S131072_S131072x1_0
    (select (cmpi .slt a (broadcastInDim S131072 ![] bcast_S_S131072 (constantI S_ 32 0#32)))
      (addi a (broadcastInDim S131072 ![] bcast_S_S131072 (constantI S_ 32 32768#32))) a)

variable (m : (ℓ : Loc nD τ sig) → Buf (Elt Ideal) ℓ)

/-- Rows of the projected coarsest features gathered at `up3`, the level-4 features appended. -/
def pre4 (c : Dev nD) : Cert.Spec.Arr2 2048 2048 → Cert.Spec.Arr2 8192 3072 :=
  fun T => Cert.Spec.pre gather_S2048x2048_S8192x1_S8192x2048_1_0_n_n_0_1_12048 1 concatenates_S8192x2048_S8192x1024_S8192x3072_d1 T
    (idx4 (m ((c.tc : Thread nD τ).loc main_arg6))) (m ((c.tc : Thread nD τ).loc main_arg2))
/-- Rows of the first decoder layer's result gathered at `up2`, the level-3 features appended. -/
def pre3 (c : Dev nD) : Cert.Spec.Arr2 8192 1024 → Cert.Spec.Arr2 32768 1536 :=
  fun T => Cert.Spec.pre gather_S8192x1024_S32768x1_S32768x1024_1_0_n_n_0_1_11024 1 concatenates_S32768x1024_S32768x512_S32768x1536_d1 T
    (idx3 (m ((c.tc : Thread nD τ).loc main_arg5))) (m ((c.tc : Thread nD τ).loc main_arg1))
/-- Rows of the second decoder layer's result gathered at `up1`, the level-2 features appended. -/
def pre2 (c : Dev nD) : Cert.Spec.Arr2 32768 512 → Cert.Spec.Arr2 131072 768 :=
  fun T => Cert.Spec.pre gather_S32768x512_S131072x1_S131072x512_1_0_n_n_0_1_1512 1 concatenates_S131072x512_S131072x256_S131072x768_d1 T
    (idx2 (m ((c.tc : Thread nD τ).loc main_arg4))) (m ((c.tc : Thread nD τ).loc main_arg0))

end Cert.KernelIdeal.Val

end
-- ==== Proof.KChainBase.lean ====
/-
  Which buffers a stretch of host operations or a launch leaves alone. A stretch rewrites only its operations'
  result buffers and a launch only its windows' arrays, so an argument array that no launch so far has had as a
  window holds its launch contents at each boundary of the program, and a launch's result that a later stretch does
  not write is still there after it.
-/
import proofs.«119478_j39633958207498_1_alg».proof.Proof.Spec
import proofs.«119478_j39633958207498_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Spec

variable (m : (ℓ : Loc nD τ sig) → Buf (Elt Ideal) ℓ) (ρ : Dev nD → PrngReg)

/-! ## The result buffers of each stretch of host operations -/

/-- The buffers stretch 0's operations write, in order. -/
abbrev wr0 : List (Ref sig .tc) := [main_v0]
theorem wr0_sub : (hostOps0 : List (HloOp τ sig (Elt Ideal))).Forall fun op => op.writes ⊆ (wr0.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  exact List.mem_map_of_mem (by decide)
/-- A buffer outside that list is as it was before the stretch. -/
theorem W1_keep (c : Dev nD) (b : Ref sig .tc) (hb : b ∉ wr0) :
    W1 m ρ c (Proc.devRef .tc b) = W0 m ρ c (Proc.devRef .tc b) :=
  StableHlo.after_of_writes_sub hostOps0 _ wr0_sub hb

/-- The buffers stretch 1's operations write, in order. -/
abbrev wr1 : List (Ref sig .tc) := [main_c, main_v2, main_v3, main_c_0, main_v4, main_v5, main_v6, main_v7, main_v8, main_v9, main_v10]
theorem wr1_sub : (hostOps1 : List (HloOp τ sig (Elt Ideal))).Forall fun op => op.writes ⊆ (wr1.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer outside that list is as it was before the stretch. -/
theorem W3_keep (c : Dev nD) (b : Ref sig .tc) (hb : b ∉ wr1) :
    W3 m ρ c (Proc.devRef .tc b) = W2 m ρ c (Proc.devRef .tc b) :=
  StableHlo.after_of_writes_sub hostOps1 _ wr1_sub hb

/-- The buffers stretch 2's operations write, in order. -/
abbrev wr2 : List (Ref sig .tc) := [main_v12, main_v13, main_v14, main_cst, main_v15, main_v16, main_cst_1, main_v17, main_cst_2, main_v18, main_v19, main_cst_3, main_v20, main_v21, main_v22, main_v23, main_cst_4, main_v24, main_v25, main_v26, main_cst_5, main_v27, main_v28, main_v29, main_v30, main_v31, main_v32, main_v33, main_v34, main_v35, main_v36, main_v37]
theorem wr2_sub : (hostOps2 : List (HloOp τ sig (Elt Ideal))).Forall fun op => op.writes ⊆ (wr2.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer outside that list is as it was before the stretch. -/
theorem W5_keep (c : Dev nD) (b : Ref sig .tc) (hb : b ∉ wr2) :
    W5 m ρ c (Proc.devRef .tc b) = W4 m ρ c (Proc.devRef .tc b) :=
  StableHlo.after_of_writes_sub hostOps2 _ wr2_sub hb

/-- The buffers stretch 3's operations write, in order. -/
abbrev wr3 : List (Ref sig .tc) := [main_c_6, main_v39, main_v40, main_c_7, main_v41, main_v42, main_v43, main_v44, main_v45, main_v46, main_v47]
theorem wr3_sub : (hostOps3 : List (HloOp τ sig (Elt Ideal))).Forall fun op => op.writes ⊆ (wr3.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer outside that list is as it was before the stretch. -/
theorem W7_keep (c : Dev nD) (b : Ref sig .tc) (hb : b ∉ wr3) :
    W7 m ρ c (Proc.devRef .tc b) = W6 m ρ c (Proc.devRef .tc b) :=
  StableHlo.after_of_writes_sub hostOps3 _ wr3_sub hb

/-- The buffers stretch 4's operations write, in order. -/
abbrev wr4 : List (Ref sig .tc) := [main_v49, main_v50, main_v51, main_cst_8, main_v52, main_v53, main_cst_9, main_v54, main_cst_10, main_v55, main_v56, main_cst_11, main_v57, main_v58, main_v59, main_v60, main_cst_12, main_v61, main_v62, main_v63, main_cst_13, main_v64, main_v65, main_v66, main_v67, main_v68, main_v69, main_v70, main_v71, main_v72, main_v73, main_v74]
theorem wr4_sub : (hostOps4 : List (HloOp τ sig (Elt Ideal))).Forall fun op => op.writes ⊆ (wr4.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer outside that list is as it was before the stretch. -/
theorem W9_keep (c : Dev nD) (b : Ref sig .tc) (hb : b ∉ wr4) :
    W9 m ρ c (Proc.devRef .tc b) = W8 m ρ c (Proc.devRef .tc b) :=
  StableHlo.after_of_writes_sub hostOps4 _ wr4_sub hb

/-- The buffers stretch 5's operations write, in order. -/
abbrev wr5 : List (Ref sig .tc) := [main_c_14, main_v76, main_v77, main_c_15, main_v78, main_v79, main_v80, main_v81, main_v82, main_v83, main_v84]
theorem wr5_sub : (hostOps5 : List (HloOp τ sig (Elt Ideal))).Forall fun op => op.writes ⊆ (wr5.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer outside that list is as it was before the stretch. -/
theorem W11_keep (c : Dev nD) (b : Ref sig .tc) (hb : b ∉ wr5) :
    W11 m ρ c (Proc.devRef .tc b) = W10 m ρ c (Proc.devRef .tc b) :=
  StableHlo.after_of_writes_sub hostOps5 _ wr5_sub hb

/-! ## The argument arrays at every boundary

An argument keeps its launch contents up to the launch that has it as a window (the first affine layer's two
matrices, then each later layer's weight matrix); the lists drop those as the program passes them. -/

/-- The program's nineteen argument arrays. -/
abbrev args1 : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18]
/-- Without the first layer's two matrices. -/
abbrev args2 : List (Ref sig .tc) := [main_arg0, main_arg1, main_arg2, main_arg4, main_arg5, main_arg6, main_arg8, main_arg9, main_arg10, main_arg11, main_arg12, main_arg13, main_arg14, main_arg15, main_arg16, main_arg17, main_arg18]
/-- Without the second layer's weights either. -/
abbrev args4 : List (Ref sig .tc) := [main_arg0, main_arg1, main_arg2, main_arg4, main_arg5, main_arg6, main_arg8, main_arg10, main_arg11, main_arg12, main_arg13, main_arg14, main_arg15, main_arg16, main_arg17, main_arg18]
/-- Without the third layer's weights either. -/
abbrev args8 : List (Ref sig .tc) := [main_arg0, main_arg1, main_arg2, main_arg4, main_arg5, main_arg6, main_arg8, main_arg10, main_arg11, main_arg12, main_arg14, main_arg15, main_arg16, main_arg17, main_arg18]

theorem W0_arg (c : Dev nD) (b : Ref sig .tc) : W0 m ρ c (Proc.devRef .tc b) = m ((c : Thread nD τ).loc b) := rfl
theorem W1_arg (c : Dev nD) (b : Ref sig .tc) (hb : b ∈ args1) : W1 m ρ c (Proc.devRef .tc b) = m ((c : Thread nD τ).loc b) :=
  (W1_keep m ρ c b ((by decide : ∀ b ∈ args1, b ∉ wr0) b hb)).trans (W0_arg m ρ c b)
theorem W2_arg (c : Dev nD) (b : Ref sig .tc) (hb : b ∈ args2) : W2 m ρ c (Proc.devRef .tc b) = m ((c : Thread nD τ).loc b) :=
  (W2_of_ne m ρ c b ((by decide : ∀ b ∈ args2, ∀ w, Pipeline.arrRef spec0 w ≠ b) b hb)).trans (W1_arg m ρ c b ((by decide : ∀ b ∈ args2, b ∈ args1) b hb))
theorem W3_arg (c : Dev nD) (b : Ref sig .tc) (hb : b ∈ args2) : W3 m ρ c (Proc.devRef .tc b) = m ((c : Thread nD τ).loc b) :=
  (W3_keep m ρ c b ((by decide : ∀ b ∈ args2, b ∉ wr1) b hb)).trans (W2_arg m ρ c b hb)
theorem W4_arg (c : Dev nD) (b : Ref sig .tc) (hb : b ∈ args4) : W4 m ρ c (Proc.devRef .tc b) = m ((c : Thread nD τ).loc b) :=
  (W4_of_ne m ρ c b ((by decide : ∀ b ∈ args4, ∀ w, Pipeline.arrRef spec1 w ≠ b) b hb)).trans (W3_arg m ρ c b ((by decide : ∀ b ∈ args4, b ∈ args2) b hb))
theorem W5_arg (c : Dev nD) (b : Ref sig .tc) (hb : b ∈ args4) : W5 m ρ c (Proc.devRef .tc b) = m ((c : Thread nD τ).loc b) :=
  (W5_keep m ρ c b ((by decide : ∀ b ∈ args4, b ∉ wr2) b hb)).trans (W4_arg m ρ c b hb)
theorem W6_arg (c : Dev nD) (b : Ref sig .tc) (hb : b ∈ args4) : W6 m ρ c (Proc.devRef .tc b) = m ((c : Thread nD τ).loc b) :=
  (W6_of_ne m ρ c b ((by decide : ∀ b ∈ args4, ∀ w, Pipeline.arrRef spec2 w ≠ b) b hb)).trans (W5_arg m ρ c b hb)
theorem W7_arg (c : Dev nD) (b : Ref sig .tc) (hb : b ∈ args4) : W7 m ρ c (Proc.devRef .tc b) = m ((c : Thread nD τ).loc b) :=
  (W7_keep m ρ c b ((by decide : ∀ b ∈ args4, b ∉ wr3) b hb)).trans (W6_arg m ρ c b hb)
theorem W8_arg (c : Dev nD) (b : Ref sig .tc) (hb : b ∈ args8) : W8 m ρ c (Proc.devRef .tc b) = m ((c : Thread nD τ).loc b) :=
  (W8_of_ne m ρ c b ((by decide : ∀ b ∈ args8, ∀ w, Pipeline.arrRef spec3 w ≠ b) b hb)).trans (W7_arg m ρ c b ((by decide : ∀ b ∈ args8, b ∈ args4) b hb))
theorem W9_arg (c : Dev nD) (b : Ref sig .tc) (hb : b ∈ args8) : W9 m ρ c (Proc.devRef .tc b) = m ((c : Thread nD τ).loc b) :=
  (W9_keep m ρ c b ((by decide : ∀ b ∈ args8, b ∉ wr4) b hb)).trans (W8_arg m ρ c b hb)
theorem W10_arg (c : Dev nD) (b : Ref sig .tc) (hb : b ∈ args8) : W10 m ρ c (Proc.devRef .tc b) = m ((c : Thread nD τ).loc b) :=
  (W10_of_ne m ρ c b ((by decide : ∀ b ∈ args8, ∀ w, Pipeline.arrRef spec4 w ≠ b) b hb)).trans (W9_arg m ρ c b hb)
theorem W11_arg (c : Dev nD) (b : Ref sig .tc) (hb : b ∈ args8) : W11 m ρ c (Proc.devRef .tc b) = m ((c : Thread nD τ).loc b) :=
  (W11_keep m ρ c b ((by decide : ∀ b ∈ args8, b ∉ wr5) b hb)).trans (W10_arg m ρ c b hb)

end Cert.KernelIdeal.Val

end
-- ==== Proof.KReg0.lean ====
/-
  The first affine layer as the first launch computes it: each grid point multiplies a block of 256 rows by the
  whole weight matrix and adds the bias row; the blocks tile the result, so the array after the launch is
  `linA` of the three arrays the launch reads.
-/
import proofs.«119478_j39633958207498_1_alg».proof.Proof.Spec
import proofs.«119478_j39633958207498_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

/-! ## The product at an index -/

/-- The dimension numbers of the launch's product: rows of the left operand against rows of the right one. -/
abbrev dot0 : DotDims S256x2048 S2048x2048 S256x2048 := dot_S256x2048_S2048x2048_S256x2048_1_1_0_0_n_n

/-- The left operand is read at the result's row … -/
theorem dot0_lhs_0 (j : S256x2048.Idx) (k : dot0.contr.Idx) : ((dot0.lhsIdx j k) 0).val = (j 0).val := rfl
/-- … and at the contraction position; -/
theorem dot0_lhs_1 (j : S256x2048.Idx) (k : dot0.contr.Idx) : ((dot0.lhsIdx j k) 1).val = (k ⟨0, by decide⟩).val := rfl
/-- the right operand at the result's column, which is ITS row (the weights are stored output-major) … -/
theorem dot0_rhs_0 (j : S256x2048.Idx) (k : dot0.contr.Idx) : ((dot0.rhsIdx j k) 0).val = (j 1).val := rfl
/-- … and at the contraction position. -/
theorem dot0_rhs_1 (j : S256x2048.Idx) (k : dot0.contr.Idx) : ((dot0.rhsIdx j k) 1).val = (k ⟨0, by decide⟩).val := rfl

theorem zero2_0 : (![0, 0] : Fin 2 → Nat) = fun _ => 0 := funext fun a => by fin_cases a <;> rfl

/-- The block a point computes, entry (p, q): the row p of the input block against row q of the weights, summed over the
    2048 contraction positions (the narrowing of both operands is the identity on extended reals, the accumulator is
    the zero word), plus the bias row at q. -/
theorem pay0_apply (x0 : FVec Ideal S256x2048 .f32) (x1 : FVec Ideal S2048x2048 .f32) (x2 : FVec Ideal S1x2048 .f32)
    (p : Fin 256) (q : Fin 2048) :
    k0_pay1 x0 x1 x2 (ix2 p q) = (∑ k : Fin 2048, x0 (ix2 p k) * x1 (ix2 q k)) + x2 (ix2 (0 : Fin 1) q) := by
  unfold k0_pay1
  refine (addf_apply _ _ (ix2 p q)).trans ?_
  refine congrArg₂ (· + ·) ?_ ?_
  · refine (Ideal.matmul_constant_zero_apply dot0 none _ _ (ix2 p q)).trans ?_
    refine (Equiv.sum_comp (contrEquiv1 dot0 2048 rfl rfl).symm _).symm.trans ?_
    refine Finset.sum_congr rfl fun k _ => ?_
    have hl : dot0.lhsIdx (ix2 p q) ((contrEquiv1 dot0 2048 rfl rfl).symm k) = ix2 p k := by
      funext a; apply Fin.ext
      match a with
      | ⟨0, _⟩ => exact dot0_lhs_0 _ _
      | ⟨1, _⟩ => exact (dot0_lhs_1 _ _).trans (contrEquiv1_symm_val dot0 2048 rfl rfl k)
    have hr : dot0.rhsIdx (ix2 p q) ((contrEquiv1 dot0 2048 rfl rfl).symm k) = ix2 q k := by
      funext a; apply Fin.ext
      match a with
      | ⟨0, _⟩ => exact dot0_rhs_0 _ _
      | ⟨1, _⟩ => exact (dot0_rhs_1 _ _).trans (contrEquiv1_symm_val dot0 2048 rfl rfl k)
    show x0 (dot0.lhsIdx (ix2 p q) ((contrEquiv1 dot0 2048 rfl rfl).symm k)) * x1 (dot0.rhsIdx (ix2 p q) ((contrEquiv1 dot0 2048 rfl rfl).symm k)) = _
    rw [hl, hr]
  · refine (broadcastTo_1b_ab_apply _ _ p q).trans ?_
    exact congrFun (shapeCast_self x2 _) _

/-! ## From the blocks to the array -/

/-- The launch's index maps over its grid of 8 points: the input block and the result block move down the rows with the
    point, the weights and the bias row stay. -/
theorem idx0_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The input array the launch finds, as a matrix of extended reals; -/
abbrev xin0 (c : Dev nD) : Arr2 2048 2048 := V c main_arg3
/-- the weights, one row per output column; -/
abbrev wts0 (c : Dev nD) : Arr2 2048 2048 := V c main_arg7
/-- the bias, a one-row matrix. -/
abbrev bias0 (c : Dev nD) : Arr2 1 2048 := V c main_v0

/-- The affine layer of the three arrays the launch finds. -/
abbrev lin0 (c : Dev nD) : Arr2 2048 2048 := linA (xin0 V c) (wts0 V c) (rowOf (bias0 V c))

/-- What point `t` writes back is block `t` of the affine layer: rows 256·t … 256·t + 255 of the input against all the
    weights, plus the bias row. -/
theorem flushed0_eq (c : Dev nD) (t : Fin cfg0.N) :
    (dat0 (F := Ideal) V c).flushed 3 t = ((cfg0.win 3).blk t).view.read (Elt Ideal) (lin0 V c) := by
  show (cfg0.win 3).cut (grid0.coords t) ((dat0 (F := Ideal) V c).after 3 t) = _
  rw [after0_3]
  unfold out0_3
  rw [View.canon_unit_zero zero2_0]
  simp only [View.ld_unit_zero (S := S256x2048) zero2_0, View.ld_unit_zero (S := S2048x2048) zero2_0, View.ld_unit_zero (S := S1x2048) zero2_0]
  obtain ⟨e00, e01, e10, e11, e20, e21, e30, e31⟩ := idx0_facts t
  funext j
  obtain ⟨p, q, rfl⟩ : ∃ (p : Fin 256) (q : Fin 2048), j = ix2 p q := ⟨j 0, j 1, eq_ix2 j⟩
  refine (pay0_apply (iblk0 V c 0 t) (iblk0 V c 1 t) (iblk0 V c 2 t) p q).trans ?_
  have hp : (p : ℕ) < 256 := p.isLt
  have hq : (q : ℕ) < 2048 := q.isLt
  show (∑ k : Fin 2048, xin0 V c (((cfg0.win 0).blk t).view.emb (ix2 p k))
        * wts0 V c (((cfg0.win 1).blk t).view.emb (ix2 q k)))
      + bias0 V c (((cfg0.win 2).blk t).view.emb (ix2 (0 : Fin 1) q))
    = (∑ k : Fin 2048, xin0 V c (ix2 ((((cfg0.win 3).blk t).view.emb (ix2 p q)) 0) k)
        * wts0 V c (ix2 ((((cfg0.win 3).blk t).view.emb (ix2 p q)) 1) k))
      + bias0 V c (ix2 (0 : Fin 1) ((((cfg0.win 3).blk t).view.emb (ix2 p q)) 1))
  have h2 : ((cfg0.win 2).blk t).view.emb (ix2 (0 : Fin 1) q) = ix2 (0 : Fin 1) ((((cfg0.win 3).blk t).view.emb (ix2 p q)) 1) := by
    funext a; apply Fin.ext
    match a with
    | ⟨0, _⟩ => show win0_2.index t (0 : Fin 2) * 1 + 1 * 0 = 0; omega
    | ⟨1, _⟩ => show win0_2.index t (1 : Fin 2) * 2048 + 1 * q.val = win0_3.index t (1 : Fin 2) * 2048 + 1 * q.val; omega
  rw [h2]
  refine congrArg (· + _) (Finset.sum_congr rfl fun k _ => ?_)
  have hk : (k : ℕ) < 2048 := k.isLt
  have h0 : ((cfg0.win 0).blk t).view.emb (ix2 p k) = ix2 ((((cfg0.win 3).blk t).view.emb (ix2 p q)) 0) k := by
    funext a; apply Fin.ext
    match a with
    | ⟨0, _⟩ => show win0_0.index t (0 : Fin 2) * 256 + 1 * p.val = win0_3.index t (0 : Fin 2) * 256 + 1 * p.val; omega
    | ⟨1, _⟩ => show win0_0.index t (1 : Fin 2) * 2048 + 1 * k.val = k.val; omega
  have h1 : ((cfg0.win 1).blk t).view.emb (ix2 q k) = ix2 ((((cfg0.win 3).blk t).view.emb (ix2 p q)) 1) k := by
    funext a; apply Fin.ext
    match a with
    | ⟨0, _⟩ => show win0_1.index t (0 : Fin 2) * 2048 + 1 * q.val = win0_3.index t (1 : Fin 2) * 2048 + 1 * q.val; omega
    | ⟨1, _⟩ => show win0_1.index t (1 : Fin 2) * 2048 + 1 * k.val = k.val; omega
  exact congrArg₂ (· * ·) (congrArg (xin0 V c) h0) (congrArg (wts0 V c) h1)

/-- An index of the result array is in point `t`'s block iff each coordinate is in the block's range on its axis. -/
theorem mem_blk0 (t : Fin cfg0.N) (i : S2048x2048.Idx) :
    i ∈ ((cfg0.win 3).blk t).view.set ↔ ∀ a : Fin 2, win0_3.index t a * S256x2048.size a ≤ (i a).val ∧ (i a).val < win0_3.index t a * S256x2048.size a + S256x2048.size a := by
  show i ∈ ((View.whole main_v1).slice (win0_3.rect t)).set ↔ _
  rw [View.set_slice_whole, Rect.mem_set_unit]
  exact Iff.rfl

/-- The blocks tile the rows: row r is in the block of point r / 256. -/
theorem cover0 (i : S2048x2048.Idx) : ∃ t : Fin cfg0.N, (cfg0.win 3).flush t = true ∧ i ∈ ((cfg0.win 3).blk t).view.set := by
  have hi0 : (i 0).val < 2048 := idx2_lt0 i
  have hi1 : (i 1).val < 2048 := idx2_lt1 i
  have hN : cfg0.N = 8 := N_0
  refine ⟨⟨(i 0).val / 256, by rw [hN]; omega⟩, flush0_3 _, ?_⟩
  obtain ⟨-, -, -, -, -, -, e30, e31⟩ := idx0_facts ⟨(i 0).val / 256, by rw [hN]; omega⟩
  rw [mem_blk0]
  intro a
  match a with
  | ⟨0, _⟩ =>
    show win0_3.index ⟨(i 0).val / 256, _⟩ (0 : Fin 2) * 256 ≤ (i 0).val ∧ (i 0).val < win0_3.index ⟨(i 0).val / 256, _⟩ (0 : Fin 2) * 256 + 256
    rw [e30]; show (i 0).val / 256 * 256 ≤ (i 0).val ∧ (i 0).val < (i 0).val / 256 * 256 + 256; omega
  | ⟨1, _⟩ =>
    show win0_3.index ⟨(i 0).val / 256, _⟩ (1 : Fin 2) * 2048 ≤ (i 1).val ∧ (i 1).val < win0_3.index ⟨(i 0).val / 256, _⟩ (1 : Fin 2) * 2048 + 2048
    rw [e31]; omega

/-- After launch 0 its result array is the affine layer of the arrays it found. -/
theorem region0_out (c : Dev nD) :
    ((dat0 (F := Ideal) V c).arrAt 3 cfg0.N : Arr2 2048 2048)
      = linA (V c main_arg3 : Arr2 2048 2048) (V c main_arg7 : Arr2 2048 2048) (rowOf (V c main_v0 : Arr2 1 2048)) :=
  (dat0 (F := Ideal) V c).arrAt_eq_of_cover 3 (lin0 V c) (fun t _ => flushed0_eq V c t) cover0

end Cert.KernelIdeal.Val

end
-- ==== Proof.KChainA.lean ====
/-
  The first affine layer read off the program's buffers. The bias vector is first copied into a one-row array (a
  reshape); the first launch then leaves, in its result array, the affine layer of the two argument matrices and
  that row, which is the bias vector again.
-/
import proofs.«119478_j39633958207498_1_alg».proof.Proof.Spec
import proofs.«119478_j39633958207498_1_alg».proof.Proof.Gen.KernelIdeal.Frame
import proofs.«119478_j39633958207498_1_alg».proof.Proof.KChainBase
import proofs.«119478_j39633958207498_1_alg».proof.Proof.KReg0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Spec

variable (m : (ℓ : Loc nD τ sig) → Buf (Elt Ideal) ℓ) (ρ : Dev nD → PrngReg)

/-- Before the first launch the one-row bias array is the bias vector with a unit axis in front: its row is the
    vector. -/
theorem W1_v0 (c : Dev nD) :
    rowOf (W1 m ρ c (Proc.devRef .tc main_v0) : Arr2 1 2048) = (m ((c : Thread nD τ).loc main_arg8) : Arr1 2048) := by
  have e : (W1 m ρ c (Proc.devRef .tc main_v0) : Arr2 1 2048)
      = shapeCast S1x2048 (m ((c : Thread nD τ).loc main_arg8) : Arr1 2048) shapeCasts_S2048_S1x2048 := by
    show StableHlo.after hostOps0 _ (Proc.devRef .tc main_v0) = _
    after_results
    rfl
  rw [e]
  funext j
  rw [eq_ix1 j]
  exact shapeCast_a_1a_apply _ _ 0 (j 0)

/-- After the first launch its result array is the affine layer of the arguments. -/
theorem W2_v1 (c : Dev nD) :
    (W2 m ρ c (Proc.devRef .tc main_v1) : Arr2 2048 2048)
      = linA (m ((c : Thread nD τ).loc main_arg3)) (m ((c : Thread nD τ).loc main_arg7)) (m ((c : Thread nD τ).loc main_arg8)) := by
  refine (W2_arr m ρ c 3).trans ((region0_out (V1 m ρ) c).trans ?_)
  have h3 : (V1 m ρ c main_arg3 : Arr2 2048 2048) = m ((c : Thread nD τ).loc main_arg3) := W1_arg m ρ c main_arg3 (by decide)
  have h7 : (V1 m ρ c main_arg7 : Arr2 2048 2048) = m ((c : Thread nD τ).loc main_arg7) := W1_arg m ρ c main_arg7 (by decide)
  have h0 : rowOf (V1 m ρ c main_v0 : Arr2 1 2048) = m ((c : Thread nD τ).loc main_arg8) := W1_v0 m ρ c
  rw [h3, h7, h0]

end Cert.KernelIdeal.Val

end
-- ==== Proof.KReg1.lean ====
/-
  The first normalised layer's affine map and its column statistics as launch 1 computes them. The grid has 32 points.
  Point t multiplies the 256 rows of the input from row 256·t on by the whole weight matrix (both contracted along their
  second axis), adds the bias row and writes that block of the result; the 32 blocks tile the result, so the first
  array after the launch is `linA` of the three arrays the launch reads. Two rows of 1024 entries are carried across
  the points: the first point sets them to zero, and every point adds to them the column sums, respectively the column
  sums of squares, of its block. After point n they therefore hold the sums over the first 256·(n + 1) rows of the
  layer (induction on n; sums over consecutive row ranges add up because addition of extended reals is associative and
  commutative). They are written back once, after the last point, when these are the sums over all 8192 rows:
  `colSum` and `colSumSq` of the layer.
-/
import proofs.«119478_j39633958207498_1_alg».proof.Proof.Spec
import proofs.«119478_j39633958207498_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators

namespace Cert.KernelIdeal.Val

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Spec
variable (V : (c : Dev nD) → (b : Ref sig .tc) → Buf (Elt Ideal) ((c : Thread nD τ).loc b))

namespace LinStats1

variable {F : FTy → Type} [FloatOps F]

theorem hz2 : (![0, 0] : Fin 2 → Nat) = fun _ => 0 := funext fun a => by fin_cases a <;> rfl

/-! ## What each case of the body leaves in the three result blocks, as the payloads of the blocks it read -/

/-- Away from the first point the block of the affine layer is the product-plus-bias payload of the three input blocks. -/
theorem laterLin (c : Dev nD) (i : grid1.Coords) (a1 : Memref sig .tc .vmem S256x3072 .f32) (h1 : a1.IsWhole) (a2 : Memref sig .tc .vmem S1024x3072 .f32) (h2 : a2.IsWhole) (a3 : Memref sig .tc .vmem S1x1024 .f32) (h3 : a3.IsWhole) (a4 : Memref sig .tc .vmem S256x1024 .f32) (h4 : a4.IsWhole) (a5 : Memref sig .tc .vmem S1x1024 .f32) (h5 : a5.IsWhole) (a6 : Memref sig .tc .vmem S1x1024 .f32) (h6 : a6.IsWhole) (hc : ¬cond1_0 i)
    (x0 : Vec F S256x3072 .f32) (x1 : Vec F S1024x3072 .f32) (x2 : Vec F S1x1024 .f32) (xo4 xo5 : Vec F S1x1024 .f32) :
    out1_B_3 c i a1 h1 a2 h2 a3 h3 a4 h4 a5 h5 a6 h6 hc x0 x1 x2 xo4 xo5 = k1_pay3 x0 x1 x2 := by
  unfold out1_B_3
  rw [View.read_writes_eq_canon _ _ _ (cover1_B_3 c i a1 h1 a2 h2 a3 h3 a4 h4 a5 h5 a6 h6 hc x0 x1 x2 xo4 xo5)]
  unfold kernelRun1_B
  dsimp only
  sl_unfold_words
  rw [View.canon_unit_zero hz2]
  simp only [View.readAt_eq_ld, h1.read_unread, h2.read_unread, h3.read_unread, View.ld_unit_zero (S := S256x3072) hz2,
    View.ld_unit_zero (S := S1024x3072) hz2, View.ld_unit_zero (S := S1x1024) hz2]

/-- Away from the first point the running column sums become the old ones plus this block's. -/
theorem laterSum (c : Dev nD) (i : grid1.Coords) (a1 : Memref sig .tc .vmem S256x3072 .f32) (h1 : a1.IsWhole) (a2 : Memref sig .tc .vmem S1024x3072 .f32) (h2 : a2.IsWhole) (a3 : Memref sig .tc .vmem S1x1024 .f32) (h3 : a3.IsWhole) (a4 : Memref sig .tc .vmem S256x1024 .f32) (h4 : a4.IsWhole) (a5 : Memref sig .tc .vmem S1x1024 .f32) (h5 : a5.IsWhole) (a6 : Memref sig .tc .vmem S1x1024 .f32) (h6 : a6.IsWhole) (hc : ¬cond1_0 i)
    (x0 : Vec F S256x3072 .f32) (x1 : Vec F S1024x3072 .f32) (x2 : Vec F S1x1024 .f32) (xo4 xo5 : Vec F S1x1024 .f32) :
    out1_B_4 c i a1 h1 a2 h2 a3 h3 a4 h4 a5 h5 a6 h6 hc x0 x1 x2 xo4 xo5 = k1_pay4 x0 x1 x2 xo4 := by
  unfold out1_B_4
  rw [View.read_writes_eq_canon _ _ _ (cover1_B_4 c i a1 h1 a2 h2 a3 h3 a4 h4 a5 h5 a6 h6 hc x0 x1 x2 xo4 xo5)]
  unfold kernelRun1_B
  dsimp only
  sl_unfold_words
  rw [View.canon_unit_zero hz2]
  simp only [View.readAt_eq_ld, h1.read_unread, h2.read_unread, h3.read_unread, h5.read_unread, View.ld_unit_zero (S := S256x3072) hz2,
    View.ld_unit_zero (S := S1024x3072) hz2, View.ld_unit_zero (S := S1x1024) hz2]

/-- Away from the first point the running column sums of squares become the old ones plus this block's. -/
theorem laterSumSq (c : Dev nD) (i : grid1.Coords) (a1 : Memref sig .tc .vmem S256x3072 .f32) (h1 : a1.IsWhole) (a2 : Memref sig .tc .vmem S1024x3072 .f32) (h2 : a2.IsWhole) (a3 : Memref sig .tc .vmem S1x1024 .f32) (h3 : a3.IsWhole) (a4 : Memref sig .tc .vmem S256x1024 .f32) (h4 : a4.IsWhole) (a5 : Memref sig .tc .vmem S1x1024 .f32) (h5 : a5.IsWhole) (a6 : Memref sig .tc .vmem S1x1024 .f32) (h6 : a6.IsWhole) (hc : ¬cond1_0 i)
    (x0 : Vec F S256x3072 .f32) (x1 : Vec F S1024x3072 .f32) (x2 : Vec F S1x1024 .f32) (xo4 xo5 : Vec F S1x1024 .f32) :
    out1_B_5 c i a1 h1 a2 h2 a3 h3 a4 h4 a5 h5 a6 h6 hc x0 x1 x2 xo4 xo5 = k1_pay5 x0 x1 x2 xo5 := by
  unfold out1_B_5
  rw [View.read_writes_eq_canon _ _ _ (cover1_B_5 c i a1 h1 a2 h2 a3 h3 a4 h4 a5 h5 a6 h6 hc x0 x1 x2 xo4 xo5)]
  unfold kernelRun1_B
  dsimp only
  sl_unfold_words
  rw [View.canon_unit_zero hz2]
  simp only [View.readAt_eq_ld, h1.read_unread, h2.read_unread, h3.read_unread, h6.read_unread, View.ld_unit_zero (S := S256x3072) hz2,
    View.ld_unit_zero (S := S1024x3072) hz2, View.ld_unit_zero (S := S1x1024) hz2]

/-- At the first point the block of the affine layer is the same payload. -/
theorem firstLin (c : Dev nD) (i : grid1.Coords) (a1 : Memref sig .tc .vmem S256x3072 .f32) (h1 : a1.IsWhole) (a2 : Memref sig .tc .vmem S1024x3072 .f32) (h2 : a2.IsWhole) (a3 : Memref sig .tc .vmem S1x1024 .f32) (h3 : a3.IsWhole) (a4 : Memref sig .tc .vmem S256x1024 .f32) (h4 : a4.IsWhole) (a5 : Memref sig .tc .vmem S1x1024 .f32) (h5 : a5.IsWhole) (a6 : Memref sig .tc .vmem S1x1024 .f32) (h6 : a6.IsWhole) (hc : cond1_0 i)
    (x0 : Vec F S256x3072 .f32) (x1 : Vec F S1024x3072 .f32) (x2 : Vec F S1x1024 .f32) :
    out1_A_3 c i a1 h1 a2 h2 a3 h3 a4 h4 a5 h5 a6 h6 hc x0 x1 x2 = k1_pay3 x0 x1 x2 := by
  unfold out1_A_3
  rw [View.read_writes_eq_canon _ _ _ (cover1_A_3 c i a1 h1 a2 h2 a3 h3 a4 h4 a5 h5 a6 h6 hc x0 x1 x2)]
  unfold kernelRun1_A
  dsimp only
  sl_unfold_words
  rw [View.canon_unit_zero hz2]
  simp only [View.readAt_eq_ld, h1.read_unread, h2.read_unread, h3.read_unread, View.ld_unit_zero (S := S256x3072) hz2,
    View.ld_unit_zero (S := S1024x3072) hz2, View.ld_unit_zero (S := S1x1024) hz2]

/-- At the first point the column sums start from the zero row the body has just stored. -/
theorem firstSum (c : Dev nD) (i : grid1.Coords) (a1 : Memref sig .tc .vmem S256x3072 .f32) (h1 : a1.IsWhole) (a2 : Memref sig .tc .vmem S1024x3072 .f32) (h2 : a2.IsWhole) (a3 : Memref sig .tc .vmem S1x1024 .f32) (h3 : a3.IsWhole) (a4 : Memref sig .tc .vmem S256x1024 .f32) (h4 : a4.IsWhole) (a5 : Memref sig .tc .vmem S1x1024 .f32) (h5 : a5.IsWhole) (a6 : Memref sig .tc .vmem S1x1024 .f32) (h6 : a6.IsWhole) (hc : cond1_0 i)
    (x0 : Vec F S256x3072 .f32) (x1 : Vec F S1024x3072 .f32) (x2 : Vec F S1x1024 .f32) :
    out1_A_4 c i a1 h1 a2 h2 a3 h3 a4 h4 a5 h5 a6 h6 hc x0 x1 x2 = k1_pay4 x0 x1 x2 (k1_pay1 (F := F)) := by
  unfold out1_A_4
  rw [View.read_writes_eq_canon _ _ _ (cover1_A_4 c i a1 h1 a2 h2 a3 h3 a4 h4 a5 h5 a6 h6 hc x0 x1 x2)]
  unfold kernelRun1_A
  dsimp only
  sl_unfold_words
  rw [View.canon_cons_unit_zero (S := S1x1024) hz2, View.readCov_unit_zero (S := S1x1024) _ hz2]
  simp only [View.readAt_eq_ld, h1.read_unread, h2.read_unread, h3.read_unread, View.ld_unit_zero (S := S256x3072) hz2,
    View.ld_unit_zero (S := S1024x3072) hz2, View.ld_unit_zero (S := S1x1024) hz2]

/-- At the first point the column sums of squares start from the zero row the body has just stored. -/
theorem firstSumSq (c : Dev nD) (i : grid1.Coords) (a1 : Memref sig .tc .vmem S256x3072 .f32) (h1 : a1.IsWhole) (a2 : Memref sig .tc .vmem S1024x3072 .f32) (h2 : a2.IsWhole) (a3 : Memref sig .tc .vmem S1x1024 .f32) (h3 : a3.IsWhole) (a4 : Memref sig .tc .vmem S256x1024 .f32) (h4 : a4.IsWhole) (a5 : Memref sig .tc .vmem S1x1024 .f32) (h5 : a5.IsWhole) (a6 : Memref sig .tc .vmem S1x1024 .f32) (h6 : a6.IsWhole) (hc : cond1_0 i)
    (x0 : Vec F S256x3072 .f32) (x1 : Vec F S1024x3072 .f32) (x2 : Vec F S1x1024 .f32) :
    out1_A_5 c i a1 h1 a2 h2 a3 h3 a4 h4 a5 h5 a6 h6 hc x0 x1 x2 = k1_pay5 x0 x1 x2 (k1_pay2 (F := F)) := by
  unfold out1_A_5
  rw [View.read_writes_eq_canon _ _ _ (cover1_A_5 c i a1 h1 a2 h2 a3 h3 a4 h4 a5 h5 a6 h6 hc x0 x1 x2)]
  unfold kernelRun1_A
  dsimp only
  sl_unfold_words
  rw [View.canon_cons_unit_zero (S := S1x1024) hz2, View.readCov_unit_zero (S := S1x1024) _ hz2]
  simp only [View.readAt_eq_ld, h1.read_unread, h2.read_unread, h3.read_unread, View.ld_unit_zero (S := S256x3072) hz2,
    View.ld_unit_zero (S := S1024x3072) hz2, View.ld_unit_zero (S := S1x1024) hz2]

/-! ## The payloads read at an index, over the extended reals -/

/-- The contraction of the block product: both operands are contracted along their second axis. -/
abbrev dotRows := dot_S256x3072_S1024x3072_S256x1024_1_1_0_0_n_n

theorem dotRows_lhs_0 (j : S256x1024.Idx) (k : dotRows.contr.Idx) : (dotRows.lhsIdx j k 0 : ℕ) = j 0 := by
  simp [DotDims.lhsIdx, dotRows, dot_S256x3072_S1024x3072_S256x1024_1_1_0_0_n_n]; rfl
theorem dotRows_lhs_1 (j : S256x1024.Idx) (k : dotRows.contr.Idx) : (dotRows.lhsIdx j k 1 : ℕ) = k ⟨0, by decide⟩ := by
  simp [DotDims.lhsIdx, dotRows, dot_S256x3072_S1024x3072_S256x1024_1_1_0_0_n_n]; rfl
theorem dotRows_rhs_0 (j : S256x1024.Idx) (k : dotRows.contr.Idx) : (dotRows.rhsIdx j k 0 : ℕ) = j 1 := by
  simp [DotDims.rhsIdx, dotRows, dot_S256x3072_S1024x3072_S256x1024_1_1_0_0_n_n]; rfl
theorem dotRows_rhs_1 (j : S256x1024.Idx) (k : dotRows.contr.Idx) : (dotRows.rhsIdx j k 1 : ℕ) = k ⟨0, by decide⟩ := by
  simp [DotDims.rhsIdx, dotRows, dot_S256x3072_S1024x3072_S256x1024_1_1_0_0_n_n]; rfl

/-- Entry (p, q) of the product-plus-bias payload: row p of the first block against row q of the second, plus the
    bias row at q. -/
theorem linPay (x0 : FVec Ideal S256x3072 .f32) (x1 : FVec Ideal S1024x3072 .f32) (x2 : FVec Ideal S1x1024 .f32)
    (p : Fin 256) (q : Fin 1024) :
    k1_pay3 (F := Ideal) x0 x1 x2 (ix2 p q) = (∑ k : Fin 3072, x0 (ix2 p k) * x1 (ix2 q k)) + x2 (ix2 (0 : Fin 1) q) := by
  unfold k1_pay3
  refine (congrArg₂ (· + ·)
    (Ideal.matmul_constant_zero_apply dotRows none _ _ (ix2 p q))
    (broadcastTo_1b_ab_apply _ broadcasts_S1x1024_S256x1024 p q)).trans ?_
  refine congrArg₂ (· + ·) ?_ (congrFun (shapeCast_self x2 _) _)
  rw [← Equiv.sum_comp (contrEquiv1 dotRows 3072 rfl rfl).symm]
  refine Finset.sum_congr rfl fun k _ => ?_
  refine congrArg₂ (· * ·) ?_ ?_
  · refine (congrFun (shapeCast_self x0 _) _).trans (congrArg x0 ?_)
    apply Shape.idx_ext₂
    · exact dotRows_lhs_0 _ _
    · exact (dotRows_lhs_1 _ _).trans (contrEquiv1_symm_val dotRows 3072 rfl rfl k)
  · refine congrArg x1 ?_
    apply Shape.idx_ext₂
    · exact dotRows_rhs_0 _ _
    · exact (dotRows_rhs_1 _ _).trans (contrEquiv1_symm_val dotRows 3072 rfl rfl k)

/-- The index a column sum reads at row k of column q. -/
theorem liftCol (q : Fin 1024) (k : Fin 256) : reduces_S256x1024_S1024.lift (ix1 q) k = ix2 k q :=
  Shape.idx_ext₂ rfl rfl

/-- A sum over the 256 rows of a block, column q. -/
theorem colOfBlock (src : FVec Ideal S256x1024 .f32) (q : Fin 1024) :
    multiReduction .add [0] S1024 src 0x00000000#32 reduces_S256x1024_S1024 (.inl rfl) rfl (ix1 q)
      = ∑ p : Fin 256, src (ix2 p q) :=
  (Ideal.multiReduction_add_single src 0x00000000#32 reduces_S256x1024_S1024 (.inl rfl) rfl (ix1 q)).trans
    (Finset.sum_congr rfl fun k _ => congrArg src (liftCol q k))

/-- Entry q of the updated column sums: the old entry plus the sum of column q of the block's affine layer. -/
theorem sumPay (x0 : FVec Ideal S256x3072 .f32) (x1 : FVec Ideal S1024x3072 .f32) (x2 acc : FVec Ideal S1x1024 .f32)
    (q : Fin 1024) :
    k1_pay4 (F := Ideal) x0 x1 x2 acc (ix2 (0 : Fin 1) q)
      = acc (ix2 (0 : Fin 1) q) + ∑ p : Fin 256, k1_pay3 (F := Ideal) x0 x1 x2 (ix2 p q) := by
  unfold k1_pay4
  refine congrArg₂ (· + ·) (congrFun (shapeCast_self acc _) _) ?_
  refine (shapeCast_a_1a_apply _ shapeCasts_S1024_S1x1024 (0 : Fin 1) q).trans ?_
  exact colOfBlock (k1_pay3 (F := Ideal) x0 x1 x2) q

/-- Entry q of the updated column sums of squares. -/
theorem sumSqPay (x0 : FVec Ideal S256x3072 .f32) (x1 : FVec Ideal S1024x3072 .f32) (x2 acc : FVec Ideal S1x1024 .f32)
    (q : Fin 1024) :
    k1_pay5 (F := Ideal) x0 x1 x2 acc (ix2 (0 : Fin 1) q)
      = acc (ix2 (0 : Fin 1) q)
        + ∑ p : Fin 256, k1_pay3 (F := Ideal) x0 x1 x2 (ix2 p q) * k1_pay3 (F := Ideal) x0 x1 x2 (ix2 p q) := by
  unfold k1_pay5
  refine congrArg₂ (· + ·) (congrFun (shapeCast_self acc _) _) ?_
  refine (shapeCast_a_1a_apply _ shapeCasts_S1024_S1x1024 (0 : Fin 1) q).trans ?_
  exact colOfBlock (mulf (k1_pay3 (F := Ideal) x0 x1 x2) (k1_pay3 (F := Ideal) x0 x1 x2)) q

/-- The rows the first point stores before accumulating are zero. -/
theorem zeroRow (j : S1x1024.Idx) : k1_pay1 (F := Ideal) j = 0 := Ideal.ofBits_zero_f32
theorem zeroRow' (j : S1x1024.Idx) : k1_pay2 (F := Ideal) j = 0 := Ideal.ofBits_zero_f32

/-! ## The blocks the points read, as entries of the arrays the launch finds -/

/-- Where each window's block sits at a point: the row block of the input and of the result moves with the point, the
    weights, the bias row and the two accumulated rows stay. -/
theorem blockPlaces : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

theorem pointLt (t : Fin cfg1.N) : t.val < 32 := lt_of_lt_of_eq t.isLt (show cfg1.N = 32 from N_1)

/-- Row p of the input block at point t is row 256·t + p of the input array. -/
theorem inBlock (c : Dev nD) (t : Fin cfg1.N) (p : Fin 256) (k : Fin 3072) (h : 256 * t.val + p.val < 8192) :
    (iblk1 V c 0 t : FVec Ideal S256x3072 .f32) (ix2 p k) = (V c main_v9 : Arr2 8192 3072) (ix2 ⟨256 * t.val + p.val, h⟩ k) := by
  unfold iblk1
  rw [View.read_apply]
  show V c main_v9 _ = V c main_v9 _
  congr 1
  funext a
  apply Fin.ext
  match a with
  | ⟨0, _⟩ => show win1_0.index t (0 : Fin 2) * 256 + 1 * p.val = 256 * t.val + p.val; rw [(blockPlaces t).1]; omega
  | ⟨1, _⟩ => show win1_0.index t (1 : Fin 2) * 3072 + 1 * k.val = k.val; rw [(blockPlaces t).2.1]; omega

/-- The weight block at every point is the whole weight array. -/
theorem weightBlock (c : Dev nD) (t : Fin cfg1.N) (q : Fin 1024) (k : Fin 3072) :
    (iblk1 V c 1 t : FVec Ideal S1024x3072 .f32) (ix2 q k) = (V c main_arg9 : Arr2 1024 3072) (ix2 q k) := by
  unfold iblk1
  rw [View.read_apply]
  show V c main_arg9 _ = V c main_arg9 _
  congr 1
  funext a
  apply Fin.ext
  match a with
  | ⟨0, _⟩ => show win1_1.index t (0 : Fin 2) * 1024 + 1 * q.val = q.val; rw [(blockPlaces t).2.2.1]; omega
  | ⟨1, _⟩ => show win1_1.index t (1 : Fin 2) * 3072 + 1 * k.val = k.val; rw [(blockPlaces t).2.2.2.1]; omega

/-- The bias block at every point is the whole bias row. -/
theorem biasBlock (c : Dev nD) (t : Fin cfg1.N) (q : Fin 1024) :
    (iblk1 V c 2 t : FVec Ideal S1x1024 .f32) (ix2 (0 : Fin 1) q) = (V c main_v10 : Arr2 1 1024) (ix2 (0 : Fin 1) q) := by
  unfold iblk1
  rw [View.read_apply]
  show V c main_v10 _ = V c main_v10 _
  congr 1
  funext a
  apply Fin.ext
  match a with
  | ⟨0, _⟩ => show win1_2.index t (0 : Fin 2) * 1 + 1 * 0 = 0; rw [(blockPlaces t).2.2.2.2.1]
  | ⟨1, _⟩ => show win1_2.index t (1 : Fin 2) * 1024 + 1 * q.val = q.val; rw [(blockPlaces t).2.2.2.2.2.1]; omega

/-- The affine layer of the arrays the launch finds, entry by entry. -/
abbrev layer (c : Dev nD) : Fin 8192 → Fin 1024 → EReal :=
  lin (cur2 (V c main_v9 : Arr2 8192 3072)) (cur2 (V c main_arg9 : Arr2 1024 3072)) (cur1 (rowOf (V c main_v10 : Arr2 1 1024)))

/-- Entry (p, q) of the block product at point t is entry (256·t + p, q) of the affine layer. -/
theorem blockLayer (c : Dev nD) (t : Fin cfg1.N) (p : Fin 256) (q : Fin 1024) (h : 256 * t.val + p.val < 8192) :
    k1_pay3 (F := Ideal) (iblk1 V c 0 t) (iblk1 V c 1 t) (iblk1 V c 2 t) (ix2 p q) = layer V c ⟨256 * t.val + p.val, h⟩ q := by
  refine (linPay (iblk1 V c 0 t) (iblk1 V c 1 t) (iblk1 V c 2 t) p q).trans ?_
  exact congrArg₂ (· + ·)
    (Finset.sum_congr rfl fun k _ => congrArg₂ (· * ·) (inBlock V c t p k h) (weightBlock V c t q k))
    (biasBlock V c t q)

/-- Row r of the affine layer, zero past the last row: the rows as a sequence, so that sums over row ranges add up. -/
def layerRow (c : Dev nD) (r : ℕ) (q : Fin 1024) : EReal := if h : r < 8192 then layer V c ⟨r, h⟩ q else 0

theorem layerRow_of_lt (c : Dev nD) (r : ℕ) (q : Fin 1024) (h : r < 8192) : layerRow V c r q = layer V c ⟨r, h⟩ q := dif_pos h

/-- Column q of the block at point t, summed: the 256 rows of the layer from row 256·t on. -/
theorem blockColSum (c : Dev nD) (t : Fin cfg1.N) (q : Fin 1024) :
    ∑ p : Fin 256, k1_pay3 (F := Ideal) (iblk1 V c 0 t) (iblk1 V c 1 t) (iblk1 V c 2 t) (ix2 p q)
      = ∑ x ∈ Finset.range 256, layerRow V c (256 * t.val + x) q := by
  rw [← Fin.sum_univ_eq_sum_range (fun x => layerRow V c (256 * t.val + x) q) 256]
  refine Finset.sum_congr rfl fun p _ => ?_
  have h : 256 * t.val + p.val < 8192 := by have := pointLt t; have := p.isLt; omega
  rw [layerRow_of_lt V c _ q h]
  exact blockLayer V c t p q h

theorem blockColSumSq (c : Dev nD) (t : Fin cfg1.N) (q : Fin 1024) :
    ∑ p : Fin 256, k1_pay3 (F := Ideal) (iblk1 V c 0 t) (iblk1 V c 1 t) (iblk1 V c 2 t) (ix2 p q) * k1_pay3 (F := Ideal) (iblk1 V c 0 t) (iblk1 V c 1 t) (iblk1 V c 2 t) (ix2 p q)
      = ∑ x ∈ Finset.range 256, layerRow V c (256 * t.val + x) q * layerRow V c (256 * t.val + x) q := by
  rw [← Fin.sum_univ_eq_sum_range (fun x => layerRow V c (256 * t.val + x) q * layerRow V c (256 * t.val + x) q) 256]
  refine Finset.sum_congr rfl fun p _ => ?_
  have h : 256 * t.val + p.val < 8192 := by have := pointLt t; have := p.isLt; omega
  rw [layerRow_of_lt V c _ q h]
  exact congrArg₂ (· * ·) (blockLayer V c t p q h) (blockLayer V c t p q h)

/-! ## What the three result blocks hold after each point -/

/-- After every point the first result block is that point's block of the affine layer. -/
theorem linAfter (c : Dev nD) (t : Fin cfg1.N) :
    (outsAt1 V c t.val t.isLt).1 = k1_pay3 (F := Ideal) (iblk1 V c 0 t) (iblk1 V c 1 t) (iblk1 V c 2 t) := by
  by_cases h0 : t.val % 32 = 0
  · rw [outsAt1_A V c t h0]
    dsimp only
    exact firstLin (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t)
  · rw [outsAt1_B V c t h0]
    dsimp only
    exact laterLin (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2

/-- After point n the two accumulated rows hold, at column q, the sum and the sum of squares of column q of the layer's
    first 256·(n + 1) rows: zero plus the first block's at the first point, the row before plus the point's block's after. -/
theorem sumsAfter (c : Dev nD) : ∀ (n : ℕ) (h : n < cfg1.N) (q : Fin 1024),
    (outsAt1 V c n h).2.1 (ix2 (0 : Fin 1) q) = ∑ r ∈ Finset.range (256 * (n + 1)), layerRow V c r q
    ∧ (outsAt1 V c n h).2.2 (ix2 (0 : Fin 1) q)
        = ∑ r ∈ Finset.range (256 * (n + 1)), layerRow V c r q * layerRow V c r q
  | 0, h, q => by
    have h0 : (⟨0, h⟩ : Fin cfg1.N).val % 32 = 0 := rfl
    rw [outsAt1_A V c ⟨0, h⟩ h0]
    dsimp only
    constructor
    · refine (congrFun (firstSum (F := Ideal) c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) (ms1_5 ⟨0, h⟩) (hs1_5 ⟨0, h⟩) ((hcond1_0 ⟨0, h⟩).mpr h0) (iblk1 V c 0 ⟨0, h⟩) (iblk1 V c 1 ⟨0, h⟩) (iblk1 V c 2 ⟨0, h⟩)) (ix2 (0 : Fin 1) q)).trans ?_
      refine (sumPay (iblk1 V c 0 ⟨0, h⟩) (iblk1 V c 1 ⟨0, h⟩) (iblk1 V c 2 ⟨0, h⟩) (k1_pay1 (F := Ideal)) q).trans ?_
      rw [zeroRow, zero_add, blockColSum V c ⟨0, h⟩ q]
      refine Finset.sum_congr rfl fun x _ => ?_
      rw [show 256 * (⟨0, h⟩ : Fin cfg1.N).val + x = x from by simp]
    · refine (congrFun (firstSumSq (F := Ideal) c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) (ms1_5 ⟨0, h⟩) (hs1_5 ⟨0, h⟩) ((hcond1_0 ⟨0, h⟩).mpr h0) (iblk1 V c 0 ⟨0, h⟩) (iblk1 V c 1 ⟨0, h⟩) (iblk1 V c 2 ⟨0, h⟩)) (ix2 (0 : Fin 1) q)).trans ?_
      refine (sumSqPay (iblk1 V c 0 ⟨0, h⟩) (iblk1 V c 1 ⟨0, h⟩) (iblk1 V c 2 ⟨0, h⟩) (k1_pay2 (F := Ideal)) q).trans ?_
      rw [zeroRow', zero_add, blockColSumSq V c ⟨0, h⟩ q]
      refine Finset.sum_congr rfl fun x _ => ?_
      rw [show 256 * (⟨0, h⟩ : Fin cfg1.N).val + x = x from by simp]
  | n + 1, h, q => by
    have hN : n + 1 < 32 := lt_of_lt_of_eq h (show cfg1.N = 32 from N_1)
    have hB : ¬(⟨n + 1, h⟩ : Fin cfg1.N).val % 32 = 0 := by dsimp only; omega
    obtain ⟨ih4, ih5⟩ := sumsAfter c n (Nat.lt_of_succ_lt h) q
    rw [outsAt1_B V c ⟨n + 1, h⟩ hB]
    dsimp only
    constructor
    · refine (congrFun (laterSum (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (fun hh => hB ((hcond1_0 ⟨n + 1, h⟩).mp hh)) (iblk1 V c 0 ⟨n + 1, h⟩) (iblk1 V c 1 ⟨n + 1, h⟩) (iblk1 V c 2 ⟨n + 1, h⟩) (outsAt1 V c ((⟨n + 1, h⟩ : Fin cfg1.N).val - 1) (Nat.lt_of_le_of_lt (Nat.sub_le _ _) (⟨n + 1, h⟩ : Fin cfg1.N).isLt)).2.1 (outsAt1 V c ((⟨n + 1, h⟩ : Fin cfg1.N).val - 1) (Nat.lt_of_le_of_lt (Nat.sub_le _ _) (⟨n + 1, h⟩ : Fin cfg1.N).isLt)).2.2) (ix2 (0 : Fin 1) q)).trans ?_
      refine (sumPay (iblk1 V c 0 ⟨n + 1, h⟩) (iblk1 V c 1 ⟨n + 1, h⟩) (iblk1 V c 2 ⟨n + 1, h⟩) _ q).trans ?_
      rw [blockColSum V c ⟨n + 1, h⟩ q, show 256 * (n + 1 + 1) = 256 * (n + 1) + 256 from by ring, Finset.sum_range_add, ← ih4]
      rfl
    · refine (congrFun (laterSumSq (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (fun hh => hB ((hcond1_0 ⟨n + 1, h⟩).mp hh)) (iblk1 V c 0 ⟨n + 1, h⟩) (iblk1 V c 1 ⟨n + 1, h⟩) (iblk1 V c 2 ⟨n + 1, h⟩) (outsAt1 V c ((⟨n + 1, h⟩ : Fin cfg1.N).val - 1) (Nat.lt_of_le_of_lt (Nat.sub_le _ _) (⟨n + 1, h⟩ : Fin cfg1.N).isLt)).2.1 (outsAt1 V c ((⟨n + 1, h⟩ : Fin cfg1.N).val - 1) (Nat.lt_of_le_of_lt (Nat.sub_le _ _) (⟨n + 1, h⟩ : Fin cfg1.N).isLt)).2.2) (ix2 (0 : Fin 1) q)).trans ?_
      refine (sumSqPay (iblk1 V c 0 ⟨n + 1, h⟩) (iblk1 V c 1 ⟨n + 1, h⟩) (iblk1 V c 2 ⟨n + 1, h⟩) _ q).trans ?_
      rw [blockColSumSq V c ⟨n + 1, h⟩ q, show 256 * (n + 1 + 1) = 256 * (n + 1) + 256 from by ring, Finset.sum_range_add, ← ih5]
      rfl

/-! ## What the write-backs write -/

/-- What each point writes back to the first result is its block of the affine layer. -/
theorem linFlushed (c : Dev nD) (t : Fin cfg1.N) :
    (dat1 (F := Ideal) V c).flushed 3 t = ((cfg1.win 3).blk t).view.read (Elt Ideal)
      (linA (V c main_v9 : Arr2 8192 3072) (V c main_arg9 : Arr2 1024 3072) (rowOf (V c main_v10 : Arr2 1 1024))) := by
  show (cfg1.win 3).cut (grid1.coords t) ((dat1 (F := Ideal) V c).after 3 t) = _
  rw [after1_3, linAfter V c t]
  funext j
  obtain ⟨p, q, rfl⟩ : ∃ (p : Fin 256) (q : Fin 1024), j = ix2 p q := ⟨j 0, j 1, eq_ix2 (n0 := 256) (n1 := 1024) j⟩
  have h : 256 * t.val + p.val < 8192 := by have := pointLt t; have := p.isLt; omega
  refine (blockLayer V c t p q h).trans ?_
  rw [View.read_apply]
  show layer V c ⟨256 * t.val + p.val, h⟩ q
    = layer V c ((((cfg1.win 3).blk t).view.emb (ix2 p q)) 0) ((((cfg1.win 3).blk t).view.emb (ix2 p q)) 1)
  congr 1
  · apply Fin.ext
    show 256 * t.val + p.val = win1_3.index t (0 : Fin 2) * 256 + 1 * p.val
    rw [(blockPlaces t).2.2.2.2.2.2.1]; omega
  · apply Fin.ext
    show q.val = win1_3.index t (1 : Fin 2) * 1024 + 1 * q.val
    rw [(blockPlaces t).2.2.2.2.2.2.2.1]; omega

/-- The sum over the first 8192 rows of the row sequence is the sum over all rows of the layer. -/
theorem allRows (c : Dev nD) (q : Fin 1024) (f : EReal → EReal) :
    ∑ r ∈ Finset.range 8192, f (layerRow V c r q) = ∑ r : Fin 8192, f (layer V c r q) := by
  rw [← Fin.sum_univ_eq_sum_range (fun r => f (layerRow V c r q)) 8192]
  exact Finset.sum_congr rfl fun r _ => congrArg f (layerRow_of_lt V c r.val q r.isLt)

/-- The one write-back of the column sums, after the last point, writes the sums over all rows. -/
theorem sumFlushed (c : Dev nD) (t : Fin cfg1.N) (hf : (cfg1.win 4).flush t = true) :
    (dat1 (F := Ideal) V c).flushed 4 t = ((cfg1.win 4).blk t).view.read (Elt Ideal)
      (unc2 (fun (_ : Fin 1) q => colSum (layer V c) q) : Arr2 1 1024) := by
  have hN := pointLt t
  have h31 : t.val = 31 := by have := (flush1_4 t).mp hf; omega
  show (cfg1.win 4).cut (grid1.coords t) ((dat1 (F := Ideal) V c).after 4 t) = _
  rw [after1_4]
  funext j
  obtain ⟨u, q, rfl⟩ : ∃ (u : Fin 1) (q : Fin 1024), j = ix2 u q := ⟨j 0, j 1, eq_ix2 (n0 := 1) (n1 := 1024) j⟩
  obtain rfl : u = 0 := Subsingleton.elim _ _
  refine ((sumsAfter V c t.val t.isLt q).1).trans ?_
  rw [View.read_apply, cast_eq, h31]
  show _ = colSum (layer V c) ((((cfg1.win 4).blk t).view.emb (ix2 (0 : Fin 1) q)) 1)
  rw [show (((cfg1.win 4).blk t).view.emb (ix2 (0 : Fin 1) q)) 1 = q from Fin.ext (by
    show win1_4.index t (1 : Fin 2) * 1024 + 1 * q.val = q.val
    rw [(blockPlaces t).2.2.2.2.2.2.2.2.2.1]; omega)]
  exact allRows V c q id

/-- The one write-back of the column sums of squares writes the sums over all rows. -/
theorem sumSqFlushed (c : Dev nD) (t : Fin cfg1.N) (hf : (cfg1.win 5).flush t = true) :
    (dat1 (F := Ideal) V c).flushed 5 t = ((cfg1.win 5).blk t).view.read (Elt Ideal)
      (unc2 (fun (_ : Fin 1) q => colSumSq (layer V c) q) : Arr2 1 1024) := by
  have hN := pointLt t
  have h31 : t.val = 31 := by have := (flush1_5 t).mp hf; omega
  show (cfg1.win 5).cut (grid1.coords t) ((dat1 (F := Ideal) V c).after 5 t) = _
  rw [after1_5]
  funext j
  obtain ⟨u, q, rfl⟩ : ∃ (u : Fin 1) (q : Fin 1024), j = ix2 u q := ⟨j 0, j 1, eq_ix2 (n0 := 1) (n1 := 1024) j⟩
  obtain rfl : u = 0 := Subsingleton.elim _ _
  refine ((sumsAfter V c t.val t.isLt q).2).trans ?_
  rw [View.read_apply, cast_eq, h31]
  show _ = colSumSq (layer V c) ((((cfg1.win 5).blk t).view.emb (ix2 (0 : Fin 1) q)) 1)
  rw [show (((cfg1.win 5).blk t).view.emb (ix2 (0 : Fin 1) q)) 1 = q from Fin.ext (by
    show win1_5.index t (1 : Fin 2) * 1024 + 1 * q.val = q.val
    rw [(blockPlaces t).2.2.2.2.2.2.2.2.2.2.2]; omega)]
  exact allRows V c q (fun y => y * y)

/-- The last point. -/
def lastPoint : Fin cfg1.N := ⟨31, by rw [show cfg1.N = 32 from N_1]; decide⟩

end LinStats1

open LinStats1

/-! ## The three arrays after the launch -/

/-- After launch 1 its first result array is the affine layer of the arrays it found: the 32 row blocks tile it. -/
theorem region1_out (c : Dev nD) :
    ((dat1 (F := Ideal) V c).arrAt 3 cfg1.N : Arr2 8192 1024)
      = linA (V c main_v9 : Arr2 8192 3072) (V c main_arg9 : Arr2 1024 3072) (rowOf (V c main_v10 : Arr2 1 1024)) :=
  (dat1 (F := Ideal) V c).arrAt_eq_of_cover 3 _ (fun t _ => linFlushed V c t) fun i => by
    have hi0 : (i 0).val < 8192 := (i 0).isLt
    have hi1 : (i 1).val < 1024 := (i 1).isLt
    have hN : cfg1.N = 32 := N_1
    have hlt : (i 0).val / 256 < cfg1.N := by rw [hN]; omega
    refine ⟨⟨(i 0).val / 256, hlt⟩, flush1_3 _, ?_⟩
    show i ∈ ((View.whole main_v11_0).slice (win1_3.rect ⟨(i 0).val / 256, hlt⟩)).set
    rw [View.set_slice_whole, Rect.mem_set_unit]
    intro a
    obtain ⟨-, -, -, -, -, -, e0, e1, -⟩ := blockPlaces ⟨(i 0).val / 256, hlt⟩
    match a with
    | ⟨0, _⟩ =>
      show win1_3.index ⟨(i 0).val / 256, hlt⟩ (0 : Fin 2) * 256 ≤ (i 0).val
        ∧ (i 0).val < win1_3.index ⟨(i 0).val / 256, hlt⟩ (0 : Fin 2) * 256 + 256
      rw [e0]; dsimp only; omega
    | ⟨1, _⟩ =>
      show win1_3.index ⟨(i 0).val / 256, hlt⟩ (1 : Fin 2) * 1024 ≤ (i 1).val
        ∧ (i 1).val < win1_3.index ⟨(i 0).val / 256, hlt⟩ (1 : Fin 2) * 1024 + 1024
      rw [e1]; omega

/-- After launch 1 its second result array holds the column sums of the affine layer: the one block is the whole
    array, written back after the last point. -/
theorem region1_sum (c : Dev nD) :
    ((dat1 (F := Ideal) V c).arrAt 4 cfg1.N : Arr2 1 1024)
      = unc2 (fun _ q => colSum (lin (cur2 (V c main_v9 : Arr2 8192 3072)) (cur2 (V c main_arg9 : Arr2 1024 3072)) (cur1 (rowOf (V c main_v10 : Arr2 1 1024)))) q) :=
  (dat1 (F := Ideal) V c).arrAt_eq_of_cover 4 _ (sumFlushed V c) fun i => by
    have hi0 : (i 0).val < 1 := (i 0).isLt
    have hi1 : (i 1).val < 1024 := (i 1).isLt
    refine ⟨lastPoint, (flush1_4 lastPoint).mpr rfl, ?_⟩
    show i ∈ ((View.whole main_v11_1).slice (win1_4.rect lastPoint)).set
    rw [View.set_slice_whole, Rect.mem_set_unit]
    intro a
    obtain ⟨-, -, -, -, -, -, -, -, e0, e1, -⟩ := blockPlaces lastPoint
    match a with
    | ⟨0, _⟩ =>
      show win1_4.index lastPoint (0 : Fin 2) * 1 ≤ (i 0).val ∧ (i 0).val < win1_4.index lastPoint (0 : Fin 2) * 1 + 1
      rw [e0]; omega
    | ⟨1, _⟩ =>
      show win1_4.index lastPoint (1 : Fin 2) * 1024 ≤ (i 1).val ∧ (i 1).val < win1_4.index lastPoint (1 : Fin 2) * 1024 + 1024
      rw [e1]; omega

/-- After launch 1 its third result array holds the column sums of squares of the affine layer. -/
theorem region1_sumsq (c : Dev nD) :
    ((dat1 (F := Ideal) V c).arrAt 5 cfg1.N : Arr2 1 1024)
      = unc2 (fun _ q => colSumSq (lin (cur2 (V c main_v9 : Arr2 8192 3072)) (cur2 (V c main_arg9 : Arr2 1024 3072)) (cur1 (rowOf (V c main_v10 : Arr2 1 1024)))) q) :=
  (dat1 (F := Ideal) V c).arrAt_eq_of_cover 5 _ (sumSqFlushed V c) fun i => by
    have hi0 : (i 0).val < 1 := (i 0).isLt
    have hi1 : (i 1).val < 1024 := (i 1).isLt
    refine ⟨lastPoint, (flush1_5 lastPoint).mpr rfl, ?_⟩
    show i ∈ ((View.whole main_v11_2).slice (win1_5.rect lastPoint)).set
    rw [View.set_slice_whole, Rect.mem_set_unit]
    intro a
    obtain ⟨-, -, -, -, -, -, -, -, -, -, e0, e1⟩ := blockPlaces lastPoint
    match a with
    | ⟨0, _⟩ =>
      show win1_5.index lastPoint (0 : Fin 2) * 1 ≤ (i 0).val ∧ (i 0).val < win1_5.index lastPoint (0 : Fin 2) * 1 + 1
      rw [e0]; omega
    | ⟨1, _⟩ =>
      show win1_5.index lastPoint (1 : Fin 2) * 1024 ≤ (i 1).val ∧ (i 1).val < win1_5.index lastPoint (1 : Fin 2) * 1024 + 1024
      rw [e1]; omega

end Cert.KernelIdeal.Val

end
-- ==== Proof.KReg2.lean ====
/-
  The rectified affine map as the third launch computes it: each of its eight grid points takes a block of 1024
  rows of the matrix, multiplies every row entrywise by the scale row, adds the shift row, and keeps an entry `y`
  where `0 < y`, replacing it by the slope times `y` elsewhere. The blocks tile the result, so the array after the
  launch is `affLeaky` of the three arrays the launch reads.
-/
import proofs.«119478_j39633958207498_1_alg».proof.Proof.Spec
import proofs.«119478_j39633958207498_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

/-! ## The arithmetic of a block -/

/-- The zero offsets, as a constant function. -/
theorem zero_off2 : (![0, 0] : Fin 2 → Nat) = fun _ => 0 := funext fun a => by fin_cases a <;> rfl

/-- The rectifier as the launch spells it: a select on the bit of the strict comparison with the zero word, the
    second branch the slope word times the value. -/
theorem leaky_word2 (y : EReal) :
    Scalar.select (FloatOps.cmpf (F := Ideal) (φ := .f32) .ogt y (Scalar.ofBits .f32 0x00000000#32)) y
        (FloatOps.mulf (F := Ideal) (φ := .f32) (Scalar.ofBits .f32 0x3DCCCCCD#32) y)
      = leakyKer cSlope y := by
  show Scalar.select (Ideal.cmp .ogt y (Ideal.ofBits .f32 0x00000000#32)) y (Ideal.ofBits .f32 0x3DCCCCCD#32 * y) = _
  rw [Ideal.ofBits_zero_f32]
  unfold leakyKer cSlope Ideal.cmp
  by_cases h : (0 : EReal) < y
  · rw [if_pos h]
    simp only [decide_eq_true h]
    exact select_one _ _
  · rw [if_neg h]
    simp only [decide_eq_false h]
    exact select_zero _ _

/-- The launch's arithmetic at an entry of a block: the block's entry times the scale row's entry plus the shift
    row's entry, then the strict rectifier. -/
theorem pay2_at (x0 : Vec Ideal S1024x1024 .f32) (x1 x2 : Vec Ideal S1x1024 .f32) (p : Fin 1024) (q : Fin 1024) :
    k2_pay1 (F := Ideal) x0 x1 x2 (ix2 p q)
      = leakyKer cSlope (x0 (ix2 p q) * x1 (ix2 (0 : Fin 1) q) + x2 (ix2 (0 : Fin 1) q)) := by
  unfold k2_pay1
  rw [select_apply, cmpf_apply, mulf_apply, addf_apply, mulf_apply, broadcast_apply, broadcast_apply,
    shapeCast_self, shapeCast_self, shapeCast_self, broadcastTo_1b_ab_apply, broadcastTo_1b_ab_apply]
  exact leaky_word2 _

/-- The rectified affine map of a matrix by a scale row and a shift row, as an array. -/
abbrev affArr2 (A : Arr2 8192 1024) (a b : Arr2 1 1024) : Arr2 8192 1024 :=
  unc2 (affLeaky cSlope (cur2 A) (cur1 (rowOf a)) (cur1 (rowOf b)))

/-- If a block holds rows `1024 k … 1024 k + 1023` of the matrix and the two one-row blocks hold the scale and shift
    rows, the launch's arithmetic on them is the same rows of the rectified affine map. -/
theorem pay2_rows (A : Arr2 8192 1024) (a b : Arr2 1 1024) (x0 : Vec Ideal S1024x1024 .f32) (x1 x2 : Vec Ideal S1x1024 .f32)
    (g : Vec Ideal S1024x1024 .f32) (k : ℕ) (hk : k < 8)
    (h0 : ∀ (p : Fin 1024) (q : Fin 1024), x0 (ix2 p q) = A (ix2 (⟨k * 1024 + p.val, by have := p.isLt; omega⟩ : Fin 8192) q))
    (h1 : ∀ (q : Fin 1024), x1 (ix2 (0 : Fin 1) q) = a (ix2 (0 : Fin 1) q))
    (h2 : ∀ (q : Fin 1024), x2 (ix2 (0 : Fin 1) q) = b (ix2 (0 : Fin 1) q))
    (hg : ∀ (p : Fin 1024) (q : Fin 1024), g (ix2 p q) = affArr2 A a b (ix2 (⟨k * 1024 + p.val, by have := p.isLt; omega⟩ : Fin 8192) q)) :
    k2_pay1 (F := Ideal) x0 x1 x2 = g := by
  funext j
  obtain ⟨p, q, rfl⟩ : ∃ (p : Fin 1024) (q : Fin 1024), j = ix2 p q := ⟨j 0, j 1, eq_ix2 j⟩
  rw [pay2_at, h0, h1, h2, hg]
  rfl

/-! ## From the blocks to the array -/

/-- The launch's index maps over its eight points: the matrix and the result move by one block of rows a point,
    the two one-row arrays stay. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The three arrays the launch reads, at their literal types. -/
abbrev xarr2 (c : Dev nD) : Arr2 8192 1024 := V c main_v11_0
abbrev sarr2 (c : Dev nD) : Arr2 1 1024 := V c main_v36
abbrev tarr2 (c : Dev nD) : Arr2 1 1024 := V c main_v37

/-- What point `t` writes back is block `t` of the rectified affine map of the arrays the launch found. -/
theorem flushed2_eq (c : Dev nD) (t : Fin cfg2.N) :
    (dat2 (F := Ideal) V c).flushed 3 t
      = ((cfg2.win 3).blk t).view.read (Elt Ideal) (affArr2 (xarr2 V c) (sarr2 V c) (tarr2 V c)) := by
  show (cfg2.win 3).cut (grid2.coords t) ((dat2 V c).after 3 t) = _
  rw [after2_3]
  unfold out2_3
  rw [View.canon_unit_zero zero_off2]
  simp only [View.ld_unit_zero (S := S1024x1024) zero_off2, View.ld_unit_zero (S := S1x1024) zero_off2]
  obtain ⟨e0, e1, e2, e3, e4, e5, e6, e7⟩ := idx_facts2 t
  have hN : cfg2.N = 8 := N_2
  have ht : t.val < 8 := hN ▸ t.isLt
  refine pay2_rows (xarr2 V c) (sarr2 V c) (tarr2 V c) (iblk2 V c 0 t) (iblk2 V c 1 t) (iblk2 V c 2 t) _ t.val ht
    (fun p q => ?_) (fun q => ?_) (fun q => ?_) (fun p q => ?_)
  · show xarr2 V c (((cfg2.win 0).blk t).view.emb (ix2 p q)) = _
    refine congrArg (xarr2 V c) (funext fun a => Fin.ext ?_)
    match a with
    | ⟨0, _⟩ => show win2_0.index t (0 : Fin 2) * 1024 + 1 * p.val = t.val * 1024 + p.val; rw [e0]; omega
    | ⟨1, _⟩ => show win2_0.index t (1 : Fin 2) * 1024 + 1 * q.val = q.val; rw [e1]; omega
  · show sarr2 V c (((cfg2.win 1).blk t).view.emb (ix2 (0 : Fin 1) q)) = _
    refine congrArg (sarr2 V c) (funext fun a => Fin.ext ?_)
    match a with
    | ⟨0, _⟩ => show win2_1.index t (0 : Fin 2) * 1 + 1 * 0 = 0; rw [e2]
    | ⟨1, _⟩ => show win2_1.index t (1 : Fin 2) * 1024 + 1 * q.val = q.val; rw [e3]; omega
  · show tarr2 V c (((cfg2.win 2).blk t).view.emb (ix2 (0 : Fin 1) q)) = _
    refine congrArg (tarr2 V c) (funext fun a => Fin.ext ?_)
    match a with
    | ⟨0, _⟩ => show win2_2.index t (0 : Fin 2) * 1 + 1 * 0 = 0; rw [e4]
    | ⟨1, _⟩ => show win2_2.index t (1 : Fin 2) * 1024 + 1 * q.val = q.val; rw [e5]; omega
  · generalize affArr2 (xarr2 V c) (sarr2 V c) (tarr2 V c) = G
    show G (((cfg2.win 3).blk t).view.emb (ix2 p q)) = _
    refine congrArg G (funext fun a => Fin.ext ?_)
    match a with
    | ⟨0, _⟩ => show win2_3.index t (0 : Fin 2) * 1024 + 1 * p.val = t.val * 1024 + p.val; rw [e6]; omega
    | ⟨1, _⟩ => show win2_3.index t (1 : Fin 2) * 1024 + 1 * q.val = q.val; rw [e7]; omega

/-- An entry of the result array lies in point `t`'s block exactly when each of its coordinates lies in the block's
    range on that axis. -/
theorem mem_blk2 (t : Fin cfg2.N) (i : S8192x1024.Idx) :
    i ∈ ((cfg2.win 3).blk t).view.set ↔ ∀ a : Fin 2, win2_3.index t a * S1024x1024.size a ≤ (i a).val
      ∧ (i a).val < win2_3.index t a * S1024x1024.size a + S1024x1024.size a := by
  show i ∈ ((View.whole main_v38).slice (win2_3.rect t)).set ↔ _
  rw [View.set_slice_whole, Rect.mem_set_unit]
  exact Iff.rfl

/-- Every entry of the result array is written back by some point: row `r` by point `r / 1024`. -/
theorem cover2 (i : S8192x1024.Idx) :
    ∃ t : Fin cfg2.N, (cfg2.win 3).flush t = true ∧ i ∈ ((cfg2.win 3).blk t).view.set := by
  have hi0 : (i 0).val < 8192 := (i 0).isLt
  have hi1 : (i 1).val < 1024 := (i 1).isLt
  have hN : cfg2.N = 8 := N_2
  obtain ⟨t, ht⟩ : ∃ t : Fin cfg2.N, t.val = (i 0).val / 1024 := ⟨⟨(i 0).val / 1024, by rw [hN]; omega⟩, rfl⟩
  obtain ⟨-, -, -, -, -, -, e6, e7⟩ := idx_facts2 t
  refine ⟨t, flush2_3 t, ?_⟩
  rw [mem_blk2]
  intro a
  match a with
  | ⟨0, _⟩ =>
    show win2_3.index t (0 : Fin 2) * 1024 ≤ (i 0).val ∧ (i 0).val < win2_3.index t (0 : Fin 2) * 1024 + 1024
    rw [e6]; omega
  | ⟨1, _⟩ =>
    show win2_3.index t (1 : Fin 2) * 1024 ≤ (i 1).val ∧ (i 1).val < win2_3.index t (1 : Fin 2) * 1024 + 1024
    rw [e7]; omega

/-- After launch 2 its result array is the rectified affine map of the matrix by the scale and shift rows it found. -/
theorem region2_out (c : Dev nD) :
    ((dat2 (F := Ideal) V c).arrAt 3 cfg2.N : Arr2 8192 1024)
      = unc2 (affLeaky cSlope (cur2 (V c main_v11_0 : Arr2 8192 1024)) (cur1 (rowOf (V c main_v36 : Arr2 1 1024)))
          (cur1 (rowOf (V c main_v37 : Arr2 1 1024)))) :=
  (dat2 (F := Ideal) V c).arrAt_eq_of_cover 3 (affArr2 (xarr2 V c) (sarr2 V c) (tarr2 V c))
    (fun t _ => flushed2_eq V c t) cover2

end Cert.KernelIdeal.Val

end
-- ==== Proof.KParams4.lean ====
/-
  The per-channel scale and shift of the first normalised layer, as the host computes them between the
  second and the third launch from the column sums `s` and the column sums of squares `q` (one-row arrays):
  the 1024 channels are read as 32 groups of 32, each group's entries are summed, divided by the number of
  entries of a group to give the group mean and the mean of squares; the variance is the mean of squares
  less the squared mean; the reciprocal of the root of variance plus ε is spread back over the group's
  channels and multiplied by γ (the scale); the shift is β less mean times scale.
-/
import proofs.«119478_j39633958207498_1_alg».proof.Proof.Spec
import proofs.«119478_j39633958207498_1_alg».proof.Proof.Gen.KernelIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.ValueIdx
open Cert.KernelIdeal Cert.KernelIdeal.Gen Cert.Spec

/-! ## The host's terms -/

/-- A one-row array's entries summed group by group: read as [1024], then as [32, 32] (row = group), summed
    along the second axis from the zero word. -/
def grpSum4 (s : FVec Ideal S1x1024 .f32) : FVec Ideal S32 .f32 :=
  Host.reduceAdd (F := Ideal)
    (shapeCast S32x32 (shapeCast S1024 s shapeCasts_S1x1024_S1024) shapeCasts_S1024_S32x32)
    (constant (F := Ideal) S_ .f32 0x00000000#32) reducesTo_S32x32_S32_d1 h_S_

/-- The number of entries of a group, at every group. -/
def cntVec4 : FVec Ideal S32 .f32 :=
  broadcastInDim S32 ![] bcast_S_S32 (constant (F := Ideal) S_ .f32 0x48800000#32)

/-- The group means. -/
def mean4 (s : FVec Ideal S1x1024 .f32) : FVec Ideal S32 .f32 :=
  Host.divf (F := Ideal) (grpSum4 s) cntVec4

/-- The group variances: mean of squares less squared mean. -/
def var4 (s q : FVec Ideal S1x1024 .f32) : FVec Ideal S32 .f32 :=
  subf (F := Ideal) (Host.divf (F := Ideal) (grpSum4 q) cntVec4) (mulf (F := Ideal) (mean4 s) (mean4 s))

/-- One over the root of variance plus ε, group by group. -/
def inv4 (s q : FVec Ideal S1x1024 .f32) : FVec Ideal S32 .f32 :=
  Host.divf (F := Ideal)
    (broadcastInDim S32 ![] bcast_S_S32 (constant (F := Ideal) S_ .f32 0x3F800000#32))
    (Host.sqrt (F := Ideal)
      (addf (F := Ideal) (var4 s q)
        (broadcastInDim S32 ![] bcast_S_S32 (constant (F := Ideal) S_ .f32 0x3727C5AC#32))))

/-- A per-group value spread over the group's channels: broadcast along a new second axis, read as [1024]. -/
def spread4 (v : FVec Ideal S32 .f32) : FVec Ideal S1024 .f32 :=
  shapeCast S1024 (broadcastInDim S32x32 ![0] bcast_S32_S32x32_0 v) shapeCasts_S32x32_S1024

/-- The scale per channel, as a vector. -/
def scaleVec4 (s q : FVec Ideal S1x1024 .f32) (γ : FVec Ideal S1024 .f32) : FVec Ideal S1024 .f32 :=
  mulf (F := Ideal) γ (spread4 (inv4 s q))

/-- The scale per channel, as the one-row array the third launch reads. -/
def paramScale4 (s q : FVec Ideal S1x1024 .f32) (γ : FVec Ideal S1024 .f32) : FVec Ideal S1x1024 .f32 :=
  shapeCast S1x1024 (scaleVec4 s q γ) shapeCasts_S1024_S1x1024

/-- The shift per channel, as the one-row array the third launch reads. -/
def paramShift4 (s q : FVec Ideal S1x1024 .f32) (γ β : FVec Ideal S1024 .f32) : FVec Ideal S1x1024 .f32 :=
  shapeCast S1x1024
    (subf (F := Ideal) β (mulf (F := Ideal) (spread4 (mean4 s)) (scaleVec4 s q γ)))
    shapeCasts_S1024_S1x1024

/-! ## The terms read at an index -/

/-- Summing [32, 32] along its second axis: the shape fact naming the inserted coordinate. -/
theorem reduces_S32x32_S32 : S32x32.Reduces [1] S32 := by decide

/-- Group g with the coordinate p inserted on the summed axis is the entry (g, p). -/
theorem lift_S32x32 (g p : Fin 32) : reduces_S32x32_S32.lift (ix1 g) p = ix2 g p := by
  funext a
  match a with
  | ⟨0, _⟩ => exact Fin.ext rfl
  | ⟨1, _⟩ => exact Fin.ext rfl

/-- A group's sum is the sum of the row's entries at the group's channels. -/
theorem grpSum4_apply (s : FVec Ideal S1x1024 .f32) (g : Fin 32) :
    grpSum4 s (ix1 g) = ∑ p : Fin 32, s (ix2 0 (ch4 g p)) := by
  show Ideal.hostReduceAdd reducesTo_S32x32_S32_d1
      (shapeCast S32x32 (shapeCast S1024 s shapeCasts_S1x1024_S1024) shapeCasts_S1024_S32x32)
      (Ideal.ofBits .f32 0x00000000#32) (ix1 g) = _
  rw [Ideal.hostReduceAdd_single reducesTo_S32x32_S32_d1 reduces_S32x32_S32, Ideal.ofBits_zero_f32, zero_add]
  refine Finset.sum_congr rfl fun (p : Fin 32) _ => ?_
  refine (congrArg _ (lift_S32x32 g p)).trans ?_
  refine (shapeCast_apply _ _ (ix2 g p) (ix1 (ch4 g p)) ?_).trans ?_
  · rw [Shape.rowMajor_val_one, Shape.rowMajor_val_two]; rfl
  exact shapeCast_1a_a_apply s _ (ch4 g p)

/-- The count vector reads the number of a group's entries at every group. -/
theorem cntVec4_apply (i : S32.Idx) : cntVec4 i = cCnt4 := rfl

/-- A group's mean is its sum over the count. -/
theorem mean4_apply (s : FVec Ideal S1x1024 .f32) (g : Fin 32) :
    mean4 s (ix1 g) = Ideal.div (∑ p : Fin 32, s (ix2 0 (ch4 g p))) cCnt4 := by
  show Ideal.div (grpSum4 s (ix1 g)) (cntVec4 (ix1 g)) = _
  rw [grpSum4_apply, cntVec4_apply]

/-- A group's variance is its mean of squares less its squared mean. -/
theorem var4_apply (s q : FVec Ideal S1x1024 .f32) (g : Fin 32) :
    var4 s q (ix1 g)
      = Ideal.div (∑ p : Fin 32, q (ix2 0 (ch4 g p))) cCnt4 - mean4 s (ix1 g) * mean4 s (ix1 g) := by
  show Ideal.div (grpSum4 q (ix1 g)) (cntVec4 (ix1 g)) - mean4 s (ix1 g) * mean4 s (ix1 g) = _
  rw [grpSum4_apply, cntVec4_apply]

/-- A group's factor is one over the root of its variance plus ε (the word of 1.0 is the number one). -/
theorem inv4_apply (s q : FVec Ideal S1x1024 .f32) (g : Fin 32) :
    inv4 s q (ix1 g) = Ideal.div 1 (Ideal.sqrt (var4 s q (ix1 g) + cEps)) := by
  show Ideal.div (Ideal.ofBits .f32 0x3F800000#32) (Ideal.sqrt (var4 s q (ix1 g) + cEps)) = _
  rw [show Ideal.ofBits .f32 0x3F800000#32 = 1 from IdealRules.sign_bit.ideal_onePat .f32]

/-- A per-group value spread over the channels reads, at channel c, the value of c's group: c is entry
    (c / 32, c % 32) of the [32, 32] reading, and the broadcast forgets the second coordinate. -/
theorem spread4_apply (v : FVec Ideal S32 .f32) (c : Fin 1024) : spread4 v (ix1 c) = v (ix1 (gOf4 c)) := by
  refine (shapeCast_apply _ _ (ix1 c) (ix2 (gOf4 c) (⟨c.val % 32, Nat.mod_lt _ (by decide)⟩ : Fin 32)) ?_).trans ?_
  · rw [Shape.rowMajor_val_one, Shape.rowMajor_val_two]
    show c.val / 32 * 32 + c.val % 32 = c.val
    omega
  refine broadcastInDim_apply _ _ v _ (ix1 (gOf4 c)) fun a => ?_
  match a with
  | ⟨0, _⟩ => rfl

/-- The scale at channel c: γ times the factor of c's group. -/
theorem scaleVec4_apply (s q : FVec Ideal S1x1024 .f32) (γ : FVec Ideal S1024 .f32) (c : Fin 1024) :
    scaleVec4 s q γ (ix1 c) = γ (ix1 c) * Ideal.div 1 (Ideal.sqrt (var4 s q (ix1 (gOf4 c)) + cEps)) := by
  show γ (ix1 c) * spread4 (inv4 s q) (ix1 c) = _
  rw [spread4_apply, inv4_apply]

/-- The scale row at column c is the scale vector at c. -/
theorem paramScale4_row (s q : FVec Ideal S1x1024 .f32) (γ : FVec Ideal S1024 .f32) (c : Fin 1024) :
    paramScale4 s q γ (ix2 0 c) = scaleVec4 s q γ (ix1 c) :=
  shapeCast_a_1a_apply _ _ 0 c

/-- The shift row at column c: β less the mean of c's group times the scale. -/
theorem paramShift4_row (s q : FVec Ideal S1x1024 .f32) (γ β : FVec Ideal S1024 .f32) (c : Fin 1024) :
    paramShift4 s q γ β (ix2 0 c) = β (ix1 c) - mean4 s (ix1 (gOf4 c)) * scaleVec4 s q γ (ix1 c) := by
  refine (shapeCast_a_1a_apply _ _ 0 c).trans ?_
  show β (ix1 c) - spread4 (mean4 s) (ix1 c) * scaleVec4 s q γ (ix1 c) = _
  rw [spread4_apply]

/-! ## At the column sums of an array: the folded scale and shift -/

section AtSums
variable (Y : Fin 8192 → Fin 1024 → EReal)

/-- On the column sums the group mean is the mean over the group's entries. -/
theorem mean4_colSum (g : Fin 32) : mean4 (unc2 fun _ q => colSum Y q) (ix1 g) = gmean cCnt4 ch4 Y g := by
  rw [mean4_apply]; rfl

/-- On the column sums and sums of squares the group variance is the folded one. -/
theorem var4_colSum (g : Fin 32) :
    var4 (unc2 fun _ q => colSum Y q) (unc2 fun _ q => colSumSq Y q) (ix1 g) = gvarKer cCnt4 ch4 Y g := by
  rw [var4_apply, mean4_colSum]; rfl

/-- The host's scale row is the folded scale. -/
theorem paramScale4_eq (γ : Arr1 1024) :
    rowOf (paramScale4 (unc2 fun _ q => colSum Y q) (unc2 fun _ q => colSumSq Y q) γ)
      = fun j => scaleKer cCnt4 cEps ch4 gOf4 Y (cur1 γ) (j 0) := by
  funext j
  obtain ⟨c, rfl⟩ : ∃ c : Fin 1024, j = ix1 c := ⟨j 0, eq_ix1 j⟩
  show paramScale4 _ _ γ (ix2 0 c) = scaleKer cCnt4 cEps ch4 gOf4 Y (cur1 γ) c
  rw [paramScale4_row, scaleVec4_apply, var4_colSum]; rfl

/-- The host's shift row is the folded shift. -/
theorem paramShift4_eq (γ β : Arr1 1024) :
    rowOf (paramShift4 (unc2 fun _ q => colSum Y q) (unc2 fun _ q => colSumSq Y q) γ β)
      = fun j => shiftKer cCnt4 cEps ch4 gOf4 Y (cur1 γ) (cur1 β) (j 0) := by
  funext j
  obtain ⟨c, rfl⟩ : ∃ c : Fin 1024, j = ix1 c := ⟨j 0, eq_ix1 j⟩
  show paramShift4 _ _ γ β (ix2 0 c) = shiftKer cCnt4 cEps ch4 gOf4 Y (cur1 γ) (cur1 β) c
  rw [paramShift4_row, scaleVec4_apply, var4_colSum, mean4_colSum]; rfl

end AtSums

end Cert.KernelIdeal.Val

end
-- ==== Proof.KChainB.lean ====
/-
  The first normalised layer read off the program's buffers, boundary by boundary. A stretch of host operations
  gathers rows of the first affine layer's result and appends the skip block; a launch leaves the affine layer of
  that input together with its column sums and column sums of squares; a second stretch turns the sums into the
  per-channel scale and shift; a second launch applies them and the rectifier. Read together this is the folded
  arrangement of the normalised layer.
-/
import proofs.«119478_j39633958207498_1_alg».proof.Proof.Spec
import proofs.«119478_j39633958207498_1_alg».proof.Proof.Gen.KernelIdeal.Frame
import proofs.«119478_j39633958207498_1_alg».proof.Proof.KChainBase
import proofs.«119478_j39633958207498_1_alg».proof.Proof.KPre
import proofs.«119478_j39633958207498_1_alg».proof.Proof.KReg1
import proofs.«119478_j39633958207498_1_alg».proof.Proof.KReg2
import proofs.«119478_j39633958207498_1_alg».proof.Proof.KParams4
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Spec

variable (m : (ℓ : Loc nD τ sig) → Buf (Elt Ideal) ℓ) (ρ : Dev nD → PrngReg)

/-! ## The stretch of host operations before the affine layer -/

set_option maxHeartbeats 1000000 in
/-- The layer's input: the previous layer's result, gathered and extended. -/
theorem W3_v9 (c : Dev nD) :
    (W3 m ρ c (Proc.devRef .tc main_v9) : Arr2 8192 3072) = pre4 m c (W2 m ρ c (Proc.devRef .tc main_v1)) := by
  have e : (W3 m ρ c (Proc.devRef .tc main_v9) : Arr2 8192 3072)
      = Spec.pre gather_S2048x2048_S8192x1_S8192x2048_1_0_n_n_0_1_12048 1 concatenates_S8192x2048_S8192x1024_S8192x3072_d1
          (W2 m ρ c (Proc.devRef .tc main_v1)) (idx4 (W2 m ρ c (Proc.devRef .tc main_arg6))) (W2 m ρ c (Proc.devRef .tc main_arg2)) := by
    show StableHlo.after hostOps1 _ (Proc.devRef .tc main_v9) = _
    after_results
    rfl
  rw [e, W2_arg m ρ c main_arg6 (by decide), W2_arg m ρ c main_arg2 (by decide)]
  rfl

/-- The one-row bias array is the bias vector with a unit axis in front: its row is the vector. -/
theorem W3_v10 (c : Dev nD) :
    rowOf (W3 m ρ c (Proc.devRef .tc main_v10) : Arr2 1 1024) = ((m ((c : Thread nD τ).loc main_arg10)) : Arr1 1024) := by
  have e : (W3 m ρ c (Proc.devRef .tc main_v10) : Arr2 1 1024)
      = shapeCast S1x1024 (W2 m ρ c (Proc.devRef .tc main_arg10) : Arr1 1024) shapeCasts_S1024_S1x1024 := by
    show StableHlo.after hostOps1 _ (Proc.devRef .tc main_v10) = _
    after_results
    rfl
  rw [e, W2_arg m ρ c main_arg10 (by decide)]
  funext j
  rw [eq_ix1 j]
  exact shapeCast_a_1a_apply _ _ 0 (j 0)

/-! ## The layer's affine part, its column sums and its column sums of squares: the first launch of the pair -/

/-- The affine layer's entries. -/
def lay4 (c : Dev nD) : Fin 8192 → Fin 1024 → EReal :=
  lin (cur2 (pre4 m c (W2 m ρ c (Proc.devRef .tc main_v1)))) (cur2 (m ((c : Thread nD τ).loc main_arg9))) (cur1 (m ((c : Thread nD τ).loc main_arg10)))

/-- What the launch finds in its three input arrays. -/
theorem entry1 (c : Dev nD) :
    (V3 m ρ c main_v9 : Arr2 8192 3072) = pre4 m c (W2 m ρ c (Proc.devRef .tc main_v1))
      ∧ (V3 m ρ c main_arg9 : Arr2 1024 3072) = (m ((c : Thread nD τ).loc main_arg9))
      ∧ rowOf (V3 m ρ c main_v10 : Arr2 1 1024) = (m ((c : Thread nD τ).loc main_arg10)) :=
  ⟨W3_v9 m ρ c, W3_arg m ρ c main_arg9 (by decide), W3_v10 m ρ c⟩

theorem W4_v11_0 (c : Dev nD) :
    (W4 m ρ c (Proc.devRef .tc main_v11_0) : Arr2 8192 1024) = unc2 (lay4 m ρ c) := by
  obtain ⟨h0, h1, h2⟩ := entry1 m ρ c
  refine (W4_arr m ρ c 3).trans ((region1_out (V3 m ρ) c).trans ?_)
  rw [h0, h1, h2]
  rfl

theorem W4_v11_1 (c : Dev nD) :
    (W4 m ρ c (Proc.devRef .tc main_v11_1) : Arr2 1 1024) = unc2 (fun _ q => colSum (lay4 m ρ c) q) := by
  obtain ⟨h0, h1, h2⟩ := entry1 m ρ c
  refine (W4_arr m ρ c 4).trans ((region1_sum (V3 m ρ) c).trans ?_)
  rw [h0, h1, h2]
  rfl

theorem W4_v11_2 (c : Dev nD) :
    (W4 m ρ c (Proc.devRef .tc main_v11_2) : Arr2 1 1024) = unc2 (fun _ q => colSumSq (lay4 m ρ c) q) := by
  obtain ⟨h0, h1, h2⟩ := entry1 m ρ c
  refine (W4_arr m ρ c 5).trans ((region1_sumsq (V3 m ρ) c).trans ?_)
  rw [h0, h1, h2]
  rfl

/-! ## The per-channel scale and shift: the stretch of host operations between the two launches -/

set_option maxHeartbeats 1000000 in
/-- The scale row the stretch leaves is the folded scale of the affine part. -/
theorem W5_v36 (c : Dev nD) :
    rowOf (W5 m ρ c (Proc.devRef .tc main_v36) : Arr2 1 1024)
      = fun j => scaleKer cCnt4 cEps ch4 gOf4 (lay4 m ρ c) (cur1 (m ((c : Thread nD τ).loc main_arg11))) (j 0) := by
  have e : (W5 m ρ c (Proc.devRef .tc main_v36) : Arr2 1 1024)
      = paramScale4 (W4 m ρ c (Proc.devRef .tc main_v11_1)) (W4 m ρ c (Proc.devRef .tc main_v11_2)) (W4 m ρ c (Proc.devRef .tc main_arg11)) := by
    show StableHlo.after hostOps2 _ (Proc.devRef .tc main_v36) = _
    after_results_simp
    rfl
  rw [e, W4_v11_1 m ρ c, W4_v11_2 m ρ c, W4_arg m ρ c main_arg11 (by decide)]
  exact paramScale4_eq (lay4 m ρ c) (m ((c : Thread nD τ).loc main_arg11))

set_option maxHeartbeats 1000000 in
/-- The shift row the stretch leaves is the folded shift of the affine part. -/
theorem W5_v37 (c : Dev nD) :
    rowOf (W5 m ρ c (Proc.devRef .tc main_v37) : Arr2 1 1024)
      = fun j => shiftKer cCnt4 cEps ch4 gOf4 (lay4 m ρ c) (cur1 (m ((c : Thread nD τ).loc main_arg11))) (cur1 (m ((c : Thread nD τ).loc main_arg12))) (j 0) := by
  have e : (W5 m ρ c (Proc.devRef .tc main_v37) : Arr2 1 1024)
      = paramShift4 (W4 m ρ c (Proc.devRef .tc main_v11_1)) (W4 m ρ c (Proc.devRef .tc main_v11_2)) (W4 m ρ c (Proc.devRef .tc main_arg11)) (W4 m ρ c (Proc.devRef .tc main_arg12)) := by
    show StableHlo.after hostOps2 _ (Proc.devRef .tc main_v37) = _
    after_results_simp
    rfl
  rw [e, W4_v11_1 m ρ c, W4_v11_2 m ρ c, W4_arg m ρ c main_arg11 (by decide),
    W4_arg m ρ c main_arg12 (by decide)]
  exact paramShift4_eq (lay4 m ρ c) (m ((c : Thread nD τ).loc main_arg11)) (m ((c : Thread nD τ).loc main_arg12))

/-- The stretch does not touch the affine part. -/
theorem W5_v11_0 (c : Dev nD) :
    (W5 m ρ c (Proc.devRef .tc main_v11_0) : Arr2 8192 1024) = unc2 (lay4 m ρ c) :=
  (W5_keep m ρ c main_v11_0 (by decide)).trans (W4_v11_0 m ρ c)

/-! ## Scale, shift and rectifier: the second launch of the pair -/

/-- After it the result array is the normalised layer, folded arrangement, of the gathered input. -/
theorem W6_v38 (c : Dev nD) :
    (W6 m ρ c (Proc.devRef .tc main_v38) : Arr2 8192 1024)
      = stageK cCnt4 ch4 gOf4 (pre4 m c (W2 m ρ c (Proc.devRef .tc main_v1)))
          (m ((c : Thread nD τ).loc main_arg9)) (m ((c : Thread nD τ).loc main_arg10)) (m ((c : Thread nD τ).loc main_arg11)) (m ((c : Thread nD τ).loc main_arg12)) := by
  refine (W6_arr m ρ c 3).trans ((region2_out (V5 m ρ) c).trans ?_)
  have h0 : (V5 m ρ c main_v11_0 : Arr2 8192 1024) = unc2 (lay4 m ρ c) := W5_v11_0 m ρ c
  have h1 : rowOf (V5 m ρ c main_v36 : Arr2 1 1024) = _ := W5_v36 m ρ c
  have h2 : rowOf (V5 m ρ c main_v37 : Arr2 1 1024) = _ := W5_v37 m ρ c
  rw [h0, h1, h2]
  rfl

end Cert.KernelIdeal.Val

end
-- ==== Proof.KReg3.lean ====
/-
  The second normalised layer's affine map and its column statistics as launch 3 computes them. The grid has 32 points.
  Point t multiplies the 1024 rows of the input from row 1024·t on by the whole weight matrix (both contracted along their
  second axis), adds the bias row and writes that block of the result; the 32 blocks tile the result, so the first
  array after the launch is `linA` of the three arrays the launch reads. Two rows of 512 entries are carried across
  the points: the first point sets them to zero, and every point adds to them the column sums, respectively the column
  sums of squares, of its block. After point n they therefore hold the sums over the first 1024·(n + 1) rows of the
  layer (induction on n; sums over consecutive row ranges add up because addition of extended reals is associative and
  commutative). They are written back once, after the last point, when these are the sums over all 32768 rows:
  `colSum` and `colSumSq` of the layer.
-/
import proofs.«119478_j39633958207498_1_alg».proof.Proof.Spec
import proofs.«119478_j39633958207498_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators

namespace Cert.KernelIdeal.Val

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Spec
variable (V : (c : Dev nD) → (b : Ref sig .tc) → Buf (Elt Ideal) ((c : Thread nD τ).loc b))

namespace LinStats3

variable {F : FTy → Type} [FloatOps F]

theorem hz2 : (![0, 0] : Fin 2 → Nat) = fun _ => 0 := funext fun a => by fin_cases a <;> rfl

/-! ## What each case of the body leaves in the three result blocks, as the payloads of the blocks it read -/

/-- Away from the first point the block of the affine layer is the product-plus-bias payload of the three input blocks. -/
theorem laterLin (c : Dev nD) (i : grid3.Coords) (a1 : Memref sig .tc .vmem S1024x1536 .f32) (h1 : a1.IsWhole) (a2 : Memref sig .tc .vmem S512x1536 .f32) (h2 : a2.IsWhole) (a3 : Memref sig .tc .vmem S1x512 .f32) (h3 : a3.IsWhole) (a4 : Memref sig .tc .vmem S1024x512 .f32) (h4 : a4.IsWhole) (a5 : Memref sig .tc .vmem S1x512 .f32) (h5 : a5.IsWhole) (a6 : Memref sig .tc .vmem S1x512 .f32) (h6 : a6.IsWhole) (hc : ¬cond3_0 i)
    (x0 : Vec F S1024x1536 .f32) (x1 : Vec F S512x1536 .f32) (x2 : Vec F S1x512 .f32) (xo4 xo5 : Vec F S1x512 .f32) :
    out3_B_3 c i a1 h1 a2 h2 a3 h3 a4 h4 a5 h5 a6 h6 hc x0 x1 x2 xo4 xo5 = k3_pay3 x0 x1 x2 := by
  unfold out3_B_3
  rw [View.read_writes_eq_canon _ _ _ (cover3_B_3 c i a1 h1 a2 h2 a3 h3 a4 h4 a5 h5 a6 h6 hc x0 x1 x2 xo4 xo5)]
  unfold kernelRun3_B
  dsimp only
  sl_unfold_words
  rw [View.canon_unit_zero hz2]
  simp only [View.readAt_eq_ld, h1.read_unread, h2.read_unread, h3.read_unread, View.ld_unit_zero (S := S1024x1536) hz2,
    View.ld_unit_zero (S := S512x1536) hz2, View.ld_unit_zero (S := S1x512) hz2]

/-- Away from the first point the running column sums become the old ones plus this block's. -/
theorem laterSum (c : Dev nD) (i : grid3.Coords) (a1 : Memref sig .tc .vmem S1024x1536 .f32) (h1 : a1.IsWhole) (a2 : Memref sig .tc .vmem S512x1536 .f32) (h2 : a2.IsWhole) (a3 : Memref sig .tc .vmem S1x512 .f32) (h3 : a3.IsWhole) (a4 : Memref sig .tc .vmem S1024x512 .f32) (h4 : a4.IsWhole) (a5 : Memref sig .tc .vmem S1x512 .f32) (h5 : a5.IsWhole) (a6 : Memref sig .tc .vmem S1x512 .f32) (h6 : a6.IsWhole) (hc : ¬cond3_0 i)
    (x0 : Vec F S1024x1536 .f32) (x1 : Vec F S512x1536 .f32) (x2 : Vec F S1x512 .f32) (xo4 xo5 : Vec F S1x512 .f32) :
    out3_B_4 c i a1 h1 a2 h2 a3 h3 a4 h4 a5 h5 a6 h6 hc x0 x1 x2 xo4 xo5 = k3_pay4 x0 x1 x2 xo4 := by
  unfold out3_B_4
  rw [View.read_writes_eq_canon _ _ _ (cover3_B_4 c i a1 h1 a2 h2 a3 h3 a4 h4 a5 h5 a6 h6 hc x0 x1 x2 xo4 xo5)]
  unfold kernelRun3_B
  dsimp only
  sl_unfold_words
  rw [View.canon_unit_zero hz2]
  simp only [View.readAt_eq_ld, h1.read_unread, h2.read_unread, h3.read_unread, h5.read_unread, View.ld_unit_zero (S := S1024x1536) hz2,
    View.ld_unit_zero (S := S512x1536) hz2, View.ld_unit_zero (S := S1x512) hz2]

/-- Away from the first point the running column sums of squares become the old ones plus this block's. -/
theorem laterSumSq (c : Dev nD) (i : grid3.Coords) (a1 : Memref sig .tc .vmem S1024x1536 .f32) (h1 : a1.IsWhole) (a2 : Memref sig .tc .vmem S512x1536 .f32) (h2 : a2.IsWhole) (a3 : Memref sig .tc .vmem S1x512 .f32) (h3 : a3.IsWhole) (a4 : Memref sig .tc .vmem S1024x512 .f32) (h4 : a4.IsWhole) (a5 : Memref sig .tc .vmem S1x512 .f32) (h5 : a5.IsWhole) (a6 : Memref sig .tc .vmem S1x512 .f32) (h6 : a6.IsWhole) (hc : ¬cond3_0 i)
    (x0 : Vec F S1024x1536 .f32) (x1 : Vec F S512x1536 .f32) (x2 : Vec F S1x512 .f32) (xo4 xo5 : Vec F S1x512 .f32) :
    out3_B_5 c i a1 h1 a2 h2 a3 h3 a4 h4 a5 h5 a6 h6 hc x0 x1 x2 xo4 xo5 = k3_pay5 x0 x1 x2 xo5 := by
  unfold out3_B_5
  rw [View.read_writes_eq_canon _ _ _ (cover3_B_5 c i a1 h1 a2 h2 a3 h3 a4 h4 a5 h5 a6 h6 hc x0 x1 x2 xo4 xo5)]
  unfold kernelRun3_B
  dsimp only
  sl_unfold_words
  rw [View.canon_unit_zero hz2]
  simp only [View.readAt_eq_ld, h1.read_unread, h2.read_unread, h3.read_unread, h6.read_unread, View.ld_unit_zero (S := S1024x1536) hz2,
    View.ld_unit_zero (S := S512x1536) hz2, View.ld_unit_zero (S := S1x512) hz2]

/-- At the first point the block of the affine layer is the same payload. -/
theorem firstLin (c : Dev nD) (i : grid3.Coords) (a1 : Memref sig .tc .vmem S1024x1536 .f32) (h1 : a1.IsWhole) (a2 : Memref sig .tc .vmem S512x1536 .f32) (h2 : a2.IsWhole) (a3 : Memref sig .tc .vmem S1x512 .f32) (h3 : a3.IsWhole) (a4 : Memref sig .tc .vmem S1024x512 .f32) (h4 : a4.IsWhole) (a5 : Memref sig .tc .vmem S1x512 .f32) (h5 : a5.IsWhole) (a6 : Memref sig .tc .vmem S1x512 .f32) (h6 : a6.IsWhole) (hc : cond3_0 i)
    (x0 : Vec F S1024x1536 .f32) (x1 : Vec F S512x1536 .f32) (x2 : Vec F S1x512 .f32) :
    out3_A_3 c i a1 h1 a2 h2 a3 h3 a4 h4 a5 h5 a6 h6 hc x0 x1 x2 = k3_pay3 x0 x1 x2 := by
  unfold out3_A_3
  rw [View.read_writes_eq_canon _ _ _ (cover3_A_3 c i a1 h1 a2 h2 a3 h3 a4 h4 a5 h5 a6 h6 hc x0 x1 x2)]
  unfold kernelRun3_A
  dsimp only
  sl_unfold_words
  rw [View.canon_unit_zero hz2]
  simp only [View.readAt_eq_ld, h1.read_unread, h2.read_unread, h3.read_unread, View.ld_unit_zero (S := S1024x1536) hz2,
    View.ld_unit_zero (S := S512x1536) hz2, View.ld_unit_zero (S := S1x512) hz2]

/-- At the first point the column sums start from the zero row the body has just stored. -/
theorem firstSum (c : Dev nD) (i : grid3.Coords) (a1 : Memref sig .tc .vmem S1024x1536 .f32) (h1 : a1.IsWhole) (a2 : Memref sig .tc .vmem S512x1536 .f32) (h2 : a2.IsWhole) (a3 : Memref sig .tc .vmem S1x512 .f32) (h3 : a3.IsWhole) (a4 : Memref sig .tc .vmem S1024x512 .f32) (h4 : a4.IsWhole) (a5 : Memref sig .tc .vmem S1x512 .f32) (h5 : a5.IsWhole) (a6 : Memref sig .tc .vmem S1x512 .f32) (h6 : a6.IsWhole) (hc : cond3_0 i)
    (x0 : Vec F S1024x1536 .f32) (x1 : Vec F S512x1536 .f32) (x2 : Vec F S1x512 .f32) :
    out3_A_4 c i a1 h1 a2 h2 a3 h3 a4 h4 a5 h5 a6 h6 hc x0 x1 x2 = k3_pay4 x0 x1 x2 (k3_pay1 (F := F)) := by
  unfold out3_A_4
  rw [View.read_writes_eq_canon _ _ _ (cover3_A_4 c i a1 h1 a2 h2 a3 h3 a4 h4 a5 h5 a6 h6 hc x0 x1 x2)]
  unfold kernelRun3_A
  dsimp only
  sl_unfold_words
  rw [View.canon_cons_unit_zero (S := S1x512) hz2, View.readCov_unit_zero (S := S1x512) _ hz2]
  simp only [View.readAt_eq_ld, h1.read_unread, h2.read_unread, h3.read_unread, View.ld_unit_zero (S := S1024x1536) hz2,
    View.ld_unit_zero (S := S512x1536) hz2, View.ld_unit_zero (S := S1x512) hz2]

/-- At the first point the column sums of squares start from the zero row the body has just stored. -/
theorem firstSumSq (c : Dev nD) (i : grid3.Coords) (a1 : Memref sig .tc .vmem S1024x1536 .f32) (h1 : a1.IsWhole) (a2 : Memref sig .tc .vmem S512x1536 .f32) (h2 : a2.IsWhole) (a3 : Memref sig .tc .vmem S1x512 .f32) (h3 : a3.IsWhole) (a4 : Memref sig .tc .vmem S1024x512 .f32) (h4 : a4.IsWhole) (a5 : Memref sig .tc .vmem S1x512 .f32) (h5 : a5.IsWhole) (a6 : Memref sig .tc .vmem S1x512 .f32) (h6 : a6.IsWhole) (hc : cond3_0 i)
    (x0 : Vec F S1024x1536 .f32) (x1 : Vec F S512x1536 .f32) (x2 : Vec F S1x512 .f32) :
    out3_A_5 c i a1 h1 a2 h2 a3 h3 a4 h4 a5 h5 a6 h6 hc x0 x1 x2 = k3_pay5 x0 x1 x2 (k3_pay2 (F := F)) := by
  unfold out3_A_5
  rw [View.read_writes_eq_canon _ _ _ (cover3_A_5 c i a1 h1 a2 h2 a3 h3 a4 h4 a5 h5 a6 h6 hc x0 x1 x2)]
  unfold kernelRun3_A
  dsimp only
  sl_unfold_words
  rw [View.canon_cons_unit_zero (S := S1x512) hz2, View.readCov_unit_zero (S := S1x512) _ hz2]
  simp only [View.readAt_eq_ld, h1.read_unread, h2.read_unread, h3.read_unread, View.ld_unit_zero (S := S1024x1536) hz2,
    View.ld_unit_zero (S := S512x1536) hz2, View.ld_unit_zero (S := S1x512) hz2]

/-! ## The payloads read at an index, over the extended reals -/

/-- The contraction of the block product: both operands are contracted along their second axis. -/
abbrev dotRows := dot_S1024x1536_S512x1536_S1024x512_1_1_0_0_n_n

theorem dotRows_lhs_0 (j : S1024x512.Idx) (k : dotRows.contr.Idx) : (dotRows.lhsIdx j k 0 : ℕ) = j 0 := by
  simp [DotDims.lhsIdx, dotRows, dot_S1024x1536_S512x1536_S1024x512_1_1_0_0_n_n]; rfl
theorem dotRows_lhs_1 (j : S1024x512.Idx) (k : dotRows.contr.Idx) : (dotRows.lhsIdx j k 1 : ℕ) = k ⟨0, by decide⟩ := by
  simp [DotDims.lhsIdx, dotRows, dot_S1024x1536_S512x1536_S1024x512_1_1_0_0_n_n]; rfl
theorem dotRows_rhs_0 (j : S1024x512.Idx) (k : dotRows.contr.Idx) : (dotRows.rhsIdx j k 0 : ℕ) = j 1 := by
  simp [DotDims.rhsIdx, dotRows, dot_S1024x1536_S512x1536_S1024x512_1_1_0_0_n_n]; rfl
theorem dotRows_rhs_1 (j : S1024x512.Idx) (k : dotRows.contr.Idx) : (dotRows.rhsIdx j k 1 : ℕ) = k ⟨0, by decide⟩ := by
  simp [DotDims.rhsIdx, dotRows, dot_S1024x1536_S512x1536_S1024x512_1_1_0_0_n_n]; rfl

/-- Entry (p, q) of the product-plus-bias payload: row p of the first block against row q of the second, plus the
    bias row at q. -/
theorem linPay (x0 : FVec Ideal S1024x1536 .f32) (x1 : FVec Ideal S512x1536 .f32) (x2 : FVec Ideal S1x512 .f32)
    (p : Fin 1024) (q : Fin 512) :
    k3_pay3 (F := Ideal) x0 x1 x2 (ix2 p q) = (∑ k : Fin 1536, x0 (ix2 p k) * x1 (ix2 q k)) + x2 (ix2 (0 : Fin 1) q) := by
  unfold k3_pay3
  refine (congrArg₂ (· + ·)
    (Ideal.matmul_constant_zero_apply dotRows none _ _ (ix2 p q))
    (broadcastTo_1b_ab_apply _ broadcasts_S1x512_S1024x512 p q)).trans ?_
  refine congrArg₂ (· + ·) ?_ (congrFun (shapeCast_self x2 _) _)
  rw [← Equiv.sum_comp (contrEquiv1 dotRows 1536 rfl rfl).symm]
  refine Finset.sum_congr rfl fun k _ => ?_
  refine congrArg₂ (· * ·) ?_ ?_
  · refine (congrFun (shapeCast_self x0 _) _).trans (congrArg x0 ?_)
    apply Shape.idx_ext₂
    · exact dotRows_lhs_0 _ _
    · exact (dotRows_lhs_1 _ _).trans (contrEquiv1_symm_val dotRows 1536 rfl rfl k)
  · refine congrArg x1 ?_
    apply Shape.idx_ext₂
    · exact dotRows_rhs_0 _ _
    · exact (dotRows_rhs_1 _ _).trans (contrEquiv1_symm_val dotRows 1536 rfl rfl k)

/-- The index a column sum reads at row k of column q. -/
theorem liftCol (q : Fin 512) (k : Fin 1024) : reduces_S1024x512_S512.lift (ix1 q) k = ix2 k q :=
  Shape.idx_ext₂ rfl rfl

/-- A sum over the 1024 rows of a block, column q. -/
theorem colOfBlock (src : FVec Ideal S1024x512 .f32) (q : Fin 512) :
    multiReduction .add [0] S512 src 0x00000000#32 reduces_S1024x512_S512 (.inl rfl) rfl (ix1 q)
      = ∑ p : Fin 1024, src (ix2 p q) :=
  (Ideal.multiReduction_add_single src 0x00000000#32 reduces_S1024x512_S512 (.inl rfl) rfl (ix1 q)).trans
    (Finset.sum_congr rfl fun k _ => congrArg src (liftCol q k))

/-- Entry q of the updated column sums: the old entry plus the sum of column q of the block's affine layer. -/
theorem sumPay (x0 : FVec Ideal S1024x1536 .f32) (x1 : FVec Ideal S512x1536 .f32) (x2 acc : FVec Ideal S1x512 .f32)
    (q : Fin 512) :
    k3_pay4 (F := Ideal) x0 x1 x2 acc (ix2 (0 : Fin 1) q)
      = acc (ix2 (0 : Fin 1) q) + ∑ p : Fin 1024, k3_pay3 (F := Ideal) x0 x1 x2 (ix2 p q) := by
  unfold k3_pay4
  refine congrArg₂ (· + ·) (congrFun (shapeCast_self acc _) _) ?_
  refine (shapeCast_a_1a_apply _ shapeCasts_S512_S1x512 (0 : Fin 1) q).trans ?_
  exact colOfBlock (k3_pay3 (F := Ideal) x0 x1 x2) q

/-- Entry q of the updated column sums of squares. -/
theorem sumSqPay (x0 : FVec Ideal S1024x1536 .f32) (x1 : FVec Ideal S512x1536 .f32) (x2 acc : FVec Ideal S1x512 .f32)
    (q : Fin 512) :
    k3_pay5 (F := Ideal) x0 x1 x2 acc (ix2 (0 : Fin 1) q)
      = acc (ix2 (0 : Fin 1) q)
        + ∑ p : Fin 1024, k3_pay3 (F := Ideal) x0 x1 x2 (ix2 p q) * k3_pay3 (F := Ideal) x0 x1 x2 (ix2 p q) := by
  unfold k3_pay5
  refine congrArg₂ (· + ·) (congrFun (shapeCast_self acc _) _) ?_
  refine (shapeCast_a_1a_apply _ shapeCasts_S512_S1x512 (0 : Fin 1) q).trans ?_
  exact colOfBlock (mulf (k3_pay3 (F := Ideal) x0 x1 x2) (k3_pay3 (F := Ideal) x0 x1 x2)) q

/-- The rows the first point stores before accumulating are zero. -/
theorem zeroRow (j : S1x512.Idx) : k3_pay1 (F := Ideal) j = 0 := Ideal.ofBits_zero_f32
theorem zeroRow' (j : S1x512.Idx) : k3_pay2 (F := Ideal) j = 0 := Ideal.ofBits_zero_f32

/-! ## The blocks the points read, as entries of the arrays the launch finds -/

/-- Where each window's block sits at a point: the row block of the input and of the result moves with the point, the
    weights, the bias row and the two accumulated rows stay. -/
theorem blockPlaces : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

theorem pointLt (t : Fin cfg3.N) : t.val < 32 := lt_of_lt_of_eq t.isLt (show cfg3.N = 32 from N_3)

/-- Row p of the input block at point t is row 1024·t + p of the input array. -/
theorem inBlock (c : Dev nD) (t : Fin cfg3.N) (p : Fin 1024) (k : Fin 1536) (h : 1024 * t.val + p.val < 32768) :
    (iblk3 V c 0 t : FVec Ideal S1024x1536 .f32) (ix2 p k) = (V c main_v46 : Arr2 32768 1536) (ix2 ⟨1024 * t.val + p.val, h⟩ k) := by
  unfold iblk3
  rw [View.read_apply]
  show V c main_v46 _ = V c main_v46 _
  congr 1
  funext a
  apply Fin.ext
  match a with
  | ⟨0, _⟩ => show win3_0.index t (0 : Fin 2) * 1024 + 1 * p.val = 1024 * t.val + p.val; rw [(blockPlaces t).1]; omega
  | ⟨1, _⟩ => show win3_0.index t (1 : Fin 2) * 1536 + 1 * k.val = k.val; rw [(blockPlaces t).2.1]; omega

/-- The weight block at every point is the whole weight array. -/
theorem weightBlock (c : Dev nD) (t : Fin cfg3.N) (q : Fin 512) (k : Fin 1536) :
    (iblk3 V c 1 t : FVec Ideal S512x1536 .f32) (ix2 q k) = (V c main_arg13 : Arr2 512 1536) (ix2 q k) := by
  unfold iblk3
  rw [View.read_apply]
  show V c main_arg13 _ = V c main_arg13 _
  congr 1
  funext a
  apply Fin.ext
  match a with
  | ⟨0, _⟩ => show win3_1.index t (0 : Fin 2) * 512 + 1 * q.val = q.val; rw [(blockPlaces t).2.2.1]; omega
  | ⟨1, _⟩ => show win3_1.index t (1 : Fin 2) * 1536 + 1 * k.val = k.val; rw [(blockPlaces t).2.2.2.1]; omega

/-- The bias block at every point is the whole bias row. -/
theorem biasBlock (c : Dev nD) (t : Fin cfg3.N) (q : Fin 512) :
    (iblk3 V c 2 t : FVec Ideal S1x512 .f32) (ix2 (0 : Fin 1) q) = (V c main_v47 : Arr2 1 512) (ix2 (0 : Fin 1) q) := by
  unfold iblk3
  rw [View.read_apply]
  show V c main_v47 _ = V c main_v47 _
  congr 1
  funext a
  apply Fin.ext
  match a with
  | ⟨0, _⟩ => show win3_2.index t (0 : Fin 2) * 1 + 1 * 0 = 0; rw [(blockPlaces t).2.2.2.2.1]
  | ⟨1, _⟩ => show win3_2.index t (1 : Fin 2) * 512 + 1 * q.val = q.val; rw [(blockPlaces t).2.2.2.2.2.1]; omega

/-- The affine layer of the arrays the launch finds, entry by entry. -/
abbrev layer (c : Dev nD) : Fin 32768 → Fin 512 → EReal :=
  lin (cur2 (V c main_v46 : Arr2 32768 1536)) (cur2 (V c main_arg13 : Arr2 512 1536)) (cur1 (rowOf (V c main_v47 : Arr2 1 512)))

/-- Entry (p, q) of the block product at point t is entry (1024·t + p, q) of the affine layer. -/
theorem blockLayer (c : Dev nD) (t : Fin cfg3.N) (p : Fin 1024) (q : Fin 512) (h : 1024 * t.val + p.val < 32768) :
    k3_pay3 (F := Ideal) (iblk3 V c 0 t) (iblk3 V c 1 t) (iblk3 V c 2 t) (ix2 p q) = layer V c ⟨1024 * t.val + p.val, h⟩ q := by
  refine (linPay (iblk3 V c 0 t) (iblk3 V c 1 t) (iblk3 V c 2 t) p q).trans ?_
  exact congrArg₂ (· + ·)
    (Finset.sum_congr rfl fun k _ => congrArg₂ (· * ·) (inBlock V c t p k h) (weightBlock V c t q k))
    (biasBlock V c t q)

/-- Row r of the affine layer, zero past the last row: the rows as a sequence, so that sums over row ranges add up. -/
def layerRow (c : Dev nD) (r : ℕ) (q : Fin 512) : EReal := if h : r < 32768 then layer V c ⟨r, h⟩ q else 0

theorem layerRow_of_lt (c : Dev nD) (r : ℕ) (q : Fin 512) (h : r < 32768) : layerRow V c r q = layer V c ⟨r, h⟩ q := dif_pos h

/-- Column q of the block at point t, summed: the 1024 rows of the layer from row 1024·t on. -/
theorem blockColSum (c : Dev nD) (t : Fin cfg3.N) (q : Fin 512) :
    ∑ p : Fin 1024, k3_pay3 (F := Ideal) (iblk3 V c 0 t) (iblk3 V c 1 t) (iblk3 V c 2 t) (ix2 p q)
      = ∑ x ∈ Finset.range 1024, layerRow V c (1024 * t.val + x) q := by
  rw [← Fin.sum_univ_eq_sum_range (fun x => layerRow V c (1024 * t.val + x) q) 1024]
  refine Finset.sum_congr rfl fun p _ => ?_
  have h : 1024 * t.val + p.val < 32768 := by have := pointLt t; have := p.isLt; omega
  rw [layerRow_of_lt V c _ q h]
  exact blockLayer V c t p q h

theorem blockColSumSq (c : Dev nD) (t : Fin cfg3.N) (q : Fin 512) :
    ∑ p : Fin 1024, k3_pay3 (F := Ideal) (iblk3 V c 0 t) (iblk3 V c 1 t) (iblk3 V c 2 t) (ix2 p q) * k3_pay3 (F := Ideal) (iblk3 V c 0 t) (iblk3 V c 1 t) (iblk3 V c 2 t) (ix2 p q)
      = ∑ x ∈ Finset.range 1024, layerRow V c (1024 * t.val + x) q * layerRow V c (1024 * t.val + x) q := by
  rw [← Fin.sum_univ_eq_sum_range (fun x => layerRow V c (1024 * t.val + x) q * layerRow V c (1024 * t.val + x) q) 1024]
  refine Finset.sum_congr rfl fun p _ => ?_
  have h : 1024 * t.val + p.val < 32768 := by have := pointLt t; have := p.isLt; omega
  rw [layerRow_of_lt V c _ q h]
  exact congrArg₂ (· * ·) (blockLayer V c t p q h) (blockLayer V c t p q h)

/-! ## What the three result blocks hold after each point -/

/-- After every point the first result block is that point's block of the affine layer. -/
theorem linAfter (c : Dev nD) (t : Fin cfg3.N) :
    (outsAt3 V c t.val t.isLt).1 = k3_pay3 (F := Ideal) (iblk3 V c 0 t) (iblk3 V c 1 t) (iblk3 V c 2 t) := by
  by_cases h0 : t.val % 32 = 0
  · rw [outsAt3_A V c t h0]
    dsimp only
    exact firstLin (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) ((hcond3_0 t).mpr h0) (iblk3 V c 0 t) (iblk3 V c 1 t) (iblk3 V c 2 t)
  · rw [outsAt3_B V c t h0]
    dsimp only
    exact laterLin (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (fun h => h0 ((hcond3_0 t).mp h)) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2

/-- After point n the two accumulated rows hold, at column q, the sum and the sum of squares of column q of the layer's
    first 1024·(n + 1) rows: zero plus the first block's at the first point, the row before plus the point's block's after. -/
theorem sumsAfter (c : Dev nD) : ∀ (n : ℕ) (h : n < cfg3.N) (q : Fin 512),
    (outsAt3 V c n h).2.1 (ix2 (0 : Fin 1) q) = ∑ r ∈ Finset.range (1024 * (n + 1)), layerRow V c r q
    ∧ (outsAt3 V c n h).2.2 (ix2 (0 : Fin 1) q)
        = ∑ r ∈ Finset.range (1024 * (n + 1)), layerRow V c r q * layerRow V c r q
  | 0, h, q => by
    have h0 : (⟨0, h⟩ : Fin cfg3.N).val % 32 = 0 := rfl
    rw [outsAt3_A V c ⟨0, h⟩ h0]
    dsimp only
    constructor
    · refine (congrFun (firstSum (F := Ideal) c (grid3.coords ⟨0, h⟩) (ms3_0 ⟨0, h⟩) (hs3_0 ⟨0, h⟩) (ms3_1 ⟨0, h⟩) (hs3_1 ⟨0, h⟩) (ms3_2 ⟨0, h⟩) (hs3_2 ⟨0, h⟩) (ms3_3 ⟨0, h⟩) (hs3_3 ⟨0, h⟩) (ms3_4 ⟨0, h⟩) (hs3_4 ⟨0, h⟩) (ms3_5 ⟨0, h⟩) (hs3_5 ⟨0, h⟩) ((hcond3_0 ⟨0, h⟩).mpr h0) (iblk3 V c 0 ⟨0, h⟩) (iblk3 V c 1 ⟨0, h⟩) (iblk3 V c 2 ⟨0, h⟩)) (ix2 (0 : Fin 1) q)).trans ?_
      refine (sumPay (iblk3 V c 0 ⟨0, h⟩) (iblk3 V c 1 ⟨0, h⟩) (iblk3 V c 2 ⟨0, h⟩) (k3_pay1 (F := Ideal)) q).trans ?_
      rw [zeroRow, zero_add, blockColSum V c ⟨0, h⟩ q]
      refine Finset.sum_congr rfl fun x _ => ?_
      rw [show 1024 * (⟨0, h⟩ : Fin cfg3.N).val + x = x from by simp]
    · refine (congrFun (firstSumSq (F := Ideal) c (grid3.coords ⟨0, h⟩) (ms3_0 ⟨0, h⟩) (hs3_0 ⟨0, h⟩) (ms3_1 ⟨0, h⟩) (hs3_1 ⟨0, h⟩) (ms3_2 ⟨0, h⟩) (hs3_2 ⟨0, h⟩) (ms3_3 ⟨0, h⟩) (hs3_3 ⟨0, h⟩) (ms3_4 ⟨0, h⟩) (hs3_4 ⟨0, h⟩) (ms3_5 ⟨0, h⟩) (hs3_5 ⟨0, h⟩) ((hcond3_0 ⟨0, h⟩).mpr h0) (iblk3 V c 0 ⟨0, h⟩) (iblk3 V c 1 ⟨0, h⟩) (iblk3 V c 2 ⟨0, h⟩)) (ix2 (0 : Fin 1) q)).trans ?_
      refine (sumSqPay (iblk3 V c 0 ⟨0, h⟩) (iblk3 V c 1 ⟨0, h⟩) (iblk3 V c 2 ⟨0, h⟩) (k3_pay2 (F := Ideal)) q).trans ?_
      rw [zeroRow', zero_add, blockColSumSq V c ⟨0, h⟩ q]
      refine Finset.sum_congr rfl fun x _ => ?_
      rw [show 1024 * (⟨0, h⟩ : Fin cfg3.N).val + x = x from by simp]
  | n + 1, h, q => by
    have hN : n + 1 < 32 := lt_of_lt_of_eq h (show cfg3.N = 32 from N_3)
    have hB : ¬(⟨n + 1, h⟩ : Fin cfg3.N).val % 32 = 0 := by dsimp only; omega
    obtain ⟨ih4, ih5⟩ := sumsAfter c n (Nat.lt_of_succ_lt h) q
    rw [outsAt3_B V c ⟨n + 1, h⟩ hB]
    dsimp only
    constructor
    · refine (congrFun (laterSum (F := Ideal) c (grid3.coords ⟨n + 1, h⟩) (ms3_0 ⟨n + 1, h⟩) (hs3_0 ⟨n + 1, h⟩) (ms3_1 ⟨n + 1, h⟩) (hs3_1 ⟨n + 1, h⟩) (ms3_2 ⟨n + 1, h⟩) (hs3_2 ⟨n + 1, h⟩) (ms3_3 ⟨n + 1, h⟩) (hs3_3 ⟨n + 1, h⟩) (ms3_4 ⟨n + 1, h⟩) (hs3_4 ⟨n + 1, h⟩) (ms3_5 ⟨n + 1, h⟩) (hs3_5 ⟨n + 1, h⟩) (fun hh => hB ((hcond3_0 ⟨n + 1, h⟩).mp hh)) (iblk3 V c 0 ⟨n + 1, h⟩) (iblk3 V c 1 ⟨n + 1, h⟩) (iblk3 V c 2 ⟨n + 1, h⟩) (outsAt3 V c ((⟨n + 1, h⟩ : Fin cfg3.N).val - 1) (Nat.lt_of_le_of_lt (Nat.sub_le _ _) (⟨n + 1, h⟩ : Fin cfg3.N).isLt)).2.1 (outsAt3 V c ((⟨n + 1, h⟩ : Fin cfg3.N).val - 1) (Nat.lt_of_le_of_lt (Nat.sub_le _ _) (⟨n + 1, h⟩ : Fin cfg3.N).isLt)).2.2) (ix2 (0 : Fin 1) q)).trans ?_
      refine (sumPay (iblk3 V c 0 ⟨n + 1, h⟩) (iblk3 V c 1 ⟨n + 1, h⟩) (iblk3 V c 2 ⟨n + 1, h⟩) _ q).trans ?_
      rw [blockColSum V c ⟨n + 1, h⟩ q, show 1024 * (n + 1 + 1) = 1024 * (n + 1) + 1024 from by ring, Finset.sum_range_add, ← ih4]
      rfl
    · refine (congrFun (laterSumSq (F := Ideal) c (grid3.coords ⟨n + 1, h⟩) (ms3_0 ⟨n + 1, h⟩) (hs3_0 ⟨n + 1, h⟩) (ms3_1 ⟨n + 1, h⟩) (hs3_1 ⟨n + 1, h⟩) (ms3_2 ⟨n + 1, h⟩) (hs3_2 ⟨n + 1, h⟩) (ms3_3 ⟨n + 1, h⟩) (hs3_3 ⟨n + 1, h⟩) (ms3_4 ⟨n + 1, h⟩) (hs3_4 ⟨n + 1, h⟩) (ms3_5 ⟨n + 1, h⟩) (hs3_5 ⟨n + 1, h⟩) (fun hh => hB ((hcond3_0 ⟨n + 1, h⟩).mp hh)) (iblk3 V c 0 ⟨n + 1, h⟩) (iblk3 V c 1 ⟨n + 1, h⟩) (iblk3 V c 2 ⟨n + 1, h⟩) (outsAt3 V c ((⟨n + 1, h⟩ : Fin cfg3.N).val - 1) (Nat.lt_of_le_of_lt (Nat.sub_le _ _) (⟨n + 1, h⟩ : Fin cfg3.N).isLt)).2.1 (outsAt3 V c ((⟨n + 1, h⟩ : Fin cfg3.N).val - 1) (Nat.lt_of_le_of_lt (Nat.sub_le _ _) (⟨n + 1, h⟩ : Fin cfg3.N).isLt)).2.2) (ix2 (0 : Fin 1) q)).trans ?_
      refine (sumSqPay (iblk3 V c 0 ⟨n + 1, h⟩) (iblk3 V c 1 ⟨n + 1, h⟩) (iblk3 V c 2 ⟨n + 1, h⟩) _ q).trans ?_
      rw [blockColSumSq V c ⟨n + 1, h⟩ q, show 1024 * (n + 1 + 1) = 1024 * (n + 1) + 1024 from by ring, Finset.sum_range_add, ← ih5]
      rfl

/-! ## What the write-backs write -/

/-- What each point writes back to the first result is its block of the affine layer. -/
theorem linFlushed (c : Dev nD) (t : Fin cfg3.N) :
    (dat3 (F := Ideal) V c).flushed 3 t = ((cfg3.win 3).blk t).view.read (Elt Ideal)
      (linA (V c main_v46 : Arr2 32768 1536) (V c main_arg13 : Arr2 512 1536) (rowOf (V c main_v47 : Arr2 1 512))) := by
  show (cfg3.win 3).cut (grid3.coords t) ((dat3 (F := Ideal) V c).after 3 t) = _
  rw [after3_3, linAfter V c t]
  funext j
  obtain ⟨p, q, rfl⟩ : ∃ (p : Fin 1024) (q : Fin 512), j = ix2 p q := ⟨j 0, j 1, eq_ix2 (n0 := 1024) (n1 := 512) j⟩
  have h : 1024 * t.val + p.val < 32768 := by have := pointLt t; have := p.isLt; omega
  refine (blockLayer V c t p q h).trans ?_
  rw [View.read_apply]
  show layer V c ⟨1024 * t.val + p.val, h⟩ q
    = layer V c ((((cfg3.win 3).blk t).view.emb (ix2 p q)) 0) ((((cfg3.win 3).blk t).view.emb (ix2 p q)) 1)
  congr 1
  · apply Fin.ext
    show 1024 * t.val + p.val = win3_3.index t (0 : Fin 2) * 1024 + 1 * p.val
    rw [(blockPlaces t).2.2.2.2.2.2.1]; omega
  · apply Fin.ext
    show q.val = win3_3.index t (1 : Fin 2) * 512 + 1 * q.val
    rw [(blockPlaces t).2.2.2.2.2.2.2.1]; omega

/-- The sum over the first 32768 rows of the row sequence is the sum over all rows of the layer. -/
theorem allRows (c : Dev nD) (q : Fin 512) (f : EReal → EReal) :
    ∑ r ∈ Finset.range 32768, f (layerRow V c r q) = ∑ r : Fin 32768, f (layer V c r q) := by
  rw [← Fin.sum_univ_eq_sum_range (fun r => f (layerRow V c r q)) 32768]
  exact Finset.sum_congr rfl fun r _ => congrArg f (layerRow_of_lt V c r.val q r.isLt)

/-- The one write-back of the column sums, after the last point, writes the sums over all rows. -/
theorem sumFlushed (c : Dev nD) (t : Fin cfg3.N) (hf : (cfg3.win 4).flush t = true) :
    (dat3 (F := Ideal) V c).flushed 4 t = ((cfg3.win 4).blk t).view.read (Elt Ideal)
      (unc2 (fun (_ : Fin 1) q => colSum (layer V c) q) : Arr2 1 512) := by
  have hN := pointLt t
  have h31 : t.val = 31 := by have := (flush3_4 t).mp hf; omega
  show (cfg3.win 4).cut (grid3.coords t) ((dat3 (F := Ideal) V c).after 4 t) = _
  rw [after3_4]
  funext j
  obtain ⟨u, q, rfl⟩ : ∃ (u : Fin 1) (q : Fin 512), j = ix2 u q := ⟨j 0, j 1, eq_ix2 (n0 := 1) (n1 := 512) j⟩
  obtain rfl : u = 0 := Subsingleton.elim _ _
  refine ((sumsAfter V c t.val t.isLt q).1).trans ?_
  rw [View.read_apply, cast_eq, h31]
  show _ = colSum (layer V c) ((((cfg3.win 4).blk t).view.emb (ix2 (0 : Fin 1) q)) 1)
  rw [show (((cfg3.win 4).blk t).view.emb (ix2 (0 : Fin 1) q)) 1 = q from Fin.ext (by
    show win3_4.index t (1 : Fin 2) * 512 + 1 * q.val = q.val
    rw [(blockPlaces t).2.2.2.2.2.2.2.2.2.1]; omega)]
  exact allRows V c q id

/-- The one write-back of the column sums of squares writes the sums over all rows. -/
theorem sumSqFlushed (c : Dev nD) (t : Fin cfg3.N) (hf : (cfg3.win 5).flush t = true) :
    (dat3 (F := Ideal) V c).flushed 5 t = ((cfg3.win 5).blk t).view.read (Elt Ideal)
      (unc2 (fun (_ : Fin 1) q => colSumSq (layer V c) q) : Arr2 1 512) := by
  have hN := pointLt t
  have h31 : t.val = 31 := by have := (flush3_5 t).mp hf; omega
  show (cfg3.win 5).cut (grid3.coords t) ((dat3 (F := Ideal) V c).after 5 t) = _
  rw [after3_5]
  funext j
  obtain ⟨u, q, rfl⟩ : ∃ (u : Fin 1) (q : Fin 512), j = ix2 u q := ⟨j 0, j 1, eq_ix2 (n0 := 1) (n1 := 512) j⟩
  obtain rfl : u = 0 := Subsingleton.elim _ _
  refine ((sumsAfter V c t.val t.isLt q).2).trans ?_
  rw [View.read_apply, cast_eq, h31]
  show _ = colSumSq (layer V c) ((((cfg3.win 5).blk t).view.emb (ix2 (0 : Fin 1) q)) 1)
  rw [show (((cfg3.win 5).blk t).view.emb (ix2 (0 : Fin 1) q)) 1 = q from Fin.ext (by
    show win3_5.index t (1 : Fin 2) * 512 + 1 * q.val = q.val
    rw [(blockPlaces t).2.2.2.2.2.2.2.2.2.2.2]; omega)]
  exact allRows V c q (fun y => y * y)

/-- The last point. -/
def lastPoint : Fin cfg3.N := ⟨31, by rw [show cfg3.N = 32 from N_3]; decide⟩

end LinStats3

open LinStats3

/-! ## The three arrays after the launch -/

/-- After launch 3 its first result array is the affine layer of the arrays it found: the 32 row blocks tile it. -/
theorem region3_out (c : Dev nD) :
    ((dat3 (F := Ideal) V c).arrAt 3 cfg3.N : Arr2 32768 512)
      = linA (V c main_v46 : Arr2 32768 1536) (V c main_arg13 : Arr2 512 1536) (rowOf (V c main_v47 : Arr2 1 512)) :=
  (dat3 (F := Ideal) V c).arrAt_eq_of_cover 3 _ (fun t _ => linFlushed V c t) fun i => by
    have hi0 : (i 0).val < 32768 := (i 0).isLt
    have hi1 : (i 1).val < 512 := (i 1).isLt
    have hN : cfg3.N = 32 := N_3
    have hlt : (i 0).val / 1024 < cfg3.N := by rw [hN]; omega
    refine ⟨⟨(i 0).val / 1024, hlt⟩, flush3_3 _, ?_⟩
    show i ∈ ((View.whole main_v48_0).slice (win3_3.rect ⟨(i 0).val / 1024, hlt⟩)).set
    rw [View.set_slice_whole, Rect.mem_set_unit]
    intro a
    obtain ⟨-, -, -, -, -, -, e0, e1, -⟩ := blockPlaces ⟨(i 0).val / 1024, hlt⟩
    match a with
    | ⟨0, _⟩ =>
      show win3_3.index ⟨(i 0).val / 1024, hlt⟩ (0 : Fin 2) * 1024 ≤ (i 0).val
        ∧ (i 0).val < win3_3.index ⟨(i 0).val / 1024, hlt⟩ (0 : Fin 2) * 1024 + 1024
      rw [e0]; dsimp only; omega
    | ⟨1, _⟩ =>
      show win3_3.index ⟨(i 0).val / 1024, hlt⟩ (1 : Fin 2) * 512 ≤ (i 1).val
        ∧ (i 1).val < win3_3.index ⟨(i 0).val / 1024, hlt⟩ (1 : Fin 2) * 512 + 512
      rw [e1]; omega

/-- After launch 3 its second result array holds the column sums of the affine layer: the one block is the whole
    array, written back after the last point. -/
theorem region3_sum (c : Dev nD) :
    ((dat3 (F := Ideal) V c).arrAt 4 cfg3.N : Arr2 1 512)
      = unc2 (fun _ q => colSum (lin (cur2 (V c main_v46 : Arr2 32768 1536)) (cur2 (V c main_arg13 : Arr2 512 1536)) (cur1 (rowOf (V c main_v47 : Arr2 1 512)))) q) :=
  (dat3 (F := Ideal) V c).arrAt_eq_of_cover 4 _ (sumFlushed V c) fun i => by
    have hi0 : (i 0).val < 1 := (i 0).isLt
    have hi1 : (i 1).val < 512 := (i 1).isLt
    refine ⟨lastPoint, (flush3_4 lastPoint).mpr rfl, ?_⟩
    show i ∈ ((View.whole main_v48_1).slice (win3_4.rect lastPoint)).set
    rw [View.set_slice_whole, Rect.mem_set_unit]
    intro a
    obtain ⟨-, -, -, -, -, -, -, -, e0, e1, -⟩ := blockPlaces lastPoint
    match a with
    | ⟨0, _⟩ =>
      show win3_4.index lastPoint (0 : Fin 2) * 1 ≤ (i 0).val ∧ (i 0).val < win3_4.index lastPoint (0 : Fin 2) * 1 + 1
      rw [e0]; omega
    | ⟨1, _⟩ =>
      show win3_4.index lastPoint (1 : Fin 2) * 512 ≤ (i 1).val ∧ (i 1).val < win3_4.index lastPoint (1 : Fin 2) * 512 + 512
      rw [e1]; omega

/-- After launch 3 its third result array holds the column sums of squares of the affine layer. -/
theorem region3_sumsq (c : Dev nD) :
    ((dat3 (F := Ideal) V c).arrAt 5 cfg3.N : Arr2 1 512)
      = unc2 (fun _ q => colSumSq (lin (cur2 (V c main_v46 : Arr2 32768 1536)) (cur2 (V c main_arg13 : Arr2 512 1536)) (cur1 (rowOf (V c main_v47 : Arr2 1 512)))) q) :=
  (dat3 (F := Ideal) V c).arrAt_eq_of_cover 5 _ (sumSqFlushed V c) fun i => by
    have hi0 : (i 0).val < 1 := (i 0).isLt
    have hi1 : (i 1).val < 512 := (i 1).isLt
    refine ⟨lastPoint, (flush3_5 lastPoint).mpr rfl, ?_⟩
    show i ∈ ((View.whole main_v48_2).slice (win3_5.rect lastPoint)).set
    rw [View.set_slice_whole, Rect.mem_set_unit]
    intro a
    obtain ⟨-, -, -, -, -, -, -, -, -, -, e0, e1⟩ := blockPlaces lastPoint
    match a with
    | ⟨0, _⟩ =>
      show win3_5.index lastPoint (0 : Fin 2) * 1 ≤ (i 0).val ∧ (i 0).val < win3_5.index lastPoint (0 : Fin 2) * 1 + 1
      rw [e0]; omega
    | ⟨1, _⟩ =>
      show win3_5.index lastPoint (1 : Fin 2) * 512 ≤ (i 1).val ∧ (i 1).val < win3_5.index lastPoint (1 : Fin 2) * 512 + 512
      rw [e1]; omega

end Cert.KernelIdeal.Val

end
-- ==== Proof.KReg4.lean ====
/-
  The rectified affine map as the fifth launch computes it: each of its sixteen grid points takes a block of 2048
  rows of the matrix, multiplies every row entrywise by the scale row, adds the shift row, and keeps an entry `y`
  where `0 < y`, replacing it by the slope times `y` elsewhere. The blocks tile the result, so the array after the
  launch is `affLeaky` of the three arrays the launch reads.
-/
import proofs.«119478_j39633958207498_1_alg».proof.Proof.Spec
import proofs.«119478_j39633958207498_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

/-! ## The arithmetic of a block -/

/-- The zero offsets, as a constant function. -/
theorem zero_off4 : (![0, 0] : Fin 2 → Nat) = fun _ => 0 := funext fun a => by fin_cases a <;> rfl

/-- The rectifier as the launch spells it: a select on the bit of the strict comparison with the zero word, the
    second branch the slope word times the value. -/
theorem leaky_word4 (y : EReal) :
    Scalar.select (FloatOps.cmpf (F := Ideal) (φ := .f32) .ogt y (Scalar.ofBits .f32 0x00000000#32)) y
        (FloatOps.mulf (F := Ideal) (φ := .f32) (Scalar.ofBits .f32 0x3DCCCCCD#32) y)
      = leakyKer cSlope y := by
  show Scalar.select (Ideal.cmp .ogt y (Ideal.ofBits .f32 0x00000000#32)) y (Ideal.ofBits .f32 0x3DCCCCCD#32 * y) = _
  rw [Ideal.ofBits_zero_f32]
  unfold leakyKer cSlope Ideal.cmp
  by_cases h : (0 : EReal) < y
  · rw [if_pos h]
    simp only [decide_eq_true h]
    exact select_one _ _
  · rw [if_neg h]
    simp only [decide_eq_false h]
    exact select_zero _ _

/-- The launch's arithmetic at an entry of a block: the block's entry times the scale row's entry plus the shift
    row's entry, then the strict rectifier. -/
theorem pay4_at (x0 : Vec Ideal S2048x512 .f32) (x1 x2 : Vec Ideal S1x512 .f32) (p : Fin 2048) (q : Fin 512) :
    k4_pay1 (F := Ideal) x0 x1 x2 (ix2 p q)
      = leakyKer cSlope (x0 (ix2 p q) * x1 (ix2 (0 : Fin 1) q) + x2 (ix2 (0 : Fin 1) q)) := by
  unfold k4_pay1
  rw [select_apply, cmpf_apply, mulf_apply, addf_apply, mulf_apply, broadcast_apply, broadcast_apply,
    shapeCast_self, shapeCast_self, shapeCast_self, broadcastTo_1b_ab_apply, broadcastTo_1b_ab_apply]
  exact leaky_word4 _

/-- The rectified affine map of a matrix by a scale row and a shift row, as an array. -/
abbrev affArr4 (A : Arr2 32768 512) (a b : Arr2 1 512) : Arr2 32768 512 :=
  unc2 (affLeaky cSlope (cur2 A) (cur1 (rowOf a)) (cur1 (rowOf b)))

/-- If a block holds rows `2048 k … 2048 k + 2047` of the matrix and the two one-row blocks hold the scale and shift
    rows, the launch's arithmetic on them is the same rows of the rectified affine map. -/
theorem pay4_rows (A : Arr2 32768 512) (a b : Arr2 1 512) (x0 : Vec Ideal S2048x512 .f32) (x1 x2 : Vec Ideal S1x512 .f32)
    (g : Vec Ideal S2048x512 .f32) (k : ℕ) (hk : k < 16)
    (h0 : ∀ (p : Fin 2048) (q : Fin 512), x0 (ix2 p q) = A (ix2 (⟨k * 2048 + p.val, by have := p.isLt; omega⟩ : Fin 32768) q))
    (h1 : ∀ (q : Fin 512), x1 (ix2 (0 : Fin 1) q) = a (ix2 (0 : Fin 1) q))
    (h2 : ∀ (q : Fin 512), x2 (ix2 (0 : Fin 1) q) = b (ix2 (0 : Fin 1) q))
    (hg : ∀ (p : Fin 2048) (q : Fin 512), g (ix2 p q) = affArr4 A a b (ix2 (⟨k * 2048 + p.val, by have := p.isLt; omega⟩ : Fin 32768) q)) :
    k4_pay1 (F := Ideal) x0 x1 x2 = g := by
  funext j
  obtain ⟨p, q, rfl⟩ : ∃ (p : Fin 2048) (q : Fin 512), j = ix2 p q := ⟨j 0, j 1, eq_ix2 j⟩
  rw [pay4_at, h0, h1, h2, hg]
  rfl

/-! ## From the blocks to the array -/

/-- The launch's index maps over its sixteen points: the matrix and the result move by one block of rows a point,
    the two one-row arrays stay. -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The three arrays the launch reads, at their literal types. -/
abbrev xarr4 (c : Dev nD) : Arr2 32768 512 := V c main_v48_0
abbrev sarr4 (c : Dev nD) : Arr2 1 512 := V c main_v73
abbrev tarr4 (c : Dev nD) : Arr2 1 512 := V c main_v74

/-- What point `t` writes back is block `t` of the rectified affine map of the arrays the launch found. -/
theorem flushed4_eq (c : Dev nD) (t : Fin cfg4.N) :
    (dat4 (F := Ideal) V c).flushed 3 t
      = ((cfg4.win 3).blk t).view.read (Elt Ideal) (affArr4 (xarr4 V c) (sarr4 V c) (tarr4 V c)) := by
  show (cfg4.win 3).cut (grid4.coords t) ((dat4 V c).after 3 t) = _
  rw [after4_3]
  unfold out4_3
  rw [View.canon_unit_zero zero_off4]
  simp only [View.ld_unit_zero (S := S2048x512) zero_off4, View.ld_unit_zero (S := S1x512) zero_off4]
  obtain ⟨e0, e1, e2, e3, e4, e5, e6, e7⟩ := idx_facts4 t
  have hN : cfg4.N = 16 := N_4
  have ht : t.val < 16 := hN ▸ t.isLt
  refine pay4_rows (xarr4 V c) (sarr4 V c) (tarr4 V c) (iblk4 V c 0 t) (iblk4 V c 1 t) (iblk4 V c 2 t) _ t.val ht
    (fun p q => ?_) (fun q => ?_) (fun q => ?_) (fun p q => ?_)
  · show xarr4 V c (((cfg4.win 0).blk t).view.emb (ix2 p q)) = _
    refine congrArg (xarr4 V c) (funext fun a => Fin.ext ?_)
    match a with
    | ⟨0, _⟩ => show win4_0.index t (0 : Fin 2) * 2048 + 1 * p.val = t.val * 2048 + p.val; rw [e0]; omega
    | ⟨1, _⟩ => show win4_0.index t (1 : Fin 2) * 512 + 1 * q.val = q.val; rw [e1]; omega
  · show sarr4 V c (((cfg4.win 1).blk t).view.emb (ix2 (0 : Fin 1) q)) = _
    refine congrArg (sarr4 V c) (funext fun a => Fin.ext ?_)
    match a with
    | ⟨0, _⟩ => show win4_1.index t (0 : Fin 2) * 1 + 1 * 0 = 0; rw [e2]
    | ⟨1, _⟩ => show win4_1.index t (1 : Fin 2) * 512 + 1 * q.val = q.val; rw [e3]; omega
  · show tarr4 V c (((cfg4.win 2).blk t).view.emb (ix2 (0 : Fin 1) q)) = _
    refine congrArg (tarr4 V c) (funext fun a => Fin.ext ?_)
    match a with
    | ⟨0, _⟩ => show win4_2.index t (0 : Fin 2) * 1 + 1 * 0 = 0; rw [e4]
    | ⟨1, _⟩ => show win4_2.index t (1 : Fin 2) * 512 + 1 * q.val = q.val; rw [e5]; omega
  · generalize affArr4 (xarr4 V c) (sarr4 V c) (tarr4 V c) = G
    show G (((cfg4.win 3).blk t).view.emb (ix2 p q)) = _
    refine congrArg G (funext fun a => Fin.ext ?_)
    match a with
    | ⟨0, _⟩ => show win4_3.index t (0 : Fin 2) * 2048 + 1 * p.val = t.val * 2048 + p.val; rw [e6]; omega
    | ⟨1, _⟩ => show win4_3.index t (1 : Fin 2) * 512 + 1 * q.val = q.val; rw [e7]; omega

/-- An entry of the result array lies in point `t`'s block exactly when each of its coordinates lies in the block's
    range on that axis. -/
theorem mem_blk4 (t : Fin cfg4.N) (i : S32768x512.Idx) :
    i ∈ ((cfg4.win 3).blk t).view.set ↔ ∀ a : Fin 2, win4_3.index t a * S2048x512.size a ≤ (i a).val
      ∧ (i a).val < win4_3.index t a * S2048x512.size a + S2048x512.size a := by
  show i ∈ ((View.whole main_v75).slice (win4_3.rect t)).set ↔ _
  rw [View.set_slice_whole, Rect.mem_set_unit]
  exact Iff.rfl

/-- Every entry of the result array is written back by some point: row `r` by point `r / 2048`. -/
theorem cover4 (i : S32768x512.Idx) :
    ∃ t : Fin cfg4.N, (cfg4.win 3).flush t = true ∧ i ∈ ((cfg4.win 3).blk t).view.set := by
  have hi0 : (i 0).val < 32768 := (i 0).isLt
  have hi1 : (i 1).val < 512 := (i 1).isLt
  have hN : cfg4.N = 16 := N_4
  obtain ⟨t, ht⟩ : ∃ t : Fin cfg4.N, t.val = (i 0).val / 2048 := ⟨⟨(i 0).val / 2048, by rw [hN]; omega⟩, rfl⟩
  obtain ⟨-, -, -, -, -, -, e6, e7⟩ := idx_facts4 t
  refine ⟨t, flush4_3 t, ?_⟩
  rw [mem_blk4]
  intro a
  match a with
  | ⟨0, _⟩ =>
    show win4_3.index t (0 : Fin 2) * 2048 ≤ (i 0).val ∧ (i 0).val < win4_3.index t (0 : Fin 2) * 2048 + 2048
    rw [e6]; omega
  | ⟨1, _⟩ =>
    show win4_3.index t (1 : Fin 2) * 512 ≤ (i 1).val ∧ (i 1).val < win4_3.index t (1 : Fin 2) * 512 + 512
    rw [e7]; omega

/-- After launch 4 its result array is the rectified affine map of the matrix by the scale and shift rows it found. -/
theorem region4_out (c : Dev nD) :
    ((dat4 (F := Ideal) V c).arrAt 3 cfg4.N : Arr2 32768 512)
      = unc2 (affLeaky cSlope (cur2 (V c main_v48_0 : Arr2 32768 512)) (cur1 (rowOf (V c main_v73 : Arr2 1 512)))
          (cur1 (rowOf (V c main_v74 : Arr2 1 512)))) :=
  (dat4 (F := Ideal) V c).arrAt_eq_of_cover 3 (affArr4 (xarr4 V c) (sarr4 V c) (tarr4 V c))
    (fun t _ => flushed4_eq V c t) cover4

end Cert.KernelIdeal.Val

end
-- ==== Proof.KParams3.lean ====
/-
  The per-channel scale and shift of the second normalised layer, as the host computes them between the
  fourth and the fifth launch from the column sums `s` and the column sums of squares `q` (one-row arrays):
  the 512 channels are read as 32 groups of 16, each group's entries are summed, divided by the number of
  entries of a group to give the group mean and the mean of squares; the variance is the mean of squares
  less the squared mean; the reciprocal of the root of variance plus ε is spread back over the group's
  channels and multiplied by γ (the scale); the shift is β less mean times scale.
-/
import proofs.«119478_j39633958207498_1_alg».proof.Proof.Spec
import proofs.«119478_j39633958207498_1_alg».proof.Proof.Gen.KernelIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.ValueIdx
open Cert.KernelIdeal Cert.KernelIdeal.Gen Cert.Spec

/-! ## The host's terms -/

/-- A one-row array's entries summed group by group: read as [512], then as [32, 16] (row = group), summed
    along the second axis from the zero word. -/
def grpSum3 (s : FVec Ideal S1x512 .f32) : FVec Ideal S32 .f32 :=
  Host.reduceAdd (F := Ideal)
    (shapeCast S32x16 (shapeCast S512 s shapeCasts_S1x512_S512) shapeCasts_S512_S32x16)
    (constant (F := Ideal) S_ .f32 0x00000000#32) reducesTo_S32x16_S32_d1 h_S_

/-- The number of entries of a group, at every group. -/
def cntVec3 : FVec Ideal S32 .f32 :=
  broadcastInDim S32 ![] bcast_S_S32 (constant (F := Ideal) S_ .f32 0x49000000#32)

/-- The group means. -/
def mean3 (s : FVec Ideal S1x512 .f32) : FVec Ideal S32 .f32 :=
  Host.divf (F := Ideal) (grpSum3 s) cntVec3

/-- The group variances: mean of squares less squared mean. -/
def var3 (s q : FVec Ideal S1x512 .f32) : FVec Ideal S32 .f32 :=
  subf (F := Ideal) (Host.divf (F := Ideal) (grpSum3 q) cntVec3) (mulf (F := Ideal) (mean3 s) (mean3 s))

/-- One over the root of variance plus ε, group by group. -/
def inv3 (s q : FVec Ideal S1x512 .f32) : FVec Ideal S32 .f32 :=
  Host.divf (F := Ideal)
    (broadcastInDim S32 ![] bcast_S_S32 (constant (F := Ideal) S_ .f32 0x3F800000#32))
    (Host.sqrt (F := Ideal)
      (addf (F := Ideal) (var3 s q)
        (broadcastInDim S32 ![] bcast_S_S32 (constant (F := Ideal) S_ .f32 0x3727C5AC#32))))

/-- A per-group value spread over the group's channels: broadcast along a new second axis, read as [512]. -/
def spread3 (v : FVec Ideal S32 .f32) : FVec Ideal S512 .f32 :=
  shapeCast S512 (broadcastInDim S32x16 ![0] bcast_S32_S32x16_0 v) shapeCasts_S32x16_S512

/-- The scale per channel, as a vector. -/
def scaleVec3 (s q : FVec Ideal S1x512 .f32) (γ : FVec Ideal S512 .f32) : FVec Ideal S512 .f32 :=
  mulf (F := Ideal) γ (spread3 (inv3 s q))

/-- The scale per channel, as the one-row array the fifth launch reads. -/
def paramScale3 (s q : FVec Ideal S1x512 .f32) (γ : FVec Ideal S512 .f32) : FVec Ideal S1x512 .f32 :=
  shapeCast S1x512 (scaleVec3 s q γ) shapeCasts_S512_S1x512

/-- The shift per channel, as the one-row array the fifth launch reads. -/
def paramShift3 (s q : FVec Ideal S1x512 .f32) (γ β : FVec Ideal S512 .f32) : FVec Ideal S1x512 .f32 :=
  shapeCast S1x512
    (subf (F := Ideal) β (mulf (F := Ideal) (spread3 (mean3 s)) (scaleVec3 s q γ)))
    shapeCasts_S512_S1x512

/-! ## The terms read at an index -/

/-- Summing [32, 16] along its second axis: the shape fact naming the inserted coordinate. -/
theorem reduces_S32x16_S32 : S32x16.Reduces [1] S32 := by decide

/-- Group g with the coordinate p inserted on the summed axis is the entry (g, p). -/
theorem lift_S32x16 (g : Fin 32) (p : Fin 16) : reduces_S32x16_S32.lift (ix1 g) p = ix2 g p := by
  funext a
  match a with
  | ⟨0, _⟩ => exact Fin.ext rfl
  | ⟨1, _⟩ => exact Fin.ext rfl

/-- A group's sum is the sum of the row's entries at the group's channels. -/
theorem grpSum3_apply (s : FVec Ideal S1x512 .f32) (g : Fin 32) :
    grpSum3 s (ix1 g) = ∑ p : Fin 16, s (ix2 0 (ch3 g p)) := by
  show Ideal.hostReduceAdd reducesTo_S32x16_S32_d1
      (shapeCast S32x16 (shapeCast S512 s shapeCasts_S1x512_S512) shapeCasts_S512_S32x16)
      (Ideal.ofBits .f32 0x00000000#32) (ix1 g) = _
  rw [Ideal.hostReduceAdd_single reducesTo_S32x16_S32_d1 reduces_S32x16_S32, Ideal.ofBits_zero_f32, zero_add]
  refine Finset.sum_congr rfl fun (p : Fin 16) _ => ?_
  refine (congrArg _ (lift_S32x16 g p)).trans ?_
  refine (shapeCast_apply _ _ (ix2 g p) (ix1 (ch3 g p)) ?_).trans ?_
  · rw [Shape.rowMajor_val_one, Shape.rowMajor_val_two]; rfl
  exact shapeCast_1a_a_apply s _ (ch3 g p)

/-- The count vector reads the number of a group's entries at every group. -/
theorem cntVec3_apply (i : S32.Idx) : cntVec3 i = cCnt3 := rfl

/-- A group's mean is its sum over the count. -/
theorem mean3_apply (s : FVec Ideal S1x512 .f32) (g : Fin 32) :
    mean3 s (ix1 g) = Ideal.div (∑ p : Fin 16, s (ix2 0 (ch3 g p))) cCnt3 := by
  show Ideal.div (grpSum3 s (ix1 g)) (cntVec3 (ix1 g)) = _
  rw [grpSum3_apply, cntVec3_apply]

/-- A group's variance is its mean of squares less its squared mean. -/
theorem var3_apply (s q : FVec Ideal S1x512 .f32) (g : Fin 32) :
    var3 s q (ix1 g)
      = Ideal.div (∑ p : Fin 16, q (ix2 0 (ch3 g p))) cCnt3 - mean3 s (ix1 g) * mean3 s (ix1 g) := by
  show Ideal.div (grpSum3 q (ix1 g)) (cntVec3 (ix1 g)) - mean3 s (ix1 g) * mean3 s (ix1 g) = _
  rw [grpSum3_apply, cntVec3_apply]

/-- A group's factor is one over the root of its variance plus ε (the word of 1.0 is the number one). -/
theorem inv3_apply (s q : FVec Ideal S1x512 .f32) (g : Fin 32) :
    inv3 s q (ix1 g) = Ideal.div 1 (Ideal.sqrt (var3 s q (ix1 g) + cEps)) := by
  show Ideal.div (Ideal.ofBits .f32 0x3F800000#32) (Ideal.sqrt (var3 s q (ix1 g) + cEps)) = _
  rw [show Ideal.ofBits .f32 0x3F800000#32 = 1 from IdealRules.sign_bit.ideal_onePat .f32]

/-- A per-group value spread over the channels reads, at channel c, the value of c's group: c is entry
    (c / 16, c % 16) of the [32, 16] reading, and the broadcast forgets the second coordinate. -/
theorem spread3_apply (v : FVec Ideal S32 .f32) (c : Fin 512) : spread3 v (ix1 c) = v (ix1 (gOf3 c)) := by
  refine (shapeCast_apply _ _ (ix1 c) (ix2 (gOf3 c) (⟨c.val % 16, Nat.mod_lt _ (by decide)⟩ : Fin 16)) ?_).trans ?_
  · rw [Shape.rowMajor_val_one, Shape.rowMajor_val_two]
    show c.val / 16 * 16 + c.val % 16 = c.val
    omega
  refine broadcastInDim_apply _ _ v _ (ix1 (gOf3 c)) fun a => ?_
  match a with
  | ⟨0, _⟩ => rfl

/-- The scale at channel c: γ times the factor of c's group. -/
theorem scaleVec3_apply (s q : FVec Ideal S1x512 .f32) (γ : FVec Ideal S512 .f32) (c : Fin 512) :
    scaleVec3 s q γ (ix1 c) = γ (ix1 c) * Ideal.div 1 (Ideal.sqrt (var3 s q (ix1 (gOf3 c)) + cEps)) := by
  show γ (ix1 c) * spread3 (inv3 s q) (ix1 c) = _
  rw [spread3_apply, inv3_apply]

/-- The scale row at column c is the scale vector at c. -/
theorem paramScale3_row (s q : FVec Ideal S1x512 .f32) (γ : FVec Ideal S512 .f32) (c : Fin 512) :
    paramScale3 s q γ (ix2 0 c) = scaleVec3 s q γ (ix1 c) :=
  shapeCast_a_1a_apply _ _ 0 c

/-- The shift row at column c: β less the mean of c's group times the scale. -/
theorem paramShift3_row (s q : FVec Ideal S1x512 .f32) (γ β : FVec Ideal S512 .f32) (c : Fin 512) :
    paramShift3 s q γ β (ix2 0 c) = β (ix1 c) - mean3 s (ix1 (gOf3 c)) * scaleVec3 s q γ (ix1 c) := by
  refine (shapeCast_a_1a_apply _ _ 0 c).trans ?_
  show β (ix1 c) - spread3 (mean3 s) (ix1 c) * scaleVec3 s q γ (ix1 c) = _
  rw [spread3_apply]

/-! ## At the column sums of an array: the folded scale and shift -/

section AtSums
variable (Y : Fin 32768 → Fin 512 → EReal)

/-- On the column sums the group mean is the mean over the group's entries. -/
theorem mean3_colSum (g : Fin 32) : mean3 (unc2 fun _ q => colSum Y q) (ix1 g) = gmean cCnt3 ch3 Y g := by
  rw [mean3_apply]; rfl

/-- On the column sums and sums of squares the group variance is the folded one. -/
theorem var3_colSum (g : Fin 32) :
    var3 (unc2 fun _ q => colSum Y q) (unc2 fun _ q => colSumSq Y q) (ix1 g) = gvarKer cCnt3 ch3 Y g := by
  rw [var3_apply, mean3_colSum]; rfl

/-- The host's scale row is the folded scale. -/
theorem paramScale3_eq (γ : Arr1 512) :
    rowOf (paramScale3 (unc2 fun _ q => colSum Y q) (unc2 fun _ q => colSumSq Y q) γ)
      = fun j => scaleKer cCnt3 cEps ch3 gOf3 Y (cur1 γ) (j 0) := by
  funext j
  obtain ⟨c, rfl⟩ : ∃ c : Fin 512, j = ix1 c := ⟨j 0, eq_ix1 j⟩
  show paramScale3 _ _ γ (ix2 0 c) = scaleKer cCnt3 cEps ch3 gOf3 Y (cur1 γ) c
  rw [paramScale3_row, scaleVec3_apply, var3_colSum]; rfl

/-- The host's shift row is the folded shift. -/
theorem paramShift3_eq (γ β : Arr1 512) :
    rowOf (paramShift3 (unc2 fun _ q => colSum Y q) (unc2 fun _ q => colSumSq Y q) γ β)
      = fun j => shiftKer cCnt3 cEps ch3 gOf3 Y (cur1 γ) (cur1 β) (j 0) := by
  funext j
  obtain ⟨c, rfl⟩ : ∃ c : Fin 512, j = ix1 c := ⟨j 0, eq_ix1 j⟩
  show paramShift3 _ _ γ β (ix2 0 c) = shiftKer cCnt3 cEps ch3 gOf3 Y (cur1 γ) (cur1 β) c
  rw [paramShift3_row, scaleVec3_apply, var3_colSum, mean3_colSum]; rfl

end AtSums

end Cert.KernelIdeal.Val

end
-- ==== Proof.KChainC.lean ====
/-
  The second normalised layer read off the program's buffers, boundary by boundary: the gather of the first
  normalised layer's rows with the skip block appended, the launch that leaves the affine layer with its column
  sums and column sums of squares, the stretch of host operations that turns the sums into the per-channel scale
  and shift, and the launch that applies them and the rectifier: the folded arrangement of the normalised layer.
-/
import proofs.«119478_j39633958207498_1_alg».proof.Proof.Spec
import proofs.«119478_j39633958207498_1_alg».proof.Proof.Gen.KernelIdeal.Frame
import proofs.«119478_j39633958207498_1_alg».proof.Proof.KChainBase
import proofs.«119478_j39633958207498_1_alg».proof.Proof.KPre
import proofs.«119478_j39633958207498_1_alg».proof.Proof.KReg3
import proofs.«119478_j39633958207498_1_alg».proof.Proof.KReg4
import proofs.«119478_j39633958207498_1_alg».proof.Proof.KParams3
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Spec

variable (m : (ℓ : Loc nD τ sig) → Buf (Elt Ideal) ℓ) (ρ : Dev nD → PrngReg)

/-! ## The stretch of host operations before the affine layer -/

set_option maxHeartbeats 1000000 in
/-- The layer's input: the previous layer's result, gathered and extended. -/
theorem W7_v46 (c : Dev nD) :
    (W7 m ρ c (Proc.devRef .tc main_v46) : Arr2 32768 1536) = pre3 m c (W6 m ρ c (Proc.devRef .tc main_v38)) := by
  have e : (W7 m ρ c (Proc.devRef .tc main_v46) : Arr2 32768 1536)
      = Spec.pre gather_S8192x1024_S32768x1_S32768x1024_1_0_n_n_0_1_11024 1 concatenates_S32768x1024_S32768x512_S32768x1536_d1
          (W6 m ρ c (Proc.devRef .tc main_v38)) (idx3 (W6 m ρ c (Proc.devRef .tc main_arg5))) (W6 m ρ c (Proc.devRef .tc main_arg1)) := by
    show StableHlo.after hostOps3 _ (Proc.devRef .tc main_v46) = _
    after_results
    rfl
  rw [e, W6_arg m ρ c main_arg5 (by decide), W6_arg m ρ c main_arg1 (by decide)]
  rfl

/-- The one-row bias array is the bias vector with a unit axis in front: its row is the vector. -/
theorem W7_v47 (c : Dev nD) :
    rowOf (W7 m ρ c (Proc.devRef .tc main_v47) : Arr2 1 512) = ((m ((c : Thread nD τ).loc main_arg14)) : Arr1 512) := by
  have e : (W7 m ρ c (Proc.devRef .tc main_v47) : Arr2 1 512)
      = shapeCast S1x512 (W6 m ρ c (Proc.devRef .tc main_arg14) : Arr1 512) shapeCasts_S512_S1x512 := by
    show StableHlo.after hostOps3 _ (Proc.devRef .tc main_v47) = _
    after_results
    rfl
  rw [e, W6_arg m ρ c main_arg14 (by decide)]
  funext j
  rw [eq_ix1 j]
  exact shapeCast_a_1a_apply _ _ 0 (j 0)

/-! ## The layer's affine part, its column sums and its column sums of squares: the first launch of the pair -/

/-- The affine layer's entries. -/
def lay3 (c : Dev nD) : Fin 32768 → Fin 512 → EReal :=
  lin (cur2 (pre3 m c (W6 m ρ c (Proc.devRef .tc main_v38)))) (cur2 (m ((c : Thread nD τ).loc main_arg13))) (cur1 (m ((c : Thread nD τ).loc main_arg14)))

/-- What the launch finds in its three input arrays. -/
theorem entry3 (c : Dev nD) :
    (V7 m ρ c main_v46 : Arr2 32768 1536) = pre3 m c (W6 m ρ c (Proc.devRef .tc main_v38))
      ∧ (V7 m ρ c main_arg13 : Arr2 512 1536) = (m ((c : Thread nD τ).loc main_arg13))
      ∧ rowOf (V7 m ρ c main_v47 : Arr2 1 512) = (m ((c : Thread nD τ).loc main_arg14)) :=
  ⟨W7_v46 m ρ c, W7_arg m ρ c main_arg13 (by decide), W7_v47 m ρ c⟩

theorem W8_v48_0 (c : Dev nD) :
    (W8 m ρ c (Proc.devRef .tc main_v48_0) : Arr2 32768 512) = unc2 (lay3 m ρ c) := by
  obtain ⟨h0, h1, h2⟩ := entry3 m ρ c
  refine (W8_arr m ρ c 3).trans ((region3_out (V7 m ρ) c).trans ?_)
  rw [h0, h1, h2]
  rfl

theorem W8_v48_1 (c : Dev nD) :
    (W8 m ρ c (Proc.devRef .tc main_v48_1) : Arr2 1 512) = unc2 (fun _ q => colSum (lay3 m ρ c) q) := by
  obtain ⟨h0, h1, h2⟩ := entry3 m ρ c
  refine (W8_arr m ρ c 4).trans ((region3_sum (V7 m ρ) c).trans ?_)
  rw [h0, h1, h2]
  rfl

theorem W8_v48_2 (c : Dev nD) :
    (W8 m ρ c (Proc.devRef .tc main_v48_2) : Arr2 1 512) = unc2 (fun _ q => colSumSq (lay3 m ρ c) q) := by
  obtain ⟨h0, h1, h2⟩ := entry3 m ρ c
  refine (W8_arr m ρ c 5).trans ((region3_sumsq (V7 m ρ) c).trans ?_)
  rw [h0, h1, h2]
  rfl

/-! ## The per-channel scale and shift: the stretch of host operations between the two launches -/

set_option maxHeartbeats 1000000 in
/-- The scale row the stretch leaves is the folded scale of the affine part. -/
theorem W9_v73 (c : Dev nD) :
    rowOf (W9 m ρ c (Proc.devRef .tc main_v73) : Arr2 1 512)
      = fun j => scaleKer cCnt3 cEps ch3 gOf3 (lay3 m ρ c) (cur1 (m ((c : Thread nD τ).loc main_arg15))) (j 0) := by
  have e : (W9 m ρ c (Proc.devRef .tc main_v73) : Arr2 1 512)
      = paramScale3 (W8 m ρ c (Proc.devRef .tc main_v48_1)) (W8 m ρ c (Proc.devRef .tc main_v48_2)) (W8 m ρ c (Proc.devRef .tc main_arg15)) := by
    show StableHlo.after hostOps4 _ (Proc.devRef .tc main_v73) = _
    after_results_simp
    rfl
  rw [e, W8_v48_1 m ρ c, W8_v48_2 m ρ c, W8_arg m ρ c main_arg15 (by decide)]
  exact paramScale3_eq (lay3 m ρ c) (m ((c : Thread nD τ).loc main_arg15))

set_option maxHeartbeats 1000000 in
/-- The shift row the stretch leaves is the folded shift of the affine part. -/
theorem W9_v74 (c : Dev nD) :
    rowOf (W9 m ρ c (Proc.devRef .tc main_v74) : Arr2 1 512)
      = fun j => shiftKer cCnt3 cEps ch3 gOf3 (lay3 m ρ c) (cur1 (m ((c : Thread nD τ).loc main_arg15))) (cur1 (m ((c : Thread nD τ).loc main_arg16))) (j 0) := by
  have e : (W9 m ρ c (Proc.devRef .tc main_v74) : Arr2 1 512)
      = paramShift3 (W8 m ρ c (Proc.devRef .tc main_v48_1)) (W8 m ρ c (Proc.devRef .tc main_v48_2)) (W8 m ρ c (Proc.devRef .tc main_arg15)) (W8 m ρ c (Proc.devRef .tc main_arg16)) := by
    show StableHlo.after hostOps4 _ (Proc.devRef .tc main_v74) = _
    after_results_simp
    rfl
  rw [e, W8_v48_1 m ρ c, W8_v48_2 m ρ c, W8_arg m ρ c main_arg15 (by decide),
    W8_arg m ρ c main_arg16 (by decide)]
  exact paramShift3_eq (lay3 m ρ c) (m ((c : Thread nD τ).loc main_arg15)) (m ((c : Thread nD τ).loc main_arg16))

/-- The stretch does not touch the affine part. -/
theorem W9_v48_0 (c : Dev nD) :
    (W9 m ρ c (Proc.devRef .tc main_v48_0) : Arr2 32768 512) = unc2 (lay3 m ρ c) :=
  (W9_keep m ρ c main_v48_0 (by decide)).trans (W8_v48_0 m ρ c)

/-! ## Scale, shift and rectifier: the second launch of the pair -/

/-- After it the result array is the normalised layer, folded arrangement, of the gathered input. -/
theorem W10_v75 (c : Dev nD) :
    (W10 m ρ c (Proc.devRef .tc main_v75) : Arr2 32768 512)
      = stageK cCnt3 ch3 gOf3 (pre3 m c (W6 m ρ c (Proc.devRef .tc main_v38)))
          (m ((c : Thread nD τ).loc main_arg13)) (m ((c : Thread nD τ).loc main_arg14)) (m ((c : Thread nD τ).loc main_arg15)) (m ((c : Thread nD τ).loc main_arg16)) := by
  refine (W10_arr m ρ c 3).trans ((region4_out (V9 m ρ) c).trans ?_)
  have h0 : (V9 m ρ c main_v48_0 : Arr2 32768 512) = unc2 (lay3 m ρ c) := W9_v48_0 m ρ c
  have h1 : rowOf (V9 m ρ c main_v73 : Arr2 1 512) = _ := W9_v73 m ρ c
  have h2 : rowOf (V9 m ρ c main_v74 : Arr2 1 512) = _ := W9_v74 m ρ c
  rw [h0, h1, h2]
  rfl

end Cert.KernelIdeal.Val

end
-- ==== Proof.KReg5.lean ====
/-
  The last affine layer as the last launch computes it: each of its 64 grid points multiplies a block of 2048 rows
  (768 entries each) by the whole 256 × 768 weight matrix and adds the bias row; the blocks tile the 131072 rows of the
  result, so the array after the launch is `linA` of the three arrays the launch reads.
-/
import proofs.«119478_j39633958207498_1_alg».proof.Proof.Spec
import proofs.«119478_j39633958207498_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

/-! ## The product at an index -/

/-- The dimension numbers of the launch's product: rows of the left operand against rows of the right one. -/
abbrev dot5 : DotDims S2048x768 S256x768 S2048x256 := dot_S2048x768_S256x768_S2048x256_1_1_0_0_n_n

/-- The left operand is read at the result's row … -/
theorem dot5_lhs_0 (j : S2048x256.Idx) (k : dot5.contr.Idx) : ((dot5.lhsIdx j k) 0).val = (j 0).val := rfl
/-- … and at the contraction position; -/
theorem dot5_lhs_1 (j : S2048x256.Idx) (k : dot5.contr.Idx) : ((dot5.lhsIdx j k) 1).val = (k ⟨0, by decide⟩).val := rfl
/-- the right operand at the result's column, which is ITS row (the weights are stored output-major) … -/
theorem dot5_rhs_0 (j : S2048x256.Idx) (k : dot5.contr.Idx) : ((dot5.rhsIdx j k) 0).val = (j 1).val := rfl
/-- … and at the contraction position. -/
theorem dot5_rhs_1 (j : S2048x256.Idx) (k : dot5.contr.Idx) : ((dot5.rhsIdx j k) 1).val = (k ⟨0, by decide⟩).val := rfl

theorem zero2_5 : (![0, 0] : Fin 2 → Nat) = fun _ => 0 := funext fun a => by fin_cases a <;> rfl

/-- The block a point computes, entry (p, q): the row p of the input block against row q of the weights, summed over the
    768 contraction positions (the input block goes through a cast to its own shape, which is the identity; the narrowing
    of both operands is the identity on extended reals; the accumulator is the zero word), plus the bias row at q. -/
theorem pay5_apply (x0 : FVec Ideal S2048x768 .f32) (x1 : FVec Ideal S256x768 .f32) (x2 : FVec Ideal S1x256 .f32)
    (p : Fin 2048) (q : Fin 256) :
    k5_pay1 x0 x1 x2 (ix2 p q) = (∑ k : Fin 768, x0 (ix2 p k) * x1 (ix2 q k)) + x2 (ix2 (0 : Fin 1) q) := by
  unfold k5_pay1
  refine (addf_apply _ _ (ix2 p q)).trans ?_
  refine congrArg₂ (· + ·) ?_ ?_
  · refine (Ideal.matmul_constant_zero_apply dot5 none _ _ (ix2 p q)).trans ?_
    refine (Equiv.sum_comp (contrEquiv1 dot5 768 rfl rfl).symm _).symm.trans ?_
    refine Finset.sum_congr rfl fun k _ => ?_
    have hl : dot5.lhsIdx (ix2 p q) ((contrEquiv1 dot5 768 rfl rfl).symm k) = ix2 p k := by
      funext a; apply Fin.ext
      match a with
      | ⟨0, _⟩ => exact dot5_lhs_0 _ _
      | ⟨1, _⟩ => exact (dot5_lhs_1 _ _).trans (contrEquiv1_symm_val dot5 768 rfl rfl k)
    have hr : dot5.rhsIdx (ix2 p q) ((contrEquiv1 dot5 768 rfl rfl).symm k) = ix2 q k := by
      funext a; apply Fin.ext
      match a with
      | ⟨0, _⟩ => exact dot5_rhs_0 _ _
      | ⟨1, _⟩ => exact (dot5_rhs_1 _ _).trans (contrEquiv1_symm_val dot5 768 rfl rfl k)
    show shapeCast S2048x768 x0 shapeCasts_S2048x768_S2048x768 (dot5.lhsIdx (ix2 p q) ((contrEquiv1 dot5 768 rfl rfl).symm k))
        * x1 (dot5.rhsIdx (ix2 p q) ((contrEquiv1 dot5 768 rfl rfl).symm k)) = _
    rw [hl, hr, shapeCast_self]
  · refine (broadcastTo_1b_ab_apply _ _ p q).trans ?_
    exact congrFun (shapeCast_self x2 _) _

/-! ## From the blocks to the array -/

/-- The launch's index maps over its grid of 64 points: the input block and the result block move down the rows with the
    point, the weights and the bias row stay. -/
theorem idx5_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The input array the launch finds, as a matrix of extended reals; -/
abbrev xin5 (c : Dev nD) : Arr2 131072 768 := V c main_v83
/-- the weights, one row per output column; -/
abbrev wts5 (c : Dev nD) : Arr2 256 768 := V c main_arg17
/-- the bias, a one-row matrix. -/
abbrev bias5 (c : Dev nD) : Arr2 1 256 := V c main_v84

/-- The affine layer of the three arrays the launch finds. -/
abbrev lin5 (c : Dev nD) : Arr2 131072 256 := linA (xin5 V c) (wts5 V c) (rowOf (bias5 V c))

/-- What point `t` writes back is block `t` of the affine layer: rows 2048·t … 2048·t + 2047 of the input against all the
    weights, plus the bias row. -/
theorem flushed5_eq (c : Dev nD) (t : Fin cfg5.N) :
    (dat5 (F := Ideal) V c).flushed 3 t = ((cfg5.win 3).blk t).view.read (Elt Ideal) (lin5 V c) := by
  show (cfg5.win 3).cut (grid5.coords t) ((dat5 (F := Ideal) V c).after 3 t) = _
  rw [after5_3]
  unfold out5_3
  rw [View.canon_unit_zero zero2_5]
  simp only [View.ld_unit_zero (S := S2048x768) zero2_5, View.ld_unit_zero (S := S256x768) zero2_5, View.ld_unit_zero (S := S1x256) zero2_5]
  obtain ⟨e00, e01, e10, e11, e20, e21, e30, e31⟩ := idx5_facts t
  funext j
  obtain ⟨p, q, rfl⟩ : ∃ (p : Fin 2048) (q : Fin 256), j = ix2 p q := ⟨j 0, j 1, eq_ix2 j⟩
  refine (pay5_apply (iblk5 V c 0 t) (iblk5 V c 1 t) (iblk5 V c 2 t) p q).trans ?_
  have hp : (p : ℕ) < 2048 := p.isLt
  have hq : (q : ℕ) < 256 := q.isLt
  show (∑ k : Fin 768, xin5 V c (((cfg5.win 0).blk t).view.emb (ix2 p k))
        * wts5 V c (((cfg5.win 1).blk t).view.emb (ix2 q k)))
      + bias5 V c (((cfg5.win 2).blk t).view.emb (ix2 (0 : Fin 1) q))
    = (∑ k : Fin 768, xin5 V c (ix2 ((((cfg5.win 3).blk t).view.emb (ix2 p q)) 0) k)
        * wts5 V c (ix2 ((((cfg5.win 3).blk t).view.emb (ix2 p q)) 1) k))
      + bias5 V c (ix2 (0 : Fin 1) ((((cfg5.win 3).blk t).view.emb (ix2 p q)) 1))
  have h2 : ((cfg5.win 2).blk t).view.emb (ix2 (0 : Fin 1) q) = ix2 (0 : Fin 1) ((((cfg5.win 3).blk t).view.emb (ix2 p q)) 1) := by
    funext a; apply Fin.ext
    match a with
    | ⟨0, _⟩ => show win5_2.index t (0 : Fin 2) * 1 + 1 * 0 = 0; omega
    | ⟨1, _⟩ => show win5_2.index t (1 : Fin 2) * 256 + 1 * q.val = win5_3.index t (1 : Fin 2) * 256 + 1 * q.val; omega
  rw [h2]
  refine congrArg (· + _) (Finset.sum_congr rfl fun k _ => ?_)
  have hk : (k : ℕ) < 768 := k.isLt
  have h0 : ((cfg5.win 0).blk t).view.emb (ix2 p k) = ix2 ((((cfg5.win 3).blk t).view.emb (ix2 p q)) 0) k := by
    funext a; apply Fin.ext
    match a with
    | ⟨0, _⟩ => show win5_0.index t (0 : Fin 2) * 2048 + 1 * p.val = win5_3.index t (0 : Fin 2) * 2048 + 1 * p.val; omega
    | ⟨1, _⟩ => show win5_0.index t (1 : Fin 2) * 768 + 1 * k.val = k.val; omega
  have h1 : ((cfg5.win 1).blk t).view.emb (ix2 q k) = ix2 ((((cfg5.win 3).blk t).view.emb (ix2 p q)) 1) k := by
    funext a; apply Fin.ext
    match a with
    | ⟨0, _⟩ => show win5_1.index t (0 : Fin 2) * 256 + 1 * q.val = win5_3.index t (1 : Fin 2) * 256 + 1 * q.val; omega
    | ⟨1, _⟩ => show win5_1.index t (1 : Fin 2) * 768 + 1 * k.val = k.val; omega
  exact congrArg₂ (· * ·) (congrArg (xin5 V c) h0) (congrArg (wts5 V c) h1)

/-- An index of the result array is in point `t`'s block iff each coordinate is in the block's range on its axis. -/
theorem mem_blk5 (t : Fin cfg5.N) (i : S131072x256.Idx) :
    i ∈ ((cfg5.win 3).blk t).view.set ↔ ∀ a : Fin 2, win5_3.index t a * S2048x256.size a ≤ (i a).val ∧ (i a).val < win5_3.index t a * S2048x256.size a + S2048x256.size a := by
  show i ∈ ((View.whole main_v85).slice (win5_3.rect t)).set ↔ _
  rw [View.set_slice_whole, Rect.mem_set_unit]
  exact Iff.rfl

/-- The blocks tile the rows: row r is in the block of point r / 2048. -/
theorem cover5 (i : S131072x256.Idx) : ∃ t : Fin cfg5.N, (cfg5.win 3).flush t = true ∧ i ∈ ((cfg5.win 3).blk t).view.set := by
  have hi0 : (i 0).val < 131072 := idx2_lt0 i
  have hi1 : (i 1).val < 256 := idx2_lt1 i
  have hN : cfg5.N = 64 := N_5
  refine ⟨⟨(i 0).val / 2048, by rw [hN]; omega⟩, flush5_3 _, ?_⟩
  obtain ⟨-, -, -, -, -, -, e30, e31⟩ := idx5_facts ⟨(i 0).val / 2048, by rw [hN]; omega⟩
  rw [mem_blk5]
  intro a
  match a with
  | ⟨0, _⟩ =>
    show win5_3.index ⟨(i 0).val / 2048, _⟩ (0 : Fin 2) * 2048 ≤ (i 0).val ∧ (i 0).val < win5_3.index ⟨(i 0).val / 2048, _⟩ (0 : Fin 2) * 2048 + 2048
    rw [e30]; show (i 0).val / 2048 * 2048 ≤ (i 0).val ∧ (i 0).val < (i 0).val / 2048 * 2048 + 2048; omega
  | ⟨1, _⟩ =>
    show win5_3.index ⟨(i 0).val / 2048, _⟩ (1 : Fin 2) * 256 ≤ (i 1).val ∧ (i 1).val < win5_3.index ⟨(i 0).val / 2048, _⟩ (1 : Fin 2) * 256 + 256
    rw [e31]; omega

/-- After launch 5 its result array is the affine layer of the arrays it found. -/
theorem region5_out (c : Dev nD) :
    ((dat5 (F := Ideal) V c).arrAt 3 cfg5.N : Arr2 131072 256)
      = linA (V c main_v83 : Arr2 131072 768) (V c main_arg17 : Arr2 256 768) (rowOf (V c main_v84 : Arr2 1 256)) :=
  (dat5 (F := Ideal) V c).arrAt_eq_of_cover 3 (lin5 V c) (fun t _ => flushed5_eq V c t) cover5

end Cert.KernelIdeal.Val

end
-- ==== Proof.KChainD.lean ====
/-
  The last affine layer read off the program's buffers: a stretch of host operations gathers rows of the second
  normalised layer's result and appends the skip block, and the last launch leaves the affine layer of that input.
-/
import proofs.«119478_j39633958207498_1_alg».proof.Proof.Spec
import proofs.«119478_j39633958207498_1_alg».proof.Proof.Gen.KernelIdeal.Frame
import proofs.«119478_j39633958207498_1_alg».proof.Proof.KChainBase
import proofs.«119478_j39633958207498_1_alg».proof.Proof.KPre
import proofs.«119478_j39633958207498_1_alg».proof.Proof.KReg5
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Spec

variable (m : (ℓ : Loc nD τ sig) → Buf (Elt Ideal) ℓ) (ρ : Dev nD → PrngReg)

/-! ## The stretch of host operations before the affine layer -/

set_option maxHeartbeats 1000000 in
/-- The layer's input: the previous layer's result, gathered and extended. -/
theorem W11_v83 (c : Dev nD) :
    (W11 m ρ c (Proc.devRef .tc main_v83) : Arr2 131072 768) = pre2 m c (W10 m ρ c (Proc.devRef .tc main_v75)) := by
  have e : (W11 m ρ c (Proc.devRef .tc main_v83) : Arr2 131072 768)
      = Spec.pre gather_S32768x512_S131072x1_S131072x512_1_0_n_n_0_1_1512 1 concatenates_S131072x512_S131072x256_S131072x768_d1
          (W10 m ρ c (Proc.devRef .tc main_v75)) (idx2 (W10 m ρ c (Proc.devRef .tc main_arg4))) (W10 m ρ c (Proc.devRef .tc main_arg0)) := by
    show StableHlo.after hostOps5 _ (Proc.devRef .tc main_v83) = _
    after_results
    rfl
  rw [e, W10_arg m ρ c main_arg4 (by decide), W10_arg m ρ c main_arg0 (by decide)]
  rfl

/-- The one-row bias array is the bias vector with a unit axis in front: its row is the vector. -/
theorem W11_v84 (c : Dev nD) :
    rowOf (W11 m ρ c (Proc.devRef .tc main_v84) : Arr2 1 256) = ((m ((c : Thread nD τ).loc main_arg18)) : Arr1 256) := by
  have e : (W11 m ρ c (Proc.devRef .tc main_v84) : Arr2 1 256)
      = shapeCast S1x256 (W10 m ρ c (Proc.devRef .tc main_arg18) : Arr1 256) shapeCasts_S256_S1x256 := by
    show StableHlo.after hostOps5 _ (Proc.devRef .tc main_v84) = _
    after_results
    rfl
  rw [e, W10_arg m ρ c main_arg18 (by decide)]
  funext j
  rw [eq_ix1 j]
  exact shapeCast_a_1a_apply _ _ 0 (j 0)

/-! ## The last affine layer: the last launch -/

/-- After it the result array is the affine layer of the gathered input. -/
theorem W12_v85 (c : Dev nD) :
    (W12 m ρ c (Proc.devRef .tc main_v85) : Arr2 131072 256)
      = linA (pre2 m c (W10 m ρ c (Proc.devRef .tc main_v75))) (m ((c : Thread nD τ).loc main_arg17)) (m ((c : Thread nD τ).loc main_arg18)) := by
  refine (W12_arr m ρ c 3).trans ((region5_out (V11 m ρ) c).trans ?_)
  have h0 : (V11 m ρ c main_v83 : Arr2 131072 768) = _ := W11_v83 m ρ c
  have h1 : (V11 m ρ c main_arg17 : Arr2 256 768) = (m ((c : Thread nD τ).loc main_arg17)) := W11_arg m ρ c main_arg17 (by decide)
  have h2 : rowOf (V11 m ρ c main_v84 : Arr2 1 256) = _ := W11_v84 m ρ c
  rw [h0, h1, h2]

end Cert.KernelIdeal.Val

end
-- ==== Proof.KChain.lean ====
/-
  The whole decoder read off the program's buffers: the result array after the last launch is the last affine
  layer of the gathered second normalised layer, which is the normalised layer of the gathered first one, which
  is the normalised layer of the gathered first affine layer of the arguments.
-/
import proofs.«119478_j39633958207498_1_alg».proof.Proof.Spec
import proofs.«119478_j39633958207498_1_alg».proof.Proof.Gen.KernelIdeal.Frame
import proofs.«119478_j39633958207498_1_alg».proof.Proof.KChainA
import proofs.«119478_j39633958207498_1_alg».proof.Proof.KChainB
import proofs.«119478_j39633958207498_1_alg».proof.Proof.KChainC
import proofs.«119478_j39633958207498_1_alg».proof.Proof.KChainD
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Spec

variable (m : (ℓ : Loc nD τ sig) → Buf (Elt Ideal) ℓ) (ρ : Dev nD → PrngReg)

/-- After the last launch the result array holds the decoder, folded arrangement, of the argument arrays. -/
theorem out_eq (c : Dev nD) :
    (W12 m ρ c (Proc.devRef .tc main_v85) : Arr2 131072 256)
      = netK (pre4 m c) (pre3 m c) (pre2 m c) (m ((c : Thread nD τ).loc main_arg3))
          (m ((c : Thread nD τ).loc main_arg7))
          (m ((c : Thread nD τ).loc main_arg8))
          (m ((c : Thread nD τ).loc main_arg9))
          (m ((c : Thread nD τ).loc main_arg10))
          (m ((c : Thread nD τ).loc main_arg11))
          (m ((c : Thread nD τ).loc main_arg12))
          (m ((c : Thread nD τ).loc main_arg13))
          (m ((c : Thread nD τ).loc main_arg14))
          (m ((c : Thread nD τ).loc main_arg15))
          (m ((c : Thread nD τ).loc main_arg16))
          (m ((c : Thread nD τ).loc main_arg17))
          (m ((c : Thread nD τ).loc main_arg18)) := by
  rw [W12_v85 m ρ c, W10_v75 m ρ c, W6_v38 m ρ c, W2_v1 m ρ c, netK]

end Cert.KernelIdeal.Val

end
-- ==== Proof.RefRead1.lean ====
/-
  The reference's four affine layers read entry by entry. Each is spelt  L · (Wᵀ) + (the bias laid out as one row and
  spread over all rows); at entry (r, c) the contraction is the sum over k of L[r,k] · Wᵀ[k,c], the transpose reads
  W[c,k], and the twice-broadcast bias reads b[c]: the layer is  Σ_k L[r,k]·W[c,k] + b[c], the specification's `linA`.
  The argument is the same for every size, so it is made once over arbitrary extents M, K, N and used four times.
-/
import proofs.«119478_j39633958207498_1_alg».proof.Proof.RefTerm
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.Val

open Idealize.ShloMosaic Idealize.ShloMosaic.ValueIdx
open Cert.ReferenceIdeal Cert.Spec

section AnyExtents
variable {M K N : ℕ}

/-! ## The contraction at an entry

For the dimension numbers of a plain matrix product (left operand contracted on its columns, right operand on its
rows) the operands' indices at result entry j and contraction position k are (j₀, k) and (k, j₁). -/

/-- The left operand is read at the result's row … -/
theorem plain_lhs_0 (j : (⟨2, ![M, N]⟩ : Shape).Idx) (k : (DotDims.plain M K N).contr.Idx) :
    (((DotDims.plain M K N).lhsIdx j k) 0).val = (j 0).val := rfl
/-- … and at the contraction position; -/
theorem plain_lhs_1 (j : (⟨2, ![M, N]⟩ : Shape).Idx) (k : (DotDims.plain M K N).contr.Idx) :
    (((DotDims.plain M K N).lhsIdx j k) 1).val = (k ⟨0, Nat.zero_lt_one⟩).val := rfl
/-- the right operand at the contraction position … -/
theorem plain_rhs_0 (j : (⟨2, ![M, N]⟩ : Shape).Idx) (k : (DotDims.plain M K N).contr.Idx) :
    (((DotDims.plain M K N).rhsIdx j k) 0).val = (k ⟨0, Nat.zero_lt_one⟩).val := rfl
/-- … and at the result's column. -/
theorem plain_rhs_1 (j : (⟨2, ![M, N]⟩ : Shape).Idx) (k : (DotDims.plain M K N).contr.Idx) :
    (((DotDims.plain M K N).rhsIdx j k) 1).val = (j 1).val := rfl

/-- A plain matrix product at entry (r, c) is  Σ_k L[r,k] · R[k,c]: the contraction index set has one axis of extent K,
    and the sum is re-indexed along the bijection with its one coordinate. -/
theorem plain_dot_apply (L : FVec Ideal ⟨2, ![M, K]⟩ .f32) (R : FVec Ideal ⟨2, ![K, N]⟩ .f32) (r : Fin M) (c : Fin N) :
    Host.dotGeneral (DotDims.plain M K N) none L R (ix2 r c) = ∑ k : Fin K, L (ix2 r k) * R (ix2 k c) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  congr 2
  · funext a
    match a with
    | ⟨0, _⟩ => exact Fin.ext (plain_lhs_0 _ _)
    | ⟨1, _⟩ => exact Fin.ext ((plain_lhs_1 _ _).trans hk)
  · funext a
    match a with
    | ⟨0, _⟩ => exact Fin.ext ((plain_rhs_0 _ _).trans hk)
    | ⟨1, _⟩ => exact Fin.ext (plain_rhs_1 _ _)

/-! ## The bias at an entry -/

/-- A vector laid out as one row reads, at (0, c), its entry c. -/
theorem row_of_vector_apply (h : (⟨1, ![N]⟩ : Shape).BroadcastsInDim ⟨2, ![1, N]⟩ ![1]) (b : (⟨1, ![N]⟩ : Shape).Idx → EReal)
    (u : Fin 1) (c : Fin N) : broadcastInDim ⟨2, ![1, N]⟩ ![1] h b (ix2 u c) = b (ix1 c) := by
  refine broadcastInDim_apply _ h b (ix2 u c) (ix1 c) fun a => ?_
  match a with
  | ⟨0, _⟩ =>
    show c.val = if N = 1 then 0 else c.val
    split
    · have := c.isLt; omega
    · rfl

/-- One row spread over M rows reads, at (r, c), the row's entry c. -/
theorem rows_of_row_apply (h : (⟨2, ![1, N]⟩ : Shape).BroadcastsInDim ⟨2, ![M, N]⟩ ![0, 1]) (v : (⟨2, ![1, N]⟩ : Shape).Idx → EReal)
    (r : Fin M) (c : Fin N) : broadcastInDim ⟨2, ![M, N]⟩ ![0, 1] h v (ix2 r c) = v (ix2 (0 : Fin 1) c) := by
  refine broadcastInDim_apply _ h v (ix2 r c) (ix2 (0 : Fin 1) c) fun a => ?_
  match a with
  | ⟨0, _⟩ => rfl
  | ⟨1, _⟩ =>
    show c.val = if N = 1 then 0 else c.val
    split
    · have := c.isLt; omega
    · rfl

/-! ## The layer -/

/-- L · Wᵀ plus the bias spread over the rows is the affine layer of the specification. -/
theorem affine_eq (hT : (⟨2, ![N, K]⟩ : Shape).Transposes [1, 0] ⟨2, ![K, N]⟩)
    (h1 : (⟨1, ![N]⟩ : Shape).BroadcastsInDim ⟨2, ![1, N]⟩ ![1])
    (h2 : (⟨2, ![1, N]⟩ : Shape).BroadcastsInDim ⟨2, ![M, N]⟩ ![0, 1])
    (L : FVec Ideal ⟨2, ![M, K]⟩ .f32) (W : FVec Ideal ⟨2, ![N, K]⟩ .f32) (b : FVec Ideal ⟨1, ![N]⟩ .f32) :
    addf (Host.dotGeneral (DotDims.plain M K N) none L (transpose ⟨2, ![K, N]⟩ [1, 0] W hT))
        (broadcastInDim ⟨2, ![M, N]⟩ ![0, 1] h2 (broadcastInDim ⟨2, ![1, N]⟩ ![1] h1 b))
      = linA L W b := by
  funext j
  obtain ⟨r, c, rfl⟩ : ∃ (r : Fin M) (c : Fin N), j = ix2 r c := ⟨j 0, j 1, eq_ix2 j⟩
  rw [addf_apply, plain_dot_apply, rows_of_row_apply, row_of_vector_apply]
  show _ = (∑ k : Fin K, L (ix2 r k) * W (ix2 c k)) + b (ix1 c)
  congr 1
  refine Finset.sum_congr rfl fun k _ => ?_
  rw [transpose_ix2_apply]

end AnyExtents

/-! ## The four layers -/

/-- The input projection. -/
theorem x5_eq (a3 a7 : FVec Ideal S2048x2048 .f32) (a8 : FVec Ideal S2048 .f32) : Term.x5 a3 a7 a8 = linA a3 a7 a8 :=
  affine_eq (M := 2048) (K := 2048) (N := 2048) _ _ _ a3 a7 a8

/-- The first decoder layer's affine part. -/
theorem y4_eq (L : FVec Ideal S8192x3072 .f32) (a9 : FVec Ideal S1024x3072 .f32) (a10 : FVec Ideal S1024 .f32) :
    Term.y4 L a9 a10 = linA L a9 a10 :=
  affine_eq (M := 8192) (K := 3072) (N := 1024) _ _ _ L a9 a10

/-- The second decoder layer's affine part. -/
theorem y3_eq (L : FVec Ideal S32768x1536 .f32) (a13 : FVec Ideal S512x1536 .f32) (a14 : FVec Ideal S512 .f32) :
    Term.y3 L a13 a14 = linA L a13 a14 :=
  affine_eq (M := 32768) (K := 1536) (N := 512) _ _ _ L a13 a14

/-- The last layer. -/
theorem out_eq (L : FVec Ideal S131072x768 .f32) (a17 : FVec Ideal S256x768 .f32) (a18 : FVec Ideal S256 .f32) :
    Term.out L a17 a18 = linA L a17 a18 :=
  affine_eq (M := 131072) (K := 768) (N := 256) _ _ _ L a17 a18

end Cert.ReferenceIdeal.Val

end
-- ==== Proof.RefRead2.lean ====
/-
  The reference's two group normalisations with rectifier, read entry by entry.

  The reference regroups an [rows, channels] array Y: it transposes to [channels, rows] and reshapes to
  [groups, (channels of a group)·rows], so that a group's row holds its channels one after the other, each with all
  its rows: flat position  p·R + r  of group g is entry (r, g·P + p) of Y. Over that row it takes the mean (sum over
  the count), the variance as the mean of squared deviations (the outlined function's select on "count − 0 > 0" takes
  its first branch, the count being positive), divides the centred entries by √(variance + ε), lays the array back out
  (entry (r, c) is flat position (c % P)·R + r of group c / P), applies the per-channel scale and shift and the
  rectifier (select on y ≥ 0). A sum over a group's flat positions is the double sum over (channel in group, row),
  so the whole is Spec's `normRef`.

  First the layout and broadcast operations and the host reduction at an index, over variable extents; then each
  operation of the chain; then the chain assembled (`norm_read`); last the two layers' definitions, each an instance.
-/
import proofs.«119478_j39633958207498_1_alg».proof.Proof.RefTerm
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import Mathlib.Algebra.BigOperators.Fin

noncomputable section

open scoped BigOperators

namespace Cert.ReferenceIdeal.Val

open Idealize.ShloMosaic Idealize.ShloMosaic.ValueIdx Cert.Spec

/-! ## Arithmetic of the flat position inside a group -/

theorem flat_lt {P R N : ℕ} (hN : N = P * R) (p : Fin P) (r : Fin R) : p.val * R + r.val < N := by
  subst hN
  calc p.val * R + r.val < p.val * R + R := Nat.add_lt_add_left r.isLt _
    _ = (p.val + 1) * R := by ring
    _ ≤ P * R := Nat.mul_le_mul_right R p.isLt

theorem grp_lt {C G P : ℕ} (hC : C = G * P) (c : Fin C) : c.val / P < G := by
  have hc : c.val < P * G := lt_of_lt_of_eq c.isLt (by rw [hC, Nat.mul_comm])
  exact Nat.div_lt_of_lt_mul hc

/-- A sum over the flat positions of a group is the double sum over (channel in group, row). -/
theorem sum_fin_mul {M : Type*} [AddCommMonoid M] (P R N : ℕ) (hN : N = P * R) (f : Fin N → M) :
    ∑ k, f k = ∑ p : Fin P, ∑ r : Fin R, f ⟨p.val * R + r.val, flat_lt hN p r⟩ := by
  subst hN
  refine (Equiv.sum_comp finProdFinEquiv f).symm.trans ?_
  rw [Fintype.sum_prod_type]
  refine Finset.sum_congr rfl fun p _ => Finset.sum_congr rfl fun r _ => congrArg f (Fin.ext ?_)
  show r.val + R * p.val = p.val * R + r.val
  ring

/-! ## Broadcasts read at an index -/

section Bcast
variable {α : Type} {n m : ℕ}

theorem bcast_row_apply (h1 : (⟨1, ![m]⟩ : Shape).BroadcastsInDim ⟨2, ![1, m]⟩ ![1])
    (h2 : (⟨2, ![1, m]⟩ : Shape).BroadcastsInDim ⟨2, ![n, m]⟩ ![0, 1]) (v : (⟨1, ![m]⟩ : Shape).Idx → α) (r : Fin n) (c : Fin m) :
    broadcastInDim ⟨2, ![n, m]⟩ ![0, 1] h2 (broadcastInDim ⟨2, ![1, m]⟩ ![1] h1 v) (ix2 r c) = v (ix1 c) := by
  refine (broadcastInDim_apply ![0, 1] h2 _ (ix2 r c) (ix2 (0 : Fin 1) c) fun a => ?_).trans
    (broadcastInDim_apply ![1] h1 v (ix2 (0 : Fin 1) c) (ix1 c) fun a => ?_)
  · match a with
    | ⟨0, _⟩ => rfl
    | ⟨1, _⟩ =>
      show c.val = if m = 1 then 0 else c.val
      split
      · have := c.isLt; omega
      · rfl
  · match a with
    | ⟨0, _⟩ =>
      show c.val = if m = 1 then 0 else c.val
      split
      · have := c.isLt; omega
      · rfl

theorem bcast_col_apply (h : (⟨2, ![n, 1]⟩ : Shape).BroadcastsInDim ⟨2, ![n, m]⟩ ![0, 1]) (v : (⟨2, ![n, 1]⟩ : Shape).Idx → α)
    (g : Fin n) (i : Fin m) : broadcastInDim ⟨2, ![n, m]⟩ ![0, 1] h v (ix2 g i) = v (ix2 g (0 : Fin 1)) := by
  refine broadcastInDim_apply ![0, 1] h v (ix2 g i) (ix2 g (0 : Fin 1)) fun a => ?_
  match a with
  | ⟨0, _⟩ =>
    show g.val = if n = 1 then 0 else g.val
    split
    · have := g.isLt; omega
    · rfl
  | ⟨1, _⟩ => rfl

theorem bcast_vec_col_apply (h : (⟨1, ![n]⟩ : Shape).BroadcastsInDim ⟨2, ![n, 1]⟩ ![0]) (v : (⟨1, ![n]⟩ : Shape).Idx → α)
    (g : Fin n) (u : Fin 1) : broadcastInDim ⟨2, ![n, 1]⟩ ![0] h v (ix2 g u) = v (ix1 g) := by
  refine broadcastInDim_apply ![0] h v (ix2 g u) (ix1 g) fun a => ?_
  match a with
  | ⟨0, _⟩ =>
    show g.val = if n = 1 then 0 else g.val
    split
    · have := g.isLt; omega
    · rfl

end Bcast

/-! ## The row sums of a matrix, as the host reduction computes them -/

theorem reduce_row_apply {n m : ℕ} (hr : (⟨2, ![n, m]⟩ : Shape).ReducesTo [1] ⟨1, ![n]⟩) (hu : 0 < (⟨0, ![]⟩ : Shape).numel)
    (X : FVec Ideal ⟨2, ![n, m]⟩ .f32) (g : Fin n) :
    Host.reduceAdd X (constant (F := Ideal) ⟨0, ![]⟩ .f32 0x00000000#32) hr hu (ix1 g) = ∑ k : Fin m, X (ix2 g k) := by
  have hR : (⟨2, ![n, m]⟩ : Shape).Reduces [1] ⟨1, ![n]⟩ := ⟨hr.1, Nat.one_pos, hr.2⟩
  rw [hostReduceAdd_apply, Ideal.hostReduceAdd_single hr hR, constant_apply, Ideal.ofBits_zero_f32, zero_add]
  refine Finset.sum_congr rfl fun k _ => congrArg X ?_
  funext a
  match a with
  | ⟨0, _⟩ => rfl
  | ⟨1, _⟩ => rfl

/-! ## Regrouping: [rows, channels] → [channels, rows] → [groups, (channel in group, row)] and back -/

section Regroup
variable {α : Type} {R C G P N : ℕ}

theorem regroup_apply (hC : C = G * P) (hN : N = P * R)
    (ht : (⟨2, ![R, C]⟩ : Shape).Transposes [1, 0] ⟨2, ![C, R]⟩) (hs : (⟨2, ![C, R]⟩ : Shape).ShapeCasts ⟨2, ![G, N]⟩)
    (Y : (⟨2, ![R, C]⟩ : Shape).Idx → α) (g : Fin G) (p : Fin P) (r : Fin R) (c : Fin C) (hc : c.val = g.val * P + p.val) :
    shapeCast ⟨2, ![G, N]⟩ (transpose ⟨2, ![C, R]⟩ [1, 0] Y ht) hs (ix2 g ⟨p.val * R + r.val, flat_lt hN p r⟩) = Y (ix2 r c) := by
  refine (shapeCast_apply _ hs (ix2 g ⟨p.val * R + r.val, flat_lt hN p r⟩) (ix2 c r) ?_).trans (transpose_ix2_apply Y ht c r)
  rw [Shape.rowMajor_val_two, Shape.rowMajor_val_two]
  show c.val * R + r.val = g.val * N + (p.val * R + r.val)
  rw [hc, hN]; ring

theorem ungroup_apply (hC : C = G * P) (hN : N = P * R) (hP : 0 < P)
    (hs : (⟨2, ![G, N]⟩ : Shape).ShapeCasts ⟨2, ![C, R]⟩) (ht : (⟨2, ![C, R]⟩ : Shape).Transposes [1, 0] ⟨2, ![R, C]⟩)
    (Z : (⟨2, ![G, N]⟩ : Shape).Idx → α) (r : Fin R) (c : Fin C) :
    transpose ⟨2, ![R, C]⟩ [1, 0] (shapeCast ⟨2, ![C, R]⟩ Z hs) ht (ix2 r c)
      = Z (ix2 ⟨c.val / P, grp_lt hC c⟩ ⟨(c.val % P) * R + r.val, flat_lt hN ⟨c.val % P, Nat.mod_lt _ hP⟩ r⟩) := by
  refine (transpose_ix2_apply _ ht r c).trans (shapeCast_apply Z hs (ix2 c r) _ ?_)
  rw [Shape.rowMajor_val_two, Shape.rowMajor_val_two]
  show (c.val / P) * N + ((c.val % P) * R + r.val) = c.val * R + r.val
  have h := Nat.div_add_mod c.val P
  rw [hN]
  calc (c.val / P) * (P * R) + ((c.val % P) * R + r.val) = (P * (c.val / P) + c.val % P) * R + r.val := by ring
    _ = c.val * R + r.val := by rw [h]

end Regroup

/-! ## The operations of the normalisation, read at an index -/

theorem hostSqrt_apply {s : Shape} {φ : FTy} (x : FVec Ideal s φ) (i : s.Idx) : Host.sqrt x i = Ideal.sqrt (x i) := rfl

/-- A select on "the second operand is below the first", decided. -/
theorem select_ogt_of_lt {α : Type} {x y : EReal} (h : y < x) (a b : α) :
    Scalar.select (FloatOps.cmpf (F := Ideal) (φ := .f32) .ogt x y) a b = a := by
  rw [Ideal.cmpf_def]; unfold Ideal.cmp
  rw [show decide (y < x) = true from decide_eq_true h]
  exact select_one a b

/-- A select on "the second operand is at most the first" is the `if` on it. -/
theorem select_oge {α : Type} (x y : EReal) (a b : α) :
    Scalar.select (FloatOps.cmpf (F := Ideal) (φ := .f32) .oge x y) a b = if y ≤ x then a else b := by
  rw [Ideal.cmpf_def]; unfold Ideal.cmp
  by_cases h : y ≤ x
  · rw [show decide (y ≤ x) = true from decide_eq_true h, if_pos h]; exact select_one a b
  · rw [show decide (y ≤ x) = false from decide_eq_false h, if_neg h]; exact select_zero a b

section Ops
variable {n m : ℕ}

/-- The count word less the converted integer zero is the count. -/
theorem dof_read (w : BitVec 32) :
    (subf (constant (F := Ideal) ⟨0, ![]⟩ .f32 w) (sitofp .f32 (constantI ⟨0, ![]⟩ 32 0#32)) : FVec Ideal ⟨0, ![]⟩ .f32) ix0
      = Ideal.ofBits .f32 w := by
  rw [subf_apply, constant_apply, sitofp_apply, constantI_apply]
  show Ideal.ofBits .f32 w - (((0#32 : BitVec 32).toInt : ℝ) : EReal) = Ideal.ofBits .f32 w
  rw [show (0#32 : BitVec 32).toInt = 0 from by decide, Int.cast_zero, EReal.coe_zero, sub_zero]

/-- The group means: row sums over the count. -/
theorem mean_read (w : BitVec 32) (hr : (⟨2, ![n, m]⟩ : Shape).ReducesTo [1] ⟨1, ![n]⟩) (hu : 0 < (⟨0, ![]⟩ : Shape).numel)
    (hb1 : (⟨1, ![n]⟩ : Shape).BroadcastsInDim ⟨2, ![n, 1]⟩ ![0]) (hb0 : (⟨0, ![]⟩ : Shape).BroadcastsInDim ⟨2, ![n, 1]⟩ ![])
    (X : FVec Ideal ⟨2, ![n, m]⟩ .f32) (g : Fin n) :
    Host.divf (broadcastInDim ⟨2, ![n, 1]⟩ ![0] hb1 (Host.reduceAdd X (constant (F := Ideal) ⟨0, ![]⟩ .f32 0x00000000#32) hr hu))
        (broadcastInDim ⟨2, ![n, 1]⟩ ![] hb0 (constant (F := Ideal) ⟨0, ![]⟩ .f32 w)) (ix2 g (0 : Fin 1))
      = Ideal.div (∑ k : Fin m, X (ix2 g k)) (Ideal.ofBits .f32 w) := by
  rw [hostDivf_apply, bcast_vec_col_apply, reduce_row_apply hr hu, broadcastInDim_scalar_apply, constant_apply]

/-- The squared deviations from a column of means. -/
theorem sqdev_read (hb : (⟨2, ![n, 1]⟩ : Shape).BroadcastsInDim ⟨2, ![n, m]⟩ ![0, 1]) (X : FVec Ideal ⟨2, ![n, m]⟩ .f32)
    (Mn : FVec Ideal ⟨2, ![n, 1]⟩ .f32) (g : Fin n) (k : Fin m) :
    mulf (subf X (broadcastInDim ⟨2, ![n, m]⟩ ![0, 1] hb Mn)) (subf X (broadcastInDim ⟨2, ![n, m]⟩ ![0, 1] hb Mn)) (ix2 g k)
      = (X (ix2 g k) - Mn (ix2 g (0 : Fin 1))) * (X (ix2 g k) - Mn (ix2 g (0 : Fin 1))) := by
  rw [mulf_apply, subf_apply, bcast_col_apply]

/-- The variance as the outlined function selects it: with a positive divisor the first branch, row sums over the divisor. -/
theorem var_read (D E : FVec Ideal ⟨0, ![]⟩ .f32) (hD : 0 < D ix0)
    (hr : (⟨2, ![n, m]⟩ : Shape).ReducesTo [1] ⟨1, ![n]⟩) (hu : 0 < (⟨0, ![]⟩ : Shape).numel)
    (hb1 : (⟨1, ![n]⟩ : Shape).BroadcastsInDim ⟨2, ![n, 1]⟩ ![0]) (hb0 : (⟨0, ![]⟩ : Shape).BroadcastsInDim ⟨2, ![n, 1]⟩ ![])
    (S : FVec Ideal ⟨2, ![n, m]⟩ .f32) (g : Fin n) :
    select (broadcastInDim ⟨2, ![n, 1]⟩ ![] hb0 (cmpf .ogt D (constant (F := Ideal) ⟨0, ![]⟩ .f32 0x00000000#32)))
        (Host.divf (broadcastInDim ⟨2, ![n, 1]⟩ ![0] hb1 (Host.reduceAdd S (constant (F := Ideal) ⟨0, ![]⟩ .f32 0x00000000#32) hr hu))
          (broadcastInDim ⟨2, ![n, 1]⟩ ![] hb0 D))
        (broadcastInDim ⟨2, ![n, 1]⟩ ![] hb0 E) (ix2 g (0 : Fin 1))
      = Ideal.div (∑ k : Fin m, S (ix2 g k)) (D ix0) := by
  rw [select_apply, broadcastInDim_scalar_apply, cmpf_apply, constant_apply, Ideal.ofBits_zero_f32, select_ogt_of_lt hD,
    hostDivf_apply, bcast_vec_col_apply, reduce_row_apply hr hu, broadcastInDim_scalar_apply]

/-- Centred entries over the root of variance plus the offset word. -/
theorem cen_read (we : BitVec 32) (hb : (⟨2, ![n, 1]⟩ : Shape).BroadcastsInDim ⟨2, ![n, m]⟩ ![0, 1])
    (hb0 : (⟨0, ![]⟩ : Shape).BroadcastsInDim ⟨2, ![n, 1]⟩ ![]) (X : FVec Ideal ⟨2, ![n, m]⟩ .f32)
    (Mn V : FVec Ideal ⟨2, ![n, 1]⟩ .f32) (g : Fin n) (k : Fin m) :
    Host.divf (subf X (broadcastInDim ⟨2, ![n, m]⟩ ![0, 1] hb Mn))
        (broadcastInDim ⟨2, ![n, m]⟩ ![0, 1] hb
          (Host.sqrt (addf V (broadcastInDim ⟨2, ![n, 1]⟩ ![] hb0 (constant (F := Ideal) ⟨0, ![]⟩ .f32 we))))) (ix2 g k)
      = Ideal.div (X (ix2 g k) - Mn (ix2 g (0 : Fin 1))) (Ideal.sqrt (V (ix2 g (0 : Fin 1)) + Ideal.ofBits .f32 we)) := by
  rw [hostDivf_apply, subf_apply, bcast_col_apply, bcast_col_apply, hostSqrt_apply, addf_apply, broadcastInDim_scalar_apply,
    constant_apply]

/-- Per-channel scale and shift broadcast over the rows. -/
theorem aff_read (h1 : (⟨1, ![m]⟩ : Shape).BroadcastsInDim ⟨2, ![1, m]⟩ ![1])
    (h2 : (⟨2, ![1, m]⟩ : Shape).BroadcastsInDim ⟨2, ![n, m]⟩ ![0, 1]) (Z : FVec Ideal ⟨2, ![n, m]⟩ .f32)
    (γ β : FVec Ideal ⟨1, ![m]⟩ .f32) (r : Fin n) (c : Fin m) :
    addf (mulf Z (broadcastInDim ⟨2, ![n, m]⟩ ![0, 1] h2 (broadcastInDim ⟨2, ![1, m]⟩ ![1] h1 γ)))
        (broadcastInDim ⟨2, ![n, m]⟩ ![0, 1] h2 (broadcastInDim ⟨2, ![1, m]⟩ ![1] h1 β)) (ix2 r c)
      = Z (ix2 r c) * γ (ix1 c) + β (ix1 c) := by
  rw [addf_apply, mulf_apply, bcast_row_apply, bcast_row_apply]

end Ops

/-- The rectifier as the outlined function computes it: compare with the zero word, select. -/
theorem lrelu_read {T : Shape} (ws : BitVec 32) (hb0 : (⟨0, ![]⟩ : Shape).BroadcastsInDim T ![]) (Z : FVec Ideal T .f32) (j : T.Idx) :
    select (cmpf .oge Z (broadcastInDim T ![] hb0 (constant (F := Ideal) ⟨0, ![]⟩ .f32 0x00000000#32))) Z
        (mulf (broadcastInDim T ![] hb0 (id (constant (F := Ideal) ⟨0, ![]⟩ .f32 ws))) Z) j
      = leakyRef (Ideal.ofBits .f32 ws) (Z j) := by
  rw [select_apply, cmpf_apply, mulf_apply, broadcastInDim_scalar_apply, broadcastInDim_scalar_apply, constant_apply,
    Ideal.ofBits_zero_f32, select_oge]
  rfl

/-! ## The chain of readings is the textbook normalisation

Given each array of the chain read at an index — the regrouped input at (group, flat position), the group means and
variances as sums over a group's flat positions, the centred and scaled entries, the array laid back out, the affine
map and the rectifier — the result is `normRef`: a group's flat positions are the pairs (channel in group, row), so
the sums are Spec's double sums, and entry (r, c) sits in group c / P at flat position (c % P)·R + r. -/

theorem norm_read {R C G P N : ℕ} (hC : C = G * P) (hN : N = P * R) (hP : 0 < P)
    (cnt eps slope : EReal) (ch : Fin G → Fin P → Fin C) (gOf : Fin C → Fin G)
    (hch : ∀ g p, (ch g p).val = g.val * P + p.val) (hgOf : ∀ c, (gOf c).val = c.val / P)
    (Y : Arr2 R C) (γ β : Arr1 C) (X Cn : Arr2 G N) (Mn V : Arr2 G 1) (U A Z : Arr2 R C)
    (hX : ∀ g p r, X (ix2 g ⟨p.val * R + r.val, flat_lt hN p r⟩) = Y (ix2 r (ch g p)))
    (hM : ∀ g, Mn (ix2 g (0 : Fin 1)) = Ideal.div (∑ k : Fin N, X (ix2 g k)) cnt)
    (hV : ∀ g, V (ix2 g (0 : Fin 1))
      = Ideal.div (∑ k : Fin N, (X (ix2 g k) - Mn (ix2 g (0 : Fin 1))) * (X (ix2 g k) - Mn (ix2 g (0 : Fin 1)))) cnt)
    (hCn : ∀ g k, Cn (ix2 g k)
      = Ideal.div (X (ix2 g k) - Mn (ix2 g (0 : Fin 1))) (Ideal.sqrt (V (ix2 g (0 : Fin 1)) + eps)))
    (hU : ∀ r c, U (ix2 r c)
      = Cn (ix2 ⟨c.val / P, grp_lt hC c⟩ ⟨(c.val % P) * R + r.val, flat_lt hN ⟨c.val % P, Nat.mod_lt _ hP⟩ r⟩))
    (hA : ∀ r c, A (ix2 r c) = U (ix2 r c) * γ (ix1 c) + β (ix1 c))
    (hZ : ∀ r c, Z (ix2 r c) = leakyRef slope (A (ix2 r c))) :
    Z = unc2 (normRef cnt eps slope ch gOf (cur2 Y) (cur1 γ) (cur1 β)) := by
  -- the mean of a group: the sum over flat positions is the sum over its channels of the column sums
  have hmean : ∀ g, Mn (ix2 g (0 : Fin 1)) = gmean cnt ch (cur2 Y) g := by
    intro g
    rw [hM g, sum_fin_mul P R N hN]
    unfold gmean gsum colSum
    refine congrArg (fun s => Ideal.div s cnt) (Finset.sum_congr rfl fun p _ => Finset.sum_congr rfl fun r _ => ?_)
    exact hX g p r
  -- the variance of a group, likewise
  have hvar : ∀ g, V (ix2 g (0 : Fin 1)) = gvarRef cnt ch (cur2 Y) g := by
    intro g
    rw [hV g, sum_fin_mul P R N hN, hmean g]
    unfold gvarRef
    refine congrArg (fun s => Ideal.div s cnt) (Finset.sum_congr rfl fun p _ => Finset.sum_congr rfl fun r _ => ?_)
    rw [hX g p r]; rfl
  funext j
  obtain ⟨r, c, rfl⟩ : ∃ (r : Fin R) (c : Fin C), j = ix2 r c := ⟨j 0, j 1, eq_ix2 j⟩
  -- channel c is channel c % P of group c / P
  have hg : (⟨c.val / P, grp_lt hC c⟩ : Fin G) = gOf c := Fin.ext (hgOf c).symm
  have hc : ch (gOf c) ⟨c.val % P, Nat.mod_lt _ hP⟩ = c :=
    Fin.ext (by rw [hch, hgOf]; exact Nat.div_add_mod' c.val P)
  have hx := hX (gOf c) ⟨c.val % P, Nat.mod_lt _ hP⟩ r
  rw [hc] at hx
  rw [hZ, hA, hU, hCn, hg, hmean, hvar, hx]
  rfl

/-! ## Layer 4: the reference's definitions read at an index -/

open Cert.ReferenceIdeal

theorem ofBits_cnt4 : Ideal.ofBits .f32 0x48800000#32 = ((262144 : ℝ) : EReal) := by
  simp [Ideal.ofBits, Ideal.ieee, -EReal.coe_mul]; norm_num

theorem cnt4_pos : (0 : EReal) < Ideal.ofBits .f32 0x48800000#32 := by
  rw [ofBits_cnt4]; exact EReal.coe_pos.mpr (by norm_num)

theorem grp4_apply (Y : FVec Ideal S8192x1024 .f32) (g : Fin 32) (p : Fin 32) (r : Fin 8192) :
    Term.grp4 Y (ix2 g ⟨p.val * 8192 + r.val, flat_lt (P := 32) (R := 8192) (N := 262144) (by norm_num) p r⟩)
      = Y (ix2 r (ch4 g p)) := by
  unfold Term.grp4
  exact regroup_apply (G := 32) (P := 32) (by norm_num) (by norm_num) _ _ Y g p r (ch4 g p) rfl

theorem mean4_apply (X : FVec Ideal S32x262144 .f32) (g : Fin 32) :
    Term.mean4 X (ix2 g (0 : Fin 1)) = Ideal.div (∑ k : Fin 262144, X (ix2 g k)) cCnt4 := by
  unfold Term.mean4
  exact mean_read _ _ _ _ _ X g

theorem var4_apply (X : FVec Ideal S32x262144 .f32) (g : Fin 32) :
    Term.var4 X (ix2 g (0 : Fin 1))
      = Ideal.div (∑ k : Fin 262144, (X (ix2 g k) - Term.mean4 X (ix2 g (0 : Fin 1))) * (X (ix2 g k) - Term.mean4 X (ix2 g (0 : Fin 1)))) cCnt4 := by
  have hD : Term.dof4 ix0 = cCnt4 := dof_read _
  unfold Term.var4
  refine (var_read Term.dof4 _ (by rw [hD]; exact cnt4_pos) _ _ _ _ (Term.sqdev4 X) g).trans ?_
  rw [hD]
  refine congrArg (fun s => Ideal.div s cCnt4) (Finset.sum_congr rfl fun k _ => ?_)
  unfold Term.sqdev4
  exact sqdev_read _ X (Term.mean4 X) g k

theorem cen4_apply (X : FVec Ideal S32x262144 .f32) (g : Fin 32) (k : Fin 262144) :
    Term.cen4 X (ix2 g k)
      = Ideal.div (X (ix2 g k) - Term.mean4 X (ix2 g (0 : Fin 1))) (Ideal.sqrt (Term.var4 X (ix2 g (0 : Fin 1)) + cEps)) := by
  unfold Term.cen4
  exact cen_read _ _ _ X (Term.mean4 X) (Term.var4 X) g k

theorem ung4_apply (Z : FVec Ideal S32x262144 .f32) (r : Fin 8192) (c : Fin 1024) :
    Term.ung4 Z (ix2 r c)
      = Z (ix2 ⟨c.val / 32, grp_lt (G := 32) (P := 32) (by norm_num) c⟩
          ⟨(c.val % 32) * 8192 + r.val, flat_lt (P := 32) (R := 8192) (N := 262144) (by norm_num) ⟨c.val % 32, Nat.mod_lt _ (by norm_num)⟩ r⟩) := by
  unfold Term.ung4
  exact ungroup_apply (G := 32) (P := 32) (by norm_num) (by norm_num) (by norm_num) _ _ Z r c

theorem aff4_apply (Z : FVec Ideal S8192x1024 .f32) (γ β : FVec Ideal S1024 .f32) (r : Fin 8192) (c : Fin 1024) :
    Term.aff4 Z γ β (ix2 r c) = Z (ix2 r c) * γ (ix1 c) + β (ix1 c) := by
  unfold Term.aff4
  exact aff_read _ _ Z γ β r c

theorem lrelu4_apply (Z : FVec Ideal S8192x1024 .f32) (r : Fin 8192) (c : Fin 1024) :
    Term.lrelu4 Z (ix2 r c) = leakyRef cSlope (Z (ix2 r c)) := by
  unfold Term.lrelu4
  exact lrelu_read _ _ Z (ix2 r c)

/-- Layer 4's normalisation and rectifier as the reference spells them are the textbook arrangement. -/
theorem z4_eq (Y : FVec Ideal S8192x1024 .f32) (a11 a12 : FVec Ideal S1024 .f32) :
    Term.z4 Y a11 a12 = unc2 (normRef cCnt4 cEps cSlope ch4 gOf4 (cur2 Y) (cur1 a11) (cur1 a12)) :=
  norm_read (R := 8192) (C := 1024) (G := 32) (P := 32) (N := 262144) (by norm_num) (by norm_num) (by norm_num)
    cCnt4 cEps cSlope ch4 gOf4 (fun _ _ => rfl) (fun _ => rfl) Y a11 a12
    (Term.grp4 Y) (Term.cen4 (Term.grp4 Y)) (Term.mean4 (Term.grp4 Y)) (Term.var4 (Term.grp4 Y))
    (Term.ung4 (Term.cen4 (Term.grp4 Y))) (Term.aff4 (Term.ung4 (Term.cen4 (Term.grp4 Y))) a11 a12) (Term.z4 Y a11 a12)
    (grp4_apply Y) (mean4_apply _) (var4_apply _) (cen4_apply _) (ung4_apply _) (aff4_apply _ a11 a12)
    (fun r c => lrelu4_apply _ r c)

/-! ## Layer 3: the reference's definitions read at an index -/

theorem ofBits_cnt3 : Ideal.ofBits .f32 0x49000000#32 = ((524288 : ℝ) : EReal) := by
  simp [Ideal.ofBits, Ideal.ieee, -EReal.coe_mul]; norm_num

theorem cnt3_pos : (0 : EReal) < Ideal.ofBits .f32 0x49000000#32 := by
  rw [ofBits_cnt3]; exact EReal.coe_pos.mpr (by norm_num)

theorem grp3_apply (Y : FVec Ideal S32768x512 .f32) (g : Fin 32) (p : Fin 16) (r : Fin 32768) :
    Term.grp3 Y (ix2 g ⟨p.val * 32768 + r.val, flat_lt (P := 16) (R := 32768) (N := 524288) (by norm_num) p r⟩)
      = Y (ix2 r (ch3 g p)) := by
  unfold Term.grp3
  exact regroup_apply (G := 32) (P := 16) (by norm_num) (by norm_num) _ _ Y g p r (ch3 g p) rfl

theorem mean3_apply (X : FVec Ideal S32x524288 .f32) (g : Fin 32) :
    Term.mean3 X (ix2 g (0 : Fin 1)) = Ideal.div (∑ k : Fin 524288, X (ix2 g k)) cCnt3 := by
  unfold Term.mean3
  exact mean_read _ _ _ _ _ X g

theorem var3_apply (X : FVec Ideal S32x524288 .f32) (g : Fin 32) :
    Term.var3 X (ix2 g (0 : Fin 1))
      = Ideal.div (∑ k : Fin 524288, (X (ix2 g k) - Term.mean3 X (ix2 g (0 : Fin 1))) * (X (ix2 g k) - Term.mean3 X (ix2 g (0 : Fin 1)))) cCnt3 := by
  have hD : Term.dof3 ix0 = cCnt3 := dof_read _
  unfold Term.var3
  refine (var_read Term.dof3 _ (by rw [hD]; exact cnt3_pos) _ _ _ _ (Term.sqdev3 X) g).trans ?_
  rw [hD]
  refine congrArg (fun s => Ideal.div s cCnt3) (Finset.sum_congr rfl fun k _ => ?_)
  unfold Term.sqdev3
  exact sqdev_read _ X (Term.mean3 X) g k

theorem cen3_apply (X : FVec Ideal S32x524288 .f32) (g : Fin 32) (k : Fin 524288) :
    Term.cen3 X (ix2 g k)
      = Ideal.div (X (ix2 g k) - Term.mean3 X (ix2 g (0 : Fin 1))) (Ideal.sqrt (Term.var3 X (ix2 g (0 : Fin 1)) + cEps)) := by
  unfold Term.cen3
  exact cen_read _ _ _ X (Term.mean3 X) (Term.var3 X) g k

theorem ung3_apply (Z : FVec Ideal S32x524288 .f32) (r : Fin 32768) (c : Fin 512) :
    Term.ung3 Z (ix2 r c)
      = Z (ix2 ⟨c.val / 16, grp_lt (G := 32) (P := 16) (by norm_num) c⟩
          ⟨(c.val % 16) * 32768 + r.val, flat_lt (P := 16) (R := 32768) (N := 524288) (by norm_num) ⟨c.val % 16, Nat.mod_lt _ (by norm_num)⟩ r⟩) := by
  unfold Term.ung3
  exact ungroup_apply (G := 32) (P := 16) (by norm_num) (by norm_num) (by norm_num) _ _ Z r c

theorem aff3_apply (Z : FVec Ideal S32768x512 .f32) (γ β : FVec Ideal S512 .f32) (r : Fin 32768) (c : Fin 512) :
    Term.aff3 Z γ β (ix2 r c) = Z (ix2 r c) * γ (ix1 c) + β (ix1 c) := by
  unfold Term.aff3
  exact aff_read _ _ Z γ β r c

theorem lrelu3_apply (Z : FVec Ideal S32768x512 .f32) (r : Fin 32768) (c : Fin 512) :
    Term.lrelu3 Z (ix2 r c) = leakyRef cSlope (Z (ix2 r c)) := by
  unfold Term.lrelu3
  exact lrelu_read _ _ Z (ix2 r c)

/-- Layer 3's normalisation and rectifier as the reference spells them are the textbook arrangement. -/
theorem z3_eq (Y : FVec Ideal S32768x512 .f32) (a15 a16 : FVec Ideal S512 .f32) :
    Term.z3 Y a15 a16 = unc2 (normRef cCnt3 cEps cSlope ch3 gOf3 (cur2 Y) (cur1 a15) (cur1 a16)) :=
  norm_read (R := 32768) (C := 512) (G := 32) (P := 16) (N := 524288) (by norm_num) (by norm_num) (by norm_num)
    cCnt3 cEps cSlope ch3 gOf3 (fun _ _ => rfl) (fun _ => rfl) Y a15 a16
    (Term.grp3 Y) (Term.cen3 (Term.grp3 Y)) (Term.mean3 (Term.grp3 Y)) (Term.var3 (Term.grp3 Y))
    (Term.ung3 (Term.cen3 (Term.grp3 Y))) (Term.aff3 (Term.ung3 (Term.cen3 (Term.grp3 Y))) a15 a16) (Term.z3 Y a15 a16)
    (grp3_apply Y) (mean3_apply _) (var3_apply _) (cen3_apply _) (ung3_apply _) (aff3_apply _ a15 a16)
    (fun r c => lrelu3_apply _ r c)

end Cert.ReferenceIdeal.Val

end
-- ==== Proof.RefResult.lean ====
/-
  The reference's result term is the decoder in its textbook arrangement: each affine layer is `linA`, each
  normalisation with rectifier is `normRef` of the layer's affine part, and the three gather-and-append maps stay as
  they are.
-/
import proofs.«119478_j39633958207498_1_alg».proof.Proof.RefRead1
import proofs.«119478_j39633958207498_1_alg».proof.Proof.RefRead2

noncomputable section

namespace Cert.ReferenceIdeal.Val

open Idealize.ShloMosaic Idealize.SL.Sem
open Cert.ReferenceIdeal Cert.Spec

/-- The reference's result is `netR` of its arguments. -/
theorem result_eq (a0 : FVec Ideal S131072x256 .f32) (a1 : FVec Ideal S32768x512 .f32) (a2 : FVec Ideal S8192x1024 .f32) (a3 : FVec Ideal S2048x2048 .f32)
    (a4 : IVec S131072 32) (a5 : IVec S32768 32) (a6 : IVec S8192 32) (a7 : FVec Ideal S2048x2048 .f32) (a8 : FVec Ideal S2048 .f32)
    (a9 : FVec Ideal S1024x3072 .f32) (a10 a11 a12 : FVec Ideal S1024 .f32) (a13 : FVec Ideal S512x1536 .f32) (a14 a15 a16 : FVec Ideal S512 .f32)
    (a17 : FVec Ideal S256x768 .f32) (a18 : FVec Ideal S256 .f32) :
    Term.result a0 a1 a2 a3 a4 a5 a6 a7 a8 a9 a10 a11 a12 a13 a14 a15 a16 a17 a18
      = netR (Term.pre4 a2 a6) (Term.pre3 a1 a5) (Term.pre2 a0 a4) a3 a7 a8 a9 a10 a11 a12 a13 a14 a15 a16 a17 a18 := by
  unfold Term.result netR stageR
  rw [out_eq, z3_eq, y3_eq, z4_eq, y4_eq, x5_eq]
  rfl

end Cert.ReferenceIdeal.Val

end
-- ==== Proof.LawNorm.lean ====
/-
  The laws of real arithmetic the decoder's two arrangements rest on, over abstract extents.

  * An array all of whose entries are real numbers is the coercion of a real-valued array, and the affine layer
    of real data is real (a finite sum of products of reals, plus a real).
  * The two rectifiers agree everywhere: the strict and the weak test differ only at 0, where slope · 0 = 0.
  * For a group of n = P·M real entries y with mean μ = Σy / n:
        Σ (y − μ)² = Σ y² − 2μ Σ y + n μ² = Σ y² − n μ²,
    so the mean of squared deviations is the mean of squares less the squared mean; it is ≥ 0, hence
    variance + ε > 0 for ε > 0, its square root is a positive real, both divisions are by nonzero reals, and
        y · (γ/σ) + (β − μ · (γ/σ)) = (y − μ)/σ · γ + β     in ℝ.
-/
import proofs.«119478_j39633958207498_1_alg».proof.Proof.Spec
import Mathlib.Algebra.BigOperators.Field
import Mathlib.Tactic.FieldSimp
import Mathlib.Tactic.Ring
import Mathlib.Tactic.Positivity
import Mathlib.Analysis.SpecialFunctions.Pow.Real

noncomputable section
open scoped BigOperators
namespace Cert.Spec
open Idealize.ShloMosaic Idealize.ShloMosaic.ValueIdx

/-! ## Real arrays -/

theorem isReal_coe (r : ℝ) : IsReal (r : EReal) := ⟨r, rfl⟩

/-- A family of real entries is the coercion of a real-valued family. -/
theorem exists_real_fun {ι : Type*} (f : ι → EReal) (h : ∀ i, IsReal (f i)) : ∃ g : ι → ℝ, f = fun i => (g i : EReal) :=
  ⟨fun i => (h i).choose, funext fun i => (h i).choose_spec⟩

theorem exists_real_fun2 {ι κ : Type*} (f : ι → κ → EReal) (h : ∀ i k, IsReal (f i k)) :
    ∃ g : ι → κ → ℝ, f = fun i k => (g i k : EReal) :=
  ⟨fun i k => (h i k).choose, funext fun i => funext fun k => (h i k).choose_spec⟩

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The affine layer of real data -/

theorem lin_coe {M K N : ℕ} (x : Fin M → Fin K → ℝ) (w : Fin N → Fin K → ℝ) (b : Fin N → ℝ) :
    lin (fun r k => (x r k : EReal)) (fun c k => (w c k : EReal)) (fun c => (b c : EReal))
      = fun r c => (((∑ k : Fin K, x r k * w c k) + b c : ℝ) : EReal) := by
  funext r c
  simp only [lin, EReal.coe_add, coe_sum, EReal.coe_mul]

theorem lin_real {M K N : ℕ} (X : Fin M → Fin K → EReal) (W : Fin N → Fin K → EReal) (b : Fin N → EReal)
    (hX : ∀ r k, IsReal (X r k)) (hW : ∀ c k, IsReal (W c k)) (hb : ∀ c, IsReal (b c)) :
    ∃ y : Fin M → Fin N → ℝ, lin X W b = fun r c => (y r c : EReal) := by
  obtain ⟨x, rfl⟩ := exists_real_fun2 X hX
  obtain ⟨w, rfl⟩ := exists_real_fun2 W hW
  obtain ⟨b', rfl⟩ := exists_real_fun b hb
  exact ⟨_, lin_coe x w b'⟩

theorem linA_real {M K N : ℕ} (X : Arr2 M K) (W : Arr2 N K) (b : Arr1 N) (hX : ∀ i, IsReal (X i)) (hW : ∀ i, IsReal (W i))
    (hb : ∀ i, IsReal (b i)) : ∀ j, IsReal (linA X W b j) := by
  obtain ⟨y, hy⟩ := lin_real (cur2 X) (cur2 W) (cur1 b) (fun r k => hX _) (fun c k => hW _) (fun c => hb _)
  intro j
  unfold linA
  rw [hy]
  exact ⟨_, rfl⟩

/-! ## The two rectifiers -/

/-- The strict and the weak test differ only at 0, where slope · 0 = 0. -/
theorem leaky_eq (slope y : EReal) : leakyKer slope y = leakyRef slope y := by
  unfold leakyKer leakyRef
  rcases lt_trichotomy 0 y with h | h | h
  · rw [if_pos h, if_pos h.le]
  · subst h; rw [if_neg (lt_irrefl _), if_pos le_rfl, mul_zero]
  · rw [if_neg (not_lt.2 h.le), if_neg (not_le.2 h)]

theorem leakyKer_real (s t : ℝ) : IsReal (leakyKer (s : EReal) (t : EReal)) := by
  unfold leakyKer
  split_ifs
  · exact ⟨t, rfl⟩
  · exact ⟨s * t, (EReal.coe_mul s t).symm⟩

/-! ## The variance identity over the reals -/

/-- Mean of squared deviations = mean of squares − squared mean, the mean taken over all P·M entries. -/
theorem var_identity {P M : ℕ} (f : Fin P → Fin M → ℝ) (hn : 0 < P * M) (μ : ℝ)
    (hμ : μ = (∑ p : Fin P, ∑ r : Fin M, f p r) * (1 / ((P * M : ℕ) : ℝ))) :
    (∑ p : Fin P, ∑ r : Fin M, (f p r - μ) * (f p r - μ)) * (1 / ((P * M : ℕ) : ℝ))
      = (∑ p : Fin P, ∑ r : Fin M, f p r * f p r) * (1 / ((P * M : ℕ) : ℝ)) - μ * μ := by
  have hn' : (((P * M : ℕ) : ℝ)) ≠ 0 := by exact_mod_cast hn.ne'
  have hS : (∑ p : Fin P, ∑ r : Fin M, f p r) = μ * ((P * M : ℕ) : ℝ) := by
    rw [hμ]; field_simp
  have hexp : ∀ p r, (f p r - μ) * (f p r - μ) = f p r * f p r - 2 * μ * f p r + μ * μ := by intros; ring
  simp only [hexp, Finset.sum_add_distrib, Finset.sum_sub_distrib, ← Finset.mul_sum, hS, Finset.sum_const,
    Finset.card_univ, Fintype.card_fin, nsmul_eq_mul]
  push_cast at hn' ⊢
  have hP : (P : ℝ) ≠ 0 := left_ne_zero_of_mul hn'
  have hM : (M : ℝ) ≠ 0 := right_ne_zero_of_mul hn'
  field_simp
  ring

/-! ## Group normalisation of real data -/

section NormLaw

variable {M C G P : ℕ} (ch : Fin G → Fin P → Fin C) (gOf : Fin C → Fin G) (y : Fin M → Fin C → ℝ)

/-- The group mean of real data, as a real. -/
def muR (g : Fin G) : ℝ := (∑ p : Fin P, ∑ r : Fin M, y r (ch g p)) * (1 / ((P * M : ℕ) : ℝ))

/-- The group variance of real data (mean of squared deviations), as a real. -/
def varR (g : Fin G) : ℝ :=
  (∑ p : Fin P, ∑ r : Fin M, (y r (ch g p) - muR ch y g) * (y r (ch g p) - muR ch y g)) * (1 / ((P * M : ℕ) : ℝ))

theorem varR_nonneg (g : Fin G) : 0 ≤ varR ch y g :=
  mul_nonneg (Finset.sum_nonneg fun _ _ => Finset.sum_nonneg fun _ _ => mul_self_nonneg _) (by positivity)

theorem gsum_coe (g : Fin G) :
    gsum ch (fun r c => (y r c : EReal)) g = ((∑ p : Fin P, ∑ r : Fin M, y r (ch g p) : ℝ) : EReal) := by
  simp only [gsum, colSum, coe_sum]

theorem gsumsq_coe (g : Fin G) :
    gsumsq ch (fun r c => (y r c : EReal)) g = ((∑ p : Fin P, ∑ r : Fin M, y r (ch g p) * y r (ch g p) : ℝ) : EReal) := by
  simp only [gsumsq, colSumSq, coe_sum, EReal.coe_mul]

variable (hn : 0 < P * M)
include hn

theorem cnt_ne : (((P * M : ℕ) : ℝ)) ≠ 0 := by exact_mod_cast hn.ne'

theorem gmean_coe (g : Fin G) :
    gmean (((P * M : ℕ) : ℝ) : EReal) ch (fun r c => (y r c : EReal)) g = (muR ch y g : EReal) := by
  rw [gmean, gsum_coe, Ideal.div_coe (cnt_ne hn), ← EReal.coe_mul, muR]

theorem gvarRef_coe (g : Fin G) :
    gvarRef (((P * M : ℕ) : ℝ) : EReal) ch (fun r c => (y r c : EReal)) g = (varR ch y g : EReal) := by
  rw [gvarRef, gmean_coe ch y hn, Ideal.div_coe (cnt_ne hn)]
  simp only [← EReal.coe_sub, ← EReal.coe_mul, ← coe_sum]
  rfl

theorem gvarKer_coe (g : Fin G) :
    gvarKer (((P * M : ℕ) : ℝ) : EReal) ch (fun r c => (y r c : EReal)) g = (varR ch y g : EReal) := by
  rw [gvarKer, gmean_coe ch y hn, gsumsq_coe, Ideal.div_coe (cnt_ne hn), ← EReal.coe_mul, ← EReal.coe_mul, ← EReal.coe_sub,
    varR, var_identity (fun p r => y r (ch g p)) hn (muR ch y g) rfl]

variable (γ β : Fin C → ℝ) (e s : ℝ) (he : 0 < e)
include he

/-- The normalised, scaled and shifted entry, as a real. -/
def argR (r : Fin M) (c : Fin C) : ℝ :=
  (y r c - muR ch y (gOf c)) * (1 / Real.sqrt (varR ch y (gOf c) + e)) * γ c + β c

theorem sd_pos (g : Fin G) : 0 < Real.sqrt (varR ch y g + e) :=
  Real.sqrt_pos.2 (add_pos_of_nonneg_of_pos (varR_nonneg ch y g) he)

theorem sqrt_var_coe (g : Fin G) :
    Ideal.sqrt ((varR ch y g : EReal) + (e : EReal)) = (Real.sqrt (varR ch y g + e) : EReal) := by
  rw [← EReal.coe_add, Ideal.sqrt_coe, if_neg (not_lt.2 (add_pos_of_nonneg_of_pos (varR_nonneg ch y g) he).le)]

theorem scaleKer_coe (c : Fin C) :
    scaleKer (((P * M : ℕ) : ℝ) : EReal) (e : EReal) ch gOf (fun r c => (y r c : EReal)) (fun c => (γ c : EReal)) c
      = ((γ c * (1 / Real.sqrt (varR ch y (gOf c) + e)) : ℝ) : EReal) := by
  rw [scaleKer, gvarKer_coe ch y hn, sqrt_var_coe ch y hn e he, Ideal.div_coe (sd_pos ch y hn e he _).ne', one_mul, ← EReal.coe_mul]

theorem argKer_coe (r : Fin M) (c : Fin C) :
    (y r c : EReal) * scaleKer (((P * M : ℕ) : ℝ) : EReal) (e : EReal) ch gOf (fun r c => (y r c : EReal)) (fun c => (γ c : EReal)) c
      + shiftKer (((P * M : ℕ) : ℝ) : EReal) (e : EReal) ch gOf (fun r c => (y r c : EReal)) (fun c => (γ c : EReal)) (fun c => (β c : EReal)) c
      = (argR ch gOf y γ β e r c : EReal) := by
  rw [shiftKer, scaleKer_coe ch gOf y hn γ e he, gmean_coe ch y hn, ← EReal.coe_mul, ← EReal.coe_mul, ← EReal.coe_sub, ← EReal.coe_add,
    argR]
  congr 1
  ring

theorem argRef_coe (r : Fin M) (c : Fin C) :
    Ideal.div ((y r c : EReal) - gmean (((P * M : ℕ) : ℝ) : EReal) ch (fun r c => (y r c : EReal)) (gOf c))
        (Ideal.sqrt (gvarRef (((P * M : ℕ) : ℝ) : EReal) ch (fun r c => (y r c : EReal)) (gOf c) + (e : EReal))) * (γ c : EReal) + (β c : EReal)
      = (argR ch gOf y γ β e r c : EReal) := by
  rw [gmean_coe ch y hn, gvarRef_coe ch y hn, sqrt_var_coe ch y hn e he, Ideal.div_coe (sd_pos ch y hn e he _).ne', ← EReal.coe_sub,
    ← EReal.coe_mul, ← EReal.coe_mul, ← EReal.coe_add, argR]

/-- On real data, with the count the true number of entries of a group and a positive offset, the folded and the
    textbook arrangement of normalisation and rectifier agree. -/
theorem normKer_eq_normRef :
    normKer (((P * M : ℕ) : ℝ) : EReal) (e : EReal) (s : EReal) ch gOf (fun r c => (y r c : EReal)) (fun c => (γ c : EReal)) (fun c => (β c : EReal))
      = normRef (((P * M : ℕ) : ℝ) : EReal) (e : EReal) (s : EReal) ch gOf (fun r c => (y r c : EReal)) (fun c => (γ c : EReal)) (fun c => (β c : EReal)) := by
  funext r c
  rw [normKer, affLeaky, normRef, leaky_eq, argKer_coe ch gOf y hn γ β e he, argRef_coe ch gOf y hn γ β e he]

theorem normKer_real (r : Fin M) (c : Fin C) :
    IsReal (normKer (((P * M : ℕ) : ℝ) : EReal) (e : EReal) (s : EReal) ch gOf (fun r c => (y r c : EReal)) (fun c => (γ c : EReal)) (fun c => (β c : EReal)) r c) := by
  rw [normKer, affLeaky, argKer_coe ch gOf y hn γ β e he]
  exact leakyKer_real s _

end NormLaw

end Cert.Spec
end
-- ==== Proof.Law.lean ====
/-
  The decoder's two arrangements agree on real data.

  * The constants: the slope is a real, the variance offset a positive real, and the two counts are the reals
    262144 = 32 · 8192 and 524288 = 16 · 32768: exactly (channels of a group) · (rows), the number of entries of a group.
  * Gathered rows with appended columns: every entry of the result is an entry of the table or of the appended block,
    so real inputs give a real result.
  * A normalised layer on real inputs: the affine layer is real, so the abstract law applies with P·M the count; the two
    arrangements agree and the result is real. The decoder chains two such layers between gather-and-append maps.
-/
import proofs.«119478_j39633958207498_1_alg».proof.Proof.Spec
import proofs.«119478_j39633958207498_1_alg».proof.Proof.LawNorm
import Mathlib.Tactic.NormNum

noncomputable section

open scoped BigOperators

namespace Cert.Spec

open Idealize.ShloMosaic Idealize.ShloMosaic.ValueIdx

/-! ## The constants -/

/-- The word of 1.0 denotes 1. -/
theorem ofBits_one : Ideal.ofBits .f32 0x3F800000#32 = (1 : EReal) := by
  simp [Ideal.ofBits, Ideal.ieee, -EReal.coe_mul]; norm_num

/-- The word of +0.0 denotes 0. -/
theorem ofBits_zero : Ideal.ofBits .f32 0x00000000#32 = (0 : EReal) := by
  simp [Ideal.ofBits, Ideal.ieee]

/-- 2¹⁸ = 262144. -/
theorem cCnt4_eq : cCnt4 = ((262144 : ℝ) : EReal) := by
  unfold cCnt4
  simp [Ideal.ofBits, Ideal.ieee, -EReal.coe_mul]; norm_num

/-- 2¹⁹ = 524288. -/
theorem cCnt3_eq : cCnt3 = ((524288 : ℝ) : EReal) := by
  unfold cCnt3
  simp [Ideal.ofBits, Ideal.ieee, -EReal.coe_mul]; norm_num

/-- The slope is the real 13421773 · 2⁻²⁷. -/
theorem cSlope_real : IsReal cSlope := by
  unfold cSlope
  simp [Ideal.ofBits, Ideal.ieee, -EReal.coe_mul]
  exact ⟨_, rfl⟩

/-- The variance offset is a positive real (a positive significand times a power of two). -/
theorem cEps_pos : ∃ e : ℝ, 0 < e ∧ cEps = (e : EReal) := by
  unfold cEps
  simp [Ideal.ofBits, Ideal.ieee, -EReal.coe_mul]

/-! ## Gathered rows with appended columns -/

/-- Every entry of a concatenation is an entry of one of its parts. -/
theorem concatenate_of_forall {α : Type} (P : α → Prop) (t : Shape) (a : Fin t.rank) (xs : List ((s : Shape) × (s.Idx → α)))
    (h : Shape.Concatenates (xs.map (·.1)) t a) (hP : ∀ p ∈ xs, ∀ i, P (p.2 i)) (j : t.Idx) :
    P (concatenate t a xs h j) := by
  unfold concatenate
  exact hP _ (List.getElem_mem _) _

theorem pre_real {sT sI sG sB sO : Shape} (d : GatherDims sT sI sG) (ax : Fin sO.rank) (hc : Shape.Concatenates [sG, sB] sO ax)
    (T : sT.Idx → EReal) (idx : IVec sI 32) (B : sB.Idx → EReal)
    (hT : ∀ i, IsReal (T i)) (hB : ∀ i, IsReal (B i)) : ∀ j, IsReal (pre d ax hc T idx B j) := by
  intro j
  unfold pre
  refine concatenate_of_forall IsReal sO ax [⟨sG, Host.gather d T idx⟩, ⟨sB, B⟩] hc ?_ j
  intro p hp i
  simp only [List.mem_cons, List.not_mem_nil, or_false] at hp
  rcases hp with rfl | rfl
  · exact hT _
  · exact hB i

/-! ## A normalised layer on real inputs -/

/-- With the count the number P·M of entries of a group, the two arrangements of a normalised layer agree on real
    inputs, and the result is real. -/
theorem stage_law {M K C P : ℕ} (hn : 0 < P * M) (cnt : EReal) (hcnt : cnt = (((P * M : ℕ) : ℝ) : EReal))
    (ch : Fin 32 → Fin P → Fin C) (gOf : Fin C → Fin 32) (L : Arr2 M K) (W : Arr2 C K) (b γ β : Arr1 C)
    (hL : ∀ i, IsReal (L i)) (hW : ∀ i, IsReal (W i)) (hb : ∀ i, IsReal (b i)) (hγ : ∀ i, IsReal (γ i)) (hβ : ∀ i, IsReal (β i)) :
    stageK cnt ch gOf L W b γ β = stageR cnt ch gOf L W b γ β ∧ ∀ j, IsReal (stageK cnt ch gOf L W b γ β j) := by
  obtain ⟨y, hy⟩ := lin_real (cur2 L) (cur2 W) (cur1 b) (fun _ _ => hL _) (fun _ _ => hW _) (fun _ => hb _)
  obtain ⟨g, hg⟩ := exists_real_fun (cur1 γ) (fun _ => hγ _)
  obtain ⟨b', hb'⟩ := exists_real_fun (cur1 β) (fun _ => hβ _)
  obtain ⟨e, he, hE⟩ := cEps_pos
  obtain ⟨s, hs⟩ := cSlope_real
  unfold stageK stageR
  rw [hy, hg, hb', hE, hs, hcnt]
  refine ⟨by rw [normKer_eq_normRef ch gOf y hn g b' e s he], fun j => ?_⟩
  exact normKer_real ch gOf y hn g b' e s he (j 0) (j 1)

theorem cCnt4_cast : cCnt4 = (((32 * 8192 : ℕ) : ℝ) : EReal) := by rw [cCnt4_eq]; norm_num
theorem cCnt3_cast : cCnt3 = (((16 * 32768 : ℕ) : ℝ) : EReal) := by rw [cCnt3_eq]; norm_num

section Stage4
variable (L : Arr2 8192 3072) (W : Arr2 1024 3072) (b γ β : Arr1 1024)
  (hL : ∀ i, IsReal (L i)) (hW : ∀ i, IsReal (W i)) (hb : ∀ i, IsReal (b i)) (hγ : ∀ i, IsReal (γ i)) (hβ : ∀ i, IsReal (β i))
include hL hW hb hγ hβ

theorem stage4_eq : stageK cCnt4 ch4 gOf4 L W b γ β = stageR cCnt4 ch4 gOf4 L W b γ β :=
  (stage_law (by norm_num) cCnt4 cCnt4_cast ch4 gOf4 L W b γ β hL hW hb hγ hβ).1

theorem stage4_real : ∀ j, IsReal (stageK cCnt4 ch4 gOf4 L W b γ β j) :=
  (stage_law (by norm_num) cCnt4 cCnt4_cast ch4 gOf4 L W b γ β hL hW hb hγ hβ).2

end Stage4

section Stage3
variable (L : Arr2 32768 1536) (W : Arr2 512 1536) (b γ β : Arr1 512)
  (hL : ∀ i, IsReal (L i)) (hW : ∀ i, IsReal (W i)) (hb : ∀ i, IsReal (b i)) (hγ : ∀ i, IsReal (γ i)) (hβ : ∀ i, IsReal (β i))
include hL hW hb hγ hβ

theorem stage3_eq : stageK cCnt3 ch3 gOf3 L W b γ β = stageR cCnt3 ch3 gOf3 L W b γ β :=
  (stage_law (by norm_num) cCnt3 cCnt3_cast ch3 gOf3 L W b γ β hL hW hb hγ hβ).1

theorem stage3_real : ∀ j, IsReal (stageK cCnt3 ch3 gOf3 L W b γ β j) :=
  (stage_law (by norm_num) cCnt3 cCnt3_cast ch3 gOf3 L W b γ β hL hW hb hγ hβ).2

end Stage3

/-! ## The decoder -/

theorem net_eq (pre4 : Arr2 2048 2048 → Arr2 8192 3072) (pre3 : Arr2 8192 1024 → Arr2 32768 1536)
    (pre2 : Arr2 32768 512 → Arr2 131072 768)
    (a3 a7 : Arr2 2048 2048) (a8 : Arr1 2048) (a9 : Arr2 1024 3072) (a10 a11 a12 : Arr1 1024)
    (a13 : Arr2 512 1536) (a14 a15 a16 : Arr1 512) (a17 : Arr2 256 768) (a18 : Arr1 256)
    (hpre4 : ∀ T, (∀ i, IsReal (T i)) → ∀ j, IsReal (pre4 T j)) (hpre3 : ∀ T, (∀ i, IsReal (T i)) → ∀ j, IsReal (pre3 T j))
    (h3 : ∀ i, IsReal (a3 i)) (h7 : ∀ i, IsReal (a7 i)) (h8 : ∀ i, IsReal (a8 i)) (h9 : ∀ i, IsReal (a9 i))
    (h10 : ∀ i, IsReal (a10 i)) (h11 : ∀ i, IsReal (a11 i)) (h12 : ∀ i, IsReal (a12 i)) (h13 : ∀ i, IsReal (a13 i))
    (h14 : ∀ i, IsReal (a14 i)) (h15 : ∀ i, IsReal (a15 i)) (h16 : ∀ i, IsReal (a16 i)) :
    netK pre4 pre3 pre2 a3 a7 a8 a9 a10 a11 a12 a13 a14 a15 a16 a17 a18
      = netR pre4 pre3 pre2 a3 a7 a8 a9 a10 a11 a12 a13 a14 a15 a16 a17 a18 := by
  have hL4 : ∀ i, IsReal (pre4 (linA a3 a7 a8) i) := hpre4 _ (linA_real a3 a7 a8 h3 h7 h8)
  have e4 := stage4_eq _ a9 a10 a11 a12 hL4 h9 h10 h11 h12
  have r4 := stage4_real _ a9 a10 a11 a12 hL4 h9 h10 h11 h12
  have hL3 : ∀ i, IsReal (pre3 (stageK cCnt4 ch4 gOf4 (pre4 (linA a3 a7 a8)) a9 a10 a11 a12) i) := hpre3 _ r4
  have e3 := stage3_eq _ a13 a14 a15 a16 hL3 h13 h14 h15 h16
  unfold netK netR
  rw [e3, e4]

end Cert.Spec

end
-- ==== Proof.Finite.lean ====
/-
  Finiteness of the inputs. The precondition says that the conjunction, over the sixteen float arguments, of
  all(|x| < +∞)  is 1. A conjunction of one-bit words that is 1 has every conjunct 1; a conjunction over all
  indices of an array that is 1 has the compared fact at every index; the scalar the absolute values are compared
  with is +∞; and an extended real whose absolute value  max x (−x)  lies strictly below +∞ is neither +∞ nor −∞,
  hence a real number.
-/
import proofs.«119478_j39633958207498_1_alg».proof.Defs
import proofs.«119478_j39633958207498_1_alg».proof.Proof.Gen.Pre_finite_inputs
import proofs.«119478_j39633958207498_1_alg».proof.Proof.Spec
import Idealize.ShloMosaic.Lib.ReduceAll
import Idealize.ShloMosaic.Lib.ValueIdx
import Idealize.ShloMosaic.PureOps.Ideal

noncomputable section

namespace Cert.Proof.Finite

open Idealize.ShloMosaic Idealize.ShloMosaic.ValueIdx Idealize.SL.Sem
open Cert.Spec

/-- The rank-0 shape has one index. -/
instance : Subsingleton (⟨0, ![]⟩ : Shape).Idx := ⟨fun a b => funext fun d => d.elim0⟩

/-- An extended real whose absolute value lies strictly below +∞ is a real number. -/
theorem isReal_of_abs_lt_top (x : EReal) (h : max x (-x) < ⊤) : IsReal x := by
  induction x using EReal.rec with
  | bot => simp at h
  | coe r => exact ⟨r, rfl⟩
  | top => simp at h

/-- A truth value whose one-bit word is 1 is true. -/
theorem ofBool_eq_one {b : Bool} (h : BitVec.ofBool b = 1#1) : b = true := by
  cases b
  · exact absurd h (by decide)
  · rfl

/-- The f32 word with all exponent bits set and no fraction bit denotes +∞. -/
theorem inf_word : Ideal.ofBits .f32 0x7F800000#32 = (⊤ : EReal) := by
  simp [Ideal.ofBits, Ideal.ieee]

/-- An array for which  all(|x| < +∞)  came out 1 has real entries: the conjunction over all indices gives the
    comparison at each index, the broadcast scalar is +∞, and only a real number has its absolute value below +∞. -/
theorem real_of_all {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (h0 : 0 < (⟨0, ![]⟩ : Shape).numel)
    (e : Host.reduce IntOp.andi
          (cmpf .olt (Host.absf x) (broadcastInDim s ![] hb (constant (F := Ideal) (⟨0, ![]⟩ : Shape) .f32 0x7F800000#32)))
          (constantI (⟨0, ![]⟩ : Shape) 1 1#1) hr h0 ix0 = 1#1) :
    ∀ i, IsReal (x i) := by
  intro i
  have hi := Host.reduce_andi_all _ _ hr h0 ix0 e i
  apply isReal_of_abs_lt_top
  simp only [cmpf, Host.absf, broadcastInDim, constant, Ideal.ofBits_def, inf_word, Ideal.hostAbsf_def] at hi
  have hi' : BitVec.ofBool (decide (max (x i) (-x i) < (⊤ : EReal))) = 1#1 := hi
  exact of_decide_eq_true (ofBool_eq_one hi')

/-- Under the precondition every entry of every float argument is a real number: the printed predicate is the
    conjunction, argument by argument, of  all(|x| < +∞); a conjunction that is 1 has every conjunct 1, and each
    conjunct gives real entries by `real_of_all`. -/
theorem real_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal (m ((c.tc : Thread Cert.KernelIdeal.nD Cert.KernelIdeal.τ).loc Cert.KernelIdeal.main_arg0) i))
      ∧ (∀ i, IsReal (m ((c.tc : Thread Cert.KernelIdeal.nD Cert.KernelIdeal.τ).loc Cert.KernelIdeal.main_arg1) i))
      ∧ (∀ i, IsReal (m ((c.tc : Thread Cert.KernelIdeal.nD Cert.KernelIdeal.τ).loc Cert.KernelIdeal.main_arg2) i))
      ∧ (∀ i, IsReal (m ((c.tc : Thread Cert.KernelIdeal.nD Cert.KernelIdeal.τ).loc Cert.KernelIdeal.main_arg3) i))
      ∧ (∀ i, IsReal (m ((c.tc : Thread Cert.KernelIdeal.nD Cert.KernelIdeal.τ).loc Cert.KernelIdeal.main_arg7) i))
      ∧ (∀ i, IsReal (m ((c.tc : Thread Cert.KernelIdeal.nD Cert.KernelIdeal.τ).loc Cert.KernelIdeal.main_arg8) i))
      ∧ (∀ i, IsReal (m ((c.tc : Thread Cert.KernelIdeal.nD Cert.KernelIdeal.τ).loc Cert.KernelIdeal.main_arg9) i))
      ∧ (∀ i, IsReal (m ((c.tc : Thread Cert.KernelIdeal.nD Cert.KernelIdeal.τ).loc Cert.KernelIdeal.main_arg10) i))
      ∧ (∀ i, IsReal (m ((c.tc : Thread Cert.KernelIdeal.nD Cert.KernelIdeal.τ).loc Cert.KernelIdeal.main_arg11) i))
      ∧ (∀ i, IsReal (m ((c.tc : Thread Cert.KernelIdeal.nD Cert.KernelIdeal.τ).loc Cert.KernelIdeal.main_arg12) i))
      ∧ (∀ i, IsReal (m ((c.tc : Thread Cert.KernelIdeal.nD Cert.KernelIdeal.τ).loc Cert.KernelIdeal.main_arg13) i))
      ∧ (∀ i, IsReal (m ((c.tc : Thread Cert.KernelIdeal.nD Cert.KernelIdeal.τ).loc Cert.KernelIdeal.main_arg14) i))
      ∧ (∀ i, IsReal (m ((c.tc : Thread Cert.KernelIdeal.nD Cert.KernelIdeal.τ).loc Cert.KernelIdeal.main_arg15) i))
      ∧ (∀ i, IsReal (m ((c.tc : Thread Cert.KernelIdeal.nD Cert.KernelIdeal.τ).loc Cert.KernelIdeal.main_arg16) i))
      ∧ (∀ i, IsReal (m ((c.tc : Thread Cert.KernelIdeal.nD Cert.KernelIdeal.τ).loc Cert.KernelIdeal.main_arg17) i))
      ∧ (∀ i, IsReal (m ((c.tc : Thread Cert.KernelIdeal.nD Cert.KernelIdeal.τ).loc Cert.KernelIdeal.main_arg18) i)) := by
  have h' := congrFun (h c) ix0
  dsimp only [Cert.Pre_finite_inputs.fn, Cert.Pre_finite_inputs.fn_part1, Cert.Pre_finite_inputs.fn_part2,
    Cert.Pre_finite_inputs.fn_part3, Cert.Pre_finite_inputs.fn_part4, andi] at h'
  obtain ⟨h', e18⟩ := IntOp.andi_eq_one.1 h'
  obtain ⟨h', e17⟩ := IntOp.andi_eq_one.1 h'
  obtain ⟨h', e16⟩ := IntOp.andi_eq_one.1 h'
  obtain ⟨h', e15⟩ := IntOp.andi_eq_one.1 h'
  obtain ⟨h', e14⟩ := IntOp.andi_eq_one.1 h'
  obtain ⟨h', e13⟩ := IntOp.andi_eq_one.1 h'
  obtain ⟨h', e12⟩ := IntOp.andi_eq_one.1 h'
  obtain ⟨h', e11⟩ := IntOp.andi_eq_one.1 h'
  obtain ⟨h', e10⟩ := IntOp.andi_eq_one.1 h'
  obtain ⟨h', e9⟩ := IntOp.andi_eq_one.1 h'
  obtain ⟨h', e8⟩ := IntOp.andi_eq_one.1 h'
  obtain ⟨h', e7⟩ := IntOp.andi_eq_one.1 h'
  obtain ⟨h', e3⟩ := IntOp.andi_eq_one.1 h'
  obtain ⟨h', e2⟩ := IntOp.andi_eq_one.1 h'
  obtain ⟨e0, e1⟩ := IntOp.andi_eq_one.1 h'
  exact ⟨real_of_all _ _ _ _ e0,
    real_of_all _ _ _ _ e1,
    real_of_all _ _ _ _ e2,
    real_of_all _ _ _ _ e3,
    real_of_all _ _ _ _ e7,
    real_of_all _ _ _ _ e8,
    real_of_all _ _ _ _ e9,
    real_of_all _ _ _ _ e10,
    real_of_all _ _ _ _ e11,
    real_of_all _ _ _ _ e12,
    real_of_all _ _ _ _ e13,
    real_of_all _ _ _ _ e14,
    real_of_all _ _ _ _ e15,
    real_of_all _ _ _ _ e16,
    real_of_all _ _ _ _ e17,
    real_of_all _ _ _ _ e18⟩

end Cert.Proof.Finite

end
-- ==== Proof.Bridge.lean ====
/-
  The bridge between the two runs. Both programs gather the same rows and append the same columns, by the same host
  operations on the same arrays; the reference's result term is the decoder in the textbook arrangement of its two
  normalised layers, the kernel's last boundary holds the decoder in the folded arrangement, and on real data — which
  the precondition gives — the two arrangements are one function.
-/
import proofs.«119478_j39633958207498_1_alg».proof.Proof.KRun
import proofs.«119478_j39633958207498_1_alg».proof.Proof.KPre
import proofs.«119478_j39633958207498_1_alg».proof.Proof.KChain
import proofs.«119478_j39633958207498_1_alg».proof.Proof.RefResult
import proofs.«119478_j39633958207498_1_alg».proof.Proof.Law
import proofs.«119478_j39633958207498_1_alg».proof.Proof.Finite
import proofs.«119478_j39633958207498_1_alg».proof.Defs

noncomputable section

namespace Cert.Proof.Bridge

open Idealize.ShloMosaic Idealize.SL.Sem Cert.Spec

variable (m : (ℓ : Loc Cert.KernelIdeal.nD Cert.KernelIdeal.τ Cert.KernelIdeal.sig) → Buf (Elt Ideal) ℓ) (c : Dev Cert.KernelIdeal.nD)

/-- The two programs gather the same rows and append the same columns: the same operations on the same arrays. -/
theorem pre4_eq : Cert.ReferenceIdeal.Term.pre4 (m ((c.tc : Thread Cert.KernelIdeal.nD Cert.KernelIdeal.τ).loc Cert.KernelIdeal.main_arg2)) (m ((c.tc : Thread Cert.KernelIdeal.nD Cert.KernelIdeal.τ).loc Cert.KernelIdeal.main_arg6)) = Cert.KernelIdeal.Val.pre4 m c := rfl
theorem pre3_eq : Cert.ReferenceIdeal.Term.pre3 (m ((c.tc : Thread Cert.KernelIdeal.nD Cert.KernelIdeal.τ).loc Cert.KernelIdeal.main_arg1)) (m ((c.tc : Thread Cert.KernelIdeal.nD Cert.KernelIdeal.τ).loc Cert.KernelIdeal.main_arg5)) = Cert.KernelIdeal.Val.pre3 m c := rfl
theorem pre2_eq : Cert.ReferenceIdeal.Term.pre2 (m ((c.tc : Thread Cert.KernelIdeal.nD Cert.KernelIdeal.τ).loc Cert.KernelIdeal.main_arg0)) (m ((c.tc : Thread Cert.KernelIdeal.nD Cert.KernelIdeal.τ).loc Cert.KernelIdeal.main_arg4)) = Cert.KernelIdeal.Val.pre2 m c := rfl

/-- Under the precondition the reference's result term, at the kernel's argument arrays, is what the kernel's run
    leaves in its result buffer: the textbook arrangement equals the folded one on real data (`net_eq`), the reference
    reads as the former and the kernel's boundaries as the latter. -/
theorem result_bridge (ρ : Dev Cert.KernelIdeal.nD → PrngReg) (hpre : Cert.Pre_KernelIdeal m) :
    Cert.ReferenceIdeal.Term.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))
      = Cert.KernelIdeal.Gen.W12 m ρ c (Proc.devRef .tc Cert.KernelIdeal.main_v85) := by
  obtain ⟨h0, h1, h2, h3, h7, h8, h9, h10, h11, h12, h13, h14, h15, h16, h17, h18⟩ := Cert.Proof.Finite.real_of_pre m hpre c
  rw [Cert.ReferenceIdeal.Val.result_eq, pre4_eq m c, pre3_eq m c, pre2_eq m c]
  refine ((net_eq (Cert.KernelIdeal.Val.pre4 m c) (Cert.KernelIdeal.Val.pre3 m c) (Cert.KernelIdeal.Val.pre2 m c) _ _ _ _ _ _ _ _ _ _ _ _ _
    (fun T hT => pre_real _ _ _ T _ _ hT h2) (fun T hT => pre_real _ _ _ T _ _ hT h1)
    h3 h7 h8 h9 h10 h11 h12 h13 h14 h15 h16).symm).trans ?_
  exact (Cert.KernelIdeal.Val.out_eq m ρ c).symm

end Cert.Proof.Bridge

end
-- ==== Proof.lean ====
/-
  The certificate of the point-cloud decoder: four affine layers, two of them followed by a group normalisation and a
  leaky rectifier, with rows of each layer's result gathered by an index array and a feature block appended before
  the next layer. The kernel computes the affine layers and the rectified affine maps in six launches and the
  normalisation's statistics as column sums folded, on the host, into a per-channel scale and shift; the reference
  centres and divides. Over the extended reals, on finite inputs, both are one function: the variance as the mean of
  squared deviations is the mean of squares less the squared mean, and  (y − μ)/s·γ + β = y·(γ/s) + (β − μ·γ/s).
  The three frames are the two generated frame certificates and the reference's run with its result dropped.
-/
import proofs.«119478_j39633958207498_1_alg».proof.Defs
import proofs.«119478_j39633958207498_1_alg».proof.Proof.Gen.Kernel
import proofs.«119478_j39633958207498_1_alg».proof.Proof.Gen.Kernel.Frame
import proofs.«119478_j39633958207498_1_alg».proof.Proof.Gen.KernelIdeal
import proofs.«119478_j39633958207498_1_alg».proof.Proof.Gen.KernelIdeal.Frame
import proofs.«119478_j39633958207498_1_alg».proof.Proof.Gen.ReferenceIdeal
import proofs.«119478_j39633958207498_1_alg».proof.Proof.Gen.Pre_finite_inputs
import proofs.«119478_j39633958207498_1_alg».proof.Proof.KRun
import proofs.«119478_j39633958207498_1_alg».proof.Proof.RefRun
import proofs.«119478_j39633958207498_1_alg».proof.Proof.Bridge
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ _ => Cert.Kernel.Gen.frame m ρ
/-- The idealized kernel runs and leaves its arguments as launched. -/
theorem frame_ki : Cert.frame_KernelIdeal := fun m ρ _ => Cert.KernelIdeal.Gen.frame m ρ
/-- The idealized reference runs and leaves its arguments as launched: its run, the result dropped. -/
theorem frame_ri : Cert.frame_ReferenceIdeal := fun m ρ _ =>
  (θ_run Cert.ReferenceIdeal.defs _ _).mono (fun _ h c => (h c).2) (Cert.ReferenceIdeal.Val.run m ρ)

/-- From memories agreeing on the arguments both idealized programs run, end with their arguments unchanged, and
    their results are equal entry by entry: the kernel's result buffer holds the last boundary's contents, the
    reference's its result term, and the bridge identifies the two under the precondition. -/
theorem algebraic : Cert.algebraic_KernelIdeal_ReferenceIdeal := by
  intro m ρ m' ρ' hpre hagree
  refine ⟨fun c => Cert.KernelIdeal.Gen.W12 m ρ c (Proc.devRef .tc Cert.KernelIdeal.main_v85), Cert.KernelIdeal.Val.run_val (F := Ideal) m ρ, ?_⟩
  refine (θ_run Cert.ReferenceIdeal.defs _ _).mono (fun _ h c => ⟨(h c).1.trans ?_, (h c).2⟩) (Cert.ReferenceIdeal.Val.run m' ρ')
  obtain ⟨e0, e1, e2, e3, e4, e5, e6, e7, e8, e9, e10, e11, e12, e13, e14, e15, e16, e17, e18⟩ := hagree c
  rw [e0, e1, e2, e3, e4, e5, e6, e7, e8, e9, e10, e11, e12, e13, e14, e15, e16, e17, e18]
  exact Cert.Proof.Bridge.result_bridge m c ρ hpre

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
